-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x4 : Shape := ⟨2, ![60000, 4]⟩
abbrev S60000x64 : Shape := ⟨2, ![60000, 64]⟩
abbrev S60000x1 : Shape := ⟨2, ![60000, 1]⟩
abbrev S60000 : Shape := ⟨1, ![60000]⟩
abbrev S_ : Shape := ⟨0, ![]⟩

class Facts : Prop where
  slices_S60000x4_S60000x1_0_0 : S60000x4.Slices ![0, 0] S60000x1
  shapeCasts_S60000x1_S60000 : S60000x1.ShapeCasts S60000
  bcast_S_S60000 : S_.BroadcastsInDim S60000 (![] : Fin 0 → Fin S60000.rank)
  slices_S60000x4_S60000x1_0_2 : S60000x4.Slices ![0, 2] S60000x1
  slices_S60000x4_S60000x1_0_3 : S60000x4.Slices ![0, 3] S60000x1
  bcast_S_S60000x64 : S_.BroadcastsInDim S60000x64 (![] : Fin 0 → Fin S60000x64.rank)
  reducesTo_S60000x64_S_d0_1 : S60000x64.ReducesTo [0, 1] S_
  h_S_ : 0 < S_.numel
  reducesTo_S60000_S_d0 : S60000.ReducesTo [0] S_

variable [Facts]

def fn_part1 {F : FTy → Type} [FloatOps F] (main_v11 : IVec S60000 32) (main_v15 : IVec S_ 1) (main_v17 : IVec S60000 1) (main_c_3 : IVec S_ 32) : IVec S_ 1 :=
  let main_v18 : IVec S60000 32 := broadcastInDim S60000 ![] bcast_S_S60000 main_c_3
  let main_v19 : IVec S60000 1 := cmpi .slt main_v11 main_v18
  let main_v20 : IVec S60000 1 := andi main_v17 main_v19
  let main_c_4 : IVec S_ 1 := constantI S_ 1 1#1
  let main_v21 : IVec S_ 1 := (fun x v => Host.reduce IntOp.andi x v reducesTo_S60000_S_d0 h_S_) main_v20 main_c_4
  let main_v22 : IVec S_ 1 := andi main_v15 main_v21
  main_v22

def fn {F : FTy → Type} [FloatOps F] (main_arg0 : IVec S60000x4 32) (main_arg1 : FVec F S60000x64 .f32) : IVec S_ 1 :=
  let main_v0 : IVec S60000x1 32 := (extractStridedSlice S60000x1 ![0, 0] · slices_S60000x4_S60000x1_0_0) main_arg0
  let main_v1 : IVec S60000 32 := shapeCast S60000 main_v0 shapeCasts_S60000x1_S60000
  let main_c : IVec S_ 32 := constantI S_ 32 140800#32
  let main_v2 : IVec S60000 32 := broadcastInDim S60000 ![] bcast_S_S60000 main_c
  let main_v3 : IVec S60000 32 := muli main_v1 main_v2
  let main_v4 : IVec S60000x1 32 := (extractStridedSlice S60000x1 ![0, 2] · slices_S60000x4_S60000x1_0_2) main_arg0
  let main_v5 : IVec S60000 32 := shapeCast S60000 main_v4 shapeCasts_S60000x1_S60000
  let main_c_0 : IVec S_ 32 := constantI S_ 32 704#32
  let main_v6 : IVec S60000 32 := broadcastInDim S60000 ![] bcast_S_S60000 main_c_0
  let main_v7 : IVec S60000 32 := muli main_v5 main_v6
  let main_v8 : IVec S60000 32 := addi main_v3 main_v7
  let main_v9 : IVec S60000x1 32 := (extractStridedSlice S60000x1 ![0, 3] · slices_S60000x4_S60000x1_0_3) main_arg0
  let main_v10 : IVec S60000 32 := shapeCast S60000 main_v9 shapeCasts_S60000x1_S60000
  let main_v11 : IVec S60000 32 := addi main_v8 main_v10
  let main_v12 : FVec F S60000x64 .f32 := Host.absf main_arg1
  let main_cst : FVec F S_ .f32 := constant S_ .f32 0x7F800000#32
  let main_v13 : FVec F S60000x64 .f32 := broadcastInDim S60000x64 ![] bcast_S_S60000x64 main_cst
  let main_v14 : IVec S60000x64 1 := cmpf .olt main_v12 main_v13
  let main_c_1 : IVec S_ 1 := constantI S_ 1 1#1
  let main_v15 : IVec S_ 1 := (fun x v => Host.reduce IntOp.andi x v reducesTo_S60000x64_S_d0_1 h_S_) main_v14 main_c_1
  let main_c_2 : IVec S_ 32 := constantI S_ 32 0#32
  let main_v16 : IVec S60000 32 := broadcastInDim S60000 ![] bcast_S_S60000 main_c_2
  let main_v17 : IVec S60000 1 := cmpi .sge main_v11 main_v16
  let main_c_3 : IVec S_ 32 := constantI S_ 32 704000#32
  fn_part1 (F := F) main_v11 main_v15 main_v17 main_c_3
-- ==== Kernel.lean ====
abbrev S60000x4 : Shape := ⟨2, ![60000, 4]⟩
abbrev S60000x64 : Shape := ⟨2, ![60000, 64]⟩
abbrev S60000x1 : Shape := ⟨2, ![60000, 1]⟩
abbrev S60000 : Shape := ⟨1, ![60000]⟩
abbrev S_ : Shape := ⟨0, ![]⟩
abbrev S60000x128 : Shape := ⟨2, ![60000, 128]⟩
abbrev S704000x1x128 : Shape := ⟨3, ![704000, 1, 128]⟩
abbrev S7040x1x128 : Shape := ⟨3, ![7040, 1, 128]⟩
abbrev S200x128 : Shape := ⟨2, ![200, 128]⟩
abbrev S1x128 : Shape := ⟨2, ![1, 128]⟩
abbrev S1 : Shape := ⟨1, ![1]⟩
abbrev S128 : Shape := ⟨1, ![128]⟩
abbrev S1x1x128 : Shape := ⟨3, ![1, 1, 128]⟩
abbrev S5x200x704x128 : Shape := ⟨4, ![5, 200, 704, 128]⟩
abbrev S5x64x200x704 : Shape := ⟨4, ![5, 64, 200, 704]⟩
abbrev S1x8x704x128 : Shape := ⟨4, ![1, 8, 704, 128]⟩
abbrev S1x64x8x704 : Shape := ⟨4, ![1, 64, 8, 704]⟩
abbrev S8x704x128 : Shape := ⟨3, ![8, 704, 128]⟩
abbrev S8x704x64 : Shape := ⟨3, ![8, 704, 64]⟩
abbrev S64x8x704 : Shape := ⟨3, ![64, 8, 704]⟩

abbrev nBuf : Space → Nat
  | .hbm => 22
  | .vmem => 9
  | .smem => 1
  | _ => 0

abbrev bufTy : (tb : Table) → Fin (tcTables nBuf tb) → BufTy
  | .hbm, ⟨0, _⟩ => ⟨S60000x4, .i32⟩
  | .hbm, ⟨1, _⟩ => ⟨S60000x64, .f32⟩
  | .hbm, ⟨2, _⟩ => ⟨S60000x1, .i32⟩
  | .hbm, ⟨3, _⟩ => ⟨S60000, .i32⟩
  | .hbm, ⟨4, _⟩ => ⟨S_, .i32⟩
  | .hbm, ⟨5, _⟩ => ⟨S60000, .i32⟩
  | .hbm, ⟨6, _⟩ => ⟨S60000, .i32⟩
  | .hbm, ⟨7, _⟩ => ⟨S60000x1, .i32⟩
  | .hbm, ⟨8, _⟩ => ⟨S60000, .i32⟩
  | .hbm, ⟨9, _⟩ => ⟨S_, .i32⟩
  | .hbm, ⟨10, _⟩ => ⟨S60000, .i32⟩
  | .hbm, ⟨11, _⟩ => ⟨S60000, .i32⟩
  | .hbm, ⟨12, _⟩ => ⟨S60000, .i32⟩
  | .hbm, ⟨13, _⟩ => ⟨S60000x1, .i32⟩
  | .hbm, ⟨14, _⟩ => ⟨S60000, .i32⟩
  | .hbm, ⟨15, _⟩ => ⟨S_, .i32⟩
  | .hbm, ⟨16, _⟩ => ⟨S_, .f32⟩
  | .hbm, ⟨17, _⟩ => ⟨S60000x128, .f32⟩
  | .hbm, ⟨18, _⟩ => ⟨S704000x1x128, .f32⟩
  | .hbm, ⟨19, _⟩ => ⟨S704000x1x128, .f32⟩
  | .hbm, ⟨20, _⟩ => ⟨S5x200x704x128, .f32⟩
  | .hbm, ⟨21, _⟩ => ⟨S5x64x200x704, .f32⟩
  | .local _ .vmem, ⟨0, _⟩ => ⟨S7040x1x128, .f32⟩
  | .local _ .vmem, ⟨1, _⟩ => ⟨S7040x1x128, .f32⟩
  | .local _ .vmem, ⟨2, _⟩ => ⟨S200x128, .f32⟩
  | .local _ .vmem, ⟨3, _⟩ => ⟨S200x128, .f32⟩
  | .local _ .vmem, ⟨4, _⟩ => ⟨S1x128, .f32⟩
  | .local _ .vmem, ⟨5, _⟩ => ⟨S1x8x704x128, .f32⟩
  | .local _ .vmem, ⟨6, _⟩ => ⟨S1x8x704x128, .f32⟩
  | .local _ .vmem, ⟨7, _⟩ => ⟨S1x64x8x704, .f32⟩
  | .local _ .vmem, ⟨8, _⟩ => ⟨S1x64x8x704, .f32⟩
  | .local _ .smem, ⟨0, _⟩ => ⟨S60000, .i32⟩
  | _, _ => ⟨S60000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_scratch0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc0_sem0_0 : DmaSem sig := 0
abbrev cc0_sem0_1 : DmaSem sig := 1
abbrev cc1_sem0_0 : DmaSem sig := 2
abbrev cc1_sem0_1 : DmaSem sig := 3
abbrev cc2_sem0_0 : DmaSem sig := 5
abbrev cc2_sem0_1 : DmaSem sig := 6
abbrev cc2_sem1_0 : DmaSem sig := 7
abbrev cc2_sem1_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7040x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![300], ![false]⟩

abbrev pre1 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c200_i32 : BitVec 32 := 200#32
  let v0 : BitVec 32 := Scalar.muli arg0 c200_i32
  let c0_i32 : BitVec 32 := 0#32
  let v1 : BitVec 32 := Scalar.addi v0 c0_i32
  let v2 : Index := Scalar.indexCast v1
  ![v2.toNat]
def k1_off2 (v3 : BitVec 32) : Fin 3 → Nat :=
  let c0_i32_3 : BitVec 32 := 0#32
  let c0_i32_4 : BitVec 32 := 0#32
  ![v3.toNat, 0, 0]

def k1_chk1 (v3 : BitVec 32) : Prop :=
  (∀ a, (k1_off2 v3) a + S1x1x128.size a ≤ S704000x1x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x1x128.size a ≤ S704000x1x128.size a := fun v3 k1_hw1 => k1_hw1

def k1_off3 (i : grid1.Coords) : Fin 1 → Nat :=
  let arg0 : BitVec 32 := BitVec.ofNat 32 (i 0).val
  let c200_i32_7 : BitVec 32 := 200#32
  let v13 : BitVec 32 := Scalar.muli arg0 c200_i32_7
  let c1_i32 : BitVec 32 := 1#32
  let v14 : BitVec 32 := Scalar.addi v13 c1_i32
  let v15 : Index := Scalar.indexCast v14
  ![v15.toNat]
def k1_off4 (v16 : BitVec 32) : Fin 3 → Nat :=
  let c0_i32_11 : BitVec 32 := 0#32
  let c0_i32_12 : BitVec 32 := 0#32
  ![v16.toNat, 0, 0]

def k1_chk2 (v16 : BitVec 32) : Prop :=
  (∀ a, (k1_off4 v16) a + S1x1x128.size a ≤ S704000x1x128.size a)
instance k1_chk2.dec : ∀ (v16 : BitVec 32), Decidable (k1_chk2 v16) := fun v16 => decidable_of_iff' _ (Iff.of_eq (k1_chk2.eq_1 v16))
theorem k1_off4_inb : ∀ (v16 : BitVec 32) (k1_hw2 : k1_chk2 v16), ∀ a, (k1_off4 v16) a + S1x1x128.size a ≤ S704000x1x128.size a := fun v16 k1_hw2 => k1_hw2

def k1_off5 (i : grid1.Coords) : Fin 1 → Nat :=
  let arg0 : BitVec 32 := BitVec.ofNat 32 (i 0).val
  let c200_i32_15 : BitVec 32 := 200#32
  let v26 : BitVec 32 := Scalar.muli arg0 c200_i32_15
  let c2_i32 : BitVec 32 := 2#32
  let v27 : BitVec 32 := Scalar.addi v26 c2_i32
  let v28 : Index := Scalar.indexCast v27
  ![v28.toNat]
def k1_off6 (v29 : BitVec 32) : Fin 3 → Nat :=
  let c0_i32_19 : BitVec 32 := 0#32
  let c0_i32_20 : BitVec 32 := 0#32
  ![v29.toNat, 0, 0]

def k1_chk3 (v29 : BitVec 32) : Prop :=
  (∀ a, (k1_off6 v29) a + S1x1x128.size a ≤ S704000x1x128.size a)
instance k1_chk3.dec : ∀ (v29 : BitVec 32), Decidable (k1_chk3 v29) := fun v29 => decidable_of_iff' _ (Iff.of_eq (k1_chk3.eq_1 v29))
theorem k1_off6_inb : ∀ (v29 : BitVec 32) (k1_hw3 : k1_chk3 v29), ∀ a, (k1_off6 v29) a + S1x1x128.size a ≤ S704000x1x128.size a := fun v29 k1_hw3 => k1_hw3

def k1_off7 (i : grid1.Coords) : Fin 1 → Nat :=
  let arg0 : BitVec 32 := BitVec.ofNat 32 (i 0).val
  let c200_i32_23 : BitVec 32 := 200#32
  let v39 : BitVec 32 := Scalar.muli arg0 c200_i32_23
  let c3_i32 : BitVec 32 := 3#32
  let v40 : BitVec 32 := Scalar.addi v39 c3_i32
  let v41 : Index := Scalar.indexCast v40
  ![v41.toNat]
def k1_off8 (v42 : BitVec 32) : Fin 3 → Nat :=
  let c0_i32_27 : BitVec 32 := 0#32
  let c0_i32_28 : BitVec 32 := 0#32
  ![v42.toNat, 0, 0]

def k1_chk4 (v42 : BitVec 32) : Prop :=
  (∀ a, (k1_off8 v42) a + S1x1x128.size a ≤ S704000x1x128.size a)
instance k1_chk4.dec : ∀ (v42 : BitVec 32), Decidable (k1_chk4 v42) := fun v42 => decidable_of_iff' _ (Iff.of_eq (k1_chk4.eq_1 v42))
theorem k1_off8_inb : ∀ (v42 : BitVec 32) (k1_hw4 : k1_chk4 v42), ∀ a, (k1_off8 v42) a + S1x1x128.size a ≤ S704000x1x128.size a := fun v42 k1_hw4 => k1_hw4

def k1_off9 (i : grid1.Coords) : Fin 1 → Nat :=
  let arg0 : BitVec 32 := BitVec.ofNat 32 (i 0).val
  let c200_i32_31 : BitVec 32 := 200#32
  let v52 : BitVec 32 := Scalar.muli arg0 c200_i32_31
  let c4_i32 : BitVec 32 := 4#32
  let v53 : BitVec 32 := Scalar.addi v52 c4_i32
  let v54 : Index := Scalar.indexCast v53
  ![v54.toNat]
def k1_off10 (v55 : BitVec 32) : Fin 3 → Nat :=
  let c0_i32_35 : BitVec 32 := 0#32
  let c0_i32_36 : BitVec 32 := 0#32
  ![v55.toNat, 0, 0]

def k1_chk5 (v55 : BitVec 32) : Prop :=
  (∀ a, (k1_off10 v55) a + S1x1x128.size a ≤ S704000x1x128.size a)
instance k1_chk5.dec : ∀ (v55 : BitVec 32), Decidable (k1_chk5 v55) := fun v55 => decidable_of_iff' _ (Iff.of_eq (k1_chk5.eq_1 v55))
theorem k1_off10_inb : ∀ (v55 : BitVec 32) (k1_hw5 : k1_chk5 v55), ∀ a, (k1_off10 v55) a + S1x1x128.size a ≤ S704000x1x128.size a := fun v55 k1_hw5 => k1_hw5

def k1_off11 (i : grid1.Coords) : Fin 1 → Nat :=
  let arg0 : BitVec 32 := BitVec.ofNat 32 (i 0).val
  let c200_i32_39 : BitVec 32 := 200#32
  let v65 : BitVec 32 := Scalar.muli arg0 c200_i32_39
  let c5_i32 : BitVec 32 := 5#32
  let v66 : BitVec 32 := Scalar.addi v65 c5_i32
  let v67 : Index := Scalar.indexCast v66
  ![v67.toNat]
def k1_off12 (v68 : BitVec 32) : Fin 3 → Nat :=
  let c0_i32_43 : BitVec 32 := 0#32
  let c0_i32_44 : BitVec 32 := 0#32
  ![v68.toNat, 0, 0]

def k1_chk6 (v68 : BitVec 32) : Prop :=
  (∀ a, (k1_off12 v68) a + S1x1x128.size a ≤ S704000x1x128.size a)
instance k1_chk6.dec : ∀ (v68 : BitVec 32), Decidable (k1_chk6 v68) := fun v68 => decidable_of_iff' _ (Iff.of_eq (k1_chk6.eq_1 v68))
theorem k1_off12_inb : ∀ (v68 : BitVec 32) (k1_hw6 : k1_chk6 v68), ∀ a, (k1_off12 v68) a + S1x1x128.size a ≤ S704000x1x128.size a := fun v68 k1_hw6 => k1_hw6

def k1_off13 (i : grid1.Coords) : Fin 1 → Nat :=
  let arg0 : BitVec 32 := BitVec.ofNat 32 (i 0).val
  let c200_i32_47 : BitVec 32 := 200#32
  let v78 : BitVec 32 := Scalar.muli arg0 c200_i32_47
  let c6_i32 : BitVec 32 := 6#32
  let v79 : BitVec 32 := Scalar.addi v78 c6_i32
  let v80 : Index := Scalar.indexCast v79
  ![v80.toNat]
def k1_off14 (v81 : BitVec 32) : Fin 3 → Nat :=
  let c0_i32_51 : BitVec 32 := 0#32
  let c0_i32_52 : BitVec 32 := 0#32
  ![v81.toNat, 0, 0]

def k1_chk7 (v81 : BitVec 32) : Prop :=
  (∀ a, (k1_off14 v81) a + S1x1x128.size a ≤ S704000x1x128.size a)
instance k1_chk7.dec : ∀ (v81 : BitVec 32), Decidable (k1_chk7 v81) := fun v81 => decidable_of_iff' _ (Iff.of_eq (k1_chk7.eq_1 v81))
theorem k1_off14_inb : ∀ (v81 : BitVec 32) (k1_hw7 : k1_chk7 v81), ∀ a, (k1_off14 v81) a + S1x1x128.size a ≤ S704000x1x128.size a := fun v81 k1_hw7 => k1_hw7

def k1_off15 (i : grid1.Coords) : Fin 1 → Nat :=
  let arg0 : BitVec 32 := BitVec.ofNat 32 (i 0).val
  let c200_i32_55 : BitVec 32 := 200#32
  let v91 : BitVec 32 := Scalar.muli arg0 c200_i32_55
  let c7_i32 : BitVec 32 := 7#32
  let v92 : BitVec 32 := Scalar.addi v91 c7_i32
  let v93 : Index := Scalar.indexCast v92
  ![v93.toNat]
def k1_off16 (v94 : BitVec 32) : Fin 3 → Nat :=
  let c0_i32_59 : BitVec 32 := 0#32
  let c0_i32_60 : BitVec 32 := 0#32
  ![v94.toNat, 0, 0]

def k1_chk8 (v94 : BitVec 32) : Prop :=
  (∀ a, (k1_off16 v94) a + S1x1x128.size a ≤ S704000x1x128.size a)
instance k1_chk8.dec : ∀ (v94 : BitVec 32), Decidable (k1_chk8 v94) := fun v94 => decidable_of_iff' _ (Iff.of_eq (k1_chk8.eq_1 v94))
theorem k1_off16_inb : ∀ (v94 : BitVec 32) (k1_hw8 : k1_chk8 v94), ∀ a, (k1_off16 v94) a + S1x1x128.size a ≤ S704000x1x128.size a := fun v94 k1_hw8 => k1_hw8

def k1_off17 (i : grid1.Coords) : Fin 1 → Nat :=
  let arg0 : BitVec 32 := BitVec.ofNat 32 (i 0).val
  let c200_i32_63 : BitVec 32 := 200#32
  let v104 : BitVec 32 := Scalar.muli arg0 c200_i32_63
  let c8_i32 : BitVec 32 := 8#32
  let v105 : BitVec 32 := Scalar.addi v104 c8_i32
  let v106 : Index := Scalar.indexCast v105
  ![v106.toNat]
def k1_off18 (v107 : BitVec 32) : Fin 3 → Nat :=
  let c0_i32_67 : BitVec 32 := 0#32
  let c0_i32_68 : BitVec 32 := 0#32
  ![v107.toNat, 0, 0]

def k1_chk9 (v107 : BitVec 32) : Prop :=
  (∀ a, (k1_off18 v107) a + S1x1x128.size a ≤ S704000x1x128.size a)
instance k1_chk9.dec : ∀ (v107 : BitVec 32), Decidable (k1_chk9 v107) := fun v107 => decidable_of_iff' _ (Iff.of_eq (k1_chk9.eq_1 v107))
theorem k1_off18_inb : ∀ (v107 : BitVec 32) (k1_hw9 : k1_chk9 v107), ∀ a, (k1_off18 v107) a + S1x1x128.size a ≤ S704000x1x128.size a := fun v107 k1_hw9 => k1_hw9

def k1_off19 (i : grid1.Coords) : Fin 1 → Nat :=
  let arg0 : BitVec 32 := BitVec.ofNat 32 (i 0).val
  let c200_i32_71 : BitVec 32 := 200#32
  let v117 : BitVec 32 := Scalar.muli arg0 c200_i32_71
  let c9_i32 : BitVec 32 := 9#32
  let v118 : BitVec 32 := Scalar.addi v117 c9_i32
  let v119 : Index := Scalar.indexCast v118
  ![v119.toNat]
def k1_off20 (v120 : BitVec 32) : Fin 3 → Nat :=
  let c0_i32_75 : BitVec 32 := 0#32
  let c0_i32_76 : BitVec 32 := 0#32
  ![v120.toNat, 0, 0]

def k1_chk10 (v120 : BitVec 32) : Prop :=
  (∀ a, (k1_off20 v120) a + S1x1x128.size a ≤ S704000x1x128.size a)
instance k1_chk10.dec : ∀ (v120 : BitVec 32), Decidable (k1_chk10 v120) := fun v120 => decidable_of_iff' _ (Iff.of_eq (k1_chk10.eq_1 v120))
theorem k1_off20_inb : ∀ (v120 : BitVec 32) (k1_hw10 : k1_chk10 v120), ∀ a, (k1_off20 v120) a + S1x1x128.size a ≤ S704000x1x128.size a := fun v120 k1_hw10 => k1_hw10

def k1_off21 (i : grid1.Coords) : Fin 1 → Nat :=
  let arg0 : BitVec 32 := BitVec.ofNat 32 (i 0).val
  let c200_i32_79 : BitVec 32 := 200#32
  let v130 : BitVec 32 := Scalar.muli arg0 c200_i32_79
  let c10_i32 : BitVec 32 := 10#32
  let v131 : BitVec 32 := Scalar.addi v130 c10_i32
  let v132 : Index := Scalar.indexCast v131
  ![v132.toNat]
def k1_off22 (v133 : BitVec 32) : Fin 3 → Nat :=
  let c0_i32_83 : BitVec 32 := 0#32
  let c0_i32_84 : BitVec 32 := 0#32
  ![v133.toNat, 0, 0]

def k1_chk11 (v133 : BitVec 32) : Prop :=
  (∀ a, (k1_off22 v133) a + S1x1x128.size a ≤ S704000x1x128.size a)
instance k1_chk11.dec : ∀ (v133 : BitVec 32), Decidable (k1_chk11 v133) := fun v133 => decidable_of_iff' _ (Iff.of_eq (k1_chk11.eq_1 v133))
theorem k1_off22_inb : ∀ (v133 : BitVec 32) (k1_hw11 : k1_chk11 v133), ∀ a, (k1_off22 v133) a + S1x1x128.size a ≤ S704000x1x128.size a := fun v133 k1_hw11 => k1_hw11

def k1_off23 (i : grid1.Coords) : Fin 1 → Nat :=
  let arg0 : BitVec 32 := BitVec.ofNat 32 (i 0).val
  let c200_i32_87 : BitVec 32 := 200#32
  let v143 : BitVec 32 := Scalar.muli arg0 c200_i32_87
  let c11_i32 : BitVec 32 := 11#32
  let v144 : BitVec 32 := Scalar.addi v143 c11_i32
  let v145 : Index := Scalar.indexCast v144
  ![v145.toNat]
def k1_off24 (v146 : BitVec 32) : Fin 3 → Nat :=
  let c0_i32_91 : BitVec 32 := 0#32
  let c0_i32_92 : BitVec 32 := 0#32
  ![v146.toNat, 0, 0]

def k1_chk12 (v146 : BitVec 32) : Prop :=
  (∀ a, (k1_off24 v146) a + S1x1x128.size a ≤ S704000x1x128.size a)
instance k1_chk12.dec : ∀ (v146 : BitVec 32), Decidable (k1_chk12 v146) := fun v146 => decidable_of_iff' _ (Iff.of_eq (k1_chk12.eq_1 v146))
theorem k1_off24_inb : ∀ (v146 : BitVec 32) (k1_hw12 : k1_chk12 v146), ∀ a, (k1_off24 v146) a + S1x1x128.size a ≤ S704000x1x128.size a := fun v146 k1_hw12 => k1_hw12

def k1_off25 (i : grid1.Coords) : Fin 1 → Nat :=
  let arg0 : BitVec 32 := BitVec.ofNat 32 (i 0).val
  let c200_i32_95 : BitVec 32 := 200#32
  let v156 : BitVec 32 := Scalar.muli arg0 c200_i32_95
  let c12_i32 : BitVec 32 := 12#32
  let v157 : BitVec 32 := Scalar.addi v156 c12_i32
  let v158 : Index := Scalar.indexCast v157
  ![v158.toNat]
def k1_off26 (v159 : BitVec 32) : Fin 3 → Nat :=
  let c0_i32_99 : BitVec 32 := 0#32
  let c0_i32_100 : BitVec 32 := 0#32
  ![v159.toNat, 0, 0]

def k1_chk13 (v159 : BitVec 32) : Prop :=
  (∀ a, (k1_off26 v159) a + S1x1x128.size a ≤ S704000x1x128.size a)
instance k1_chk13.dec : ∀ (v159 : BitVec 32), Decidable (k1_chk13 v159) := fun v159 => decidable_of_iff' _ (Iff.of_eq (k1_chk13.eq_1 v159))
theorem k1_off26_inb : ∀ (v159 : BitVec 32) (k1_hw13 : k1_chk13 v159), ∀ a, (k1_off26 v159) a + S1x1x128.size a ≤ S704000x1x128.size a := fun v159 k1_hw13 => k1_hw13

def k1_off27 (i : grid1.Coords) : Fin 1 → Nat :=
  let arg0 : BitVec 32 := BitVec.ofNat 32 (i 0).val
  let c200_i32_103 : BitVec 32 := 200#32
  let v169 : BitVec 32 := Scalar.muli arg0 c200_i32_103
  let c13_i32 : BitVec 32 := 13#32
  let v170 : BitVec 32 := Scalar.addi v169 c13_i32
  let v171 : Index := Scalar.indexCast v170
  ![v171.toNat]
def k1_off28 (v172 : BitVec 32) : Fin 3 → Nat :=
  let c0_i32_107 : BitVec 32 := 0#32
  let c0_i32_108 : BitVec 32 := 0#32
  ![v172.toNat, 0, 0]

def k1_chk14 (v172 : BitVec 32) : Prop :=
  (∀ a, (k1_off28 v172) a + S1x1x128.size a ≤ S704000x1x128.size a)
instance k1_chk14.dec : ∀ (v172 : BitVec 32), Decidable (k1_chk14 v172) := fun v172 => decidable_of_iff' _ (Iff.of_eq (k1_chk14.eq_1 v172))
theorem k1_off28_inb : ∀ (v172 : BitVec 32) (k1_hw14 : k1_chk14 v172), ∀ a, (k1_off28 v172) a + S1x1x128.size a ≤ S704000x1x128.size a := fun v172 k1_hw14 => k1_hw14

def k1_off29 (i : grid1.Coords) : Fin 1 → Nat :=
  let arg0 : BitVec 32 := BitVec.ofNat 32 (i 0).val
  let c200_i32_111 : BitVec 32 := 200#32
  let v182 : BitVec 32 := Scalar.muli arg0 c200_i32_111
  let c14_i32 : BitVec 32 := 14#32
  let v183 : BitVec 32 := Scalar.addi v182 c14_i32
  let v184 : Index := Scalar.indexCast v183
  ![v184.toNat]
def k1_off30 (v185 : BitVec 32) : Fin 3 → Nat :=
  let c0_i32_115 : BitVec 32 := 0#32
  let c0_i32_116 : BitVec 32 := 0#32
  ![v185.toNat, 0, 0]

def k1_chk15 (v185 : BitVec 32) : Prop :=
  (∀ a, (k1_off30 v185) a + S1x1x128.size a ≤ S704000x1x128.size a)
instance k1_chk15.dec : ∀ (v185 : BitVec 32), Decidable (k1_chk15 v185) := fun v185 => decidable_of_iff' _ (Iff.of_eq (k1_chk15.eq_1 v185))
theorem k1_off30_inb : ∀ (v185 : BitVec 32) (k1_hw15 : k1_chk15 v185), ∀ a, (k1_off30 v185) a + S1x1x128.size a ≤ S704000x1x128.size a := fun v185 k1_hw15 => k1_hw15

def k1_off31 (i : grid1.Coords) : Fin 1 → Nat :=
  let arg0 : BitVec 32 := BitVec.ofNat 32 (i 0).val
  let c200_i32_119 : BitVec 32 := 200#32
  let v195 : BitVec 32 := Scalar.muli arg0 c200_i32_119
  let c15_i32 : BitVec 32 := 15#32
  let v196 : BitVec 32 := Scalar.addi v195 c15_i32
  let v197 : Index := Scalar.indexCast v196
  ![v197.toNat]
def k1_off32 (v198 : BitVec 32) : Fin 3 → Nat :=
  let c0_i32_123 : BitVec 32 := 0#32
  let c0_i32_124 : BitVec 32 := 0#32
  ![v198.toNat, 0, 0]

def k1_chk16 (v198 : BitVec 32) : Prop :=
  (∀ a, (k1_off32 v198) a + S1x1x128.size a ≤ S704000x1x128.size a)
instance k1_chk16.dec : ∀ (v198 : BitVec 32), Decidable (k1_chk16 v198) := fun v198 => decidable_of_iff' _ (Iff.of_eq (k1_chk16.eq_1 v198))
theorem k1_off32_inb : ∀ (v198 : BitVec 32) (k1_hw16 : k1_chk16 v198), ∀ a, (k1_off32 v198) a + S1x1x128.size a ≤ S704000x1x128.size a := fun v198 k1_hw16 => k1_hw16

def k1_off33 (i : grid1.Coords) : Fin 1 → Nat :=
  let arg0 : BitVec 32 := BitVec.ofNat 32 (i 0).val
  let c200_i32_127 : BitVec 32 := 200#32
  let v208 : BitVec 32 := Scalar.muli arg0 c200_i32_127
  let c16_i32 : BitVec 32 := 16#32
  let v209 : BitVec 32 := Scalar.addi v208 c16_i32
  let v210 : Index := Scalar.indexCast v209
  ![v210.toNat]
def k1_off34 (v211 : BitVec 32) : Fin 3 → Nat :=
  let c0_i32_131 : BitVec 32 := 0#32
  let c0_i32_132 : BitVec 32 := 0#32
  ![v211.toNat, 0, 0]

def k1_chk17 (v211 : BitVec 32) : Prop :=
  (∀ a, (k1_off34 v211) a + S1x1x128.size a ≤ S704000x1x128.size a)
instance k1_chk17.dec : ∀ (v211 : BitVec 32), Decidable (k1_chk17 v211) := fun v211 => decidable_of_iff' _ (Iff.of_eq (k1_chk17.eq_1 v211))
theorem k1_off34_inb : ∀ (v211 : BitVec 32) (k1_hw17 : k1_chk17 v211), ∀ a, (k1_off34 v211) a + S1x1x128.size a ≤ S704000x1x128.size a := fun v211 k1_hw17 => k1_hw17

def k1_off35 (i : grid1.Coords) : Fin 1 → Nat :=
  let arg0 : BitVec 32 := BitVec.ofNat 32 (i 0).val
  let c200_i32_135 : BitVec 32 := 200#32
  let v221 : BitVec 32 := Scalar.muli arg0 c200_i32_135
  let c17_i32 : BitVec 32 := 17#32
  let v222 : BitVec 32 := Scalar.addi v221 c17_i32
  let v223 : Index := Scalar.indexCast v222
  ![v223.toNat]
def k1_off36 (v224 : BitVec 32) : Fin 3 → Nat :=
  let c0_i32_139 : BitVec 32 := 0#32
  let c0_i32_140 : BitVec 32 := 0#32
  ![v224.toNat, 0, 0]

def k1_chk18 (v224 : BitVec 32) : Prop :=
  (∀ a, (k1_off36 v224) a + S1x1x128.size a ≤ S704000x1x128.size a)
instance k1_chk18.dec : ∀ (v224 : BitVec 32), Decidable (k1_chk18 v224) := fun v224 => decidable_of_iff' _ (Iff.of_eq (k1_chk18.eq_1 v224))
theorem k1_off36_inb : ∀ (v224 : BitVec 32) (k1_hw18 : k1_chk18 v224), ∀ a, (k1_off36 v224) a + S1x1x128.size a ≤ S704000x1x128.size a := fun v224 k1_hw18 => k1_hw18

def k1_off37 (i : grid1.Coords) : Fin 1 → Nat :=
  let arg0 : BitVec 32 := BitVec.ofNat 32 (i 0).val
  let c200_i32_143 : BitVec 32 := 200#32
  let v234 : BitVec 32 := Scalar.muli arg0 c200_i32_143
  let c18_i32 : BitVec 32 := 18#32
  let v235 : BitVec 32 := Scalar.addi v234 c18_i32
  let v236 : Index := Scalar.indexCast v235
  ![v236.toNat]
def k1_off38 (v237 : BitVec 32) : Fin 3 → Nat :=
  let c0_i32_147 : BitVec 32 := 0#32
  let c0_i32_148 : BitVec 32 := 0#32
  ![v237.toNat, 0, 0]

def k1_chk19 (v237 : BitVec 32) : Prop :=
  (∀ a, (k1_off38 v237) a + S1x1x128.size a ≤ S704000x1x128.size a)
instance k1_chk19.dec : ∀ (v237 : BitVec 32), Decidable (k1_chk19 v237) := fun v237 => decidable_of_iff' _ (Iff.of_eq (k1_chk19.eq_1 v237))
theorem k1_off38_inb : ∀ (v237 : BitVec 32) (k1_hw19 : k1_chk19 v237), ∀ a, (k1_off38 v237) a + S1x1x128.size a ≤ S704000x1x128.size a := fun v237 k1_hw19 => k1_hw19

def k1_off39 (i : grid1.Coords) : Fin 1 → Nat :=
  let arg0 : BitVec 32 := BitVec.ofNat 32 (i 0).val
  let c200_i32_151 : BitVec 32 := 200#32
  let v247 : BitVec 32 := Scalar.muli arg0 c200_i32_151
  let c19_i32 : BitVec 32 := 19#32
  let v248 : BitVec 32 := Scalar.addi v247 c19_i32
  let v249 : Index := Scalar.indexCast v248
  ![v249.toNat]
def k1_off40 (v250 : BitVec 32) : Fin 3 → Nat :=
  let c0_i32_155 : BitVec 32 := 0#32
  let c0_i32_156 : BitVec 32 := 0#32
  ![v250.toNat, 0, 0]

def k1_chk20 (v250 : BitVec 32) : Prop :=
  (∀ a, (k1_off40 v250) a + S1x1x128.size a ≤ S704000x1x128.size a)
instance k1_chk20.dec : ∀ (v250 : BitVec 32), Decidable (k1_chk20 v250) := fun v250 => decidable_of_iff' _ (Iff.of_eq (k1_chk20.eq_1 v250))
theorem k1_off40_inb : ∀ (v250 : BitVec 32) (k1_hw20 : k1_chk20 v250), ∀ a, (k1_off40 v250) a + S1x1x128.size a ≤ S704000x1x128.size a := fun v250 k1_hw20 => k1_hw20

def k1_off41 (i : grid1.Coords) : Fin 1 → Nat :=
  let arg0 : BitVec 32 := BitVec.ofNat 32 (i 0).val
  let c200_i32_159 : BitVec 32 := 200#32
  let v260 : BitVec 32 := Scalar.muli arg0 c200_i32_159
  let c20_i32 : BitVec 32 := 20#32
  let v261 : BitVec 32 := Scalar.addi v260 c20_i32
  let v262 : Index := Scalar.indexCast v261
  ![v262.toNat]
def k1_off42 (v263 : BitVec 32) : Fin 3 → Nat :=
  let c0_i32_163 : BitVec 32 := 0#32
  let c0_i32_164 : BitVec 32 := 0#32
  ![v263.toNat, 0, 0]

def k1_chk21 (v263 : BitVec 32) : Prop :=
  (∀ a, (k1_off42 v263) a + S1x1x128.size a ≤ S704000x1x128.size a)
instance k1_chk21.dec : ∀ (v263 : BitVec 32), Decidable (k1_chk21 v263) := fun v263 => decidable_of_iff' _ (Iff.of_eq (k1_chk21.eq_1 v263))
theorem k1_off42_inb : ∀ (v263 : BitVec 32) (k1_hw21 : k1_chk21 v263), ∀ a, (k1_off42 v263) a + S1x1x128.size a ≤ S704000x1x128.size a := fun v263 k1_hw21 => k1_hw21

def k1_off43 (i : grid1.Coords) : Fin 1 → Nat :=
  let arg0 : BitVec 32 := BitVec.ofNat 32 (i 0).val
  let c200_i32_167 : BitVec 32 := 200#32
  let v273 : BitVec 32 := Scalar.muli arg0 c200_i32_167
  let c21_i32 : BitVec 32 := 21#32
  let v274 : BitVec 32 := Scalar.addi v273 c21_i32
  let v275 : Index := Scalar.indexCast v274
  ![v275.toNat]
def k1_off44 (v276 : BitVec 32) : Fin 3 → Nat :=
  let c0_i32_171 : BitVec 32 := 0#32
  let c0_i32_172 : BitVec 32 := 0#32
  ![v276.toNat, 0, 0]

def k1_chk22 (v276 : BitVec 32) : Prop :=
  (∀ a, (k1_off44 v276) a + S1x1x128.size a ≤ S704000x1x128.size a)
instance k1_chk22.dec : ∀ (v276 : BitVec 32), Decidable (k1_chk22 v276) := fun v276 => decidable_of_iff' _ (Iff.of_eq (k1_chk22.eq_1 v276))
theorem k1_off44_inb : ∀ (v276 : BitVec 32) (k1_hw22 : k1_chk22 v276), ∀ a, (k1_off44 v276) a + S1x1x128.size a ≤ S704000x1x128.size a := fun v276 k1_hw22 => k1_hw22

def k1_off45 (i : grid1.Coords) : Fin 1 → Nat :=
  let arg0 : BitVec 32 := BitVec.ofNat 32 (i 0).val
  let c200_i32_175 : BitVec 32 := 200#32
  let v286 : BitVec 32 := Scalar.muli arg0 c200_i32_175
  let c22_i32 : BitVec 32 := 22#32
  let v287 : BitVec 32 := Scalar.addi v286 c22_i32
  let v288 : Index := Scalar.indexCast v287
  ![v288.toNat]
def k1_off46 (v289 : BitVec 32) : Fin 3 → Nat :=
  let c0_i32_179 : BitVec 32 := 0#32
  let c0_i32_180 : BitVec 32 := 0#32
  ![v289.toNat, 0, 0]

def k1_chk23 (v289 : BitVec 32) : Prop :=
  (∀ a, (k1_off46 v289) a + S1x1x128.size a ≤ S704000x1x128.size a)
instance k1_chk23.dec : ∀ (v289 : BitVec 32), Decidable (k1_chk23 v289) := fun v289 => decidable_of_iff' _ (Iff.of_eq (k1_chk23.eq_1 v289))
theorem k1_off46_inb : ∀ (v289 : BitVec 32) (k1_hw23 : k1_chk23 v289), ∀ a, (k1_off46 v289) a + S1x1x128.size a ≤ S704000x1x128.size a := fun v289 k1_hw23 => k1_hw23

def k1_off47 (i : grid1.Coords) : Fin 1 → Nat :=
  let arg0 : BitVec 32 := BitVec.ofNat 32 (i 0).val
  let c200_i32_183 : BitVec 32 := 200#32
  let v299 : BitVec 32 := Scalar.muli arg0 c200_i32_183
  let c23_i32 : BitVec 32 := 23#32
  let v300 : BitVec 32 := Scalar.addi v299 c23_i32
  let v301 : Index := Scalar.indexCast v300
  ![v301.toNat]
def k1_off48 (v302 : BitVec 32) : Fin 3 → Nat :=
  let c0_i32_187 : BitVec 32 := 0#32
  let c0_i32_188 : BitVec 32 := 0#32
  ![v302.toNat, 0, 0]

def k1_chk24 (v302 : BitVec 32) : Prop :=
  (∀ a, (k1_off48 v302) a + S1x1x128.size a ≤ S704000x1x128.size a)
instance k1_chk24.dec : ∀ (v302 : BitVec 32), Decidable (k1_chk24 v302) := fun v302 => decidable_of_iff' _ (Iff.of_eq (k1_chk24.eq_1 v302))
theorem k1_off48_inb : ∀ (v302 : BitVec 32) (k1_hw24 : k1_chk24 v302), ∀ a, (k1_off48 v302) a + S1x1x128.size a ≤ S704000x1x128.size a := fun v302 k1_hw24 => k1_hw24

def k1_off49 (i : grid1.Coords) : Fin 1 → Nat :=
  let arg0 : BitVec 32 := BitVec.ofNat 32 (i 0).val
  let c200_i32_191 : BitVec 32 := 200#32
  let v312 : BitVec 32 := Scalar.muli arg0 c200_i32_191
  let c24_i32 : BitVec 32 := 24#32
  let v313 : BitVec 32 := Scalar.addi v312 c24_i32
  let v314 : Index := Scalar.indexCast v313
  ![v314.toNat]
def k1_off50 (v315 : BitVec 32) : Fin 3 → Nat :=
  let c0_i32_195 : BitVec 32 := 0#32
  let c0_i32_196 : BitVec 32 := 0#32
  ![v315.toNat, 0, 0]

def k1_chk25 (v315 : BitVec 32) : Prop :=
  (∀ a, (k1_off50 v315) a + S1x1x128.size a ≤ S704000x1x128.size a)
instance k1_chk25.dec : ∀ (v315 : BitVec 32), Decidable (k1_chk25 v315) := fun v315 => decidable_of_iff' _ (Iff.of_eq (k1_chk25.eq_1 v315))
theorem k1_off50_inb : ∀ (v315 : BitVec 32) (k1_hw25 : k1_chk25 v315), ∀ a, (k1_off50 v315) a + S1x1x128.size a ≤ S704000x1x128.size a := fun v315 k1_hw25 => k1_hw25

def k1_off51 (i : grid1.Coords) : Fin 1 → Nat :=
  let arg0 : BitVec 32 := BitVec.ofNat 32 (i 0).val
  let c200_i32_199 : BitVec 32 := 200#32
  let v325 : BitVec 32 := Scalar.muli arg0 c200_i32_199
  let c25_i32 : BitVec 32 := 25#32
  let v326 : BitVec 32 := Scalar.addi v325 c25_i32
  let v327 : Index := Scalar.indexCast v326
  ![v327.toNat]
def k1_off52 (v328 : BitVec 32) : Fin 3 → Nat :=
  let c0_i32_203 : BitVec 32 := 0#32
  let c0_i32_204 : BitVec 32 := 0#32
  ![v328.toNat, 0, 0]

def k1_chk26 (v328 : BitVec 32) : Prop :=
  (∀ a, (k1_off52 v328) a + S1x1x128.size a ≤ S704000x1x128.size a)
instance k1_chk26.dec : ∀ (v328 : BitVec 32), Decidable (k1_chk26 v328) := fun v328 => decidable_of_iff' _ (Iff.of_eq (k1_chk26.eq_1 v328))
theorem k1_off52_inb : ∀ (v328 : BitVec 32) (k1_hw26 : k1_chk26 v328), ∀ a, (k1_off52 v328) a + S1x1x128.size a ≤ S704000x1x128.size a := fun v328 k1_hw26 => k1_hw26

def k1_off53 (i : grid1.Coords) : Fin 1 → Nat :=
  let arg0 : BitVec 32 := BitVec.ofNat 32 (i 0).val
  let c200_i32_207 : BitVec 32 := 200#32
  let v338 : BitVec 32 := Scalar.muli arg0 c200_i32_207
  let c26_i32 : BitVec 32 := 26#32
  let v339 : BitVec 32 := Scalar.addi v338 c26_i32
  let v340 : Index := Scalar.indexCast v339
  ![v340.toNat]
def k1_off54 (v341 : BitVec 32) : Fin 3 → Nat :=
  let c0_i32_211 : BitVec 32 := 0#32
  let c0_i32_212 : BitVec 32 := 0#32
  ![v341.toNat, 0, 0]

def k1_chk27 (v341 : BitVec 32) : Prop :=
  (∀ a, (k1_off54 v341) a + S1x1x128.size a ≤ S704000x1x128.size a)
instance k1_chk27.dec : ∀ (v341 : BitVec 32), Decidable (k1_chk27 v341) := fun v341 => decidable_of_iff' _ (Iff.of_eq (k1_chk27.eq_1 v341))
theorem k1_off54_inb : ∀ (v341 : BitVec 32) (k1_hw27 : k1_chk27 v341), ∀ a, (k1_off54 v341) a + S1x1x128.size a ≤ S704000x1x128.size a := fun v341 k1_hw27 => k1_hw27

def k1_off55 (i : grid1.Coords) : Fin 1 → Nat :=
  let arg0 : BitVec 32 := BitVec.ofNat 32 (i 0).val
  let c200_i32_215 : BitVec 32 := 200#32
  let v351 : BitVec 32 := Scalar.muli arg0 c200_i32_215
  let c27_i32 : BitVec 32 := 27#32
  let v352 : BitVec 32 := Scalar.addi v351 c27_i32
  let v353 : Index := Scalar.indexCast v352
  ![v353.toNat]
def k1_off56 (v354 : BitVec 32) : Fin 3 → Nat :=
  let c0_i32_219 : BitVec 32 := 0#32
  let c0_i32_220 : BitVec 32 := 0#32
  ![v354.toNat, 0, 0]

def k1_chk28 (v354 : BitVec 32) : Prop :=
  (∀ a, (k1_off56 v354) a + S1x1x128.size a ≤ S704000x1x128.size a)
instance k1_chk28.dec : ∀ (v354 : BitVec 32), Decidable (k1_chk28 v354) := fun v354 => decidable_of_iff' _ (Iff.of_eq (k1_chk28.eq_1 v354))
theorem k1_off56_inb : ∀ (v354 : BitVec 32) (k1_hw28 : k1_chk28 v354), ∀ a, (k1_off56 v354) a + S1x1x128.size a ≤ S704000x1x128.size a := fun v354 k1_hw28 => k1_hw28

def k1_off57 (i : grid1.Coords) : Fin 1 → Nat :=
  let arg0 : BitVec 32 := BitVec.ofNat 32 (i 0).val
  let c200_i32_223 : BitVec 32 := 200#32
  let v364 : BitVec 32 := Scalar.muli arg0 c200_i32_223
  let c28_i32 : BitVec 32 := 28#32
  let v365 : BitVec 32 := Scalar.addi v364 c28_i32
  let v366 : Index := Scalar.indexCast v365
  ![v366.toNat]
def k1_off58 (v367 : BitVec 32) : Fin 3 → Nat :=
  let c0_i32_227 : BitVec 32 := 0#32
  let c0_i32_228 : BitVec 32 := 0#32
  ![v367.toNat, 0, 0]

def k1_chk29 (v367 : BitVec 32) : Prop :=
  (∀ a, (k1_off58 v367) a + S1x1x128.size a ≤ S704000x1x128.size a)
instance k1_chk29.dec : ∀ (v367 : BitVec 32), Decidable (k1_chk29 v367) := fun v367 => decidable_of_iff' _ (Iff.of_eq (k1_chk29.eq_1 v367))
theorem k1_off58_inb : ∀ (v367 : BitVec 32) (k1_hw29 : k1_chk29 v367), ∀ a, (k1_off58 v367) a + S1x1x128.size a ≤ S704000x1x128.size a := fun v367 k1_hw29 => k1_hw29

def k1_off59 (i : grid1.Coords) : Fin 1 → Nat :=
  let arg0 : BitVec 32 := BitVec.ofNat 32 (i 0).val
  let c200_i32_231 : BitVec 32 := 200#32
  let v377 : BitVec 32 := Scalar.muli arg0 c200_i32_231
  let c29_i32 : BitVec 32 := 29#32
  let v378 : BitVec 32 := Scalar.addi v377 c29_i32
  let v379 : Index := Scalar.indexCast v378
  ![v379.toNat]
def k1_off60 (v380 : BitVec 32) : Fin 3 → Nat :=
  let c0_i32_235 : BitVec 32 := 0#32
  let c0_i32_236 : BitVec 32 := 0#32
  ![v380.toNat, 0, 0]

def k1_chk30 (v380 : BitVec 32) : Prop :=
  (∀ a, (k1_off60 v380) a + S1x1x128.size a ≤ S704000x1x128.size a)
instance k1_chk30.dec : ∀ (v380 : BitVec 32), Decidable (k1_chk30 v380) := fun v380 => decidable_of_iff' _ (Iff.of_eq (k1_chk30.eq_1 v380))
theorem k1_off60_inb : ∀ (v380 : BitVec 32) (k1_hw30 : k1_chk30 v380), ∀ a, (k1_off60 v380) a + S1x1x128.size a ≤ S704000x1x128.size a := fun v380 k1_hw30 => k1_hw30

def k1_off61 (i : grid1.Coords) : Fin 1 → Nat :=
  let arg0 : BitVec 32 := BitVec.ofNat 32 (i 0).val
  let c200_i32_239 : BitVec 32 := 200#32
  let v390 : BitVec 32 := Scalar.muli arg0 c200_i32_239
  let c30_i32 : BitVec 32 := 30#32
  let v391 : BitVec 32 := Scalar.addi v390 c30_i32
  let v392 : Index := Scalar.indexCast v391
  ![v392.toNat]
def k1_off62 (v393 : BitVec 32) : Fin 3 → Nat :=
  let c0_i32_243 : BitVec 32 := 0#32
  let c0_i32_244 : BitVec 32 := 0#32
  ![v393.toNat, 0, 0]

def k1_chk31 (v393 : BitVec 32) : Prop :=
  (∀ a, (k1_off62 v393) a + S1x1x128.size a ≤ S704000x1x128.size a)
instance k1_chk31.dec : ∀ (v393 : BitVec 32), Decidable (k1_chk31 v393) := fun v393 => decidable_of_iff' _ (Iff.of_eq (k1_chk31.eq_1 v393))
theorem k1_off62_inb : ∀ (v393 : BitVec 32) (k1_hw31 : k1_chk31 v393), ∀ a, (k1_off62 v393) a + S1x1x128.size a ≤ S704000x1x128.size a := fun v393 k1_hw31 => k1_hw31

def k1_off63 (i : grid1.Coords) : Fin 1 → Nat :=
  let arg0 : BitVec 32 := BitVec.ofNat 32 (i 0).val
  let c200_i32_247 : BitVec 32 := 200#32
  let v403 : BitVec 32 := Scalar.muli arg0 c200_i32_247
  let c31_i32 : BitVec 32 := 31#32
  let v404 : BitVec 32 := Scalar.addi v403 c31_i32
  let v405 : Index := Scalar.indexCast v404
  ![v405.toNat]
def k1_off64 (v406 : BitVec 32) : Fin 3 → Nat :=
  let c0_i32_251 : BitVec 32 := 0#32
  let c0_i32_252 : BitVec 32 := 0#32
  ![v406.toNat, 0, 0]

def k1_chk32 (v406 : BitVec 32) : Prop :=
  (∀ a, (k1_off64 v406) a + S1x1x128.size a ≤ S704000x1x128.size a)
instance k1_chk32.dec : ∀ (v406 : BitVec 32), Decidable (k1_chk32 v406) := fun v406 => decidable_of_iff' _ (Iff.of_eq (k1_chk32.eq_1 v406))
theorem k1_off64_inb : ∀ (v406 : BitVec 32) (k1_hw32 : k1_chk32 v406), ∀ a, (k1_off64 v406) a + S1x1x128.size a ≤ S704000x1x128.size a := fun v406 k1_hw32 => k1_hw32

def k1_off65 (i : grid1.Coords) : Fin 1 → Nat :=
  let arg0 : BitVec 32 := BitVec.ofNat 32 (i 0).val
  let c200_i32_255 : BitVec 32 := 200#32
  let v416 : BitVec 32 := Scalar.muli arg0 c200_i32_255
  let c32_i32 : BitVec 32 := 32#32
  let v417 : BitVec 32 := Scalar.addi v416 c32_i32
  let v418 : Index := Scalar.indexCast v417
  ![v418.toNat]
def k1_off66 (v419 : BitVec 32) : Fin 3 → Nat :=
  let c0_i32_259 : BitVec 32 := 0#32
  let c0_i32_260 : BitVec 32 := 0#32
  ![v419.toNat, 0, 0]

def k1_chk33 (v419 : BitVec 32) : Prop :=
  (∀ a, (k1_off66 v419) a + S1x1x128.size a ≤ S704000x1x128.size a)
instance k1_chk33.dec : ∀ (v419 : BitVec 32), Decidable (k1_chk33 v419) := fun v419 => decidable_of_iff' _ (Iff.of_eq (k1_chk33.eq_1 v419))
theorem k1_off66_inb : ∀ (v419 : BitVec 32) (k1_hw33 : k1_chk33 v419), ∀ a, (k1_off66 v419) a + S1x1x128.size a ≤ S704000x1x128.size a := fun v419 k1_hw33 => k1_hw33

def k1_off67 (i : grid1.Coords) : Fin 1 → Nat :=
  let arg0 : BitVec 32 := BitVec.ofNat 32 (i 0).val
  let c200_i32_263 : BitVec 32 := 200#32
  let v429 : BitVec 32 := Scalar.muli arg0 c200_i32_263
  let c33_i32 : BitVec 32 := 33#32
  let v430 : BitVec 32 := Scalar.addi v429 c33_i32
  let v431 : Index := Scalar.indexCast v430
  ![v431.toNat]
def k1_off68 (v432 : BitVec 32) : Fin 3 → Nat :=
  let c0_i32_267 : BitVec 32 := 0#32
  let c0_i32_268 : BitVec 32 := 0#32
  ![v432.toNat, 0, 0]

def k1_chk34 (v432 : BitVec 32) : Prop :=
  (∀ a, (k1_off68 v432) a + S1x1x128.size a ≤ S704000x1x128.size a)
instance k1_chk34.dec : ∀ (v432 : BitVec 32), Decidable (k1_chk34 v432) := fun v432 => decidable_of_iff' _ (Iff.of_eq (k1_chk34.eq_1 v432))
theorem k1_off68_inb : ∀ (v432 : BitVec 32) (k1_hw34 : k1_chk34 v432), ∀ a, (k1_off68 v432) a + S1x1x128.size a ≤ S704000x1x128.size a := fun v432 k1_hw34 => k1_hw34

def k1_off69 (i : grid1.Coords) : Fin 1 → Nat :=
  let arg0 : BitVec 32 := BitVec.ofNat 32 (i 0).val
  let c200_i32_271 : BitVec 32 := 200#32
  let v442 : BitVec 32 := Scalar.muli arg0 c200_i32_271
  let c34_i32 : BitVec 32 := 34#32
  let v443 : BitVec 32 := Scalar.addi v442 c34_i32
  let v444 : Index := Scalar.indexCast v443
  ![v444.toNat]
def k1_off70 (v445 : BitVec 32) : Fin 3 → Nat :=
  let c0_i32_275 : BitVec 32 := 0#32
  let c0_i32_276 : BitVec 32 := 0#32
  ![v445.toNat, 0, 0]

def k1_chk35 (v445 : BitVec 32) : Prop :=
  (∀ a, (k1_off70 v445) a + S1x1x128.size a ≤ S704000x1x128.size a)
instance k1_chk35.dec : ∀ (v445 : BitVec 32), Decidable (k1_chk35 v445) := fun v445 => decidable_of_iff' _ (Iff.of_eq (k1_chk35.eq_1 v445))
theorem k1_off70_inb : ∀ (v445 : BitVec 32) (k1_hw35 : k1_chk35 v445), ∀ a, (k1_off70 v445) a + S1x1x128.size a ≤ S704000x1x128.size a := fun v445 k1_hw35 => k1_hw35

def k1_off71 (i : grid1.Coords) : Fin 1 → Nat :=
  let arg0 : BitVec 32 := BitVec.ofNat 32 (i 0).val
  let c200_i32_279 : BitVec 32 := 200#32
  let v455 : BitVec 32 := Scalar.muli arg0 c200_i32_279
  let c35_i32 : BitVec 32 := 35#32
  let v456 : BitVec 32 := Scalar.addi v455 c35_i32
  let v457 : Index := Scalar.indexCast v456
  ![v457.toNat]
def k1_off72 (v458 : BitVec 32) : Fin 3 → Nat :=
  let c0_i32_283 : BitVec 32 := 0#32
  let c0_i32_284 : BitVec 32 := 0#32
  ![v458.toNat, 0, 0]

def k1_chk36 (v458 : BitVec 32) : Prop :=
  (∀ a, (k1_off72 v458) a + S1x1x128.size a ≤ S704000x1x128.size a)
instance k1_chk36.dec : ∀ (v458 : BitVec 32), Decidable (k1_chk36 v458) := fun v458 => decidable_of_iff' _ (Iff.of_eq (k1_chk36.eq_1 v458))
theorem k1_off72_inb : ∀ (v458 : BitVec 32) (k1_hw36 : k1_chk36 v458), ∀ a, (k1_off72 v458) a + S1x1x128.size a ≤ S704000x1x128.size a := fun v458 k1_hw36 => k1_hw36

def k1_off73 (i : grid1.Coords) : Fin 1 → Nat :=
  let arg0 : BitVec 32 := BitVec.ofNat 32 (i 0).val
  let c200_i32_287 : BitVec 32 := 200#32
  let v468 : BitVec 32 := Scalar.muli arg0 c200_i32_287
  let c36_i32 : BitVec 32 := 36#32
  let v469 : BitVec 32 := Scalar.addi v468 c36_i32
  let v470 : Index := Scalar.indexCast v469
  ![v470.toNat]
def k1_off74 (v471 : BitVec 32) : Fin 3 → Nat :=
  let c0_i32_291 : BitVec 32 := 0#32
  let c0_i32_292 : BitVec 32 := 0#32
  ![v471.toNat, 0, 0]

def k1_chk37 (v471 : BitVec 32) : Prop :=
  (∀ a, (k1_off74 v471) a + S1x1x128.size a ≤ S704000x1x128.size a)
instance k1_chk37.dec : ∀ (v471 : BitVec 32), Decidable (k1_chk37 v471) := fun v471 => decidable_of_iff' _ (Iff.of_eq (k1_chk37.eq_1 v471))
theorem k1_off74_inb : ∀ (v471 : BitVec 32) (k1_hw37 : k1_chk37 v471), ∀ a, (k1_off74 v471) a + S1x1x128.size a ≤ S704000x1x128.size a := fun v471 k1_hw37 => k1_hw37

def k1_off75 (i : grid1.Coords) : Fin 1 → Nat :=
  let arg0 : BitVec 32 := BitVec.ofNat 32 (i 0).val
  let c200_i32_295 : BitVec 32 := 200#32
  let v481 : BitVec 32 := Scalar.muli arg0 c200_i32_295
  let c37_i32 : BitVec 32 := 37#32
  let v482 : BitVec 32 := Scalar.addi v481 c37_i32
  let v483 : Index := Scalar.indexCast v482
  ![v483.toNat]
def k1_off76 (v484 : BitVec 32) : Fin 3 → Nat :=
  let c0_i32_299 : BitVec 32 := 0#32
  let c0_i32_300 : BitVec 32 := 0#32
  ![v484.toNat, 0, 0]

def k1_chk38 (v484 : BitVec 32) : Prop :=
  (∀ a, (k1_off76 v484) a + S1x1x128.size a ≤ S704000x1x128.size a)
instance k1_chk38.dec : ∀ (v484 : BitVec 32), Decidable (k1_chk38 v484) := fun v484 => decidable_of_iff' _ (Iff.of_eq (k1_chk38.eq_1 v484))
theorem k1_off76_inb : ∀ (v484 : BitVec 32) (k1_hw38 : k1_chk38 v484), ∀ a, (k1_off76 v484) a + S1x1x128.size a ≤ S704000x1x128.size a := fun v484 k1_hw38 => k1_hw38

def k1_off77 (i : grid1.Coords) : Fin 1 → Nat :=
  let arg0 : BitVec 32 := BitVec.ofNat 32 (i 0).val
  let c200_i32_303 : BitVec 32 := 200#32
  let v494 : BitVec 32 := Scalar.muli arg0 c200_i32_303
  let c38_i32 : BitVec 32 := 38#32
  let v495 : BitVec 32 := Scalar.addi v494 c38_i32
  let v496 : Index := Scalar.indexCast v495
  ![v496.toNat]
def k1_off78 (v497 : BitVec 32) : Fin 3 → Nat :=
  let c0_i32_307 : BitVec 32 := 0#32
  let c0_i32_308 : BitVec 32 := 0#32
  ![v497.toNat, 0, 0]

def k1_chk39 (v497 : BitVec 32) : Prop :=
  (∀ a, (k1_off78 v497) a + S1x1x128.size a ≤ S704000x1x128.size a)
instance k1_chk39.dec : ∀ (v497 : BitVec 32), Decidable (k1_chk39 v497) := fun v497 => decidable_of_iff' _ (Iff.of_eq (k1_chk39.eq_1 v497))
theorem k1_off78_inb : ∀ (v497 : BitVec 32) (k1_hw39 : k1_chk39 v497), ∀ a, (k1_off78 v497) a + S1x1x128.size a ≤ S704000x1x128.size a := fun v497 k1_hw39 => k1_hw39

def k1_off79 (i : grid1.Coords) : Fin 1 → Nat :=
  let arg0 : BitVec 32 := BitVec.ofNat 32 (i 0).val
  let c200_i32_311 : BitVec 32 := 200#32
  let v507 : BitVec 32 := Scalar.muli arg0 c200_i32_311
  let c39_i32 : BitVec 32 := 39#32
  let v508 : BitVec 32 := Scalar.addi v507 c39_i32
  let v509 : Index := Scalar.indexCast v508
  ![v509.toNat]
def k1_off80 (v510 : BitVec 32) : Fin 3 → Nat :=
  let c0_i32_315 : BitVec 32 := 0#32
  let c0_i32_316 : BitVec 32 := 0#32
  ![v510.toNat, 0, 0]

def k1_chk40 (v510 : BitVec 32) : Prop :=
  (∀ a, (k1_off80 v510) a + S1x1x128.size a ≤ S704000x1x128.size a)
instance k1_chk40.dec : ∀ (v510 : BitVec 32), Decidable (k1_chk40 v510) := fun v510 => decidable_of_iff' _ (Iff.of_eq (k1_chk40.eq_1 v510))
theorem k1_off80_inb : ∀ (v510 : BitVec 32) (k1_hw40 : k1_chk40 v510), ∀ a, (k1_off80 v510) a + S1x1x128.size a ≤ S704000x1x128.size a := fun v510 k1_hw40 => k1_hw40

def k1_off81 (i : grid1.Coords) : Fin 1 → Nat :=
  let arg0 : BitVec 32 := BitVec.ofNat 32 (i 0).val
  let c200_i32_319 : BitVec 32 := 200#32
  let v520 : BitVec 32 := Scalar.muli arg0 c200_i32_319
  let c40_i32 : BitVec 32 := 40#32
  let v521 : BitVec 32 := Scalar.addi v520 c40_i32
  let v522 : Index := Scalar.indexCast v521
  ![v522.toNat]
def k1_off82 (v523 : BitVec 32) : Fin 3 → Nat :=
  let c0_i32_323 : BitVec 32 := 0#32
  let c0_i32_324 : BitVec 32 := 0#32
  ![v523.toNat, 0, 0]

def k1_chk41 (v523 : BitVec 32) : Prop :=
  (∀ a, (k1_off82 v523) a + S1x1x128.size a ≤ S704000x1x128.size a)
instance k1_chk41.dec : ∀ (v523 : BitVec 32), Decidable (k1_chk41 v523) := fun v523 => decidable_of_iff' _ (Iff.of_eq (k1_chk41.eq_1 v523))
theorem k1_off82_inb : ∀ (v523 : BitVec 32) (k1_hw41 : k1_chk41 v523), ∀ a, (k1_off82 v523) a + S1x1x128.size a ≤ S704000x1x128.size a := fun v523 k1_hw41 => k1_hw41

def k1_off83 (i : grid1.Coords) : Fin 1 → Nat :=
  let arg0 : BitVec 32 := BitVec.ofNat 32 (i 0).val
  let c200_i32_327 : BitVec 32 := 200#32
  let v533 : BitVec 32 := Scalar.muli arg0 c200_i32_327
  let c41_i32 : BitVec 32 := 41#32
  let v534 : BitVec 32 := Scalar.addi v533 c41_i32
  let v535 : Index := Scalar.indexCast v534
  ![v535.toNat]
def k1_off84 (v536 : BitVec 32) : Fin 3 → Nat :=
  let c0_i32_331 : BitVec 32 := 0#32
  let c0_i32_332 : BitVec 32 := 0#32
  ![v536.toNat, 0, 0]

def k1_chk42 (v536 : BitVec 32) : Prop :=
  (∀ a, (k1_off84 v536) a + S1x1x128.size a ≤ S704000x1x128.size a)
instance k1_chk42.dec : ∀ (v536 : BitVec 32), Decidable (k1_chk42 v536) := fun v536 => decidable_of_iff' _ (Iff.of_eq (k1_chk42.eq_1 v536))
theorem k1_off84_inb : ∀ (v536 : BitVec 32) (k1_hw42 : k1_chk42 v536), ∀ a, (k1_off84 v536) a + S1x1x128.size a ≤ S704000x1x128.size a := fun v536 k1_hw42 => k1_hw42

def k1_off85 (i : grid1.Coords) : Fin 1 → Nat :=
  let arg0 : BitVec 32 := BitVec.ofNat 32 (i 0).val
  let c200_i32_335 : BitVec 32 := 200#32
  let v546 : BitVec 32 := Scalar.muli arg0 c200_i32_335
  let c42_i32 : BitVec 32 := 42#32
  let v547 : BitVec 32 := Scalar.addi v546 c42_i32
  let v548 : Index := Scalar.indexCast v547
  ![v548.toNat]
def k1_off86 (v549 : BitVec 32) : Fin 3 → Nat :=
  let c0_i32_339 : BitVec 32 := 0#32
  let c0_i32_340 : BitVec 32 := 0#32
  ![v549.toNat, 0, 0]

def k1_chk43 (v549 : BitVec 32) : Prop :=
  (∀ a, (k1_off86 v549) a + S1x1x128.size a ≤ S704000x1x128.size a)
instance k1_chk43.dec : ∀ (v549 : BitVec 32), Decidable (k1_chk43 v549) := fun v549 => decidable_of_iff' _ (Iff.of_eq (k1_chk43.eq_1 v549))
theorem k1_off86_inb : ∀ (v549 : BitVec 32) (k1_hw43 : k1_chk43 v549), ∀ a, (k1_off86 v549) a + S1x1x128.size a ≤ S704000x1x128.size a := fun v549 k1_hw43 => k1_hw43

def k1_off87 (i : grid1.Coords) : Fin 1 → Nat :=
  let arg0 : BitVec 32 := BitVec.ofNat 32 (i 0).val
  let c200_i32_343 : BitVec 32 := 200#32
  let v559 : BitVec 32 := Scalar.muli arg0 c200_i32_343
  let c43_i32 : BitVec 32 := 43#32
  let v560 : BitVec 32 := Scalar.addi v559 c43_i32
  let v561 : Index := Scalar.indexCast v560
  ![v561.toNat]
def k1_off88 (v562 : BitVec 32) : Fin 3 → Nat :=
  let c0_i32_347 : BitVec 32 := 0#32
  let c0_i32_348 : BitVec 32 := 0#32
  ![v562.toNat, 0, 0]

def k1_chk44 (v562 : BitVec 32) : Prop :=
  (∀ a, (k1_off88 v562) a + S1x1x128.size a ≤ S704000x1x128.size a)
instance k1_chk44.dec : ∀ (v562 : BitVec 32), Decidable (k1_chk44 v562) := fun v562 => decidable_of_iff' _ (Iff.of_eq (k1_chk44.eq_1 v562))
theorem k1_off88_inb : ∀ (v562 : BitVec 32) (k1_hw44 : k1_chk44 v562), ∀ a, (k1_off88 v562) a + S1x1x128.size a ≤ S704000x1x128.size a := fun v562 k1_hw44 => k1_hw44

def k1_off89 (i : grid1.Coords) : Fin 1 → Nat :=
  let arg0 : BitVec 32 := BitVec.ofNat 32 (i 0).val
  let c200_i32_351 : BitVec 32 := 200#32
  let v572 : BitVec 32 := Scalar.muli arg0 c200_i32_351
  let c44_i32 : BitVec 32 := 44#32
  let v573 : BitVec 32 := Scalar.addi v572 c44_i32
  let v574 : Index := Scalar.indexCast v573
  ![v574.toNat]
def k1_off90 (v575 : BitVec 32) : Fin 3 → Nat :=
  let c0_i32_355 : BitVec 32 := 0#32
  let c0_i32_356 : BitVec 32 := 0#32
  ![v575.toNat, 0, 0]

def k1_chk45 (v575 : BitVec 32) : Prop :=
  (∀ a, (k1_off90 v575) a + S1x1x128.size a ≤ S704000x1x128.size a)
instance k1_chk45.dec : ∀ (v575 : BitVec 32), Decidable (k1_chk45 v575) := fun v575 => decidable_of_iff' _ (Iff.of_eq (k1_chk45.eq_1 v575))
theorem k1_off90_inb : ∀ (v575 : BitVec 32) (k1_hw45 : k1_chk45 v575), ∀ a, (k1_off90 v575) a + S1x1x128.size a ≤ S704000x1x128.size a := fun v575 k1_hw45 => k1_hw45

def k1_off91 (i : grid1.Coords) : Fin 1 → Nat :=
  let arg0 : BitVec 32 := BitVec.ofNat 32 (i 0).val
  let c200_i32_359 : BitVec 32 := 200#32
  let v585 : BitVec 32 := Scalar.muli arg0 c200_i32_359
  let c45_i32 : BitVec 32 := 45#32
  let v586 : BitVec 32 := Scalar.addi v585 c45_i32
  let v587 : Index := Scalar.indexCast v586
  ![v587.toNat]
def k1_off92 (v588 : BitVec 32) : Fin 3 → Nat :=
  let c0_i32_363 : BitVec 32 := 0#32
  let c0_i32_364 : BitVec 32 := 0#32
  ![v588.toNat, 0, 0]

def k1_chk46 (v588 : BitVec 32) : Prop :=
  (∀ a, (k1_off92 v588) a + S1x1x128.size a ≤ S704000x1x128.size a)
instance k1_chk46.dec : ∀ (v588 : BitVec 32), Decidable (k1_chk46 v588) := fun v588 => decidable_of_iff' _ (Iff.of_eq (k1_chk46.eq_1 v588))
theorem k1_off92_inb : ∀ (v588 : BitVec 32) (k1_hw46 : k1_chk46 v588), ∀ a, (k1_off92 v588) a + S1x1x128.size a ≤ S704000x1x128.size a := fun v588 k1_hw46 => k1_hw46

def k1_off93 (i : grid1.Coords) : Fin 1 → Nat :=
  let arg0 : BitVec 32 := BitVec.ofNat 32 (i 0).val
  let c200_i32_367 : BitVec 32 := 200#32
  let v598 : BitVec 32 := Scalar.muli arg0 c200_i32_367
  let c46_i32 : BitVec 32 := 46#32
  let v599 : BitVec 32 := Scalar.addi v598 c46_i32
  let v600 : Index := Scalar.indexCast v599
  ![v600.toNat]
def k1_off94 (v601 : BitVec 32) : Fin 3 → Nat :=
  let c0_i32_371 : BitVec 32 := 0#32
  let c0_i32_372 : BitVec 32 := 0#32
  ![v601.toNat, 0, 0]

def k1_chk47 (v601 : BitVec 32) : Prop :=
  (∀ a, (k1_off94 v601) a + S1x1x128.size a ≤ S704000x1x128.size a)
instance k1_chk47.dec : ∀ (v601 : BitVec 32), Decidable (k1_chk47 v601) := fun v601 => decidable_of_iff' _ (Iff.of_eq (k1_chk47.eq_1 v601))
theorem k1_off94_inb : ∀ (v601 : BitVec 32) (k1_hw47 : k1_chk47 v601), ∀ a, (k1_off94 v601) a + S1x1x128.size a ≤ S704000x1x128.size a := fun v601 k1_hw47 => k1_hw47

def k1_off95 (i : grid1.Coords) : Fin 1 → Nat :=
  let arg0 : BitVec 32 := BitVec.ofNat 32 (i 0).val
  let c200_i32_375 : BitVec 32 := 200#32
  let v611 : BitVec 32 := Scalar.muli arg0 c200_i32_375
  let c47_i32 : BitVec 32 := 47#32
  let v612 : BitVec 32 := Scalar.addi v611 c47_i32
  let v613 : Index := Scalar.indexCast v612
  ![v613.toNat]
def k1_off96 (v614 : BitVec 32) : Fin 3 → Nat :=
  let c0_i32_379 : BitVec 32 := 0#32
  let c0_i32_380 : BitVec 32 := 0#32
  ![v614.toNat, 0, 0]

def k1_chk48 (v614 : BitVec 32) : Prop :=
  (∀ a, (k1_off96 v614) a + S1x1x128.size a ≤ S704000x1x128.size a)
instance k1_chk48.dec : ∀ (v614 : BitVec 32), Decidable (k1_chk48 v614) := fun v614 => decidable_of_iff' _ (Iff.of_eq (k1_chk48.eq_1 v614))
theorem k1_off96_inb : ∀ (v614 : BitVec 32) (k1_hw48 : k1_chk48 v614), ∀ a, (k1_off96 v614) a + S1x1x128.size a ≤ S704000x1x128.size a := fun v614 k1_hw48 => k1_hw48

def k1_off97 (i : grid1.Coords) : Fin 1 → Nat :=
  let arg0 : BitVec 32 := BitVec.ofNat 32 (i 0).val
  let c200_i32_383 : BitVec 32 := 200#32
  let v624 : BitVec 32 := Scalar.muli arg0 c200_i32_383
  let c48_i32 : BitVec 32 := 48#32
  let v625 : BitVec 32 := Scalar.addi v624 c48_i32
  let v626 : Index := Scalar.indexCast v625
  ![v626.toNat]
def k1_off98 (v627 : BitVec 32) : Fin 3 → Nat :=
  let c0_i32_387 : BitVec 32 := 0#32
  let c0_i32_388 : BitVec 32 := 0#32
  ![v627.toNat, 0, 0]

def k1_chk49 (v627 : BitVec 32) : Prop :=
  (∀ a, (k1_off98 v627) a + S1x1x128.size a ≤ S704000x1x128.size a)
instance k1_chk49.dec : ∀ (v627 : BitVec 32), Decidable (k1_chk49 v627) := fun v627 => decidable_of_iff' _ (Iff.of_eq (k1_chk49.eq_1 v627))
theorem k1_off98_inb : ∀ (v627 : BitVec 32) (k1_hw49 : k1_chk49 v627), ∀ a, (k1_off98 v627) a + S1x1x128.size a ≤ S704000x1x128.size a := fun v627 k1_hw49 => k1_hw49

def k1_off99 (i : grid1.Coords) : Fin 1 → Nat :=
  let arg0 : BitVec 32 := BitVec.ofNat 32 (i 0).val
  let c200_i32_391 : BitVec 32 := 200#32
  let v637 : BitVec 32 := Scalar.muli arg0 c200_i32_391
  let c49_i32 : BitVec 32 := 49#32
  let v638 : BitVec 32 := Scalar.addi v637 c49_i32
  let v639 : Index := Scalar.indexCast v638
  ![v639.toNat]
def k1_off100 (v640 : BitVec 32) : Fin 3 → Nat :=
  let c0_i32_395 : BitVec 32 := 0#32
  let c0_i32_396 : BitVec 32 := 0#32
  ![v640.toNat, 0, 0]

def k1_chk50 (v640 : BitVec 32) : Prop :=
  (∀ a, (k1_off100 v640) a + S1x1x128.size a ≤ S704000x1x128.size a)
instance k1_chk50.dec : ∀ (v640 : BitVec 32), Decidable (k1_chk50 v640) := fun v640 => decidable_of_iff' _ (Iff.of_eq (k1_chk50.eq_1 v640))
theorem k1_off100_inb : ∀ (v640 : BitVec 32) (k1_hw50 : k1_chk50 v640), ∀ a, (k1_off100 v640) a + S1x1x128.size a ≤ S704000x1x128.size a := fun v640 k1_hw50 => k1_hw50

def k1_off101 (i : grid1.Coords) : Fin 1 → Nat :=
  let arg0 : BitVec 32 := BitVec.ofNat 32 (i 0).val
  let c200_i32_399 : BitVec 32 := 200#32
  let v650 : BitVec 32 := Scalar.muli arg0 c200_i32_399
  let c50_i32 : BitVec 32 := 50#32
  let v651 : BitVec 32 := Scalar.addi v650 c50_i32
  let v652 : Index := Scalar.indexCast v651
  ![v652.toNat]
def k1_off102 (v653 : BitVec 32) : Fin 3 → Nat :=
  let c0_i32_403 : BitVec 32 := 0#32
  let c0_i32_404 : BitVec 32 := 0#32
  ![v653.toNat, 0, 0]

def k1_chk51 (v653 : BitVec 32) : Prop :=
  (∀ a, (k1_off102 v653) a + S1x1x128.size a ≤ S704000x1x128.size a)
instance k1_chk51.dec : ∀ (v653 : BitVec 32), Decidable (k1_chk51 v653) := fun v653 => decidable_of_iff' _ (Iff.of_eq (k1_chk51.eq_1 v653))
theorem k1_off102_inb : ∀ (v653 : BitVec 32) (k1_hw51 : k1_chk51 v653), ∀ a, (k1_off102 v653) a + S1x1x128.size a ≤ S704000x1x128.size a := fun v653 k1_hw51 => k1_hw51

def k1_off103 (i : grid1.Coords) : Fin 1 → Nat :=
  let arg0 : BitVec 32 := BitVec.ofNat 32 (i 0).val
  let c200_i32_407 : BitVec 32 := 200#32
  let v663 : BitVec 32 := Scalar.muli arg0 c200_i32_407
  let c51_i32 : BitVec 32 := 51#32
  let v664 : BitVec 32 := Scalar.addi v663 c51_i32
  let v665 : Index := Scalar.indexCast v664
  ![v665.toNat]
def k1_off104 (v666 : BitVec 32) : Fin 3 → Nat :=
  let c0_i32_411 : BitVec 32 := 0#32
  let c0_i32_412 : BitVec 32 := 0#32
  ![v666.toNat, 0, 0]

def k1_chk52 (v666 : BitVec 32) : Prop :=
  (∀ a, (k1_off104 v666) a + S1x1x128.size a ≤ S704000x1x128.size a)
instance k1_chk52.dec : ∀ (v666 : BitVec 32), Decidable (k1_chk52 v666) := fun v666 => decidable_of_iff' _ (Iff.of_eq (k1_chk52.eq_1 v666))
theorem k1_off104_inb : ∀ (v666 : BitVec 32) (k1_hw52 : k1_chk52 v666), ∀ a, (k1_off104 v666) a + S1x1x128.size a ≤ S704000x1x128.size a := fun v666 k1_hw52 => k1_hw52

def k1_off105 (i : grid1.Coords) : Fin 1 → Nat :=
  let arg0 : BitVec 32 := BitVec.ofNat 32 (i 0).val
  let c200_i32_415 : BitVec 32 := 200#32
  let v676 : BitVec 32 := Scalar.muli arg0 c200_i32_415
  let c52_i32 : BitVec 32 := 52#32
  let v677 : BitVec 32 := Scalar.addi v676 c52_i32
  let v678 : Index := Scalar.indexCast v677
  ![v678.toNat]
def k1_off106 (v679 : BitVec 32) : Fin 3 → Nat :=
  let c0_i32_419 : BitVec 32 := 0#32
  let c0_i32_420 : BitVec 32 := 0#32
  ![v679.toNat, 0, 0]

def k1_chk53 (v679 : BitVec 32) : Prop :=
  (∀ a, (k1_off106 v679) a + S1x1x128.size a ≤ S704000x1x128.size a)
instance k1_chk53.dec : ∀ (v679 : BitVec 32), Decidable (k1_chk53 v679) := fun v679 => decidable_of_iff' _ (Iff.of_eq (k1_chk53.eq_1 v679))
theorem k1_off106_inb : ∀ (v679 : BitVec 32) (k1_hw53 : k1_chk53 v679), ∀ a, (k1_off106 v679) a + S1x1x128.size a ≤ S704000x1x128.size a := fun v679 k1_hw53 => k1_hw53

def k1_off107 (i : grid1.Coords) : Fin 1 → Nat :=
  let arg0 : BitVec 32 := BitVec.ofNat 32 (i 0).val
  let c200_i32_423 : BitVec 32 := 200#32
  let v689 : BitVec 32 := Scalar.muli arg0 c200_i32_423
  let c53_i32 : BitVec 32 := 53#32
  let v690 : BitVec 32 := Scalar.addi v689 c53_i32
  let v691 : Index := Scalar.indexCast v690
  ![v691.toNat]
def k1_off108 (v692 : BitVec 32) : Fin 3 → Nat :=
  let c0_i32_427 : BitVec 32 := 0#32
  let c0_i32_428 : BitVec 32 := 0#32
  ![v692.toNat, 0, 0]

def k1_chk54 (v692 : BitVec 32) : Prop :=
  (∀ a, (k1_off108 v692) a + S1x1x128.size a ≤ S704000x1x128.size a)
instance k1_chk54.dec : ∀ (v692 : BitVec 32), Decidable (k1_chk54 v692) := fun v692 => decidable_of_iff' _ (Iff.of_eq (k1_chk54.eq_1 v692))
theorem k1_off108_inb : ∀ (v692 : BitVec 32) (k1_hw54 : k1_chk54 v692), ∀ a, (k1_off108 v692) a + S1x1x128.size a ≤ S704000x1x128.size a := fun v692 k1_hw54 => k1_hw54

def k1_off109 (i : grid1.Coords) : Fin 1 → Nat :=
  let arg0 : BitVec 32 := BitVec.ofNat 32 (i 0).val
  let c200_i32_431 : BitVec 32 := 200#32
  let v702 : BitVec 32 := Scalar.muli arg0 c200_i32_431
  let c54_i32 : BitVec 32 := 54#32
  let v703 : BitVec 32 := Scalar.addi v702 c54_i32
  let v704 : Index := Scalar.indexCast v703
  ![v704.toNat]
def k1_off110 (v705 : BitVec 32) : Fin 3 → Nat :=
  let c0_i32_435 : BitVec 32 := 0#32
  let c0_i32_436 : BitVec 32 := 0#32
  ![v705.toNat, 0, 0]

def k1_chk55 (v705 : BitVec 32) : Prop :=
  (∀ a, (k1_off110 v705) a + S1x1x128.size a ≤ S704000x1x128.size a)
instance k1_chk55.dec : ∀ (v705 : BitVec 32), Decidable (k1_chk55 v705) := fun v705 => decidable_of_iff' _ (Iff.of_eq (k1_chk55.eq_1 v705))
theorem k1_off110_inb : ∀ (v705 : BitVec 32) (k1_hw55 : k1_chk55 v705), ∀ a, (k1_off110 v705) a + S1x1x128.size a ≤ S704000x1x128.size a := fun v705 k1_hw55 => k1_hw55

def k1_off111 (i : grid1.Coords) : Fin 1 → Nat :=
  let arg0 : BitVec 32 := BitVec.ofNat 32 (i 0).val
  let c200_i32_439 : BitVec 32 := 200#32
  let v715 : BitVec 32 := Scalar.muli arg0 c200_i32_439
  let c55_i32 : BitVec 32 := 55#32
  let v716 : BitVec 32 := Scalar.addi v715 c55_i32
  let v717 : Index := Scalar.indexCast v716
  ![v717.toNat]
def k1_off112 (v718 : BitVec 32) : Fin 3 → Nat :=
  let c0_i32_443 : BitVec 32 := 0#32
  let c0_i32_444 : BitVec 32 := 0#32
  ![v718.toNat, 0, 0]

def k1_chk56 (v718 : BitVec 32) : Prop :=
  (∀ a, (k1_off112 v718) a + S1x1x128.size a ≤ S704000x1x128.size a)
instance k1_chk56.dec : ∀ (v718 : BitVec 32), Decidable (k1_chk56 v718) := fun v718 => decidable_of_iff' _ (Iff.of_eq (k1_chk56.eq_1 v718))
theorem k1_off112_inb : ∀ (v718 : BitVec 32) (k1_hw56 : k1_chk56 v718), ∀ a, (k1_off112 v718) a + S1x1x128.size a ≤ S704000x1x128.size a := fun v718 k1_hw56 => k1_hw56

def k1_off113 (i : grid1.Coords) : Fin 1 → Nat :=
  let arg0 : BitVec 32 := BitVec.ofNat 32 (i 0).val
  let c200_i32_447 : BitVec 32 := 200#32
  let v728 : BitVec 32 := Scalar.muli arg0 c200_i32_447
  let c56_i32 : BitVec 32 := 56#32
  let v729 : BitVec 32 := Scalar.addi v728 c56_i32
  let v730 : Index := Scalar.indexCast v729
  ![v730.toNat]
def k1_off114 (v731 : BitVec 32) : Fin 3 → Nat :=
  let c0_i32_451 : BitVec 32 := 0#32
  let c0_i32_452 : BitVec 32 := 0#32
  ![v731.toNat, 0, 0]

def k1_chk57 (v731 : BitVec 32) : Prop :=
  (∀ a, (k1_off114 v731) a + S1x1x128.size a ≤ S704000x1x128.size a)
instance k1_chk57.dec : ∀ (v731 : BitVec 32), Decidable (k1_chk57 v731) := fun v731 => decidable_of_iff' _ (Iff.of_eq (k1_chk57.eq_1 v731))
theorem k1_off114_inb : ∀ (v731 : BitVec 32) (k1_hw57 : k1_chk57 v731), ∀ a, (k1_off114 v731) a + S1x1x128.size a ≤ S704000x1x128.size a := fun v731 k1_hw57 => k1_hw57

def k1_off115 (i : grid1.Coords) : Fin 1 → Nat :=
  let arg0 : BitVec 32 := BitVec.ofNat 32 (i 0).val
  let c200_i32_455 : BitVec 32 := 200#32
  let v741 : BitVec 32 := Scalar.muli arg0 c200_i32_455
  let c57_i32 : BitVec 32 := 57#32
  let v742 : BitVec 32 := Scalar.addi v741 c57_i32
  let v743 : Index := Scalar.indexCast v742
  ![v743.toNat]
def k1_off116 (v744 : BitVec 32) : Fin 3 → Nat :=
  let c0_i32_459 : BitVec 32 := 0#32
  let c0_i32_460 : BitVec 32 := 0#32
  ![v744.toNat, 0, 0]

def k1_chk58 (v744 : BitVec 32) : Prop :=
  (∀ a, (k1_off116 v744) a + S1x1x128.size a ≤ S704000x1x128.size a)
instance k1_chk58.dec : ∀ (v744 : BitVec 32), Decidable (k1_chk58 v744) := fun v744 => decidable_of_iff' _ (Iff.of_eq (k1_chk58.eq_1 v744))
theorem k1_off116_inb : ∀ (v744 : BitVec 32) (k1_hw58 : k1_chk58 v744), ∀ a, (k1_off116 v744) a + S1x1x128.size a ≤ S704000x1x128.size a := fun v744 k1_hw58 => k1_hw58

def k1_off117 (i : grid1.Coords) : Fin 1 → Nat :=
  let arg0 : BitVec 32 := BitVec.ofNat 32 (i 0).val
  let c200_i32_463 : BitVec 32 := 200#32
  let v754 : BitVec 32 := Scalar.muli arg0 c200_i32_463
  let c58_i32 : BitVec 32 := 58#32
  let v755 : BitVec 32 := Scalar.addi v754 c58_i32
  let v756 : Index := Scalar.indexCast v755
  ![v756.toNat]
def k1_off118 (v757 : BitVec 32) : Fin 3 → Nat :=
  let c0_i32_467 : BitVec 32 := 0#32
  let c0_i32_468 : BitVec 32 := 0#32
  ![v757.toNat, 0, 0]

def k1_chk59 (v757 : BitVec 32) : Prop :=
  (∀ a, (k1_off118 v757) a + S1x1x128.size a ≤ S704000x1x128.size a)
instance k1_chk59.dec : ∀ (v757 : BitVec 32), Decidable (k1_chk59 v757) := fun v757 => decidable_of_iff' _ (Iff.of_eq (k1_chk59.eq_1 v757))
theorem k1_off118_inb : ∀ (v757 : BitVec 32) (k1_hw59 : k1_chk59 v757), ∀ a, (k1_off118 v757) a + S1x1x128.size a ≤ S704000x1x128.size a := fun v757 k1_hw59 => k1_hw59

def k1_off119 (i : grid1.Coords) : Fin 1 → Nat :=
  let arg0 : BitVec 32 := BitVec.ofNat 32 (i 0).val
  let c200_i32_471 : BitVec 32 := 200#32
  let v767 : BitVec 32 := Scalar.muli arg0 c200_i32_471
  let c59_i32 : BitVec 32 := 59#32
  let v768 : BitVec 32 := Scalar.addi v767 c59_i32
  let v769 : Index := Scalar.indexCast v768
  ![v769.toNat]
def k1_off120 (v770 : BitVec 32) : Fin 3 → Nat :=
  let c0_i32_475 : BitVec 32 := 0#32
  let c0_i32_476 : BitVec 32 := 0#32
  ![v770.toNat, 0, 0]

def k1_chk60 (v770 : BitVec 32) : Prop :=
  (∀ a, (k1_off120 v770) a + S1x1x128.size a ≤ S704000x1x128.size a)
instance k1_chk60.dec : ∀ (v770 : BitVec 32), Decidable (k1_chk60 v770) := fun v770 => decidable_of_iff' _ (Iff.of_eq (k1_chk60.eq_1 v770))
theorem k1_off120_inb : ∀ (v770 : BitVec 32) (k1_hw60 : k1_chk60 v770), ∀ a, (k1_off120 v770) a + S1x1x128.size a ≤ S704000x1x128.size a := fun v770 k1_hw60 => k1_hw60

def k1_off121 (i : grid1.Coords) : Fin 1 → Nat :=
  let arg0 : BitVec 32 := BitVec.ofNat 32 (i 0).val
  let c200_i32_479 : BitVec 32 := 200#32
  let v780 : BitVec 32 := Scalar.muli arg0 c200_i32_479
  let c60_i32 : BitVec 32 := 60#32
  let v781 : BitVec 32 := Scalar.addi v780 c60_i32
  let v782 : Index := Scalar.indexCast v781
  ![v782.toNat]
def k1_off122 (v783 : BitVec 32) : Fin 3 → Nat :=
  let c0_i32_483 : BitVec 32 := 0#32
  let c0_i32_484 : BitVec 32 := 0#32
  ![v783.toNat, 0, 0]

def k1_chk61 (v783 : BitVec 32) : Prop :=
  (∀ a, (k1_off122 v783) a + S1x1x128.size a ≤ S704000x1x128.size a)
instance k1_chk61.dec : ∀ (v783 : BitVec 32), Decidable (k1_chk61 v783) := fun v783 => decidable_of_iff' _ (Iff.of_eq (k1_chk61.eq_1 v783))
theorem k1_off122_inb : ∀ (v783 : BitVec 32) (k1_hw61 : k1_chk61 v783), ∀ a, (k1_off122 v783) a + S1x1x128.size a ≤ S704000x1x128.size a := fun v783 k1_hw61 => k1_hw61

def k1_off123 (i : grid1.Coords) : Fin 1 → Nat :=
  let arg0 : BitVec 32 := BitVec.ofNat 32 (i 0).val
  let c200_i32_487 : BitVec 32 := 200#32
  let v793 : BitVec 32 := Scalar.muli arg0 c200_i32_487
  let c61_i32 : BitVec 32 := 61#32
  let v794 : BitVec 32 := Scalar.addi v793 c61_i32
  let v795 : Index := Scalar.indexCast v794
  ![v795.toNat]
def k1_off124 (v796 : BitVec 32) : Fin 3 → Nat :=
  let c0_i32_491 : BitVec 32 := 0#32
  let c0_i32_492 : BitVec 32 := 0#32
  ![v796.toNat, 0, 0]

def k1_chk62 (v796 : BitVec 32) : Prop :=
  (∀ a, (k1_off124 v796) a + S1x1x128.size a ≤ S704000x1x128.size a)
instance k1_chk62.dec : ∀ (v796 : BitVec 32), Decidable (k1_chk62 v796) := fun v796 => decidable_of_iff' _ (Iff.of_eq (k1_chk62.eq_1 v796))
theorem k1_off124_inb : ∀ (v796 : BitVec 32) (k1_hw62 : k1_chk62 v796), ∀ a, (k1_off124 v796) a + S1x1x128.size a ≤ S704000x1x128.size a := fun v796 k1_hw62 => k1_hw62

def k1_off125 (i : grid1.Coords) : Fin 1 → Nat :=
  let arg0 : BitVec 32 := BitVec.ofNat 32 (i 0).val
  let c200_i32_495 : BitVec 32 := 200#32
  let v806 : BitVec 32 := Scalar.muli arg0 c200_i32_495
  let c62_i32 : BitVec 32 := 62#32
  let v807 : BitVec 32 := Scalar.addi v806 c62_i32
  let v808 : Index := Scalar.indexCast v807
  ![v808.toNat]
def k1_off126 (v809 : BitVec 32) : Fin 3 → Nat :=
  let c0_i32_499 : BitVec 32 := 0#32
  let c0_i32_500 : BitVec 32 := 0#32
  ![v809.toNat, 0, 0]

def k1_chk63 (v809 : BitVec 32) : Prop :=
  (∀ a, (k1_off126 v809) a + S1x1x128.size a ≤ S704000x1x128.size a)
instance k1_chk63.dec : ∀ (v809 : BitVec 32), Decidable (k1_chk63 v809) := fun v809 => decidable_of_iff' _ (Iff.of_eq (k1_chk63.eq_1 v809))
theorem k1_off126_inb : ∀ (v809 : BitVec 32) (k1_hw63 : k1_chk63 v809), ∀ a, (k1_off126 v809) a + S1x1x128.size a ≤ S704000x1x128.size a := fun v809 k1_hw63 => k1_hw63

def k1_off127 (i : grid1.Coords) : Fin 1 → Nat :=
  let arg0 : BitVec 32 := BitVec.ofNat 32 (i 0).val
  let c200_i32_503 : BitVec 32 := 200#32
  let v819 : BitVec 32 := Scalar.muli arg0 c200_i32_503
  let c63_i32 : BitVec 32 := 63#32
  let v820 : BitVec 32 := Scalar.addi v819 c63_i32
  let v821 : Index := Scalar.indexCast v820
  ![v821.toNat]
def k1_off128 (v822 : BitVec 32) : Fin 3 → Nat :=
  let c0_i32_507 : BitVec 32 := 0#32
  let c0_i32_508 : BitVec 32 := 0#32
  ![v822.toNat, 0, 0]

def k1_chk64 (v822 : BitVec 32) : Prop :=
  (∀ a, (k1_off128 v822) a + S1x1x128.size a ≤ S704000x1x128.size a)
instance k1_chk64.dec : ∀ (v822 : BitVec 32), Decidable (k1_chk64 v822) := fun v822 => decidable_of_iff' _ (Iff.of_eq (k1_chk64.eq_1 v822))
theorem k1_off128_inb : ∀ (v822 : BitVec 32) (k1_hw64 : k1_chk64 v822), ∀ a, (k1_off128 v822) a + S1x1x128.size a ≤ S704000x1x128.size a := fun v822 k1_hw64 => k1_hw64

def k1_off129 (i : grid1.Coords) : Fin 1 → Nat :=
  let arg0 : BitVec 32 := BitVec.ofNat 32 (i 0).val
  let c200_i32_511 : BitVec 32 := 200#32
  let v832 : BitVec 32 := Scalar.muli arg0 c200_i32_511
  let c64_i32 : BitVec 32 := 64#32
  let v833 : BitVec 32 := Scalar.addi v832 c64_i32
  let v834 : Index := Scalar.indexCast v833
  ![v834.toNat]
def k1_off130 (v835 : BitVec 32) : Fin 3 → Nat :=
  let c0_i32_515 : BitVec 32 := 0#32
  let c0_i32_516 : BitVec 32 := 0#32
  ![v835.toNat, 0, 0]

def k1_chk65 (v835 : BitVec 32) : Prop :=
  (∀ a, (k1_off130 v835) a + S1x1x128.size a ≤ S704000x1x128.size a)
instance k1_chk65.dec : ∀ (v835 : BitVec 32), Decidable (k1_chk65 v835) := fun v835 => decidable_of_iff' _ (Iff.of_eq (k1_chk65.eq_1 v835))
theorem k1_off130_inb : ∀ (v835 : BitVec 32) (k1_hw65 : k1_chk65 v835), ∀ a, (k1_off130 v835) a + S1x1x128.size a ≤ S704000x1x128.size a := fun v835 k1_hw65 => k1_hw65

def k1_off131 (i : grid1.Coords) : Fin 1 → Nat :=
  let arg0 : BitVec 32 := BitVec.ofNat 32 (i 0).val
  let c200_i32_519 : BitVec 32 := 200#32
  let v845 : BitVec 32 := Scalar.muli arg0 c200_i32_519
  let c65_i32 : BitVec 32 := 65#32
  let v846 : BitVec 32 := Scalar.addi v845 c65_i32
  let v847 : Index := Scalar.indexCast v846
  ![v847.toNat]
def k1_off132 (v848 : BitVec 32) : Fin 3 → Nat :=
  let c0_i32_523 : BitVec 32 := 0#32
  let c0_i32_524 : BitVec 32 := 0#32
  ![v848.toNat, 0, 0]

def k1_chk66 (v848 : BitVec 32) : Prop :=
  (∀ a, (k1_off132 v848) a + S1x1x128.size a ≤ S704000x1x128.size a)
instance k1_chk66.dec : ∀ (v848 : BitVec 32), Decidable (k1_chk66 v848) := fun v848 => decidable_of_iff' _ (Iff.of_eq (k1_chk66.eq_1 v848))
theorem k1_off132_inb : ∀ (v848 : BitVec 32) (k1_hw66 : k1_chk66 v848), ∀ a, (k1_off132 v848) a + S1x1x128.size a ≤ S704000x1x128.size a := fun v848 k1_hw66 => k1_hw66

def k1_off133 (i : grid1.Coords) : Fin 1 → Nat :=
  let arg0 : BitVec 32 := BitVec.ofNat 32 (i 0).val
  let c200_i32_527 : BitVec 32 := 200#32
  let v858 : BitVec 32 := Scalar.muli arg0 c200_i32_527
  let c66_i32 : BitVec 32 := 66#32
  let v859 : BitVec 32 := Scalar.addi v858 c66_i32
  let v860 : Index := Scalar.indexCast v859
  ![v860.toNat]
def k1_off134 (v861 : BitVec 32) : Fin 3 → Nat :=
  let c0_i32_531 : BitVec 32 := 0#32
  let c0_i32_532 : BitVec 32 := 0#32
  ![v861.toNat, 0, 0]

def k1_chk67 (v861 : BitVec 32) : Prop :=
  (∀ a, (k1_off134 v861) a + S1x1x128.size a ≤ S704000x1x128.size a)
instance k1_chk67.dec : ∀ (v861 : BitVec 32), Decidable (k1_chk67 v861) := fun v861 => decidable_of_iff' _ (Iff.of_eq (k1_chk67.eq_1 v861))
theorem k1_off134_inb : ∀ (v861 : BitVec 32) (k1_hw67 : k1_chk67 v861), ∀ a, (k1_off134 v861) a + S1x1x128.size a ≤ S704000x1x128.size a := fun v861 k1_hw67 => k1_hw67

def k1_off135 (i : grid1.Coords) : Fin 1 → Nat :=
  let arg0 : BitVec 32 := BitVec.ofNat 32 (i 0).val
  let c200_i32_535 : BitVec 32 := 200#32
  let v871 : BitVec 32 := Scalar.muli arg0 c200_i32_535
  let c67_i32 : BitVec 32 := 67#32
  let v872 : BitVec 32 := Scalar.addi v871 c67_i32
  let v873 : Index := Scalar.indexCast v872
  ![v873.toNat]
def k1_off136 (v874 : BitVec 32) : Fin 3 → Nat :=
  let c0_i32_539 : BitVec 32 := 0#32
  let c0_i32_540 : BitVec 32 := 0#32
  ![v874.toNat, 0, 0]

def k1_chk68 (v874 : BitVec 32) : Prop :=
  (∀ a, (k1_off136 v874) a + S1x1x128.size a ≤ S704000x1x128.size a)
instance k1_chk68.dec : ∀ (v874 : BitVec 32), Decidable (k1_chk68 v874) := fun v874 => decidable_of_iff' _ (Iff.of_eq (k1_chk68.eq_1 v874))
theorem k1_off136_inb : ∀ (v874 : BitVec 32) (k1_hw68 : k1_chk68 v874), ∀ a, (k1_off136 v874) a + S1x1x128.size a ≤ S704000x1x128.size a := fun v874 k1_hw68 => k1_hw68

def k1_off137 (i : grid1.Coords) : Fin 1 → Nat :=
  let arg0 : BitVec 32 := BitVec.ofNat 32 (i 0).val
  let c200_i32_543 : BitVec 32 := 200#32
  let v884 : BitVec 32 := Scalar.muli arg0 c200_i32_543
  let c68_i32 : BitVec 32 := 68#32
  let v885 : BitVec 32 := Scalar.addi v884 c68_i32
  let v886 : Index := Scalar.indexCast v885
  ![v886.toNat]
def k1_off138 (v887 : BitVec 32) : Fin 3 → Nat :=
  let c0_i32_547 : BitVec 32 := 0#32
  let c0_i32_548 : BitVec 32 := 0#32
  ![v887.toNat, 0, 0]

def k1_chk69 (v887 : BitVec 32) : Prop :=
  (∀ a, (k1_off138 v887) a + S1x1x128.size a ≤ S704000x1x128.size a)
instance k1_chk69.dec : ∀ (v887 : BitVec 32), Decidable (k1_chk69 v887) := fun v887 => decidable_of_iff' _ (Iff.of_eq (k1_chk69.eq_1 v887))
theorem k1_off138_inb : ∀ (v887 : BitVec 32) (k1_hw69 : k1_chk69 v887), ∀ a, (k1_off138 v887) a + S1x1x128.size a ≤ S704000x1x128.size a := fun v887 k1_hw69 => k1_hw69

def k1_off139 (i : grid1.Coords) : Fin 1 → Nat :=
  let arg0 : BitVec 32 := BitVec.ofNat 32 (i 0).val
  let c200_i32_551 : BitVec 32 := 200#32
  let v897 : BitVec 32 := Scalar.muli arg0 c200_i32_551
  let c69_i32 : BitVec 32 := 69#32
  let v898 : BitVec 32 := Scalar.addi v897 c69_i32
  let v899 : Index := Scalar.indexCast v898
  ![v899.toNat]
def k1_off140 (v900 : BitVec 32) : Fin 3 → Nat :=
  let c0_i32_555 : BitVec 32 := 0#32
  let c0_i32_556 : BitVec 32 := 0#32
  ![v900.toNat, 0, 0]

def k1_chk70 (v900 : BitVec 32) : Prop :=
  (∀ a, (k1_off140 v900) a + S1x1x128.size a ≤ S704000x1x128.size a)
instance k1_chk70.dec : ∀ (v900 : BitVec 32), Decidable (k1_chk70 v900) := fun v900 => decidable_of_iff' _ (Iff.of_eq (k1_chk70.eq_1 v900))
theorem k1_off140_inb : ∀ (v900 : BitVec 32) (k1_hw70 : k1_chk70 v900), ∀ a, (k1_off140 v900) a + S1x1x128.size a ≤ S704000x1x128.size a := fun v900 k1_hw70 => k1_hw70

def k1_off141 (i : grid1.Coords) : Fin 1 → Nat :=
  let arg0 : BitVec 32 := BitVec.ofNat 32 (i 0).val
  let c200_i32_559 : BitVec 32 := 200#32
  let v910 : BitVec 32 := Scalar.muli arg0 c200_i32_559
  let c70_i32 : BitVec 32 := 70#32
  let v911 : BitVec 32 := Scalar.addi v910 c70_i32
  let v912 : Index := Scalar.indexCast v911
  ![v912.toNat]
def k1_off142 (v913 : BitVec 32) : Fin 3 → Nat :=
  let c0_i32_563 : BitVec 32 := 0#32
  let c0_i32_564 : BitVec 32 := 0#32
  ![v913.toNat, 0, 0]

def k1_chk71 (v913 : BitVec 32) : Prop :=
  (∀ a, (k1_off142 v913) a + S1x1x128.size a ≤ S704000x1x128.size a)
instance k1_chk71.dec : ∀ (v913 : BitVec 32), Decidable (k1_chk71 v913) := fun v913 => decidable_of_iff' _ (Iff.of_eq (k1_chk71.eq_1 v913))
theorem k1_off142_inb : ∀ (v913 : BitVec 32) (k1_hw71 : k1_chk71 v913), ∀ a, (k1_off142 v913) a + S1x1x128.size a ≤ S704000x1x128.size a := fun v913 k1_hw71 => k1_hw71

def k1_off143 (i : grid1.Coords) : Fin 1 → Nat :=
  let arg0 : BitVec 32 := BitVec.ofNat 32 (i 0).val
  let c200_i32_567 : BitVec 32 := 200#32
  let v923 : BitVec 32 := Scalar.muli arg0 c200_i32_567
  let c71_i32 : BitVec 32 := 71#32
  let v924 : BitVec 32 := Scalar.addi v923 c71_i32
  let v925 : Index := Scalar.indexCast v924
  ![v925.toNat]
def k1_off144 (v926 : BitVec 32) : Fin 3 → Nat :=
  let c0_i32_571 : BitVec 32 := 0#32
  let c0_i32_572 : BitVec 32 := 0#32
  ![v926.toNat, 0, 0]

def k1_chk72 (v926 : BitVec 32) : Prop :=
  (∀ a, (k1_off144 v926) a + S1x1x128.size a ≤ S704000x1x128.size a)
instance k1_chk72.dec : ∀ (v926 : BitVec 32), Decidable (k1_chk72 v926) := fun v926 => decidable_of_iff' _ (Iff.of_eq (k1_chk72.eq_1 v926))
theorem k1_off144_inb : ∀ (v926 : BitVec 32) (k1_hw72 : k1_chk72 v926), ∀ a, (k1_off144 v926) a + S1x1x128.size a ≤ S704000x1x128.size a := fun v926 k1_hw72 => k1_hw72

def k1_off145 (i : grid1.Coords) : Fin 1 → Nat :=
  let arg0 : BitVec 32 := BitVec.ofNat 32 (i 0).val
  let c200_i32_575 : BitVec 32 := 200#32
  let v936 : BitVec 32 := Scalar.muli arg0 c200_i32_575
  let c72_i32 : BitVec 32 := 72#32
  let v937 : BitVec 32 := Scalar.addi v936 c72_i32
  let v938 : Index := Scalar.indexCast v937
  ![v938.toNat]
def k1_off146 (v939 : BitVec 32) : Fin 3 → Nat :=
  let c0_i32_579 : BitVec 32 := 0#32
  let c0_i32_580 : BitVec 32 := 0#32
  ![v939.toNat, 0, 0]

def k1_chk73 (v939 : BitVec 32) : Prop :=
  (∀ a, (k1_off146 v939) a + S1x1x128.size a ≤ S704000x1x128.size a)
instance k1_chk73.dec : ∀ (v939 : BitVec 32), Decidable (k1_chk73 v939) := fun v939 => decidable_of_iff' _ (Iff.of_eq (k1_chk73.eq_1 v939))
theorem k1_off146_inb : ∀ (v939 : BitVec 32) (k1_hw73 : k1_chk73 v939), ∀ a, (k1_off146 v939) a + S1x1x128.size a ≤ S704000x1x128.size a := fun v939 k1_hw73 => k1_hw73

def k1_off147 (i : grid1.Coords) : Fin 1 → Nat :=
  let arg0 : BitVec 32 := BitVec.ofNat 32 (i 0).val
  let c200_i32_583 : BitVec 32 := 200#32
  let v949 : BitVec 32 := Scalar.muli arg0 c200_i32_583
  let c73_i32 : BitVec 32 := 73#32
  let v950 : BitVec 32 := Scalar.addi v949 c73_i32
  let v951 : Index := Scalar.indexCast v950
  ![v951.toNat]
def k1_off148 (v952 : BitVec 32) : Fin 3 → Nat :=
  let c0_i32_587 : BitVec 32 := 0#32
  let c0_i32_588 : BitVec 32 := 0#32
  ![v952.toNat, 0, 0]

def k1_chk74 (v952 : BitVec 32) : Prop :=
  (∀ a, (k1_off148 v952) a + S1x1x128.size a ≤ S704000x1x128.size a)
instance k1_chk74.dec : ∀ (v952 : BitVec 32), Decidable (k1_chk74 v952) := fun v952 => decidable_of_iff' _ (Iff.of_eq (k1_chk74.eq_1 v952))
theorem k1_off148_inb : ∀ (v952 : BitVec 32) (k1_hw74 : k1_chk74 v952), ∀ a, (k1_off148 v952) a + S1x1x128.size a ≤ S704000x1x128.size a := fun v952 k1_hw74 => k1_hw74

def k1_off149 (i : grid1.Coords) : Fin 1 → Nat :=
  let arg0 : BitVec 32 := BitVec.ofNat 32 (i 0).val
  let c200_i32_591 : BitVec 32 := 200#32
  let v962 : BitVec 32 := Scalar.muli arg0 c200_i32_591
  let c74_i32 : BitVec 32 := 74#32
  let v963 : BitVec 32 := Scalar.addi v962 c74_i32
  let v964 : Index := Scalar.indexCast v963
  ![v964.toNat]
def k1_off150 (v965 : BitVec 32) : Fin 3 → Nat :=
  let c0_i32_595 : BitVec 32 := 0#32
  let c0_i32_596 : BitVec 32 := 0#32
  ![v965.toNat, 0, 0]

def k1_chk75 (v965 : BitVec 32) : Prop :=
  (∀ a, (k1_off150 v965) a + S1x1x128.size a ≤ S704000x1x128.size a)
instance k1_chk75.dec : ∀ (v965 : BitVec 32), Decidable (k1_chk75 v965) := fun v965 => decidable_of_iff' _ (Iff.of_eq (k1_chk75.eq_1 v965))
theorem k1_off150_inb : ∀ (v965 : BitVec 32) (k1_hw75 : k1_chk75 v965), ∀ a, (k1_off150 v965) a + S1x1x128.size a ≤ S704000x1x128.size a := fun v965 k1_hw75 => k1_hw75

def k1_off151 (i : grid1.Coords) : Fin 1 → Nat :=
  let arg0 : BitVec 32 := BitVec.ofNat 32 (i 0).val
  let c200_i32_599 : BitVec 32 := 200#32
  let v975 : BitVec 32 := Scalar.muli arg0 c200_i32_599
  let c75_i32 : BitVec 32 := 75#32
  let v976 : BitVec 32 := Scalar.addi v975 c75_i32
  let v977 : Index := Scalar.indexCast v976
  ![v977.toNat]
def k1_off152 (v978 : BitVec 32) : Fin 3 → Nat :=
  let c0_i32_603 : BitVec 32 := 0#32
  let c0_i32_604 : BitVec 32 := 0#32
  ![v978.toNat, 0, 0]

def k1_chk76 (v978 : BitVec 32) : Prop :=
  (∀ a, (k1_off152 v978) a + S1x1x128.size a ≤ S704000x1x128.size a)
instance k1_chk76.dec : ∀ (v978 : BitVec 32), Decidable (k1_chk76 v978) := fun v978 => decidable_of_iff' _ (Iff.of_eq (k1_chk76.eq_1 v978))
theorem k1_off152_inb : ∀ (v978 : BitVec 32) (k1_hw76 : k1_chk76 v978), ∀ a, (k1_off152 v978) a + S1x1x128.size a ≤ S704000x1x128.size a := fun v978 k1_hw76 => k1_hw76

def k1_off153 (i : grid1.Coords) : Fin 1 → Nat :=
  let arg0 : BitVec 32 := BitVec.ofNat 32 (i 0).val
  let c200_i32_607 : BitVec 32 := 200#32
  let v988 : BitVec 32 := Scalar.muli arg0 c200_i32_607
  let c76_i32 : BitVec 32 := 76#32
  let v989 : BitVec 32 := Scalar.addi v988 c76_i32
  let v990 : Index := Scalar.indexCast v989
  ![v990.toNat]
def k1_off154 (v991 : BitVec 32) : Fin 3 → Nat :=
  let c0_i32_611 : BitVec 32 := 0#32
  let c0_i32_612 : BitVec 32 := 0#32
  ![v991.toNat, 0, 0]

def k1_chk77 (v991 : BitVec 32) : Prop :=
  (∀ a, (k1_off154 v991) a + S1x1x128.size a ≤ S704000x1x128.size a)
instance k1_chk77.dec : ∀ (v991 : BitVec 32), Decidable (k1_chk77 v991) := fun v991 => decidable_of_iff' _ (Iff.of_eq (k1_chk77.eq_1 v991))
theorem k1_off154_inb : ∀ (v991 : BitVec 32) (k1_hw77 : k1_chk77 v991), ∀ a, (k1_off154 v991) a + S1x1x128.size a ≤ S704000x1x128.size a := fun v991 k1_hw77 => k1_hw77

def k1_off155 (i : grid1.Coords) : Fin 1 → Nat :=
  let arg0 : BitVec 32 := BitVec.ofNat 32 (i 0).val
  let c200_i32_615 : BitVec 32 := 200#32
  let v1001 : BitVec 32 := Scalar.muli arg0 c200_i32_615
  let c77_i32 : BitVec 32 := 77#32
  let v1002 : BitVec 32 := Scalar.addi v1001 c77_i32
  let v1003 : Index := Scalar.indexCast v1002
  ![v1003.toNat]
def k1_off156 (v1004 : BitVec 32) : Fin 3 → Nat :=
  let c0_i32_619 : BitVec 32 := 0#32
  let c0_i32_620 : BitVec 32 := 0#32
  ![v1004.toNat, 0, 0]

def k1_chk78 (v1004 : BitVec 32) : Prop :=
  (∀ a, (k1_off156 v1004) a + S1x1x128.size a ≤ S704000x1x128.size a)
instance k1_chk78.dec : ∀ (v1004 : BitVec 32), Decidable (k1_chk78 v1004) := fun v1004 => decidable_of_iff' _ (Iff.of_eq (k1_chk78.eq_1 v1004))
theorem k1_off156_inb : ∀ (v1004 : BitVec 32) (k1_hw78 : k1_chk78 v1004), ∀ a, (k1_off156 v1004) a + S1x1x128.size a ≤ S704000x1x128.size a := fun v1004 k1_hw78 => k1_hw78

def k1_off157 (i : grid1.Coords) : Fin 1 → Nat :=
  let arg0 : BitVec 32 := BitVec.ofNat 32 (i 0).val
  let c200_i32_623 : BitVec 32 := 200#32
  let v1014 : BitVec 32 := Scalar.muli arg0 c200_i32_623
  let c78_i32 : BitVec 32 := 78#32
  let v1015 : BitVec 32 := Scalar.addi v1014 c78_i32
  let v1016 : Index := Scalar.indexCast v1015
  ![v1016.toNat]
def k1_off158 (v1017 : BitVec 32) : Fin 3 → Nat :=
  let c0_i32_627 : BitVec 32 := 0#32
  let c0_i32_628 : BitVec 32 := 0#32
  ![v1017.toNat, 0, 0]

def k1_chk79 (v1017 : BitVec 32) : Prop :=
  (∀ a, (k1_off158 v1017) a + S1x1x128.size a ≤ S704000x1x128.size a)
instance k1_chk79.dec : ∀ (v1017 : BitVec 32), Decidable (k1_chk79 v1017) := fun v1017 => decidable_of_iff' _ (Iff.of_eq (k1_chk79.eq_1 v1017))
theorem k1_off158_inb : ∀ (v1017 : BitVec 32) (k1_hw79 : k1_chk79 v1017), ∀ a, (k1_off158 v1017) a + S1x1x128.size a ≤ S704000x1x128.size a := fun v1017 k1_hw79 => k1_hw79

def k1_off159 (i : grid1.Coords) : Fin 1 → Nat :=
  let arg0 : BitVec 32 := BitVec.ofNat 32 (i 0).val
  let c200_i32_631 : BitVec 32 := 200#32
  let v1027 : BitVec 32 := Scalar.muli arg0 c200_i32_631
  let c79_i32 : BitVec 32 := 79#32
  let v1028 : BitVec 32 := Scalar.addi v1027 c79_i32
  let v1029 : Index := Scalar.indexCast v1028
  ![v1029.toNat]
def k1_off160 (v1030 : BitVec 32) : Fin 3 → Nat :=
  let c0_i32_635 : BitVec 32 := 0#32
  let c0_i32_636 : BitVec 32 := 0#32
  ![v1030.toNat, 0, 0]

def k1_chk80 (v1030 : BitVec 32) : Prop :=
  (∀ a, (k1_off160 v1030) a + S1x1x128.size a ≤ S704000x1x128.size a)
instance k1_chk80.dec : ∀ (v1030 : BitVec 32), Decidable (k1_chk80 v1030) := fun v1030 => decidable_of_iff' _ (Iff.of_eq (k1_chk80.eq_1 v1030))
theorem k1_off160_inb : ∀ (v1030 : BitVec 32) (k1_hw80 : k1_chk80 v1030), ∀ a, (k1_off160 v1030) a + S1x1x128.size a ≤ S704000x1x128.size a := fun v1030 k1_hw80 => k1_hw80

def k1_off161 (i : grid1.Coords) : Fin 1 → Nat :=
  let arg0 : BitVec 32 := BitVec.ofNat 32 (i 0).val
  let c200_i32_639 : BitVec 32 := 200#32
  let v1040 : BitVec 32 := Scalar.muli arg0 c200_i32_639
  let c80_i32 : BitVec 32 := 80#32
  let v1041 : BitVec 32 := Scalar.addi v1040 c80_i32
  let v1042 : Index := Scalar.indexCast v1041
  ![v1042.toNat]
def k1_off162 (v1043 : BitVec 32) : Fin 3 → Nat :=
  let c0_i32_643 : BitVec 32 := 0#32
  let c0_i32_644 : BitVec 32 := 0#32
  ![v1043.toNat, 0, 0]

def k1_chk81 (v1043 : BitVec 32) : Prop :=
  (∀ a, (k1_off162 v1043) a + S1x1x128.size a ≤ S704000x1x128.size a)
instance k1_chk81.dec : ∀ (v1043 : BitVec 32), Decidable (k1_chk81 v1043) := fun v1043 => decidable_of_iff' _ (Iff.of_eq (k1_chk81.eq_1 v1043))
theorem k1_off162_inb : ∀ (v1043 : BitVec 32) (k1_hw81 : k1_chk81 v1043), ∀ a, (k1_off162 v1043) a + S1x1x128.size a ≤ S704000x1x128.size a := fun v1043 k1_hw81 => k1_hw81

def k1_off163 (i : grid1.Coords) : Fin 1 → Nat :=
  let arg0 : BitVec 32 := BitVec.ofNat 32 (i 0).val
  let c200_i32_647 : BitVec 32 := 200#32
  let v1053 : BitVec 32 := Scalar.muli arg0 c200_i32_647
  let c81_i32 : BitVec 32 := 81#32
  let v1054 : BitVec 32 := Scalar.addi v1053 c81_i32
  let v1055 : Index := Scalar.indexCast v1054
  ![v1055.toNat]
def k1_off164 (v1056 : BitVec 32) : Fin 3 → Nat :=
  let c0_i32_651 : BitVec 32 := 0#32
  let c0_i32_652 : BitVec 32 := 0#32
  ![v1056.toNat, 0, 0]

def k1_chk82 (v1056 : BitVec 32) : Prop :=
  (∀ a, (k1_off164 v1056) a + S1x1x128.size a ≤ S704000x1x128.size a)
instance k1_chk82.dec : ∀ (v1056 : BitVec 32), Decidable (k1_chk82 v1056) := fun v1056 => decidable_of_iff' _ (Iff.of_eq (k1_chk82.eq_1 v1056))
theorem k1_off164_inb : ∀ (v1056 : BitVec 32) (k1_hw82 : k1_chk82 v1056), ∀ a, (k1_off164 v1056) a + S1x1x128.size a ≤ S704000x1x128.size a := fun v1056 k1_hw82 => k1_hw82

def k1_off165 (i : grid1.Coords) : Fin 1 → Nat :=
  let arg0 : BitVec 32 := BitVec.ofNat 32 (i 0).val
  let c200_i32_655 : BitVec 32 := 200#32
  let v1066 : BitVec 32 := Scalar.muli arg0 c200_i32_655
  let c82_i32 : BitVec 32 := 82#32
  let v1067 : BitVec 32 := Scalar.addi v1066 c82_i32
  let v1068 : Index := Scalar.indexCast v1067
  ![v1068.toNat]
def k1_off166 (v1069 : BitVec 32) : Fin 3 → Nat :=
  let c0_i32_659 : BitVec 32 := 0#32
  let c0_i32_660 : BitVec 32 := 0#32
  ![v1069.toNat, 0, 0]

def k1_chk83 (v1069 : BitVec 32) : Prop :=
  (∀ a, (k1_off166 v1069) a + S1x1x128.size a ≤ S704000x1x128.size a)
instance k1_chk83.dec : ∀ (v1069 : BitVec 32), Decidable (k1_chk83 v1069) := fun v1069 => decidable_of_iff' _ (Iff.of_eq (k1_chk83.eq_1 v1069))
theorem k1_off166_inb : ∀ (v1069 : BitVec 32) (k1_hw83 : k1_chk83 v1069), ∀ a, (k1_off166 v1069) a + S1x1x128.size a ≤ S704000x1x128.size a := fun v1069 k1_hw83 => k1_hw83

def k1_off167 (i : grid1.Coords) : Fin 1 → Nat :=
  let arg0 : BitVec 32 := BitVec.ofNat 32 (i 0).val
  let c200_i32_663 : BitVec 32 := 200#32
  let v1079 : BitVec 32 := Scalar.muli arg0 c200_i32_663
  let c83_i32 : BitVec 32 := 83#32
  let v1080 : BitVec 32 := Scalar.addi v1079 c83_i32
  let v1081 : Index := Scalar.indexCast v1080
  ![v1081.toNat]
def k1_off168 (v1082 : BitVec 32) : Fin 3 → Nat :=
  let c0_i32_667 : BitVec 32 := 0#32
  let c0_i32_668 : BitVec 32 := 0#32
  ![v1082.toNat, 0, 0]

def k1_chk84 (v1082 : BitVec 32) : Prop :=
  (∀ a, (k1_off168 v1082) a + S1x1x128.size a ≤ S704000x1x128.size a)
instance k1_chk84.dec : ∀ (v1082 : BitVec 32), Decidable (k1_chk84 v1082) := fun v1082 => decidable_of_iff' _ (Iff.of_eq (k1_chk84.eq_1 v1082))
theorem k1_off168_inb : ∀ (v1082 : BitVec 32) (k1_hw84 : k1_chk84 v1082), ∀ a, (k1_off168 v1082) a + S1x1x128.size a ≤ S704000x1x128.size a := fun v1082 k1_hw84 => k1_hw84

def k1_off169 (i : grid1.Coords) : Fin 1 → Nat :=
  let arg0 : BitVec 32 := BitVec.ofNat 32 (i 0).val
  let c200_i32_671 : BitVec 32 := 200#32
  let v1092 : BitVec 32 := Scalar.muli arg0 c200_i32_671
  let c84_i32 : BitVec 32 := 84#32
  let v1093 : BitVec 32 := Scalar.addi v1092 c84_i32
  let v1094 : Index := Scalar.indexCast v1093
  ![v1094.toNat]
def k1_off170 (v1095 : BitVec 32) : Fin 3 → Nat :=
  let c0_i32_675 : BitVec 32 := 0#32
  let c0_i32_676 : BitVec 32 := 0#32
  ![v1095.toNat, 0, 0]

def k1_chk85 (v1095 : BitVec 32) : Prop :=
  (∀ a, (k1_off170 v1095) a + S1x1x128.size a ≤ S704000x1x128.size a)
instance k1_chk85.dec : ∀ (v1095 : BitVec 32), Decidable (k1_chk85 v1095) := fun v1095 => decidable_of_iff' _ (Iff.of_eq (k1_chk85.eq_1 v1095))
theorem k1_off170_inb : ∀ (v1095 : BitVec 32) (k1_hw85 : k1_chk85 v1095), ∀ a, (k1_off170 v1095) a + S1x1x128.size a ≤ S704000x1x128.size a := fun v1095 k1_hw85 => k1_hw85

def k1_off171 (i : grid1.Coords) : Fin 1 → Nat :=
  let arg0 : BitVec 32 := BitVec.ofNat 32 (i 0).val
  let c200_i32_679 : BitVec 32 := 200#32
  let v1105 : BitVec 32 := Scalar.muli arg0 c200_i32_679
  let c85_i32 : BitVec 32 := 85#32
  let v1106 : BitVec 32 := Scalar.addi v1105 c85_i32
  let v1107 : Index := Scalar.indexCast v1106
  ![v1107.toNat]
def k1_off172 (v1108 : BitVec 32) : Fin 3 → Nat :=
  let c0_i32_683 : BitVec 32 := 0#32
  let c0_i32_684 : BitVec 32 := 0#32
  ![v1108.toNat, 0, 0]

def k1_chk86 (v1108 : BitVec 32) : Prop :=
  (∀ a, (k1_off172 v1108) a + S1x1x128.size a ≤ S704000x1x128.size a)
instance k1_chk86.dec : ∀ (v1108 : BitVec 32), Decidable (k1_chk86 v1108) := fun v1108 => decidable_of_iff' _ (Iff.of_eq (k1_chk86.eq_1 v1108))
theorem k1_off172_inb : ∀ (v1108 : BitVec 32) (k1_hw86 : k1_chk86 v1108), ∀ a, (k1_off172 v1108) a + S1x1x128.size a ≤ S704000x1x128.size a := fun v1108 k1_hw86 => k1_hw86

def k1_off173 (i : grid1.Coords) : Fin 1 → Nat :=
  let arg0 : BitVec 32 := BitVec.ofNat 32 (i 0).val
  let c200_i32_687 : BitVec 32 := 200#32
  let v1118 : BitVec 32 := Scalar.muli arg0 c200_i32_687
  let c86_i32 : BitVec 32 := 86#32
  let v1119 : BitVec 32 := Scalar.addi v1118 c86_i32
  let v1120 : Index := Scalar.indexCast v1119
  ![v1120.toNat]
def k1_off174 (v1121 : BitVec 32) : Fin 3 → Nat :=
  let c0_i32_691 : BitVec 32 := 0#32
  let c0_i32_692 : BitVec 32 := 0#32
  ![v1121.toNat, 0, 0]

def k1_chk87 (v1121 : BitVec 32) : Prop :=
  (∀ a, (k1_off174 v1121) a + S1x1x128.size a ≤ S704000x1x128.size a)
instance k1_chk87.dec : ∀ (v1121 : BitVec 32), Decidable (k1_chk87 v1121) := fun v1121 => decidable_of_iff' _ (Iff.of_eq (k1_chk87.eq_1 v1121))
theorem k1_off174_inb : ∀ (v1121 : BitVec 32) (k1_hw87 : k1_chk87 v1121), ∀ a, (k1_off174 v1121) a + S1x1x128.size a ≤ S704000x1x128.size a := fun v1121 k1_hw87 => k1_hw87

def k1_off175 (i : grid1.Coords) : Fin 1 → Nat :=
  let arg0 : BitVec 32 := BitVec.ofNat 32 (i 0).val
  let c200_i32_695 : BitVec 32 := 200#32
  let v1131 : BitVec 32 := Scalar.muli arg0 c200_i32_695
  let c87_i32 : BitVec 32 := 87#32
  let v1132 : BitVec 32 := Scalar.addi v1131 c87_i32
  let v1133 : Index := Scalar.indexCast v1132
  ![v1133.toNat]
def k1_off176 (v1134 : BitVec 32) : Fin 3 → Nat :=
  let c0_i32_699 : BitVec 32 := 0#32
  let c0_i32_700 : BitVec 32 := 0#32
  ![v1134.toNat, 0, 0]

def k1_chk88 (v1134 : BitVec 32) : Prop :=
  (∀ a, (k1_off176 v1134) a + S1x1x128.size a ≤ S704000x1x128.size a)
instance k1_chk88.dec : ∀ (v1134 : BitVec 32), Decidable (k1_chk88 v1134) := fun v1134 => decidable_of_iff' _ (Iff.of_eq (k1_chk88.eq_1 v1134))
theorem k1_off176_inb : ∀ (v1134 : BitVec 32) (k1_hw88 : k1_chk88 v1134), ∀ a, (k1_off176 v1134) a + S1x1x128.size a ≤ S704000x1x128.size a := fun v1134 k1_hw88 => k1_hw88

def k1_off177 (i : grid1.Coords) : Fin 1 → Nat :=
  let arg0 : BitVec 32 := BitVec.ofNat 32 (i 0).val
  let c200_i32_703 : BitVec 32 := 200#32
  let v1144 : BitVec 32 := Scalar.muli arg0 c200_i32_703
  let c88_i32 : BitVec 32 := 88#32
  let v1145 : BitVec 32 := Scalar.addi v1144 c88_i32
  let v1146 : Index := Scalar.indexCast v1145
  ![v1146.toNat]
def k1_off178 (v1147 : BitVec 32) : Fin 3 → Nat :=
  let c0_i32_707 : BitVec 32 := 0#32
  let c0_i32_708 : BitVec 32 := 0#32
  ![v1147.toNat, 0, 0]

def k1_chk89 (v1147 : BitVec 32) : Prop :=
  (∀ a, (k1_off178 v1147) a + S1x1x128.size a ≤ S704000x1x128.size a)
instance k1_chk89.dec : ∀ (v1147 : BitVec 32), Decidable (k1_chk89 v1147) := fun v1147 => decidable_of_iff' _ (Iff.of_eq (k1_chk89.eq_1 v1147))
theorem k1_off178_inb : ∀ (v1147 : BitVec 32) (k1_hw89 : k1_chk89 v1147), ∀ a, (k1_off178 v1147) a + S1x1x128.size a ≤ S704000x1x128.size a := fun v1147 k1_hw89 => k1_hw89

def k1_off179 (i : grid1.Coords) : Fin 1 → Nat :=
  let arg0 : BitVec 32 := BitVec.ofNat 32 (i 0).val
  let c200_i32_711 : BitVec 32 := 200#32
  let v1157 : BitVec 32 := Scalar.muli arg0 c200_i32_711
  let c89_i32 : BitVec 32 := 89#32
  let v1158 : BitVec 32 := Scalar.addi v1157 c89_i32
  let v1159 : Index := Scalar.indexCast v1158
  ![v1159.toNat]
def k1_off180 (v1160 : BitVec 32) : Fin 3 → Nat :=
  let c0_i32_715 : BitVec 32 := 0#32
  let c0_i32_716 : BitVec 32 := 0#32
  ![v1160.toNat, 0, 0]

def k1_chk90 (v1160 : BitVec 32) : Prop :=
  (∀ a, (k1_off180 v1160) a + S1x1x128.size a ≤ S704000x1x128.size a)
instance k1_chk90.dec : ∀ (v1160 : BitVec 32), Decidable (k1_chk90 v1160) := fun v1160 => decidable_of_iff' _ (Iff.of_eq (k1_chk90.eq_1 v1160))
theorem k1_off180_inb : ∀ (v1160 : BitVec 32) (k1_hw90 : k1_chk90 v1160), ∀ a, (k1_off180 v1160) a + S1x1x128.size a ≤ S704000x1x128.size a := fun v1160 k1_hw90 => k1_hw90

def k1_off181 (i : grid1.Coords) : Fin 1 → Nat :=
  let arg0 : BitVec 32 := BitVec.ofNat 32 (i 0).val
  let c200_i32_719 : BitVec 32 := 200#32
  let v1170 : BitVec 32 := Scalar.muli arg0 c200_i32_719
  let c90_i32 : BitVec 32 := 90#32
  let v1171 : BitVec 32 := Scalar.addi v1170 c90_i32
  let v1172 : Index := Scalar.indexCast v1171
  ![v1172.toNat]
def k1_off182 (v1173 : BitVec 32) : Fin 3 → Nat :=
  let c0_i32_723 : BitVec 32 := 0#32
  let c0_i32_724 : BitVec 32 := 0#32
  ![v1173.toNat, 0, 0]

def k1_chk91 (v1173 : BitVec 32) : Prop :=
  (∀ a, (k1_off182 v1173) a + S1x1x128.size a ≤ S704000x1x128.size a)
instance k1_chk91.dec : ∀ (v1173 : BitVec 32), Decidable (k1_chk91 v1173) := fun v1173 => decidable_of_iff' _ (Iff.of_eq (k1_chk91.eq_1 v1173))
theorem k1_off182_inb : ∀ (v1173 : BitVec 32) (k1_hw91 : k1_chk91 v1173), ∀ a, (k1_off182 v1173) a + S1x1x128.size a ≤ S704000x1x128.size a := fun v1173 k1_hw91 => k1_hw91

def k1_off183 (i : grid1.Coords) : Fin 1 → Nat :=
  let arg0 : BitVec 32 := BitVec.ofNat 32 (i 0).val
  let c200_i32_727 : BitVec 32 := 200#32
  let v1183 : BitVec 32 := Scalar.muli arg0 c200_i32_727
  let c91_i32 : BitVec 32 := 91#32
  let v1184 : BitVec 32 := Scalar.addi v1183 c91_i32
  let v1185 : Index := Scalar.indexCast v1184
  ![v1185.toNat]
def k1_off184 (v1186 : BitVec 32) : Fin 3 → Nat :=
  let c0_i32_731 : BitVec 32 := 0#32
  let c0_i32_732 : BitVec 32 := 0#32
  ![v1186.toNat, 0, 0]

def k1_chk92 (v1186 : BitVec 32) : Prop :=
  (∀ a, (k1_off184 v1186) a + S1x1x128.size a ≤ S704000x1x128.size a)
instance k1_chk92.dec : ∀ (v1186 : BitVec 32), Decidable (k1_chk92 v1186) := fun v1186 => decidable_of_iff' _ (Iff.of_eq (k1_chk92.eq_1 v1186))
theorem k1_off184_inb : ∀ (v1186 : BitVec 32) (k1_hw92 : k1_chk92 v1186), ∀ a, (k1_off184 v1186) a + S1x1x128.size a ≤ S704000x1x128.size a := fun v1186 k1_hw92 => k1_hw92

def k1_off185 (i : grid1.Coords) : Fin 1 → Nat :=
  let arg0 : BitVec 32 := BitVec.ofNat 32 (i 0).val
  let c200_i32_735 : BitVec 32 := 200#32
  let v1196 : BitVec 32 := Scalar.muli arg0 c200_i32_735
  let c92_i32 : BitVec 32 := 92#32
  let v1197 : BitVec 32 := Scalar.addi v1196 c92_i32
  let v1198 : Index := Scalar.indexCast v1197
  ![v1198.toNat]
def k1_off186 (v1199 : BitVec 32) : Fin 3 → Nat :=
  let c0_i32_739 : BitVec 32 := 0#32
  let c0_i32_740 : BitVec 32 := 0#32
  ![v1199.toNat, 0, 0]

def k1_chk93 (v1199 : BitVec 32) : Prop :=
  (∀ a, (k1_off186 v1199) a + S1x1x128.size a ≤ S704000x1x128.size a)
instance k1_chk93.dec : ∀ (v1199 : BitVec 32), Decidable (k1_chk93 v1199) := fun v1199 => decidable_of_iff' _ (Iff.of_eq (k1_chk93.eq_1 v1199))
theorem k1_off186_inb : ∀ (v1199 : BitVec 32) (k1_hw93 : k1_chk93 v1199), ∀ a, (k1_off186 v1199) a + S1x1x128.size a ≤ S704000x1x128.size a := fun v1199 k1_hw93 => k1_hw93

def k1_off187 (i : grid1.Coords) : Fin 1 → Nat :=
  let arg0 : BitVec 32 := BitVec.ofNat 32 (i 0).val
  let c200_i32_743 : BitVec 32 := 200#32
  let v1209 : BitVec 32 := Scalar.muli arg0 c200_i32_743
  let c93_i32 : BitVec 32 := 93#32
  let v1210 : BitVec 32 := Scalar.addi v1209 c93_i32
  let v1211 : Index := Scalar.indexCast v1210
  ![v1211.toNat]
def k1_off188 (v1212 : BitVec 32) : Fin 3 → Nat :=
  let c0_i32_747 : BitVec 32 := 0#32
  let c0_i32_748 : BitVec 32 := 0#32
  ![v1212.toNat, 0, 0]

def k1_chk94 (v1212 : BitVec 32) : Prop :=
  (∀ a, (k1_off188 v1212) a + S1x1x128.size a ≤ S704000x1x128.size a)
instance k1_chk94.dec : ∀ (v1212 : BitVec 32), Decidable (k1_chk94 v1212) := fun v1212 => decidable_of_iff' _ (Iff.of_eq (k1_chk94.eq_1 v1212))
theorem k1_off188_inb : ∀ (v1212 : BitVec 32) (k1_hw94 : k1_chk94 v1212), ∀ a, (k1_off188 v1212) a + S1x1x128.size a ≤ S704000x1x128.size a := fun v1212 k1_hw94 => k1_hw94

def k1_off189 (i : grid1.Coords) : Fin 1 → Nat :=
  let arg0 : BitVec 32 := BitVec.ofNat 32 (i 0).val
  let c200_i32_751 : BitVec 32 := 200#32
  let v1222 : BitVec 32 := Scalar.muli arg0 c200_i32_751
  let c94_i32 : BitVec 32 := 94#32
  let v1223 : BitVec 32 := Scalar.addi v1222 c94_i32
  let v1224 : Index := Scalar.indexCast v1223
  ![v1224.toNat]
def k1_off190 (v1225 : BitVec 32) : Fin 3 → Nat :=
  let c0_i32_755 : BitVec 32 := 0#32
  let c0_i32_756 : BitVec 32 := 0#32
  ![v1225.toNat, 0, 0]

def k1_chk95 (v1225 : BitVec 32) : Prop :=
  (∀ a, (k1_off190 v1225) a + S1x1x128.size a ≤ S704000x1x128.size a)
instance k1_chk95.dec : ∀ (v1225 : BitVec 32), Decidable (k1_chk95 v1225) := fun v1225 => decidable_of_iff' _ (Iff.of_eq (k1_chk95.eq_1 v1225))
theorem k1_off190_inb : ∀ (v1225 : BitVec 32) (k1_hw95 : k1_chk95 v1225), ∀ a, (k1_off190 v1225) a + S1x1x128.size a ≤ S704000x1x128.size a := fun v1225 k1_hw95 => k1_hw95

def k1_off191 (i : grid1.Coords) : Fin 1 → Nat :=
  let arg0 : BitVec 32 := BitVec.ofNat 32 (i 0).val
  let c200_i32_759 : BitVec 32 := 200#32
  let v1235 : BitVec 32 := Scalar.muli arg0 c200_i32_759
  let c95_i32 : BitVec 32 := 95#32
  let v1236 : BitVec 32 := Scalar.addi v1235 c95_i32
  let v1237 : Index := Scalar.indexCast v1236
  ![v1237.toNat]
def k1_off192 (v1238 : BitVec 32) : Fin 3 → Nat :=
  let c0_i32_763 : BitVec 32 := 0#32
  let c0_i32_764 : BitVec 32 := 0#32
  ![v1238.toNat, 0, 0]

def k1_chk96 (v1238 : BitVec 32) : Prop :=
  (∀ a, (k1_off192 v1238) a + S1x1x128.size a ≤ S704000x1x128.size a)
instance k1_chk96.dec : ∀ (v1238 : BitVec 32), Decidable (k1_chk96 v1238) := fun v1238 => decidable_of_iff' _ (Iff.of_eq (k1_chk96.eq_1 v1238))
theorem k1_off192_inb : ∀ (v1238 : BitVec 32) (k1_hw96 : k1_chk96 v1238), ∀ a, (k1_off192 v1238) a + S1x1x128.size a ≤ S704000x1x128.size a := fun v1238 k1_hw96 => k1_hw96

def k1_off193 (i : grid1.Coords) : Fin 1 → Nat :=
  let arg0 : BitVec 32 := BitVec.ofNat 32 (i 0).val
  let c200_i32_767 : BitVec 32 := 200#32
  let v1248 : BitVec 32 := Scalar.muli arg0 c200_i32_767
  let c96_i32 : BitVec 32 := 96#32
  let v1249 : BitVec 32 := Scalar.addi v1248 c96_i32
  let v1250 : Index := Scalar.indexCast v1249
  ![v1250.toNat]
def k1_off194 (v1251 : BitVec 32) : Fin 3 → Nat :=
  let c0_i32_771 : BitVec 32 := 0#32
  let c0_i32_772 : BitVec 32 := 0#32
  ![v1251.toNat, 0, 0]

def k1_chk97 (v1251 : BitVec 32) : Prop :=
  (∀ a, (k1_off194 v1251) a + S1x1x128.size a ≤ S704000x1x128.size a)
instance k1_chk97.dec : ∀ (v1251 : BitVec 32), Decidable (k1_chk97 v1251) := fun v1251 => decidable_of_iff' _ (Iff.of_eq (k1_chk97.eq_1 v1251))
theorem k1_off194_inb : ∀ (v1251 : BitVec 32) (k1_hw97 : k1_chk97 v1251), ∀ a, (k1_off194 v1251) a + S1x1x128.size a ≤ S704000x1x128.size a := fun v1251 k1_hw97 => k1_hw97

def k1_off195 (i : grid1.Coords) : Fin 1 → Nat :=
  let arg0 : BitVec 32 := BitVec.ofNat 32 (i 0).val
  let c200_i32_775 : BitVec 32 := 200#32
  let v1261 : BitVec 32 := Scalar.muli arg0 c200_i32_775
  let c97_i32 : BitVec 32 := 97#32
  let v1262 : BitVec 32 := Scalar.addi v1261 c97_i32
  let v1263 : Index := Scalar.indexCast v1262
  ![v1263.toNat]
def k1_off196 (v1264 : BitVec 32) : Fin 3 → Nat :=
  let c0_i32_779 : BitVec 32 := 0#32
  let c0_i32_780 : BitVec 32 := 0#32
  ![v1264.toNat, 0, 0]

def k1_chk98 (v1264 : BitVec 32) : Prop :=
  (∀ a, (k1_off196 v1264) a + S1x1x128.size a ≤ S704000x1x128.size a)
instance k1_chk98.dec : ∀ (v1264 : BitVec 32), Decidable (k1_chk98 v1264) := fun v1264 => decidable_of_iff' _ (Iff.of_eq (k1_chk98.eq_1 v1264))
theorem k1_off196_inb : ∀ (v1264 : BitVec 32) (k1_hw98 : k1_chk98 v1264), ∀ a, (k1_off196 v1264) a + S1x1x128.size a ≤ S704000x1x128.size a := fun v1264 k1_hw98 => k1_hw98

def k1_off197 (i : grid1.Coords) : Fin 1 → Nat :=
  let arg0 : BitVec 32 := BitVec.ofNat 32 (i 0).val
  let c200_i32_783 : BitVec 32 := 200#32
  let v1274 : BitVec 32 := Scalar.muli arg0 c200_i32_783
  let c98_i32 : BitVec 32 := 98#32
  let v1275 : BitVec 32 := Scalar.addi v1274 c98_i32
  let v1276 : Index := Scalar.indexCast v1275
  ![v1276.toNat]
def k1_off198 (v1277 : BitVec 32) : Fin 3 → Nat :=
  let c0_i32_787 : BitVec 32 := 0#32
  let c0_i32_788 : BitVec 32 := 0#32
  ![v1277.toNat, 0, 0]

def k1_chk99 (v1277 : BitVec 32) : Prop :=
  (∀ a, (k1_off198 v1277) a + S1x1x128.size a ≤ S704000x1x128.size a)
instance k1_chk99.dec : ∀ (v1277 : BitVec 32), Decidable (k1_chk99 v1277) := fun v1277 => decidable_of_iff' _ (Iff.of_eq (k1_chk99.eq_1 v1277))
theorem k1_off198_inb : ∀ (v1277 : BitVec 32) (k1_hw99 : k1_chk99 v1277), ∀ a, (k1_off198 v1277) a + S1x1x128.size a ≤ S704000x1x128.size a := fun v1277 k1_hw99 => k1_hw99

def k1_off199 (i : grid1.Coords) : Fin 1 → Nat :=
  let arg0 : BitVec 32 := BitVec.ofNat 32 (i 0).val
  let c200_i32_791 : BitVec 32 := 200#32
  let v1287 : BitVec 32 := Scalar.muli arg0 c200_i32_791
  let c99_i32 : BitVec 32 := 99#32
  let v1288 : BitVec 32 := Scalar.addi v1287 c99_i32
  let v1289 : Index := Scalar.indexCast v1288
  ![v1289.toNat]
def k1_off200 (v1290 : BitVec 32) : Fin 3 → Nat :=
  let c0_i32_795 : BitVec 32 := 0#32
  let c0_i32_796 : BitVec 32 := 0#32
  ![v1290.toNat, 0, 0]

def k1_chk100 (v1290 : BitVec 32) : Prop :=
  (∀ a, (k1_off200 v1290) a + S1x1x128.size a ≤ S704000x1x128.size a)
instance k1_chk100.dec : ∀ (v1290 : BitVec 32), Decidable (k1_chk100 v1290) := fun v1290 => decidable_of_iff' _ (Iff.of_eq (k1_chk100.eq_1 v1290))
theorem k1_off200_inb : ∀ (v1290 : BitVec 32) (k1_hw100 : k1_chk100 v1290), ∀ a, (k1_off200 v1290) a + S1x1x128.size a ≤ S704000x1x128.size a := fun v1290 k1_hw100 => k1_hw100

def k1_off201 (i : grid1.Coords) : Fin 1 → Nat :=
  let arg0 : BitVec 32 := BitVec.ofNat 32 (i 0).val
  let c200_i32_799 : BitVec 32 := 200#32
  let v1300 : BitVec 32 := Scalar.muli arg0 c200_i32_799
  let c100_i32 : BitVec 32 := 100#32
  let v1301 : BitVec 32 := Scalar.addi v1300 c100_i32
  let v1302 : Index := Scalar.indexCast v1301
  ![v1302.toNat]
def k1_off202 (v1303 : BitVec 32) : Fin 3 → Nat :=
  let c0_i32_803 : BitVec 32 := 0#32
  let c0_i32_804 : BitVec 32 := 0#32
  ![v1303.toNat, 0, 0]

def k1_chk101 (v1303 : BitVec 32) : Prop :=
  (∀ a, (k1_off202 v1303) a + S1x1x128.size a ≤ S704000x1x128.size a)
instance k1_chk101.dec : ∀ (v1303 : BitVec 32), Decidable (k1_chk101 v1303) := fun v1303 => decidable_of_iff' _ (Iff.of_eq (k1_chk101.eq_1 v1303))
theorem k1_off202_inb : ∀ (v1303 : BitVec 32) (k1_hw101 : k1_chk101 v1303), ∀ a, (k1_off202 v1303) a + S1x1x128.size a ≤ S704000x1x128.size a := fun v1303 k1_hw101 => k1_hw101

def k1_off203 (i : grid1.Coords) : Fin 1 → Nat :=
  let arg0 : BitVec 32 := BitVec.ofNat 32 (i 0).val
  let c200_i32_807 : BitVec 32 := 200#32
  let v1313 : BitVec 32 := Scalar.muli arg0 c200_i32_807
  let c101_i32 : BitVec 32 := 101#32
  let v1314 : BitVec 32 := Scalar.addi v1313 c101_i32
  let v1315 : Index := Scalar.indexCast v1314
  ![v1315.toNat]
def k1_off204 (v1316 : BitVec 32) : Fin 3 → Nat :=
  let c0_i32_811 : BitVec 32 := 0#32
  let c0_i32_812 : BitVec 32 := 0#32
  ![v1316.toNat, 0, 0]

def k1_chk102 (v1316 : BitVec 32) : Prop :=
  (∀ a, (k1_off204 v1316) a + S1x1x128.size a ≤ S704000x1x128.size a)
instance k1_chk102.dec : ∀ (v1316 : BitVec 32), Decidable (k1_chk102 v1316) := fun v1316 => decidable_of_iff' _ (Iff.of_eq (k1_chk102.eq_1 v1316))
theorem k1_off204_inb : ∀ (v1316 : BitVec 32) (k1_hw102 : k1_chk102 v1316), ∀ a, (k1_off204 v1316) a + S1x1x128.size a ≤ S704000x1x128.size a := fun v1316 k1_hw102 => k1_hw102

def k1_off205 (i : grid1.Coords) : Fin 1 → Nat :=
  let arg0 : BitVec 32 := BitVec.ofNat 32 (i 0).val
  let c200_i32_815 : BitVec 32 := 200#32
  let v1326 : BitVec 32 := Scalar.muli arg0 c200_i32_815
  let c102_i32 : BitVec 32 := 102#32
  let v1327 : BitVec 32 := Scalar.addi v1326 c102_i32
  let v1328 : Index := Scalar.indexCast v1327
  ![v1328.toNat]
def k1_off206 (v1329 : BitVec 32) : Fin 3 → Nat :=
  let c0_i32_819 : BitVec 32 := 0#32
  let c0_i32_820 : BitVec 32 := 0#32
  ![v1329.toNat, 0, 0]

def k1_chk103 (v1329 : BitVec 32) : Prop :=
  (∀ a, (k1_off206 v1329) a + S1x1x128.size a ≤ S704000x1x128.size a)
instance k1_chk103.dec : ∀ (v1329 : BitVec 32), Decidable (k1_chk103 v1329) := fun v1329 => decidable_of_iff' _ (Iff.of_eq (k1_chk103.eq_1 v1329))
theorem k1_off206_inb : ∀ (v1329 : BitVec 32) (k1_hw103 : k1_chk103 v1329), ∀ a, (k1_off206 v1329) a + S1x1x128.size a ≤ S704000x1x128.size a := fun v1329 k1_hw103 => k1_hw103

def k1_off207 (i : grid1.Coords) : Fin 1 → Nat :=
  let arg0 : BitVec 32 := BitVec.ofNat 32 (i 0).val
  let c200_i32_823 : BitVec 32 := 200#32
  let v1339 : BitVec 32 := Scalar.muli arg0 c200_i32_823
  let c103_i32 : BitVec 32 := 103#32
  let v1340 : BitVec 32 := Scalar.addi v1339 c103_i32
  let v1341 : Index := Scalar.indexCast v1340
  ![v1341.toNat]
def k1_off208 (v1342 : BitVec 32) : Fin 3 → Nat :=
  let c0_i32_827 : BitVec 32 := 0#32
  let c0_i32_828 : BitVec 32 := 0#32
  ![v1342.toNat, 0, 0]

def k1_chk104 (v1342 : BitVec 32) : Prop :=
  (∀ a, (k1_off208 v1342) a + S1x1x128.size a ≤ S704000x1x128.size a)
instance k1_chk104.dec : ∀ (v1342 : BitVec 32), Decidable (k1_chk104 v1342) := fun v1342 => decidable_of_iff' _ (Iff.of_eq (k1_chk104.eq_1 v1342))
theorem k1_off208_inb : ∀ (v1342 : BitVec 32) (k1_hw104 : k1_chk104 v1342), ∀ a, (k1_off208 v1342) a + S1x1x128.size a ≤ S704000x1x128.size a := fun v1342 k1_hw104 => k1_hw104

def k1_off209 (i : grid1.Coords) : Fin 1 → Nat :=
  let arg0 : BitVec 32 := BitVec.ofNat 32 (i 0).val
  let c200_i32_831 : BitVec 32 := 200#32
  let v1352 : BitVec 32 := Scalar.muli arg0 c200_i32_831
  let c104_i32 : BitVec 32 := 104#32
  let v1353 : BitVec 32 := Scalar.addi v1352 c104_i32
  let v1354 : Index := Scalar.indexCast v1353
  ![v1354.toNat]
def k1_off210 (v1355 : BitVec 32) : Fin 3 → Nat :=
  let c0_i32_835 : BitVec 32 := 0#32
  let c0_i32_836 : BitVec 32 := 0#32
  ![v1355.toNat, 0, 0]

def k1_chk105 (v1355 : BitVec 32) : Prop :=
  (∀ a, (k1_off210 v1355) a + S1x1x128.size a ≤ S704000x1x128.size a)
instance k1_chk105.dec : ∀ (v1355 : BitVec 32), Decidable (k1_chk105 v1355) := fun v1355 => decidable_of_iff' _ (Iff.of_eq (k1_chk105.eq_1 v1355))
theorem k1_off210_inb : ∀ (v1355 : BitVec 32) (k1_hw105 : k1_chk105 v1355), ∀ a, (k1_off210 v1355) a + S1x1x128.size a ≤ S704000x1x128.size a := fun v1355 k1_hw105 => k1_hw105

def k1_off211 (i : grid1.Coords) : Fin 1 → Nat :=
  let arg0 : BitVec 32 := BitVec.ofNat 32 (i 0).val
  let c200_i32_839 : BitVec 32 := 200#32
  let v1365 : BitVec 32 := Scalar.muli arg0 c200_i32_839
  let c105_i32 : BitVec 32 := 105#32
  let v1366 : BitVec 32 := Scalar.addi v1365 c105_i32
  let v1367 : Index := Scalar.indexCast v1366
  ![v1367.toNat]
def k1_off212 (v1368 : BitVec 32) : Fin 3 → Nat :=
  let c0_i32_843 : BitVec 32 := 0#32
  let c0_i32_844 : BitVec 32 := 0#32
  ![v1368.toNat, 0, 0]

def k1_chk106 (v1368 : BitVec 32) : Prop :=
  (∀ a, (k1_off212 v1368) a + S1x1x128.size a ≤ S704000x1x128.size a)
instance k1_chk106.dec : ∀ (v1368 : BitVec 32), Decidable (k1_chk106 v1368) := fun v1368 => decidable_of_iff' _ (Iff.of_eq (k1_chk106.eq_1 v1368))
theorem k1_off212_inb : ∀ (v1368 : BitVec 32) (k1_hw106 : k1_chk106 v1368), ∀ a, (k1_off212 v1368) a + S1x1x128.size a ≤ S704000x1x128.size a := fun v1368 k1_hw106 => k1_hw106

def k1_off213 (i : grid1.Coords) : Fin 1 → Nat :=
  let arg0 : BitVec 32 := BitVec.ofNat 32 (i 0).val
  let c200_i32_847 : BitVec 32 := 200#32
  let v1378 : BitVec 32 := Scalar.muli arg0 c200_i32_847
  let c106_i32 : BitVec 32 := 106#32
  let v1379 : BitVec 32 := Scalar.addi v1378 c106_i32
  let v1380 : Index := Scalar.indexCast v1379
  ![v1380.toNat]
def k1_off214 (v1381 : BitVec 32) : Fin 3 → Nat :=
  let c0_i32_851 : BitVec 32 := 0#32
  let c0_i32_852 : BitVec 32 := 0#32
  ![v1381.toNat, 0, 0]

def k1_chk107 (v1381 : BitVec 32) : Prop :=
  (∀ a, (k1_off214 v1381) a + S1x1x128.size a ≤ S704000x1x128.size a)
instance k1_chk107.dec : ∀ (v1381 : BitVec 32), Decidable (k1_chk107 v1381) := fun v1381 => decidable_of_iff' _ (Iff.of_eq (k1_chk107.eq_1 v1381))
theorem k1_off214_inb : ∀ (v1381 : BitVec 32) (k1_hw107 : k1_chk107 v1381), ∀ a, (k1_off214 v1381) a + S1x1x128.size a ≤ S704000x1x128.size a := fun v1381 k1_hw107 => k1_hw107

def k1_off215 (i : grid1.Coords) : Fin 1 → Nat :=
  let arg0 : BitVec 32 := BitVec.ofNat 32 (i 0).val
  let c200_i32_855 : BitVec 32 := 200#32
  let v1391 : BitVec 32 := Scalar.muli arg0 c200_i32_855
  let c107_i32 : BitVec 32 := 107#32
  let v1392 : BitVec 32 := Scalar.addi v1391 c107_i32
  let v1393 : Index := Scalar.indexCast v1392
  ![v1393.toNat]
def k1_off216 (v1394 : BitVec 32) : Fin 3 → Nat :=
  let c0_i32_859 : BitVec 32 := 0#32
  let c0_i32_860 : BitVec 32 := 0#32
  ![v1394.toNat, 0, 0]

def k1_chk108 (v1394 : BitVec 32) : Prop :=
  (∀ a, (k1_off216 v1394) a + S1x1x128.size a ≤ S704000x1x128.size a)
instance k1_chk108.dec : ∀ (v1394 : BitVec 32), Decidable (k1_chk108 v1394) := fun v1394 => decidable_of_iff' _ (Iff.of_eq (k1_chk108.eq_1 v1394))
theorem k1_off216_inb : ∀ (v1394 : BitVec 32) (k1_hw108 : k1_chk108 v1394), ∀ a, (k1_off216 v1394) a + S1x1x128.size a ≤ S704000x1x128.size a := fun v1394 k1_hw108 => k1_hw108

def k1_off217 (i : grid1.Coords) : Fin 1 → Nat :=
  let arg0 : BitVec 32 := BitVec.ofNat 32 (i 0).val
  let c200_i32_863 : BitVec 32 := 200#32
  let v1404 : BitVec 32 := Scalar.muli arg0 c200_i32_863
  let c108_i32 : BitVec 32 := 108#32
  let v1405 : BitVec 32 := Scalar.addi v1404 c108_i32
  let v1406 : Index := Scalar.indexCast v1405
  ![v1406.toNat]
def k1_off218 (v1407 : BitVec 32) : Fin 3 → Nat :=
  let c0_i32_867 : BitVec 32 := 0#32
  let c0_i32_868 : BitVec 32 := 0#32
  ![v1407.toNat, 0, 0]

def k1_chk109 (v1407 : BitVec 32) : Prop :=
  (∀ a, (k1_off218 v1407) a + S1x1x128.size a ≤ S704000x1x128.size a)
instance k1_chk109.dec : ∀ (v1407 : BitVec 32), Decidable (k1_chk109 v1407) := fun v1407 => decidable_of_iff' _ (Iff.of_eq (k1_chk109.eq_1 v1407))
theorem k1_off218_inb : ∀ (v1407 : BitVec 32) (k1_hw109 : k1_chk109 v1407), ∀ a, (k1_off218 v1407) a + S1x1x128.size a ≤ S704000x1x128.size a := fun v1407 k1_hw109 => k1_hw109

def k1_off219 (i : grid1.Coords) : Fin 1 → Nat :=
  let arg0 : BitVec 32 := BitVec.ofNat 32 (i 0).val
  let c200_i32_871 : BitVec 32 := 200#32
  let v1417 : BitVec 32 := Scalar.muli arg0 c200_i32_871
  let c109_i32 : BitVec 32 := 109#32
  let v1418 : BitVec 32 := Scalar.addi v1417 c109_i32
  let v1419 : Index := Scalar.indexCast v1418
  ![v1419.toNat]
def k1_off220 (v1420 : BitVec 32) : Fin 3 → Nat :=
  let c0_i32_875 : BitVec 32 := 0#32
  let c0_i32_876 : BitVec 32 := 0#32
  ![v1420.toNat, 0, 0]

def k1_chk110 (v1420 : BitVec 32) : Prop :=
  (∀ a, (k1_off220 v1420) a + S1x1x128.size a ≤ S704000x1x128.size a)
instance k1_chk110.dec : ∀ (v1420 : BitVec 32), Decidable (k1_chk110 v1420) := fun v1420 => decidable_of_iff' _ (Iff.of_eq (k1_chk110.eq_1 v1420))
theorem k1_off220_inb : ∀ (v1420 : BitVec 32) (k1_hw110 : k1_chk110 v1420), ∀ a, (k1_off220 v1420) a + S1x1x128.size a ≤ S704000x1x128.size a := fun v1420 k1_hw110 => k1_hw110

def k1_off221 (i : grid1.Coords) : Fin 1 → Nat :=
  let arg0 : BitVec 32 := BitVec.ofNat 32 (i 0).val
  let c200_i32_879 : BitVec 32 := 200#32
  let v1430 : BitVec 32 := Scalar.muli arg0 c200_i32_879
  let c110_i32 : BitVec 32 := 110#32
  let v1431 : BitVec 32 := Scalar.addi v1430 c110_i32
  let v1432 : Index := Scalar.indexCast v1431
  ![v1432.toNat]
def k1_off222 (v1433 : BitVec 32) : Fin 3 → Nat :=
  let c0_i32_883 : BitVec 32 := 0#32
  let c0_i32_884 : BitVec 32 := 0#32
  ![v1433.toNat, 0, 0]

def k1_chk111 (v1433 : BitVec 32) : Prop :=
  (∀ a, (k1_off222 v1433) a + S1x1x128.size a ≤ S704000x1x128.size a)
instance k1_chk111.dec : ∀ (v1433 : BitVec 32), Decidable (k1_chk111 v1433) := fun v1433 => decidable_of_iff' _ (Iff.of_eq (k1_chk111.eq_1 v1433))
theorem k1_off222_inb : ∀ (v1433 : BitVec 32) (k1_hw111 : k1_chk111 v1433), ∀ a, (k1_off222 v1433) a + S1x1x128.size a ≤ S704000x1x128.size a := fun v1433 k1_hw111 => k1_hw111

def k1_off223 (i : grid1.Coords) : Fin 1 → Nat :=
  let arg0 : BitVec 32 := BitVec.ofNat 32 (i 0).val
  let c200_i32_887 : BitVec 32 := 200#32
  let v1443 : BitVec 32 := Scalar.muli arg0 c200_i32_887
  let c111_i32 : BitVec 32 := 111#32
  let v1444 : BitVec 32 := Scalar.addi v1443 c111_i32
  let v1445 : Index := Scalar.indexCast v1444
  ![v1445.toNat]
def k1_off224 (v1446 : BitVec 32) : Fin 3 → Nat :=
  let c0_i32_891 : BitVec 32 := 0#32
  let c0_i32_892 : BitVec 32 := 0#32
  ![v1446.toNat, 0, 0]

def k1_chk112 (v1446 : BitVec 32) : Prop :=
  (∀ a, (k1_off224 v1446) a + S1x1x128.size a ≤ S704000x1x128.size a)
instance k1_chk112.dec : ∀ (v1446 : BitVec 32), Decidable (k1_chk112 v1446) := fun v1446 => decidable_of_iff' _ (Iff.of_eq (k1_chk112.eq_1 v1446))
theorem k1_off224_inb : ∀ (v1446 : BitVec 32) (k1_hw112 : k1_chk112 v1446), ∀ a, (k1_off224 v1446) a + S1x1x128.size a ≤ S704000x1x128.size a := fun v1446 k1_hw112 => k1_hw112

def k1_off225 (i : grid1.Coords) : Fin 1 → Nat :=
  let arg0 : BitVec 32 := BitVec.ofNat 32 (i 0).val
  let c200_i32_895 : BitVec 32 := 200#32
  let v1456 : BitVec 32 := Scalar.muli arg0 c200_i32_895
  let c112_i32 : BitVec 32 := 112#32
  let v1457 : BitVec 32 := Scalar.addi v1456 c112_i32
  let v1458 : Index := Scalar.indexCast v1457
  ![v1458.toNat]
def k1_off226 (v1459 : BitVec 32) : Fin 3 → Nat :=
  let c0_i32_899 : BitVec 32 := 0#32
  let c0_i32_900 : BitVec 32 := 0#32
  ![v1459.toNat, 0, 0]

def k1_chk113 (v1459 : BitVec 32) : Prop :=
  (∀ a, (k1_off226 v1459) a + S1x1x128.size a ≤ S704000x1x128.size a)
instance k1_chk113.dec : ∀ (v1459 : BitVec 32), Decidable (k1_chk113 v1459) := fun v1459 => decidable_of_iff' _ (Iff.of_eq (k1_chk113.eq_1 v1459))
theorem k1_off226_inb : ∀ (v1459 : BitVec 32) (k1_hw113 : k1_chk113 v1459), ∀ a, (k1_off226 v1459) a + S1x1x128.size a ≤ S704000x1x128.size a := fun v1459 k1_hw113 => k1_hw113

def k1_off227 (i : grid1.Coords) : Fin 1 → Nat :=
  let arg0 : BitVec 32 := BitVec.ofNat 32 (i 0).val
  let c200_i32_903 : BitVec 32 := 200#32
  let v1469 : BitVec 32 := Scalar.muli arg0 c200_i32_903
  let c113_i32 : BitVec 32 := 113#32
  let v1470 : BitVec 32 := Scalar.addi v1469 c113_i32
  let v1471 : Index := Scalar.indexCast v1470
  ![v1471.toNat]
def k1_off228 (v1472 : BitVec 32) : Fin 3 → Nat :=
  let c0_i32_907 : BitVec 32 := 0#32
  let c0_i32_908 : BitVec 32 := 0#32
  ![v1472.toNat, 0, 0]

def k1_chk114 (v1472 : BitVec 32) : Prop :=
  (∀ a, (k1_off228 v1472) a + S1x1x128.size a ≤ S704000x1x128.size a)
instance k1_chk114.dec : ∀ (v1472 : BitVec 32), Decidable (k1_chk114 v1472) := fun v1472 => decidable_of_iff' _ (Iff.of_eq (k1_chk114.eq_1 v1472))
theorem k1_off228_inb : ∀ (v1472 : BitVec 32) (k1_hw114 : k1_chk114 v1472), ∀ a, (k1_off228 v1472) a + S1x1x128.size a ≤ S704000x1x128.size a := fun v1472 k1_hw114 => k1_hw114

def k1_off229 (i : grid1.Coords) : Fin 1 → Nat :=
  let arg0 : BitVec 32 := BitVec.ofNat 32 (i 0).val
  let c200_i32_911 : BitVec 32 := 200#32
  let v1482 : BitVec 32 := Scalar.muli arg0 c200_i32_911
  let c114_i32 : BitVec 32 := 114#32
  let v1483 : BitVec 32 := Scalar.addi v1482 c114_i32
  let v1484 : Index := Scalar.indexCast v1483
  ![v1484.toNat]
def k1_off230 (v1485 : BitVec 32) : Fin 3 → Nat :=
  let c0_i32_915 : BitVec 32 := 0#32
  let c0_i32_916 : BitVec 32 := 0#32
  ![v1485.toNat, 0, 0]

def k1_chk115 (v1485 : BitVec 32) : Prop :=
  (∀ a, (k1_off230 v1485) a + S1x1x128.size a ≤ S704000x1x128.size a)
instance k1_chk115.dec : ∀ (v1485 : BitVec 32), Decidable (k1_chk115 v1485) := fun v1485 => decidable_of_iff' _ (Iff.of_eq (k1_chk115.eq_1 v1485))
theorem k1_off230_inb : ∀ (v1485 : BitVec 32) (k1_hw115 : k1_chk115 v1485), ∀ a, (k1_off230 v1485) a + S1x1x128.size a ≤ S704000x1x128.size a := fun v1485 k1_hw115 => k1_hw115

def k1_off231 (i : grid1.Coords) : Fin 1 → Nat :=
  let arg0 : BitVec 32 := BitVec.ofNat 32 (i 0).val
  let c200_i32_919 : BitVec 32 := 200#32
  let v1495 : BitVec 32 := Scalar.muli arg0 c200_i32_919
  let c115_i32 : BitVec 32 := 115#32
  let v1496 : BitVec 32 := Scalar.addi v1495 c115_i32
  let v1497 : Index := Scalar.indexCast v1496
  ![v1497.toNat]
def k1_off232 (v1498 : BitVec 32) : Fin 3 → Nat :=
  let c0_i32_923 : BitVec 32 := 0#32
  let c0_i32_924 : BitVec 32 := 0#32
  ![v1498.toNat, 0, 0]

def k1_chk116 (v1498 : BitVec 32) : Prop :=
  (∀ a, (k1_off232 v1498) a + S1x1x128.size a ≤ S704000x1x128.size a)
instance k1_chk116.dec : ∀ (v1498 : BitVec 32), Decidable (k1_chk116 v1498) := fun v1498 => decidable_of_iff' _ (Iff.of_eq (k1_chk116.eq_1 v1498))
theorem k1_off232_inb : ∀ (v1498 : BitVec 32) (k1_hw116 : k1_chk116 v1498), ∀ a, (k1_off232 v1498) a + S1x1x128.size a ≤ S704000x1x128.size a := fun v1498 k1_hw116 => k1_hw116

def k1_off233 (i : grid1.Coords) : Fin 1 → Nat :=
  let arg0 : BitVec 32 := BitVec.ofNat 32 (i 0).val
  let c200_i32_927 : BitVec 32 := 200#32
  let v1508 : BitVec 32 := Scalar.muli arg0 c200_i32_927
  let c116_i32 : BitVec 32 := 116#32
  let v1509 : BitVec 32 := Scalar.addi v1508 c116_i32
  let v1510 : Index := Scalar.indexCast v1509
  ![v1510.toNat]
def k1_off234 (v1511 : BitVec 32) : Fin 3 → Nat :=
  let c0_i32_931 : BitVec 32 := 0#32
  let c0_i32_932 : BitVec 32 := 0#32
  ![v1511.toNat, 0, 0]

def k1_chk117 (v1511 : BitVec 32) : Prop :=
  (∀ a, (k1_off234 v1511) a + S1x1x128.size a ≤ S704000x1x128.size a)
instance k1_chk117.dec : ∀ (v1511 : BitVec 32), Decidable (k1_chk117 v1511) := fun v1511 => decidable_of_iff' _ (Iff.of_eq (k1_chk117.eq_1 v1511))
theorem k1_off234_inb : ∀ (v1511 : BitVec 32) (k1_hw117 : k1_chk117 v1511), ∀ a, (k1_off234 v1511) a + S1x1x128.size a ≤ S704000x1x128.size a := fun v1511 k1_hw117 => k1_hw117

def k1_off235 (i : grid1.Coords) : Fin 1 → Nat :=
  let arg0 : BitVec 32 := BitVec.ofNat 32 (i 0).val
  let c200_i32_935 : BitVec 32 := 200#32
  let v1521 : BitVec 32 := Scalar.muli arg0 c200_i32_935
  let c117_i32 : BitVec 32 := 117#32
  let v1522 : BitVec 32 := Scalar.addi v1521 c117_i32
  let v1523 : Index := Scalar.indexCast v1522
  ![v1523.toNat]
def k1_off236 (v1524 : BitVec 32) : Fin 3 → Nat :=
  let c0_i32_939 : BitVec 32 := 0#32
  let c0_i32_940 : BitVec 32 := 0#32
  ![v1524.toNat, 0, 0]

def k1_chk118 (v1524 : BitVec 32) : Prop :=
  (∀ a, (k1_off236 v1524) a + S1x1x128.size a ≤ S704000x1x128.size a)
instance k1_chk118.dec : ∀ (v1524 : BitVec 32), Decidable (k1_chk118 v1524) := fun v1524 => decidable_of_iff' _ (Iff.of_eq (k1_chk118.eq_1 v1524))
theorem k1_off236_inb : ∀ (v1524 : BitVec 32) (k1_hw118 : k1_chk118 v1524), ∀ a, (k1_off236 v1524) a + S1x1x128.size a ≤ S704000x1x128.size a := fun v1524 k1_hw118 => k1_hw118

def k1_off237 (i : grid1.Coords) : Fin 1 → Nat :=
  let arg0 : BitVec 32 := BitVec.ofNat 32 (i 0).val
  let c200_i32_943 : BitVec 32 := 200#32
  let v1534 : BitVec 32 := Scalar.muli arg0 c200_i32_943
  let c118_i32 : BitVec 32 := 118#32
  let v1535 : BitVec 32 := Scalar.addi v1534 c118_i32
  let v1536 : Index := Scalar.indexCast v1535
  ![v1536.toNat]
def k1_off238 (v1537 : BitVec 32) : Fin 3 → Nat :=
  let c0_i32_947 : BitVec 32 := 0#32
  let c0_i32_948 : BitVec 32 := 0#32
  ![v1537.toNat, 0, 0]

def k1_chk119 (v1537 : BitVec 32) : Prop :=
  (∀ a, (k1_off238 v1537) a + S1x1x128.size a ≤ S704000x1x128.size a)
instance k1_chk119.dec : ∀ (v1537 : BitVec 32), Decidable (k1_chk119 v1537) := fun v1537 => decidable_of_iff' _ (Iff.of_eq (k1_chk119.eq_1 v1537))
theorem k1_off238_inb : ∀ (v1537 : BitVec 32) (k1_hw119 : k1_chk119 v1537), ∀ a, (k1_off238 v1537) a + S1x1x128.size a ≤ S704000x1x128.size a := fun v1537 k1_hw119 => k1_hw119

def k1_off239 (i : grid1.Coords) : Fin 1 → Nat :=
  let arg0 : BitVec 32 := BitVec.ofNat 32 (i 0).val
  let c200_i32_951 : BitVec 32 := 200#32
  let v1547 : BitVec 32 := Scalar.muli arg0 c200_i32_951
  let c119_i32 : BitVec 32 := 119#32
  let v1548 : BitVec 32 := Scalar.addi v1547 c119_i32
  let v1549 : Index := Scalar.indexCast v1548
  ![v1549.toNat]
def k1_off240 (v1550 : BitVec 32) : Fin 3 → Nat :=
  let c0_i32_955 : BitVec 32 := 0#32
  let c0_i32_956 : BitVec 32 := 0#32
  ![v1550.toNat, 0, 0]

def k1_chk120 (v1550 : BitVec 32) : Prop :=
  (∀ a, (k1_off240 v1550) a + S1x1x128.size a ≤ S704000x1x128.size a)
instance k1_chk120.dec : ∀ (v1550 : BitVec 32), Decidable (k1_chk120 v1550) := fun v1550 => decidable_of_iff' _ (Iff.of_eq (k1_chk120.eq_1 v1550))
theorem k1_off240_inb : ∀ (v1550 : BitVec 32) (k1_hw120 : k1_chk120 v1550), ∀ a, (k1_off240 v1550) a + S1x1x128.size a ≤ S704000x1x128.size a := fun v1550 k1_hw120 => k1_hw120

def k1_off241 (i : grid1.Coords) : Fin 1 → Nat :=
  let arg0 : BitVec 32 := BitVec.ofNat 32 (i 0).val
  let c200_i32_959 : BitVec 32 := 200#32
  let v1560 : BitVec 32 := Scalar.muli arg0 c200_i32_959
  let c120_i32 : BitVec 32 := 120#32
  let v1561 : BitVec 32 := Scalar.addi v1560 c120_i32
  let v1562 : Index := Scalar.indexCast v1561
  ![v1562.toNat]
def k1_off242 (v1563 : BitVec 32) : Fin 3 → Nat :=
  let c0_i32_963 : BitVec 32 := 0#32
  let c0_i32_964 : BitVec 32 := 0#32
  ![v1563.toNat, 0, 0]

def k1_chk121 (v1563 : BitVec 32) : Prop :=
  (∀ a, (k1_off242 v1563) a + S1x1x128.size a ≤ S704000x1x128.size a)
instance k1_chk121.dec : ∀ (v1563 : BitVec 32), Decidable (k1_chk121 v1563) := fun v1563 => decidable_of_iff' _ (Iff.of_eq (k1_chk121.eq_1 v1563))
theorem k1_off242_inb : ∀ (v1563 : BitVec 32) (k1_hw121 : k1_chk121 v1563), ∀ a, (k1_off242 v1563) a + S1x1x128.size a ≤ S704000x1x128.size a := fun v1563 k1_hw121 => k1_hw121

def k1_off243 (i : grid1.Coords) : Fin 1 → Nat :=
  let arg0 : BitVec 32 := BitVec.ofNat 32 (i 0).val
  let c200_i32_967 : BitVec 32 := 200#32
  let v1573 : BitVec 32 := Scalar.muli arg0 c200_i32_967
  let c121_i32 : BitVec 32 := 121#32
  let v1574 : BitVec 32 := Scalar.addi v1573 c121_i32
  let v1575 : Index := Scalar.indexCast v1574
  ![v1575.toNat]
def k1_off244 (v1576 : BitVec 32) : Fin 3 → Nat :=
  let c0_i32_971 : BitVec 32 := 0#32
  let c0_i32_972 : BitVec 32 := 0#32
  ![v1576.toNat, 0, 0]

def k1_chk122 (v1576 : BitVec 32) : Prop :=
  (∀ a, (k1_off244 v1576) a + S1x1x128.size a ≤ S704000x1x128.size a)
instance k1_chk122.dec : ∀ (v1576 : BitVec 32), Decidable (k1_chk122 v1576) := fun v1576 => decidable_of_iff' _ (Iff.of_eq (k1_chk122.eq_1 v1576))
theorem k1_off244_inb : ∀ (v1576 : BitVec 32) (k1_hw122 : k1_chk122 v1576), ∀ a, (k1_off244 v1576) a + S1x1x128.size a ≤ S704000x1x128.size a := fun v1576 k1_hw122 => k1_hw122

def k1_off245 (i : grid1.Coords) : Fin 1 → Nat :=
  let arg0 : BitVec 32 := BitVec.ofNat 32 (i 0).val
  let c200_i32_975 : BitVec 32 := 200#32
  let v1586 : BitVec 32 := Scalar.muli arg0 c200_i32_975
  let c122_i32 : BitVec 32 := 122#32
  let v1587 : BitVec 32 := Scalar.addi v1586 c122_i32
  let v1588 : Index := Scalar.indexCast v1587
  ![v1588.toNat]
def k1_off246 (v1589 : BitVec 32) : Fin 3 → Nat :=
  let c0_i32_979 : BitVec 32 := 0#32
  let c0_i32_980 : BitVec 32 := 0#32
  ![v1589.toNat, 0, 0]

def k1_chk123 (v1589 : BitVec 32) : Prop :=
  (∀ a, (k1_off246 v1589) a + S1x1x128.size a ≤ S704000x1x128.size a)
instance k1_chk123.dec : ∀ (v1589 : BitVec 32), Decidable (k1_chk123 v1589) := fun v1589 => decidable_of_iff' _ (Iff.of_eq (k1_chk123.eq_1 v1589))
theorem k1_off246_inb : ∀ (v1589 : BitVec 32) (k1_hw123 : k1_chk123 v1589), ∀ a, (k1_off246 v1589) a + S1x1x128.size a ≤ S704000x1x128.size a := fun v1589 k1_hw123 => k1_hw123

def k1_off247 (i : grid1.Coords) : Fin 1 → Nat :=
  let arg0 : BitVec 32 := BitVec.ofNat 32 (i 0).val
  let c200_i32_983 : BitVec 32 := 200#32
  let v1599 : BitVec 32 := Scalar.muli arg0 c200_i32_983
  let c123_i32 : BitVec 32 := 123#32
  let v1600 : BitVec 32 := Scalar.addi v1599 c123_i32
  let v1601 : Index := Scalar.indexCast v1600
  ![v1601.toNat]
def k1_off248 (v1602 : BitVec 32) : Fin 3 → Nat :=
  let c0_i32_987 : BitVec 32 := 0#32
  let c0_i32_988 : BitVec 32 := 0#32
  ![v1602.toNat, 0, 0]

def k1_chk124 (v1602 : BitVec 32) : Prop :=
  (∀ a, (k1_off248 v1602) a + S1x1x128.size a ≤ S704000x1x128.size a)
instance k1_chk124.dec : ∀ (v1602 : BitVec 32), Decidable (k1_chk124 v1602) := fun v1602 => decidable_of_iff' _ (Iff.of_eq (k1_chk124.eq_1 v1602))
theorem k1_off248_inb : ∀ (v1602 : BitVec 32) (k1_hw124 : k1_chk124 v1602), ∀ a, (k1_off248 v1602) a + S1x1x128.size a ≤ S704000x1x128.size a := fun v1602 k1_hw124 => k1_hw124

def k1_off249 (i : grid1.Coords) : Fin 1 → Nat :=
  let arg0 : BitVec 32 := BitVec.ofNat 32 (i 0).val
  let c200_i32_991 : BitVec 32 := 200#32
  let v1612 : BitVec 32 := Scalar.muli arg0 c200_i32_991
  let c124_i32 : BitVec 32 := 124#32
  let v1613 : BitVec 32 := Scalar.addi v1612 c124_i32
  let v1614 : Index := Scalar.indexCast v1613
  ![v1614.toNat]
def k1_off250 (v1615 : BitVec 32) : Fin 3 → Nat :=
  let c0_i32_995 : BitVec 32 := 0#32
  let c0_i32_996 : BitVec 32 := 0#32
  ![v1615.toNat, 0, 0]

def k1_chk125 (v1615 : BitVec 32) : Prop :=
  (∀ a, (k1_off250 v1615) a + S1x1x128.size a ≤ S704000x1x128.size a)
instance k1_chk125.dec : ∀ (v1615 : BitVec 32), Decidable (k1_chk125 v1615) := fun v1615 => decidable_of_iff' _ (Iff.of_eq (k1_chk125.eq_1 v1615))
theorem k1_off250_inb : ∀ (v1615 : BitVec 32) (k1_hw125 : k1_chk125 v1615), ∀ a, (k1_off250 v1615) a + S1x1x128.size a ≤ S704000x1x128.size a := fun v1615 k1_hw125 => k1_hw125

def k1_off251 (i : grid1.Coords) : Fin 1 → Nat :=
  let arg0 : BitVec 32 := BitVec.ofNat 32 (i 0).val
  let c200_i32_999 : BitVec 32 := 200#32
  let v1625 : BitVec 32 := Scalar.muli arg0 c200_i32_999
  let c125_i32 : BitVec 32 := 125#32
  let v1626 : BitVec 32 := Scalar.addi v1625 c125_i32
  let v1627 : Index := Scalar.indexCast v1626
  ![v1627.toNat]
def k1_off252 (v1628 : BitVec 32) : Fin 3 → Nat :=
  let c0_i32_1003 : BitVec 32 := 0#32
  let c0_i32_1004 : BitVec 32 := 0#32
  ![v1628.toNat, 0, 0]

def k1_chk126 (v1628 : BitVec 32) : Prop :=
  (∀ a, (k1_off252 v1628) a + S1x1x128.size a ≤ S704000x1x128.size a)
instance k1_chk126.dec : ∀ (v1628 : BitVec 32), Decidable (k1_chk126 v1628) := fun v1628 => decidable_of_iff' _ (Iff.of_eq (k1_chk126.eq_1 v1628))
theorem k1_off252_inb : ∀ (v1628 : BitVec 32) (k1_hw126 : k1_chk126 v1628), ∀ a, (k1_off252 v1628) a + S1x1x128.size a ≤ S704000x1x128.size a := fun v1628 k1_hw126 => k1_hw126

def k1_off253 (i : grid1.Coords) : Fin 1 → Nat :=
  let arg0 : BitVec 32 := BitVec.ofNat 32 (i 0).val
  let c200_i32_1007 : BitVec 32 := 200#32
  let v1638 : BitVec 32 := Scalar.muli arg0 c200_i32_1007
  let c126_i32 : BitVec 32 := 126#32
  let v1639 : BitVec 32 := Scalar.addi v1638 c126_i32
  let v1640 : Index := Scalar.indexCast v1639
  ![v1640.toNat]
def k1_off254 (v1641 : BitVec 32) : Fin 3 → Nat :=
  let c0_i32_1011 : BitVec 32 := 0#32
  let c0_i32_1012 : BitVec 32 := 0#32
  ![v1641.toNat, 0, 0]

def k1_chk127 (v1641 : BitVec 32) : Prop :=
  (∀ a, (k1_off254 v1641) a + S1x1x128.size a ≤ S704000x1x128.size a)
instance k1_chk127.dec : ∀ (v1641 : BitVec 32), Decidable (k1_chk127 v1641) := fun v1641 => decidable_of_iff' _ (Iff.of_eq (k1_chk127.eq_1 v1641))
theorem k1_off254_inb : ∀ (v1641 : BitVec 32) (k1_hw127 : k1_chk127 v1641), ∀ a, (k1_off254 v1641) a + S1x1x128.size a ≤ S704000x1x128.size a := fun v1641 k1_hw127 => k1_hw127

def k1_off255 (i : grid1.Coords) : Fin 1 → Nat :=
  let arg0 : BitVec 32 := BitVec.ofNat 32 (i 0).val
  let c200_i32_1015 : BitVec 32 := 200#32
  let v1651 : BitVec 32 := Scalar.muli arg0 c200_i32_1015
  let c127_i32 : BitVec 32 := 127#32
  let v1652 : BitVec 32 := Scalar.addi v1651 c127_i32
  let v1653 : Index := Scalar.indexCast v1652
  ![v1653.toNat]
def k1_off256 (v1654 : BitVec 32) : Fin 3 → Nat :=
  let c0_i32_1019 : BitVec 32 := 0#32
  let c0_i32_1020 : BitVec 32 := 0#32
  ![v1654.toNat, 0, 0]

def k1_chk128 (v1654 : BitVec 32) : Prop :=
  (∀ a, (k1_off256 v1654) a + S1x1x128.size a ≤ S704000x1x128.size a)
instance k1_chk128.dec : ∀ (v1654 : BitVec 32), Decidable (k1_chk128 v1654) := fun v1654 => decidable_of_iff' _ (Iff.of_eq (k1_chk128.eq_1 v1654))
theorem k1_off256_inb : ∀ (v1654 : BitVec 32) (k1_hw128 : k1_chk128 v1654), ∀ a, (k1_off256 v1654) a + S1x1x128.size a ≤ S704000x1x128.size a := fun v1654 k1_hw128 => k1_hw128

def k1_off257 (i : grid1.Coords) : Fin 1 → Nat :=
  let arg0 : BitVec 32 := BitVec.ofNat 32 (i 0).val
  let c200_i32_1023 : BitVec 32 := 200#32
  let v1664 : BitVec 32 := Scalar.muli arg0 c200_i32_1023
  let c128_i32 : BitVec 32 := 128#32
  let v1665 : BitVec 32 := Scalar.addi v1664 c128_i32
  let v1666 : Index := Scalar.indexCast v1665
  ![v1666.toNat]
def k1_off258 (v1667 : BitVec 32) : Fin 3 → Nat :=
  let c0_i32_1027 : BitVec 32 := 0#32
  let c0_i32_1028 : BitVec 32 := 0#32
  ![v1667.toNat, 0, 0]

def k1_chk129 (v1667 : BitVec 32) : Prop :=
  (∀ a, (k1_off258 v1667) a + S1x1x128.size a ≤ S704000x1x128.size a)
instance k1_chk129.dec : ∀ (v1667 : BitVec 32), Decidable (k1_chk129 v1667) := fun v1667 => decidable_of_iff' _ (Iff.of_eq (k1_chk129.eq_1 v1667))
theorem k1_off258_inb : ∀ (v1667 : BitVec 32) (k1_hw129 : k1_chk129 v1667), ∀ a, (k1_off258 v1667) a + S1x1x128.size a ≤ S704000x1x128.size a := fun v1667 k1_hw129 => k1_hw129

def k1_off259 (i : grid1.Coords) : Fin 1 → Nat :=
  let arg0 : BitVec 32 := BitVec.ofNat 32 (i 0).val
  let c200_i32_1031 : BitVec 32 := 200#32
  let v1677 : BitVec 32 := Scalar.muli arg0 c200_i32_1031
  let c129_i32 : BitVec 32 := 129#32
  let v1678 : BitVec 32 := Scalar.addi v1677 c129_i32
  let v1679 : Index := Scalar.indexCast v1678
  ![v1679.toNat]
def k1_off260 (v1680 : BitVec 32) : Fin 3 → Nat :=
  let c0_i32_1035 : BitVec 32 := 0#32
  let c0_i32_1036 : BitVec 32 := 0#32
  ![v1680.toNat, 0, 0]

def k1_chk130 (v1680 : BitVec 32) : Prop :=
  (∀ a, (k1_off260 v1680) a + S1x1x128.size a ≤ S704000x1x128.size a)
instance k1_chk130.dec : ∀ (v1680 : BitVec 32), Decidable (k1_chk130 v1680) := fun v1680 => decidable_of_iff' _ (Iff.of_eq (k1_chk130.eq_1 v1680))
theorem k1_off260_inb : ∀ (v1680 : BitVec 32) (k1_hw130 : k1_chk130 v1680), ∀ a, (k1_off260 v1680) a + S1x1x128.size a ≤ S704000x1x128.size a := fun v1680 k1_hw130 => k1_hw130

def k1_off261 (i : grid1.Coords) : Fin 1 → Nat :=
  let arg0 : BitVec 32 := BitVec.ofNat 32 (i 0).val
  let c200_i32_1039 : BitVec 32 := 200#32
  let v1690 : BitVec 32 := Scalar.muli arg0 c200_i32_1039
  let c130_i32 : BitVec 32 := 130#32
  let v1691 : BitVec 32 := Scalar.addi v1690 c130_i32
  let v1692 : Index := Scalar.indexCast v1691
  ![v1692.toNat]
def k1_off262 (v1693 : BitVec 32) : Fin 3 → Nat :=
  let c0_i32_1043 : BitVec 32 := 0#32
  let c0_i32_1044 : BitVec 32 := 0#32
  ![v1693.toNat, 0, 0]

def k1_chk131 (v1693 : BitVec 32) : Prop :=
  (∀ a, (k1_off262 v1693) a + S1x1x128.size a ≤ S704000x1x128.size a)
instance k1_chk131.dec : ∀ (v1693 : BitVec 32), Decidable (k1_chk131 v1693) := fun v1693 => decidable_of_iff' _ (Iff.of_eq (k1_chk131.eq_1 v1693))
theorem k1_off262_inb : ∀ (v1693 : BitVec 32) (k1_hw131 : k1_chk131 v1693), ∀ a, (k1_off262 v1693) a + S1x1x128.size a ≤ S704000x1x128.size a := fun v1693 k1_hw131 => k1_hw131

def k1_off263 (i : grid1.Coords) : Fin 1 → Nat :=
  let arg0 : BitVec 32 := BitVec.ofNat 32 (i 0).val
  let c200_i32_1047 : BitVec 32 := 200#32
  let v1703 : BitVec 32 := Scalar.muli arg0 c200_i32_1047
  let c131_i32 : BitVec 32 := 131#32
  let v1704 : BitVec 32 := Scalar.addi v1703 c131_i32
  let v1705 : Index := Scalar.indexCast v1704
  ![v1705.toNat]
def k1_off264 (v1706 : BitVec 32) : Fin 3 → Nat :=
  let c0_i32_1051 : BitVec 32 := 0#32
  let c0_i32_1052 : BitVec 32 := 0#32
  ![v1706.toNat, 0, 0]

def k1_chk132 (v1706 : BitVec 32) : Prop :=
  (∀ a, (k1_off264 v1706) a + S1x1x128.size a ≤ S704000x1x128.size a)
instance k1_chk132.dec : ∀ (v1706 : BitVec 32), Decidable (k1_chk132 v1706) := fun v1706 => decidable_of_iff' _ (Iff.of_eq (k1_chk132.eq_1 v1706))
theorem k1_off264_inb : ∀ (v1706 : BitVec 32) (k1_hw132 : k1_chk132 v1706), ∀ a, (k1_off264 v1706) a + S1x1x128.size a ≤ S704000x1x128.size a := fun v1706 k1_hw132 => k1_hw132

def k1_off265 (i : grid1.Coords) : Fin 1 → Nat :=
  let arg0 : BitVec 32 := BitVec.ofNat 32 (i 0).val
  let c200_i32_1055 : BitVec 32 := 200#32
  let v1716 : BitVec 32 := Scalar.muli arg0 c200_i32_1055
  let c132_i32 : BitVec 32 := 132#32
  let v1717 : BitVec 32 := Scalar.addi v1716 c132_i32
  let v1718 : Index := Scalar.indexCast v1717
  ![v1718.toNat]
def k1_off266 (v1719 : BitVec 32) : Fin 3 → Nat :=
  let c0_i32_1059 : BitVec 32 := 0#32
  let c0_i32_1060 : BitVec 32 := 0#32
  ![v1719.toNat, 0, 0]

def k1_chk133 (v1719 : BitVec 32) : Prop :=
  (∀ a, (k1_off266 v1719) a + S1x1x128.size a ≤ S704000x1x128.size a)
instance k1_chk133.dec : ∀ (v1719 : BitVec 32), Decidable (k1_chk133 v1719) := fun v1719 => decidable_of_iff' _ (Iff.of_eq (k1_chk133.eq_1 v1719))
theorem k1_off266_inb : ∀ (v1719 : BitVec 32) (k1_hw133 : k1_chk133 v1719), ∀ a, (k1_off266 v1719) a + S1x1x128.size a ≤ S704000x1x128.size a := fun v1719 k1_hw133 => k1_hw133

def k1_off267 (i : grid1.Coords) : Fin 1 → Nat :=
  let arg0 : BitVec 32 := BitVec.ofNat 32 (i 0).val
  let c200_i32_1063 : BitVec 32 := 200#32
  let v1729 : BitVec 32 := Scalar.muli arg0 c200_i32_1063
  let c133_i32 : BitVec 32 := 133#32
  let v1730 : BitVec 32 := Scalar.addi v1729 c133_i32
  let v1731 : Index := Scalar.indexCast v1730
  ![v1731.toNat]
def k1_off268 (v1732 : BitVec 32) : Fin 3 → Nat :=
  let c0_i32_1067 : BitVec 32 := 0#32
  let c0_i32_1068 : BitVec 32 := 0#32
  ![v1732.toNat, 0, 0]

def k1_chk134 (v1732 : BitVec 32) : Prop :=
  (∀ a, (k1_off268 v1732) a + S1x1x128.size a ≤ S704000x1x128.size a)
instance k1_chk134.dec : ∀ (v1732 : BitVec 32), Decidable (k1_chk134 v1732) := fun v1732 => decidable_of_iff' _ (Iff.of_eq (k1_chk134.eq_1 v1732))
theorem k1_off268_inb : ∀ (v1732 : BitVec 32) (k1_hw134 : k1_chk134 v1732), ∀ a, (k1_off268 v1732) a + S1x1x128.size a ≤ S704000x1x128.size a := fun v1732 k1_hw134 => k1_hw134

def k1_off269 (i : grid1.Coords) : Fin 1 → Nat :=
  let arg0 : BitVec 32 := BitVec.ofNat 32 (i 0).val
  let c200_i32_1071 : BitVec 32 := 200#32
  let v1742 : BitVec 32 := Scalar.muli arg0 c200_i32_1071
  let c134_i32 : BitVec 32 := 134#32
  let v1743 : BitVec 32 := Scalar.addi v1742 c134_i32
  let v1744 : Index := Scalar.indexCast v1743
  ![v1744.toNat]
def k1_off270 (v1745 : BitVec 32) : Fin 3 → Nat :=
  let c0_i32_1075 : BitVec 32 := 0#32
  let c0_i32_1076 : BitVec 32 := 0#32
  ![v1745.toNat, 0, 0]

def k1_chk135 (v1745 : BitVec 32) : Prop :=
  (∀ a, (k1_off270 v1745) a + S1x1x128.size a ≤ S704000x1x128.size a)
instance k1_chk135.dec : ∀ (v1745 : BitVec 32), Decidable (k1_chk135 v1745) := fun v1745 => decidable_of_iff' _ (Iff.of_eq (k1_chk135.eq_1 v1745))
theorem k1_off270_inb : ∀ (v1745 : BitVec 32) (k1_hw135 : k1_chk135 v1745), ∀ a, (k1_off270 v1745) a + S1x1x128.size a ≤ S704000x1x128.size a := fun v1745 k1_hw135 => k1_hw135

def k1_off271 (i : grid1.Coords) : Fin 1 → Nat :=
  let arg0 : BitVec 32 := BitVec.ofNat 32 (i 0).val
  let c200_i32_1079 : BitVec 32 := 200#32
  let v1755 : BitVec 32 := Scalar.muli arg0 c200_i32_1079
  let c135_i32 : BitVec 32 := 135#32
  let v1756 : BitVec 32 := Scalar.addi v1755 c135_i32
  let v1757 : Index := Scalar.indexCast v1756
  ![v1757.toNat]
def k1_off272 (v1758 : BitVec 32) : Fin 3 → Nat :=
  let c0_i32_1083 : BitVec 32 := 0#32
  let c0_i32_1084 : BitVec 32 := 0#32
  ![v1758.toNat, 0, 0]

def k1_chk136 (v1758 : BitVec 32) : Prop :=
  (∀ a, (k1_off272 v1758) a + S1x1x128.size a ≤ S704000x1x128.size a)
instance k1_chk136.dec : ∀ (v1758 : BitVec 32), Decidable (k1_chk136 v1758) := fun v1758 => decidable_of_iff' _ (Iff.of_eq (k1_chk136.eq_1 v1758))
theorem k1_off272_inb : ∀ (v1758 : BitVec 32) (k1_hw136 : k1_chk136 v1758), ∀ a, (k1_off272 v1758) a + S1x1x128.size a ≤ S704000x1x128.size a := fun v1758 k1_hw136 => k1_hw136

def k1_off273 (i : grid1.Coords) : Fin 1 → Nat :=
  let arg0 : BitVec 32 := BitVec.ofNat 32 (i 0).val
  let c200_i32_1087 : BitVec 32 := 200#32
  let v1768 : BitVec 32 := Scalar.muli arg0 c200_i32_1087
  let c136_i32 : BitVec 32 := 136#32
  let v1769 : BitVec 32 := Scalar.addi v1768 c136_i32
  let v1770 : Index := Scalar.indexCast v1769
  ![v1770.toNat]
def k1_off274 (v1771 : BitVec 32) : Fin 3 → Nat :=
  let c0_i32_1091 : BitVec 32 := 0#32
  let c0_i32_1092 : BitVec 32 := 0#32
  ![v1771.toNat, 0, 0]

def k1_chk137 (v1771 : BitVec 32) : Prop :=
  (∀ a, (k1_off274 v1771) a + S1x1x128.size a ≤ S704000x1x128.size a)
instance k1_chk137.dec : ∀ (v1771 : BitVec 32), Decidable (k1_chk137 v1771) := fun v1771 => decidable_of_iff' _ (Iff.of_eq (k1_chk137.eq_1 v1771))
theorem k1_off274_inb : ∀ (v1771 : BitVec 32) (k1_hw137 : k1_chk137 v1771), ∀ a, (k1_off274 v1771) a + S1x1x128.size a ≤ S704000x1x128.size a := fun v1771 k1_hw137 => k1_hw137

def k1_off275 (i : grid1.Coords) : Fin 1 → Nat :=
  let arg0 : BitVec 32 := BitVec.ofNat 32 (i 0).val
  let c200_i32_1095 : BitVec 32 := 200#32
  let v1781 : BitVec 32 := Scalar.muli arg0 c200_i32_1095
  let c137_i32 : BitVec 32 := 137#32
  let v1782 : BitVec 32 := Scalar.addi v1781 c137_i32
  let v1783 : Index := Scalar.indexCast v1782
  ![v1783.toNat]
def k1_off276 (v1784 : BitVec 32) : Fin 3 → Nat :=
  let c0_i32_1099 : BitVec 32 := 0#32
  let c0_i32_1100 : BitVec 32 := 0#32
  ![v1784.toNat, 0, 0]

def k1_chk138 (v1784 : BitVec 32) : Prop :=
  (∀ a, (k1_off276 v1784) a + S1x1x128.size a ≤ S704000x1x128.size a)
instance k1_chk138.dec : ∀ (v1784 : BitVec 32), Decidable (k1_chk138 v1784) := fun v1784 => decidable_of_iff' _ (Iff.of_eq (k1_chk138.eq_1 v1784))
theorem k1_off276_inb : ∀ (v1784 : BitVec 32) (k1_hw138 : k1_chk138 v1784), ∀ a, (k1_off276 v1784) a + S1x1x128.size a ≤ S704000x1x128.size a := fun v1784 k1_hw138 => k1_hw138

def k1_off277 (i : grid1.Coords) : Fin 1 → Nat :=
  let arg0 : BitVec 32 := BitVec.ofNat 32 (i 0).val
  let c200_i32_1103 : BitVec 32 := 200#32
  let v1794 : BitVec 32 := Scalar.muli arg0 c200_i32_1103
  let c138_i32 : BitVec 32 := 138#32
  let v1795 : BitVec 32 := Scalar.addi v1794 c138_i32
  let v1796 : Index := Scalar.indexCast v1795
  ![v1796.toNat]
def k1_off278 (v1797 : BitVec 32) : Fin 3 → Nat :=
  let c0_i32_1107 : BitVec 32 := 0#32
  let c0_i32_1108 : BitVec 32 := 0#32
  ![v1797.toNat, 0, 0]

def k1_chk139 (v1797 : BitVec 32) : Prop :=
  (∀ a, (k1_off278 v1797) a + S1x1x128.size a ≤ S704000x1x128.size a)
instance k1_chk139.dec : ∀ (v1797 : BitVec 32), Decidable (k1_chk139 v1797) := fun v1797 => decidable_of_iff' _ (Iff.of_eq (k1_chk139.eq_1 v1797))
theorem k1_off278_inb : ∀ (v1797 : BitVec 32) (k1_hw139 : k1_chk139 v1797), ∀ a, (k1_off278 v1797) a + S1x1x128.size a ≤ S704000x1x128.size a := fun v1797 k1_hw139 => k1_hw139

def k1_off279 (i : grid1.Coords) : Fin 1 → Nat :=
  let arg0 : BitVec 32 := BitVec.ofNat 32 (i 0).val
  let c200_i32_1111 : BitVec 32 := 200#32
  let v1807 : BitVec 32 := Scalar.muli arg0 c200_i32_1111
  let c139_i32 : BitVec 32 := 139#32
  let v1808 : BitVec 32 := Scalar.addi v1807 c139_i32
  let v1809 : Index := Scalar.indexCast v1808
  ![v1809.toNat]
def k1_off280 (v1810 : BitVec 32) : Fin 3 → Nat :=
  let c0_i32_1115 : BitVec 32 := 0#32
  let c0_i32_1116 : BitVec 32 := 0#32
  ![v1810.toNat, 0, 0]

def k1_chk140 (v1810 : BitVec 32) : Prop :=
  (∀ a, (k1_off280 v1810) a + S1x1x128.size a ≤ S704000x1x128.size a)
instance k1_chk140.dec : ∀ (v1810 : BitVec 32), Decidable (k1_chk140 v1810) := fun v1810 => decidable_of_iff' _ (Iff.of_eq (k1_chk140.eq_1 v1810))
theorem k1_off280_inb : ∀ (v1810 : BitVec 32) (k1_hw140 : k1_chk140 v1810), ∀ a, (k1_off280 v1810) a + S1x1x128.size a ≤ S704000x1x128.size a := fun v1810 k1_hw140 => k1_hw140

def k1_off281 (i : grid1.Coords) : Fin 1 → Nat :=
  let arg0 : BitVec 32 := BitVec.ofNat 32 (i 0).val
  let c200_i32_1119 : BitVec 32 := 200#32
  let v1820 : BitVec 32 := Scalar.muli arg0 c200_i32_1119
  let c140_i32 : BitVec 32 := 140#32
  let v1821 : BitVec 32 := Scalar.addi v1820 c140_i32
  let v1822 : Index := Scalar.indexCast v1821
  ![v1822.toNat]
def k1_off282 (v1823 : BitVec 32) : Fin 3 → Nat :=
  let c0_i32_1123 : BitVec 32 := 0#32
  let c0_i32_1124 : BitVec 32 := 0#32
  ![v1823.toNat, 0, 0]

def k1_chk141 (v1823 : BitVec 32) : Prop :=
  (∀ a, (k1_off282 v1823) a + S1x1x128.size a ≤ S704000x1x128.size a)
instance k1_chk141.dec : ∀ (v1823 : BitVec 32), Decidable (k1_chk141 v1823) := fun v1823 => decidable_of_iff' _ (Iff.of_eq (k1_chk141.eq_1 v1823))
theorem k1_off282_inb : ∀ (v1823 : BitVec 32) (k1_hw141 : k1_chk141 v1823), ∀ a, (k1_off282 v1823) a + S1x1x128.size a ≤ S704000x1x128.size a := fun v1823 k1_hw141 => k1_hw141

def k1_off283 (i : grid1.Coords) : Fin 1 → Nat :=
  let arg0 : BitVec 32 := BitVec.ofNat 32 (i 0).val
  let c200_i32_1127 : BitVec 32 := 200#32
  let v1833 : BitVec 32 := Scalar.muli arg0 c200_i32_1127
  let c141_i32 : BitVec 32 := 141#32
  let v1834 : BitVec 32 := Scalar.addi v1833 c141_i32
  let v1835 : Index := Scalar.indexCast v1834
  ![v1835.toNat]
def k1_off284 (v1836 : BitVec 32) : Fin 3 → Nat :=
  let c0_i32_1131 : BitVec 32 := 0#32
  let c0_i32_1132 : BitVec 32 := 0#32
  ![v1836.toNat, 0, 0]

def k1_chk142 (v1836 : BitVec 32) : Prop :=
  (∀ a, (k1_off284 v1836) a + S1x1x128.size a ≤ S704000x1x128.size a)
instance k1_chk142.dec : ∀ (v1836 : BitVec 32), Decidable (k1_chk142 v1836) := fun v1836 => decidable_of_iff' _ (Iff.of_eq (k1_chk142.eq_1 v1836))
theorem k1_off284_inb : ∀ (v1836 : BitVec 32) (k1_hw142 : k1_chk142 v1836), ∀ a, (k1_off284 v1836) a + S1x1x128.size a ≤ S704000x1x128.size a := fun v1836 k1_hw142 => k1_hw142

def k1_off285 (i : grid1.Coords) : Fin 1 → Nat :=
  let arg0 : BitVec 32 := BitVec.ofNat 32 (i 0).val
  let c200_i32_1135 : BitVec 32 := 200#32
  let v1846 : BitVec 32 := Scalar.muli arg0 c200_i32_1135
  let c142_i32 : BitVec 32 := 142#32
  let v1847 : BitVec 32 := Scalar.addi v1846 c142_i32
  let v1848 : Index := Scalar.indexCast v1847
  ![v1848.toNat]
def k1_off286 (v1849 : BitVec 32) : Fin 3 → Nat :=
  let c0_i32_1139 : BitVec 32 := 0#32
  let c0_i32_1140 : BitVec 32 := 0#32
  ![v1849.toNat, 0, 0]

def k1_chk143 (v1849 : BitVec 32) : Prop :=
  (∀ a, (k1_off286 v1849) a + S1x1x128.size a ≤ S704000x1x128.size a)
instance k1_chk143.dec : ∀ (v1849 : BitVec 32), Decidable (k1_chk143 v1849) := fun v1849 => decidable_of_iff' _ (Iff.of_eq (k1_chk143.eq_1 v1849))
theorem k1_off286_inb : ∀ (v1849 : BitVec 32) (k1_hw143 : k1_chk143 v1849), ∀ a, (k1_off286 v1849) a + S1x1x128.size a ≤ S704000x1x128.size a := fun v1849 k1_hw143 => k1_hw143

def k1_off287 (i : grid1.Coords) : Fin 1 → Nat :=
  let arg0 : BitVec 32 := BitVec.ofNat 32 (i 0).val
  let c200_i32_1143 : BitVec 32 := 200#32
  let v1859 : BitVec 32 := Scalar.muli arg0 c200_i32_1143
  let c143_i32 : BitVec 32 := 143#32
  let v1860 : BitVec 32 := Scalar.addi v1859 c143_i32
  let v1861 : Index := Scalar.indexCast v1860
  ![v1861.toNat]
def k1_off288 (v1862 : BitVec 32) : Fin 3 → Nat :=
  let c0_i32_1147 : BitVec 32 := 0#32
  let c0_i32_1148 : BitVec 32 := 0#32
  ![v1862.toNat, 0, 0]

def k1_chk144 (v1862 : BitVec 32) : Prop :=
  (∀ a, (k1_off288 v1862) a + S1x1x128.size a ≤ S704000x1x128.size a)
instance k1_chk144.dec : ∀ (v1862 : BitVec 32), Decidable (k1_chk144 v1862) := fun v1862 => decidable_of_iff' _ (Iff.of_eq (k1_chk144.eq_1 v1862))
theorem k1_off288_inb : ∀ (v1862 : BitVec 32) (k1_hw144 : k1_chk144 v1862), ∀ a, (k1_off288 v1862) a + S1x1x128.size a ≤ S704000x1x128.size a := fun v1862 k1_hw144 => k1_hw144

def k1_off289 (i : grid1.Coords) : Fin 1 → Nat :=
  let arg0 : BitVec 32 := BitVec.ofNat 32 (i 0).val
  let c200_i32_1151 : BitVec 32 := 200#32
  let v1872 : BitVec 32 := Scalar.muli arg0 c200_i32_1151
  let c144_i32 : BitVec 32 := 144#32
  let v1873 : BitVec 32 := Scalar.addi v1872 c144_i32
  let v1874 : Index := Scalar.indexCast v1873
  ![v1874.toNat]
def k1_off290 (v1875 : BitVec 32) : Fin 3 → Nat :=
  let c0_i32_1155 : BitVec 32 := 0#32
  let c0_i32_1156 : BitVec 32 := 0#32
  ![v1875.toNat, 0, 0]

def k1_chk145 (v1875 : BitVec 32) : Prop :=
  (∀ a, (k1_off290 v1875) a + S1x1x128.size a ≤ S704000x1x128.size a)
instance k1_chk145.dec : ∀ (v1875 : BitVec 32), Decidable (k1_chk145 v1875) := fun v1875 => decidable_of_iff' _ (Iff.of_eq (k1_chk145.eq_1 v1875))
theorem k1_off290_inb : ∀ (v1875 : BitVec 32) (k1_hw145 : k1_chk145 v1875), ∀ a, (k1_off290 v1875) a + S1x1x128.size a ≤ S704000x1x128.size a := fun v1875 k1_hw145 => k1_hw145

def k1_off291 (i : grid1.Coords) : Fin 1 → Nat :=
  let arg0 : BitVec 32 := BitVec.ofNat 32 (i 0).val
  let c200_i32_1159 : BitVec 32 := 200#32
  let v1885 : BitVec 32 := Scalar.muli arg0 c200_i32_1159
  let c145_i32 : BitVec 32 := 145#32
  let v1886 : BitVec 32 := Scalar.addi v1885 c145_i32
  let v1887 : Index := Scalar.indexCast v1886
  ![v1887.toNat]
def k1_off292 (v1888 : BitVec 32) : Fin 3 → Nat :=
  let c0_i32_1163 : BitVec 32 := 0#32
  let c0_i32_1164 : BitVec 32 := 0#32
  ![v1888.toNat, 0, 0]

def k1_chk146 (v1888 : BitVec 32) : Prop :=
  (∀ a, (k1_off292 v1888) a + S1x1x128.size a ≤ S704000x1x128.size a)
instance k1_chk146.dec : ∀ (v1888 : BitVec 32), Decidable (k1_chk146 v1888) := fun v1888 => decidable_of_iff' _ (Iff.of_eq (k1_chk146.eq_1 v1888))
theorem k1_off292_inb : ∀ (v1888 : BitVec 32) (k1_hw146 : k1_chk146 v1888), ∀ a, (k1_off292 v1888) a + S1x1x128.size a ≤ S704000x1x128.size a := fun v1888 k1_hw146 => k1_hw146

def k1_off293 (i : grid1.Coords) : Fin 1 → Nat :=
  let arg0 : BitVec 32 := BitVec.ofNat 32 (i 0).val
  let c200_i32_1167 : BitVec 32 := 200#32
  let v1898 : BitVec 32 := Scalar.muli arg0 c200_i32_1167
  let c146_i32 : BitVec 32 := 146#32
  let v1899 : BitVec 32 := Scalar.addi v1898 c146_i32
  let v1900 : Index := Scalar.indexCast v1899
  ![v1900.toNat]
def k1_off294 (v1901 : BitVec 32) : Fin 3 → Nat :=
  let c0_i32_1171 : BitVec 32 := 0#32
  let c0_i32_1172 : BitVec 32 := 0#32
  ![v1901.toNat, 0, 0]

def k1_chk147 (v1901 : BitVec 32) : Prop :=
  (∀ a, (k1_off294 v1901) a + S1x1x128.size a ≤ S704000x1x128.size a)
instance k1_chk147.dec : ∀ (v1901 : BitVec 32), Decidable (k1_chk147 v1901) := fun v1901 => decidable_of_iff' _ (Iff.of_eq (k1_chk147.eq_1 v1901))
theorem k1_off294_inb : ∀ (v1901 : BitVec 32) (k1_hw147 : k1_chk147 v1901), ∀ a, (k1_off294 v1901) a + S1x1x128.size a ≤ S704000x1x128.size a := fun v1901 k1_hw147 => k1_hw147

def k1_off295 (i : grid1.Coords) : Fin 1 → Nat :=
  let arg0 : BitVec 32 := BitVec.ofNat 32 (i 0).val
  let c200_i32_1175 : BitVec 32 := 200#32
  let v1911 : BitVec 32 := Scalar.muli arg0 c200_i32_1175
  let c147_i32 : BitVec 32 := 147#32
  let v1912 : BitVec 32 := Scalar.addi v1911 c147_i32
  let v1913 : Index := Scalar.indexCast v1912
  ![v1913.toNat]
def k1_off296 (v1914 : BitVec 32) : Fin 3 → Nat :=
  let c0_i32_1179 : BitVec 32 := 0#32
  let c0_i32_1180 : BitVec 32 := 0#32
  ![v1914.toNat, 0, 0]

def k1_chk148 (v1914 : BitVec 32) : Prop :=
  (∀ a, (k1_off296 v1914) a + S1x1x128.size a ≤ S704000x1x128.size a)
instance k1_chk148.dec : ∀ (v1914 : BitVec 32), Decidable (k1_chk148 v1914) := fun v1914 => decidable_of_iff' _ (Iff.of_eq (k1_chk148.eq_1 v1914))
theorem k1_off296_inb : ∀ (v1914 : BitVec 32) (k1_hw148 : k1_chk148 v1914), ∀ a, (k1_off296 v1914) a + S1x1x128.size a ≤ S704000x1x128.size a := fun v1914 k1_hw148 => k1_hw148

def k1_off297 (i : grid1.Coords) : Fin 1 → Nat :=
  let arg0 : BitVec 32 := BitVec.ofNat 32 (i 0).val
  let c200_i32_1183 : BitVec 32 := 200#32
  let v1924 : BitVec 32 := Scalar.muli arg0 c200_i32_1183
  let c148_i32 : BitVec 32 := 148#32
  let v1925 : BitVec 32 := Scalar.addi v1924 c148_i32
  let v1926 : Index := Scalar.indexCast v1925
  ![v1926.toNat]
def k1_off298 (v1927 : BitVec 32) : Fin 3 → Nat :=
  let c0_i32_1187 : BitVec 32 := 0#32
  let c0_i32_1188 : BitVec 32 := 0#32
  ![v1927.toNat, 0, 0]

def k1_chk149 (v1927 : BitVec 32) : Prop :=
  (∀ a, (k1_off298 v1927) a + S1x1x128.size a ≤ S704000x1x128.size a)
instance k1_chk149.dec : ∀ (v1927 : BitVec 32), Decidable (k1_chk149 v1927) := fun v1927 => decidable_of_iff' _ (Iff.of_eq (k1_chk149.eq_1 v1927))
theorem k1_off298_inb : ∀ (v1927 : BitVec 32) (k1_hw149 : k1_chk149 v1927), ∀ a, (k1_off298 v1927) a + S1x1x128.size a ≤ S704000x1x128.size a := fun v1927 k1_hw149 => k1_hw149

def k1_off299 (i : grid1.Coords) : Fin 1 → Nat :=
  let arg0 : BitVec 32 := BitVec.ofNat 32 (i 0).val
  let c200_i32_1191 : BitVec 32 := 200#32
  let v1937 : BitVec 32 := Scalar.muli arg0 c200_i32_1191
  let c149_i32 : BitVec 32 := 149#32
  let v1938 : BitVec 32 := Scalar.addi v1937 c149_i32
  let v1939 : Index := Scalar.indexCast v1938
  ![v1939.toNat]
def k1_off300 (v1940 : BitVec 32) : Fin 3 → Nat :=
  let c0_i32_1195 : BitVec 32 := 0#32
  let c0_i32_1196 : BitVec 32 := 0#32
  ![v1940.toNat, 0, 0]

def k1_chk150 (v1940 : BitVec 32) : Prop :=
  (∀ a, (k1_off300 v1940) a + S1x1x128.size a ≤ S704000x1x128.size a)
instance k1_chk150.dec : ∀ (v1940 : BitVec 32), Decidable (k1_chk150 v1940) := fun v1940 => decidable_of_iff' _ (Iff.of_eq (k1_chk150.eq_1 v1940))
theorem k1_off300_inb : ∀ (v1940 : BitVec 32) (k1_hw150 : k1_chk150 v1940), ∀ a, (k1_off300 v1940) a + S1x1x128.size a ≤ S704000x1x128.size a := fun v1940 k1_hw150 => k1_hw150

def k1_off301 (i : grid1.Coords) : Fin 1 → Nat :=
  let arg0 : BitVec 32 := BitVec.ofNat 32 (i 0).val
  let c200_i32_1199 : BitVec 32 := 200#32
  let v1950 : BitVec 32 := Scalar.muli arg0 c200_i32_1199
  let c150_i32 : BitVec 32 := 150#32
  let v1951 : BitVec 32 := Scalar.addi v1950 c150_i32
  let v1952 : Index := Scalar.indexCast v1951
  ![v1952.toNat]
def k1_off302 (v1953 : BitVec 32) : Fin 3 → Nat :=
  let c0_i32_1203 : BitVec 32 := 0#32
  let c0_i32_1204 : BitVec 32 := 0#32
  ![v1953.toNat, 0, 0]

def k1_chk151 (v1953 : BitVec 32) : Prop :=
  (∀ a, (k1_off302 v1953) a + S1x1x128.size a ≤ S704000x1x128.size a)
instance k1_chk151.dec : ∀ (v1953 : BitVec 32), Decidable (k1_chk151 v1953) := fun v1953 => decidable_of_iff' _ (Iff.of_eq (k1_chk151.eq_1 v1953))
theorem k1_off302_inb : ∀ (v1953 : BitVec 32) (k1_hw151 : k1_chk151 v1953), ∀ a, (k1_off302 v1953) a + S1x1x128.size a ≤ S704000x1x128.size a := fun v1953 k1_hw151 => k1_hw151

def k1_off303 (i : grid1.Coords) : Fin 1 → Nat :=
  let arg0 : BitVec 32 := BitVec.ofNat 32 (i 0).val
  let c200_i32_1207 : BitVec 32 := 200#32
  let v1963 : BitVec 32 := Scalar.muli arg0 c200_i32_1207
  let c151_i32 : BitVec 32 := 151#32
  let v1964 : BitVec 32 := Scalar.addi v1963 c151_i32
  let v1965 : Index := Scalar.indexCast v1964
  ![v1965.toNat]
def k1_off304 (v1966 : BitVec 32) : Fin 3 → Nat :=
  let c0_i32_1211 : BitVec 32 := 0#32
  let c0_i32_1212 : BitVec 32 := 0#32
  ![v1966.toNat, 0, 0]

def k1_chk152 (v1966 : BitVec 32) : Prop :=
  (∀ a, (k1_off304 v1966) a + S1x1x128.size a ≤ S704000x1x128.size a)
instance k1_chk152.dec : ∀ (v1966 : BitVec 32), Decidable (k1_chk152 v1966) := fun v1966 => decidable_of_iff' _ (Iff.of_eq (k1_chk152.eq_1 v1966))
theorem k1_off304_inb : ∀ (v1966 : BitVec 32) (k1_hw152 : k1_chk152 v1966), ∀ a, (k1_off304 v1966) a + S1x1x128.size a ≤ S704000x1x128.size a := fun v1966 k1_hw152 => k1_hw152

def k1_off305 (i : grid1.Coords) : Fin 1 → Nat :=
  let arg0 : BitVec 32 := BitVec.ofNat 32 (i 0).val
  let c200_i32_1215 : BitVec 32 := 200#32
  let v1976 : BitVec 32 := Scalar.muli arg0 c200_i32_1215
  let c152_i32 : BitVec 32 := 152#32
  let v1977 : BitVec 32 := Scalar.addi v1976 c152_i32
  let v1978 : Index := Scalar.indexCast v1977
  ![v1978.toNat]
def k1_off306 (v1979 : BitVec 32) : Fin 3 → Nat :=
  let c0_i32_1219 : BitVec 32 := 0#32
  let c0_i32_1220 : BitVec 32 := 0#32
  ![v1979.toNat, 0, 0]

def k1_chk153 (v1979 : BitVec 32) : Prop :=
  (∀ a, (k1_off306 v1979) a + S1x1x128.size a ≤ S704000x1x128.size a)
instance k1_chk153.dec : ∀ (v1979 : BitVec 32), Decidable (k1_chk153 v1979) := fun v1979 => decidable_of_iff' _ (Iff.of_eq (k1_chk153.eq_1 v1979))
theorem k1_off306_inb : ∀ (v1979 : BitVec 32) (k1_hw153 : k1_chk153 v1979), ∀ a, (k1_off306 v1979) a + S1x1x128.size a ≤ S704000x1x128.size a := fun v1979 k1_hw153 => k1_hw153

def k1_off307 (i : grid1.Coords) : Fin 1 → Nat :=
  let arg0 : BitVec 32 := BitVec.ofNat 32 (i 0).val
  let c200_i32_1223 : BitVec 32 := 200#32
  let v1989 : BitVec 32 := Scalar.muli arg0 c200_i32_1223
  let c153_i32 : BitVec 32 := 153#32
  let v1990 : BitVec 32 := Scalar.addi v1989 c153_i32
  let v1991 : Index := Scalar.indexCast v1990
  ![v1991.toNat]
def k1_off308 (v1992 : BitVec 32) : Fin 3 → Nat :=
  let c0_i32_1227 : BitVec 32 := 0#32
  let c0_i32_1228 : BitVec 32 := 0#32
  ![v1992.toNat, 0, 0]

def k1_chk154 (v1992 : BitVec 32) : Prop :=
  (∀ a, (k1_off308 v1992) a + S1x1x128.size a ≤ S704000x1x128.size a)
instance k1_chk154.dec : ∀ (v1992 : BitVec 32), Decidable (k1_chk154 v1992) := fun v1992 => decidable_of_iff' _ (Iff.of_eq (k1_chk154.eq_1 v1992))
theorem k1_off308_inb : ∀ (v1992 : BitVec 32) (k1_hw154 : k1_chk154 v1992), ∀ a, (k1_off308 v1992) a + S1x1x128.size a ≤ S704000x1x128.size a := fun v1992 k1_hw154 => k1_hw154

def k1_off309 (i : grid1.Coords) : Fin 1 → Nat :=
  let arg0 : BitVec 32 := BitVec.ofNat 32 (i 0).val
  let c200_i32_1231 : BitVec 32 := 200#32
  let v2002 : BitVec 32 := Scalar.muli arg0 c200_i32_1231
  let c154_i32 : BitVec 32 := 154#32
  let v2003 : BitVec 32 := Scalar.addi v2002 c154_i32
  let v2004 : Index := Scalar.indexCast v2003
  ![v2004.toNat]
def k1_off310 (v2005 : BitVec 32) : Fin 3 → Nat :=
  let c0_i32_1235 : BitVec 32 := 0#32
  let c0_i32_1236 : BitVec 32 := 0#32
  ![v2005.toNat, 0, 0]

def k1_chk155 (v2005 : BitVec 32) : Prop :=
  (∀ a, (k1_off310 v2005) a + S1x1x128.size a ≤ S704000x1x128.size a)
instance k1_chk155.dec : ∀ (v2005 : BitVec 32), Decidable (k1_chk155 v2005) := fun v2005 => decidable_of_iff' _ (Iff.of_eq (k1_chk155.eq_1 v2005))
theorem k1_off310_inb : ∀ (v2005 : BitVec 32) (k1_hw155 : k1_chk155 v2005), ∀ a, (k1_off310 v2005) a + S1x1x128.size a ≤ S704000x1x128.size a := fun v2005 k1_hw155 => k1_hw155

def k1_off311 (i : grid1.Coords) : Fin 1 → Nat :=
  let arg0 : BitVec 32 := BitVec.ofNat 32 (i 0).val
  let c200_i32_1239 : BitVec 32 := 200#32
  let v2015 : BitVec 32 := Scalar.muli arg0 c200_i32_1239
  let c155_i32 : BitVec 32 := 155#32
  let v2016 : BitVec 32 := Scalar.addi v2015 c155_i32
  let v2017 : Index := Scalar.indexCast v2016
  ![v2017.toNat]
def k1_off312 (v2018 : BitVec 32) : Fin 3 → Nat :=
  let c0_i32_1243 : BitVec 32 := 0#32
  let c0_i32_1244 : BitVec 32 := 0#32
  ![v2018.toNat, 0, 0]

def k1_chk156 (v2018 : BitVec 32) : Prop :=
  (∀ a, (k1_off312 v2018) a + S1x1x128.size a ≤ S704000x1x128.size a)
instance k1_chk156.dec : ∀ (v2018 : BitVec 32), Decidable (k1_chk156 v2018) := fun v2018 => decidable_of_iff' _ (Iff.of_eq (k1_chk156.eq_1 v2018))
theorem k1_off312_inb : ∀ (v2018 : BitVec 32) (k1_hw156 : k1_chk156 v2018), ∀ a, (k1_off312 v2018) a + S1x1x128.size a ≤ S704000x1x128.size a := fun v2018 k1_hw156 => k1_hw156

def k1_off313 (i : grid1.Coords) : Fin 1 → Nat :=
  let arg0 : BitVec 32 := BitVec.ofNat 32 (i 0).val
  let c200_i32_1247 : BitVec 32 := 200#32
  let v2028 : BitVec 32 := Scalar.muli arg0 c200_i32_1247
  let c156_i32 : BitVec 32 := 156#32
  let v2029 : BitVec 32 := Scalar.addi v2028 c156_i32
  let v2030 : Index := Scalar.indexCast v2029
  ![v2030.toNat]
def k1_off314 (v2031 : BitVec 32) : Fin 3 → Nat :=
  let c0_i32_1251 : BitVec 32 := 0#32
  let c0_i32_1252 : BitVec 32 := 0#32
  ![v2031.toNat, 0, 0]

def k1_chk157 (v2031 : BitVec 32) : Prop :=
  (∀ a, (k1_off314 v2031) a + S1x1x128.size a ≤ S704000x1x128.size a)
instance k1_chk157.dec : ∀ (v2031 : BitVec 32), Decidable (k1_chk157 v2031) := fun v2031 => decidable_of_iff' _ (Iff.of_eq (k1_chk157.eq_1 v2031))
theorem k1_off314_inb : ∀ (v2031 : BitVec 32) (k1_hw157 : k1_chk157 v2031), ∀ a, (k1_off314 v2031) a + S1x1x128.size a ≤ S704000x1x128.size a := fun v2031 k1_hw157 => k1_hw157

def k1_off315 (i : grid1.Coords) : Fin 1 → Nat :=
  let arg0 : BitVec 32 := BitVec.ofNat 32 (i 0).val
  let c200_i32_1255 : BitVec 32 := 200#32
  let v2041 : BitVec 32 := Scalar.muli arg0 c200_i32_1255
  let c157_i32 : BitVec 32 := 157#32
  let v2042 : BitVec 32 := Scalar.addi v2041 c157_i32
  let v2043 : Index := Scalar.indexCast v2042
  ![v2043.toNat]
def k1_off316 (v2044 : BitVec 32) : Fin 3 → Nat :=
  let c0_i32_1259 : BitVec 32 := 0#32
  let c0_i32_1260 : BitVec 32 := 0#32
  ![v2044.toNat, 0, 0]

def k1_chk158 (v2044 : BitVec 32) : Prop :=
  (∀ a, (k1_off316 v2044) a + S1x1x128.size a ≤ S704000x1x128.size a)
instance k1_chk158.dec : ∀ (v2044 : BitVec 32), Decidable (k1_chk158 v2044) := fun v2044 => decidable_of_iff' _ (Iff.of_eq (k1_chk158.eq_1 v2044))
theorem k1_off316_inb : ∀ (v2044 : BitVec 32) (k1_hw158 : k1_chk158 v2044), ∀ a, (k1_off316 v2044) a + S1x1x128.size a ≤ S704000x1x128.size a := fun v2044 k1_hw158 => k1_hw158

def k1_off317 (i : grid1.Coords) : Fin 1 → Nat :=
  let arg0 : BitVec 32 := BitVec.ofNat 32 (i 0).val
  let c200_i32_1263 : BitVec 32 := 200#32
  let v2054 : BitVec 32 := Scalar.muli arg0 c200_i32_1263
  let c158_i32 : BitVec 32 := 158#32
  let v2055 : BitVec 32 := Scalar.addi v2054 c158_i32
  let v2056 : Index := Scalar.indexCast v2055
  ![v2056.toNat]
def k1_off318 (v2057 : BitVec 32) : Fin 3 → Nat :=
  let c0_i32_1267 : BitVec 32 := 0#32
  let c0_i32_1268 : BitVec 32 := 0#32
  ![v2057.toNat, 0, 0]

def k1_chk159 (v2057 : BitVec 32) : Prop :=
  (∀ a, (k1_off318 v2057) a + S1x1x128.size a ≤ S704000x1x128.size a)
instance k1_chk159.dec : ∀ (v2057 : BitVec 32), Decidable (k1_chk159 v2057) := fun v2057 => decidable_of_iff' _ (Iff.of_eq (k1_chk159.eq_1 v2057))
theorem k1_off318_inb : ∀ (v2057 : BitVec 32) (k1_hw159 : k1_chk159 v2057), ∀ a, (k1_off318 v2057) a + S1x1x128.size a ≤ S704000x1x128.size a := fun v2057 k1_hw159 => k1_hw159

def k1_off319 (i : grid1.Coords) : Fin 1 → Nat :=
  let arg0 : BitVec 32 := BitVec.ofNat 32 (i 0).val
  let c200_i32_1271 : BitVec 32 := 200#32
  let v2067 : BitVec 32 := Scalar.muli arg0 c200_i32_1271
  let c159_i32 : BitVec 32 := 159#32
  let v2068 : BitVec 32 := Scalar.addi v2067 c159_i32
  let v2069 : Index := Scalar.indexCast v2068
  ![v2069.toNat]
def k1_off320 (v2070 : BitVec 32) : Fin 3 → Nat :=
  let c0_i32_1275 : BitVec 32 := 0#32
  let c0_i32_1276 : BitVec 32 := 0#32
  ![v2070.toNat, 0, 0]

def k1_chk160 (v2070 : BitVec 32) : Prop :=
  (∀ a, (k1_off320 v2070) a + S1x1x128.size a ≤ S704000x1x128.size a)
instance k1_chk160.dec : ∀ (v2070 : BitVec 32), Decidable (k1_chk160 v2070) := fun v2070 => decidable_of_iff' _ (Iff.of_eq (k1_chk160.eq_1 v2070))
theorem k1_off320_inb : ∀ (v2070 : BitVec 32) (k1_hw160 : k1_chk160 v2070), ∀ a, (k1_off320 v2070) a + S1x1x128.size a ≤ S704000x1x128.size a := fun v2070 k1_hw160 => k1_hw160

def k1_off321 (i : grid1.Coords) : Fin 1 → Nat :=
  let arg0 : BitVec 32 := BitVec.ofNat 32 (i 0).val
  let c200_i32_1279 : BitVec 32 := 200#32
  let v2080 : BitVec 32 := Scalar.muli arg0 c200_i32_1279
  let c160_i32 : BitVec 32 := 160#32
  let v2081 : BitVec 32 := Scalar.addi v2080 c160_i32
  let v2082 : Index := Scalar.indexCast v2081
  ![v2082.toNat]
def k1_off322 (v2083 : BitVec 32) : Fin 3 → Nat :=
  let c0_i32_1283 : BitVec 32 := 0#32
  let c0_i32_1284 : BitVec 32 := 0#32
  ![v2083.toNat, 0, 0]

def k1_chk161 (v2083 : BitVec 32) : Prop :=
  (∀ a, (k1_off322 v2083) a + S1x1x128.size a ≤ S704000x1x128.size a)
instance k1_chk161.dec : ∀ (v2083 : BitVec 32), Decidable (k1_chk161 v2083) := fun v2083 => decidable_of_iff' _ (Iff.of_eq (k1_chk161.eq_1 v2083))
theorem k1_off322_inb : ∀ (v2083 : BitVec 32) (k1_hw161 : k1_chk161 v2083), ∀ a, (k1_off322 v2083) a + S1x1x128.size a ≤ S704000x1x128.size a := fun v2083 k1_hw161 => k1_hw161

def k1_off323 (i : grid1.Coords) : Fin 1 → Nat :=
  let arg0 : BitVec 32 := BitVec.ofNat 32 (i 0).val
  let c200_i32_1287 : BitVec 32 := 200#32
  let v2093 : BitVec 32 := Scalar.muli arg0 c200_i32_1287
  let c161_i32 : BitVec 32 := 161#32
  let v2094 : BitVec 32 := Scalar.addi v2093 c161_i32
  let v2095 : Index := Scalar.indexCast v2094
  ![v2095.toNat]
def k1_off324 (v2096 : BitVec 32) : Fin 3 → Nat :=
  let c0_i32_1291 : BitVec 32 := 0#32
  let c0_i32_1292 : BitVec 32 := 0#32
  ![v2096.toNat, 0, 0]

def k1_chk162 (v2096 : BitVec 32) : Prop :=
  (∀ a, (k1_off324 v2096) a + S1x1x128.size a ≤ S704000x1x128.size a)
instance k1_chk162.dec : ∀ (v2096 : BitVec 32), Decidable (k1_chk162 v2096) := fun v2096 => decidable_of_iff' _ (Iff.of_eq (k1_chk162.eq_1 v2096))
theorem k1_off324_inb : ∀ (v2096 : BitVec 32) (k1_hw162 : k1_chk162 v2096), ∀ a, (k1_off324 v2096) a + S1x1x128.size a ≤ S704000x1x128.size a := fun v2096 k1_hw162 => k1_hw162

def k1_off325 (i : grid1.Coords) : Fin 1 → Nat :=
  let arg0 : BitVec 32 := BitVec.ofNat 32 (i 0).val
  let c200_i32_1295 : BitVec 32 := 200#32
  let v2106 : BitVec 32 := Scalar.muli arg0 c200_i32_1295
  let c162_i32 : BitVec 32 := 162#32
  let v2107 : BitVec 32 := Scalar.addi v2106 c162_i32
  let v2108 : Index := Scalar.indexCast v2107
  ![v2108.toNat]
def k1_off326 (v2109 : BitVec 32) : Fin 3 → Nat :=
  let c0_i32_1299 : BitVec 32 := 0#32
  let c0_i32_1300 : BitVec 32 := 0#32
  ![v2109.toNat, 0, 0]

def k1_chk163 (v2109 : BitVec 32) : Prop :=
  (∀ a, (k1_off326 v2109) a + S1x1x128.size a ≤ S704000x1x128.size a)
instance k1_chk163.dec : ∀ (v2109 : BitVec 32), Decidable (k1_chk163 v2109) := fun v2109 => decidable_of_iff' _ (Iff.of_eq (k1_chk163.eq_1 v2109))
theorem k1_off326_inb : ∀ (v2109 : BitVec 32) (k1_hw163 : k1_chk163 v2109), ∀ a, (k1_off326 v2109) a + S1x1x128.size a ≤ S704000x1x128.size a := fun v2109 k1_hw163 => k1_hw163

def k1_off327 (i : grid1.Coords) : Fin 1 → Nat :=
  let arg0 : BitVec 32 := BitVec.ofNat 32 (i 0).val
  let c200_i32_1303 : BitVec 32 := 200#32
  let v2119 : BitVec 32 := Scalar.muli arg0 c200_i32_1303
  let c163_i32 : BitVec 32 := 163#32
  let v2120 : BitVec 32 := Scalar.addi v2119 c163_i32
  let v2121 : Index := Scalar.indexCast v2120
  ![v2121.toNat]
def k1_off328 (v2122 : BitVec 32) : Fin 3 → Nat :=
  let c0_i32_1307 : BitVec 32 := 0#32
  let c0_i32_1308 : BitVec 32 := 0#32
  ![v2122.toNat, 0, 0]

def k1_chk164 (v2122 : BitVec 32) : Prop :=
  (∀ a, (k1_off328 v2122) a + S1x1x128.size a ≤ S704000x1x128.size a)
instance k1_chk164.dec : ∀ (v2122 : BitVec 32), Decidable (k1_chk164 v2122) := fun v2122 => decidable_of_iff' _ (Iff.of_eq (k1_chk164.eq_1 v2122))
theorem k1_off328_inb : ∀ (v2122 : BitVec 32) (k1_hw164 : k1_chk164 v2122), ∀ a, (k1_off328 v2122) a + S1x1x128.size a ≤ S704000x1x128.size a := fun v2122 k1_hw164 => k1_hw164

def k1_off329 (i : grid1.Coords) : Fin 1 → Nat :=
  let arg0 : BitVec 32 := BitVec.ofNat 32 (i 0).val
  let c200_i32_1311 : BitVec 32 := 200#32
  let v2132 : BitVec 32 := Scalar.muli arg0 c200_i32_1311
  let c164_i32 : BitVec 32 := 164#32
  let v2133 : BitVec 32 := Scalar.addi v2132 c164_i32
  let v2134 : Index := Scalar.indexCast v2133
  ![v2134.toNat]
def k1_off330 (v2135 : BitVec 32) : Fin 3 → Nat :=
  let c0_i32_1315 : BitVec 32 := 0#32
  let c0_i32_1316 : BitVec 32 := 0#32
  ![v2135.toNat, 0, 0]

def k1_chk165 (v2135 : BitVec 32) : Prop :=
  (∀ a, (k1_off330 v2135) a + S1x1x128.size a ≤ S704000x1x128.size a)
instance k1_chk165.dec : ∀ (v2135 : BitVec 32), Decidable (k1_chk165 v2135) := fun v2135 => decidable_of_iff' _ (Iff.of_eq (k1_chk165.eq_1 v2135))
theorem k1_off330_inb : ∀ (v2135 : BitVec 32) (k1_hw165 : k1_chk165 v2135), ∀ a, (k1_off330 v2135) a + S1x1x128.size a ≤ S704000x1x128.size a := fun v2135 k1_hw165 => k1_hw165

def k1_off331 (i : grid1.Coords) : Fin 1 → Nat :=
  let arg0 : BitVec 32 := BitVec.ofNat 32 (i 0).val
  let c200_i32_1319 : BitVec 32 := 200#32
  let v2145 : BitVec 32 := Scalar.muli arg0 c200_i32_1319
  let c165_i32 : BitVec 32 := 165#32
  let v2146 : BitVec 32 := Scalar.addi v2145 c165_i32
  let v2147 : Index := Scalar.indexCast v2146
  ![v2147.toNat]
def k1_off332 (v2148 : BitVec 32) : Fin 3 → Nat :=
  let c0_i32_1323 : BitVec 32 := 0#32
  let c0_i32_1324 : BitVec 32 := 0#32
  ![v2148.toNat, 0, 0]

def k1_chk166 (v2148 : BitVec 32) : Prop :=
  (∀ a, (k1_off332 v2148) a + S1x1x128.size a ≤ S704000x1x128.size a)
instance k1_chk166.dec : ∀ (v2148 : BitVec 32), Decidable (k1_chk166 v2148) := fun v2148 => decidable_of_iff' _ (Iff.of_eq (k1_chk166.eq_1 v2148))
theorem k1_off332_inb : ∀ (v2148 : BitVec 32) (k1_hw166 : k1_chk166 v2148), ∀ a, (k1_off332 v2148) a + S1x1x128.size a ≤ S704000x1x128.size a := fun v2148 k1_hw166 => k1_hw166

def k1_off333 (i : grid1.Coords) : Fin 1 → Nat :=
  let arg0 : BitVec 32 := BitVec.ofNat 32 (i 0).val
  let c200_i32_1327 : BitVec 32 := 200#32
  let v2158 : BitVec 32 := Scalar.muli arg0 c200_i32_1327
  let c166_i32 : BitVec 32 := 166#32
  let v2159 : BitVec 32 := Scalar.addi v2158 c166_i32
  let v2160 : Index := Scalar.indexCast v2159
  ![v2160.toNat]
def k1_off334 (v2161 : BitVec 32) : Fin 3 → Nat :=
  let c0_i32_1331 : BitVec 32 := 0#32
  let c0_i32_1332 : BitVec 32 := 0#32
  ![v2161.toNat, 0, 0]

def k1_chk167 (v2161 : BitVec 32) : Prop :=
  (∀ a, (k1_off334 v2161) a + S1x1x128.size a ≤ S704000x1x128.size a)
instance k1_chk167.dec : ∀ (v2161 : BitVec 32), Decidable (k1_chk167 v2161) := fun v2161 => decidable_of_iff' _ (Iff.of_eq (k1_chk167.eq_1 v2161))
theorem k1_off334_inb : ∀ (v2161 : BitVec 32) (k1_hw167 : k1_chk167 v2161), ∀ a, (k1_off334 v2161) a + S1x1x128.size a ≤ S704000x1x128.size a := fun v2161 k1_hw167 => k1_hw167

def k1_off335 (i : grid1.Coords) : Fin 1 → Nat :=
  let arg0 : BitVec 32 := BitVec.ofNat 32 (i 0).val
  let c200_i32_1335 : BitVec 32 := 200#32
  let v2171 : BitVec 32 := Scalar.muli arg0 c200_i32_1335
  let c167_i32 : BitVec 32 := 167#32
  let v2172 : BitVec 32 := Scalar.addi v2171 c167_i32
  let v2173 : Index := Scalar.indexCast v2172
  ![v2173.toNat]
def k1_off336 (v2174 : BitVec 32) : Fin 3 → Nat :=
  let c0_i32_1339 : BitVec 32 := 0#32
  let c0_i32_1340 : BitVec 32 := 0#32
  ![v2174.toNat, 0, 0]

def k1_chk168 (v2174 : BitVec 32) : Prop :=
  (∀ a, (k1_off336 v2174) a + S1x1x128.size a ≤ S704000x1x128.size a)
instance k1_chk168.dec : ∀ (v2174 : BitVec 32), Decidable (k1_chk168 v2174) := fun v2174 => decidable_of_iff' _ (Iff.of_eq (k1_chk168.eq_1 v2174))
theorem k1_off336_inb : ∀ (v2174 : BitVec 32) (k1_hw168 : k1_chk168 v2174), ∀ a, (k1_off336 v2174) a + S1x1x128.size a ≤ S704000x1x128.size a := fun v2174 k1_hw168 => k1_hw168

def k1_off337 (i : grid1.Coords) : Fin 1 → Nat :=
  let arg0 : BitVec 32 := BitVec.ofNat 32 (i 0).val
  let c200_i32_1343 : BitVec 32 := 200#32
  let v2184 : BitVec 32 := Scalar.muli arg0 c200_i32_1343
  let c168_i32 : BitVec 32 := 168#32
  let v2185 : BitVec 32 := Scalar.addi v2184 c168_i32
  let v2186 : Index := Scalar.indexCast v2185
  ![v2186.toNat]
def k1_off338 (v2187 : BitVec 32) : Fin 3 → Nat :=
  let c0_i32_1347 : BitVec 32 := 0#32
  let c0_i32_1348 : BitVec 32 := 0#32
  ![v2187.toNat, 0, 0]

def k1_chk169 (v2187 : BitVec 32) : Prop :=
  (∀ a, (k1_off338 v2187) a + S1x1x128.size a ≤ S704000x1x128.size a)
instance k1_chk169.dec : ∀ (v2187 : BitVec 32), Decidable (k1_chk169 v2187) := fun v2187 => decidable_of_iff' _ (Iff.of_eq (k1_chk169.eq_1 v2187))
theorem k1_off338_inb : ∀ (v2187 : BitVec 32) (k1_hw169 : k1_chk169 v2187), ∀ a, (k1_off338 v2187) a + S1x1x128.size a ≤ S704000x1x128.size a := fun v2187 k1_hw169 => k1_hw169

def k1_off339 (i : grid1.Coords) : Fin 1 → Nat :=
  let arg0 : BitVec 32 := BitVec.ofNat 32 (i 0).val
  let c200_i32_1351 : BitVec 32 := 200#32
  let v2197 : BitVec 32 := Scalar.muli arg0 c200_i32_1351
  let c169_i32 : BitVec 32 := 169#32
  let v2198 : BitVec 32 := Scalar.addi v2197 c169_i32
  let v2199 : Index := Scalar.indexCast v2198
  ![v2199.toNat]
def k1_off340 (v2200 : BitVec 32) : Fin 3 → Nat :=
  let c0_i32_1355 : BitVec 32 := 0#32
  let c0_i32_1356 : BitVec 32 := 0#32
  ![v2200.toNat, 0, 0]

def k1_chk170 (v2200 : BitVec 32) : Prop :=
  (∀ a, (k1_off340 v2200) a + S1x1x128.size a ≤ S704000x1x128.size a)
instance k1_chk170.dec : ∀ (v2200 : BitVec 32), Decidable (k1_chk170 v2200) := fun v2200 => decidable_of_iff' _ (Iff.of_eq (k1_chk170.eq_1 v2200))
theorem k1_off340_inb : ∀ (v2200 : BitVec 32) (k1_hw170 : k1_chk170 v2200), ∀ a, (k1_off340 v2200) a + S1x1x128.size a ≤ S704000x1x128.size a := fun v2200 k1_hw170 => k1_hw170

def k1_off341 (i : grid1.Coords) : Fin 1 → Nat :=
  let arg0 : BitVec 32 := BitVec.ofNat 32 (i 0).val
  let c200_i32_1359 : BitVec 32 := 200#32
  let v2210 : BitVec 32 := Scalar.muli arg0 c200_i32_1359
  let c170_i32 : BitVec 32 := 170#32
  let v2211 : BitVec 32 := Scalar.addi v2210 c170_i32
  let v2212 : Index := Scalar.indexCast v2211
  ![v2212.toNat]
def k1_off342 (v2213 : BitVec 32) : Fin 3 → Nat :=
  let c0_i32_1363 : BitVec 32 := 0#32
  let c0_i32_1364 : BitVec 32 := 0#32
  ![v2213.toNat, 0, 0]

def k1_chk171 (v2213 : BitVec 32) : Prop :=
  (∀ a, (k1_off342 v2213) a + S1x1x128.size a ≤ S704000x1x128.size a)
instance k1_chk171.dec : ∀ (v2213 : BitVec 32), Decidable (k1_chk171 v2213) := fun v2213 => decidable_of_iff' _ (Iff.of_eq (k1_chk171.eq_1 v2213))
theorem k1_off342_inb : ∀ (v2213 : BitVec 32) (k1_hw171 : k1_chk171 v2213), ∀ a, (k1_off342 v2213) a + S1x1x128.size a ≤ S704000x1x128.size a := fun v2213 k1_hw171 => k1_hw171

def k1_off343 (i : grid1.Coords) : Fin 1 → Nat :=
  let arg0 : BitVec 32 := BitVec.ofNat 32 (i 0).val
  let c200_i32_1367 : BitVec 32 := 200#32
  let v2223 : BitVec 32 := Scalar.muli arg0 c200_i32_1367
  let c171_i32 : BitVec 32 := 171#32
  let v2224 : BitVec 32 := Scalar.addi v2223 c171_i32
  let v2225 : Index := Scalar.indexCast v2224
  ![v2225.toNat]
def k1_off344 (v2226 : BitVec 32) : Fin 3 → Nat :=
  let c0_i32_1371 : BitVec 32 := 0#32
  let c0_i32_1372 : BitVec 32 := 0#32
  ![v2226.toNat, 0, 0]

def k1_chk172 (v2226 : BitVec 32) : Prop :=
  (∀ a, (k1_off344 v2226) a + S1x1x128.size a ≤ S704000x1x128.size a)
instance k1_chk172.dec : ∀ (v2226 : BitVec 32), Decidable (k1_chk172 v2226) := fun v2226 => decidable_of_iff' _ (Iff.of_eq (k1_chk172.eq_1 v2226))
theorem k1_off344_inb : ∀ (v2226 : BitVec 32) (k1_hw172 : k1_chk172 v2226), ∀ a, (k1_off344 v2226) a + S1x1x128.size a ≤ S704000x1x128.size a := fun v2226 k1_hw172 => k1_hw172

def k1_off345 (i : grid1.Coords) : Fin 1 → Nat :=
  let arg0 : BitVec 32 := BitVec.ofNat 32 (i 0).val
  let c200_i32_1375 : BitVec 32 := 200#32
  let v2236 : BitVec 32 := Scalar.muli arg0 c200_i32_1375
  let c172_i32 : BitVec 32 := 172#32
  let v2237 : BitVec 32 := Scalar.addi v2236 c172_i32
  let v2238 : Index := Scalar.indexCast v2237
  ![v2238.toNat]
def k1_off346 (v2239 : BitVec 32) : Fin 3 → Nat :=
  let c0_i32_1379 : BitVec 32 := 0#32
  let c0_i32_1380 : BitVec 32 := 0#32
  ![v2239.toNat, 0, 0]

def k1_chk173 (v2239 : BitVec 32) : Prop :=
  (∀ a, (k1_off346 v2239) a + S1x1x128.size a ≤ S704000x1x128.size a)
instance k1_chk173.dec : ∀ (v2239 : BitVec 32), Decidable (k1_chk173 v2239) := fun v2239 => decidable_of_iff' _ (Iff.of_eq (k1_chk173.eq_1 v2239))
theorem k1_off346_inb : ∀ (v2239 : BitVec 32) (k1_hw173 : k1_chk173 v2239), ∀ a, (k1_off346 v2239) a + S1x1x128.size a ≤ S704000x1x128.size a := fun v2239 k1_hw173 => k1_hw173

def k1_off347 (i : grid1.Coords) : Fin 1 → Nat :=
  let arg0 : BitVec 32 := BitVec.ofNat 32 (i 0).val
  let c200_i32_1383 : BitVec 32 := 200#32
  let v2249 : BitVec 32 := Scalar.muli arg0 c200_i32_1383
  let c173_i32 : BitVec 32 := 173#32
  let v2250 : BitVec 32 := Scalar.addi v2249 c173_i32
  let v2251 : Index := Scalar.indexCast v2250
  ![v2251.toNat]
def k1_off348 (v2252 : BitVec 32) : Fin 3 → Nat :=
  let c0_i32_1387 : BitVec 32 := 0#32
  let c0_i32_1388 : BitVec 32 := 0#32
  ![v2252.toNat, 0, 0]

def k1_chk174 (v2252 : BitVec 32) : Prop :=
  (∀ a, (k1_off348 v2252) a + S1x1x128.size a ≤ S704000x1x128.size a)
instance k1_chk174.dec : ∀ (v2252 : BitVec 32), Decidable (k1_chk174 v2252) := fun v2252 => decidable_of_iff' _ (Iff.of_eq (k1_chk174.eq_1 v2252))
theorem k1_off348_inb : ∀ (v2252 : BitVec 32) (k1_hw174 : k1_chk174 v2252), ∀ a, (k1_off348 v2252) a + S1x1x128.size a ≤ S704000x1x128.size a := fun v2252 k1_hw174 => k1_hw174

def k1_off349 (i : grid1.Coords) : Fin 1 → Nat :=
  let arg0 : BitVec 32 := BitVec.ofNat 32 (i 0).val
  let c200_i32_1391 : BitVec 32 := 200#32
  let v2262 : BitVec 32 := Scalar.muli arg0 c200_i32_1391
  let c174_i32 : BitVec 32 := 174#32
  let v2263 : BitVec 32 := Scalar.addi v2262 c174_i32
  let v2264 : Index := Scalar.indexCast v2263
  ![v2264.toNat]
def k1_off350 (v2265 : BitVec 32) : Fin 3 → Nat :=
  let c0_i32_1395 : BitVec 32 := 0#32
  let c0_i32_1396 : BitVec 32 := 0#32
  ![v2265.toNat, 0, 0]

def k1_chk175 (v2265 : BitVec 32) : Prop :=
  (∀ a, (k1_off350 v2265) a + S1x1x128.size a ≤ S704000x1x128.size a)
instance k1_chk175.dec : ∀ (v2265 : BitVec 32), Decidable (k1_chk175 v2265) := fun v2265 => decidable_of_iff' _ (Iff.of_eq (k1_chk175.eq_1 v2265))
theorem k1_off350_inb : ∀ (v2265 : BitVec 32) (k1_hw175 : k1_chk175 v2265), ∀ a, (k1_off350 v2265) a + S1x1x128.size a ≤ S704000x1x128.size a := fun v2265 k1_hw175 => k1_hw175

def k1_off351 (i : grid1.Coords) : Fin 1 → Nat :=
  let arg0 : BitVec 32 := BitVec.ofNat 32 (i 0).val
  let c200_i32_1399 : BitVec 32 := 200#32
  let v2275 : BitVec 32 := Scalar.muli arg0 c200_i32_1399
  let c175_i32 : BitVec 32 := 175#32
  let v2276 : BitVec 32 := Scalar.addi v2275 c175_i32
  let v2277 : Index := Scalar.indexCast v2276
  ![v2277.toNat]
def k1_off352 (v2278 : BitVec 32) : Fin 3 → Nat :=
  let c0_i32_1403 : BitVec 32 := 0#32
  let c0_i32_1404 : BitVec 32 := 0#32
  ![v2278.toNat, 0, 0]

def k1_chk176 (v2278 : BitVec 32) : Prop :=
  (∀ a, (k1_off352 v2278) a + S1x1x128.size a ≤ S704000x1x128.size a)
instance k1_chk176.dec : ∀ (v2278 : BitVec 32), Decidable (k1_chk176 v2278) := fun v2278 => decidable_of_iff' _ (Iff.of_eq (k1_chk176.eq_1 v2278))
theorem k1_off352_inb : ∀ (v2278 : BitVec 32) (k1_hw176 : k1_chk176 v2278), ∀ a, (k1_off352 v2278) a + S1x1x128.size a ≤ S704000x1x128.size a := fun v2278 k1_hw176 => k1_hw176

def k1_off353 (i : grid1.Coords) : Fin 1 → Nat :=
  let arg0 : BitVec 32 := BitVec.ofNat 32 (i 0).val
  let c200_i32_1407 : BitVec 32 := 200#32
  let v2288 : BitVec 32 := Scalar.muli arg0 c200_i32_1407
  let c176_i32 : BitVec 32 := 176#32
  let v2289 : BitVec 32 := Scalar.addi v2288 c176_i32
  let v2290 : Index := Scalar.indexCast v2289
  ![v2290.toNat]
def k1_off354 (v2291 : BitVec 32) : Fin 3 → Nat :=
  let c0_i32_1411 : BitVec 32 := 0#32
  let c0_i32_1412 : BitVec 32 := 0#32
  ![v2291.toNat, 0, 0]

def k1_chk177 (v2291 : BitVec 32) : Prop :=
  (∀ a, (k1_off354 v2291) a + S1x1x128.size a ≤ S704000x1x128.size a)
instance k1_chk177.dec : ∀ (v2291 : BitVec 32), Decidable (k1_chk177 v2291) := fun v2291 => decidable_of_iff' _ (Iff.of_eq (k1_chk177.eq_1 v2291))
theorem k1_off354_inb : ∀ (v2291 : BitVec 32) (k1_hw177 : k1_chk177 v2291), ∀ a, (k1_off354 v2291) a + S1x1x128.size a ≤ S704000x1x128.size a := fun v2291 k1_hw177 => k1_hw177

def k1_off355 (i : grid1.Coords) : Fin 1 → Nat :=
  let arg0 : BitVec 32 := BitVec.ofNat 32 (i 0).val
  let c200_i32_1415 : BitVec 32 := 200#32
  let v2301 : BitVec 32 := Scalar.muli arg0 c200_i32_1415
  let c177_i32 : BitVec 32 := 177#32
  let v2302 : BitVec 32 := Scalar.addi v2301 c177_i32
  let v2303 : Index := Scalar.indexCast v2302
  ![v2303.toNat]
def k1_off356 (v2304 : BitVec 32) : Fin 3 → Nat :=
  let c0_i32_1419 : BitVec 32 := 0#32
  let c0_i32_1420 : BitVec 32 := 0#32
  ![v2304.toNat, 0, 0]

def k1_chk178 (v2304 : BitVec 32) : Prop :=
  (∀ a, (k1_off356 v2304) a + S1x1x128.size a ≤ S704000x1x128.size a)
instance k1_chk178.dec : ∀ (v2304 : BitVec 32), Decidable (k1_chk178 v2304) := fun v2304 => decidable_of_iff' _ (Iff.of_eq (k1_chk178.eq_1 v2304))
theorem k1_off356_inb : ∀ (v2304 : BitVec 32) (k1_hw178 : k1_chk178 v2304), ∀ a, (k1_off356 v2304) a + S1x1x128.size a ≤ S704000x1x128.size a := fun v2304 k1_hw178 => k1_hw178

def k1_off357 (i : grid1.Coords) : Fin 1 → Nat :=
  let arg0 : BitVec 32 := BitVec.ofNat 32 (i 0).val
  let c200_i32_1423 : BitVec 32 := 200#32
  let v2314 : BitVec 32 := Scalar.muli arg0 c200_i32_1423
  let c178_i32 : BitVec 32 := 178#32
  let v2315 : BitVec 32 := Scalar.addi v2314 c178_i32
  let v2316 : Index := Scalar.indexCast v2315
  ![v2316.toNat]
def k1_off358 (v2317 : BitVec 32) : Fin 3 → Nat :=
  let c0_i32_1427 : BitVec 32 := 0#32
  let c0_i32_1428 : BitVec 32 := 0#32
  ![v2317.toNat, 0, 0]

def k1_chk179 (v2317 : BitVec 32) : Prop :=
  (∀ a, (k1_off358 v2317) a + S1x1x128.size a ≤ S704000x1x128.size a)
instance k1_chk179.dec : ∀ (v2317 : BitVec 32), Decidable (k1_chk179 v2317) := fun v2317 => decidable_of_iff' _ (Iff.of_eq (k1_chk179.eq_1 v2317))
theorem k1_off358_inb : ∀ (v2317 : BitVec 32) (k1_hw179 : k1_chk179 v2317), ∀ a, (k1_off358 v2317) a + S1x1x128.size a ≤ S704000x1x128.size a := fun v2317 k1_hw179 => k1_hw179

def k1_off359 (i : grid1.Coords) : Fin 1 → Nat :=
  let arg0 : BitVec 32 := BitVec.ofNat 32 (i 0).val
  let c200_i32_1431 : BitVec 32 := 200#32
  let v2327 : BitVec 32 := Scalar.muli arg0 c200_i32_1431
  let c179_i32 : BitVec 32 := 179#32
  let v2328 : BitVec 32 := Scalar.addi v2327 c179_i32
  let v2329 : Index := Scalar.indexCast v2328
  ![v2329.toNat]
def k1_off360 (v2330 : BitVec 32) : Fin 3 → Nat :=
  let c0_i32_1435 : BitVec 32 := 0#32
  let c0_i32_1436 : BitVec 32 := 0#32
  ![v2330.toNat, 0, 0]

def k1_chk180 (v2330 : BitVec 32) : Prop :=
  (∀ a, (k1_off360 v2330) a + S1x1x128.size a ≤ S704000x1x128.size a)
instance k1_chk180.dec : ∀ (v2330 : BitVec 32), Decidable (k1_chk180 v2330) := fun v2330 => decidable_of_iff' _ (Iff.of_eq (k1_chk180.eq_1 v2330))
theorem k1_off360_inb : ∀ (v2330 : BitVec 32) (k1_hw180 : k1_chk180 v2330), ∀ a, (k1_off360 v2330) a + S1x1x128.size a ≤ S704000x1x128.size a := fun v2330 k1_hw180 => k1_hw180

def k1_off361 (i : grid1.Coords) : Fin 1 → Nat :=
  let arg0 : BitVec 32 := BitVec.ofNat 32 (i 0).val
  let c200_i32_1439 : BitVec 32 := 200#32
  let v2340 : BitVec 32 := Scalar.muli arg0 c200_i32_1439
  let c180_i32 : BitVec 32 := 180#32
  let v2341 : BitVec 32 := Scalar.addi v2340 c180_i32
  let v2342 : Index := Scalar.indexCast v2341
  ![v2342.toNat]
def k1_off362 (v2343 : BitVec 32) : Fin 3 → Nat :=
  let c0_i32_1443 : BitVec 32 := 0#32
  let c0_i32_1444 : BitVec 32 := 0#32
  ![v2343.toNat, 0, 0]

def k1_chk181 (v2343 : BitVec 32) : Prop :=
  (∀ a, (k1_off362 v2343) a + S1x1x128.size a ≤ S704000x1x128.size a)
instance k1_chk181.dec : ∀ (v2343 : BitVec 32), Decidable (k1_chk181 v2343) := fun v2343 => decidable_of_iff' _ (Iff.of_eq (k1_chk181.eq_1 v2343))
theorem k1_off362_inb : ∀ (v2343 : BitVec 32) (k1_hw181 : k1_chk181 v2343), ∀ a, (k1_off362 v2343) a + S1x1x128.size a ≤ S704000x1x128.size a := fun v2343 k1_hw181 => k1_hw181

def k1_off363 (i : grid1.Coords) : Fin 1 → Nat :=
  let arg0 : BitVec 32 := BitVec.ofNat 32 (i 0).val
  let c200_i32_1447 : BitVec 32 := 200#32
  let v2353 : BitVec 32 := Scalar.muli arg0 c200_i32_1447
  let c181_i32 : BitVec 32 := 181#32
  let v2354 : BitVec 32 := Scalar.addi v2353 c181_i32
  let v2355 : Index := Scalar.indexCast v2354
  ![v2355.toNat]
def k1_off364 (v2356 : BitVec 32) : Fin 3 → Nat :=
  let c0_i32_1451 : BitVec 32 := 0#32
  let c0_i32_1452 : BitVec 32 := 0#32
  ![v2356.toNat, 0, 0]

def k1_chk182 (v2356 : BitVec 32) : Prop :=
  (∀ a, (k1_off364 v2356) a + S1x1x128.size a ≤ S704000x1x128.size a)
instance k1_chk182.dec : ∀ (v2356 : BitVec 32), Decidable (k1_chk182 v2356) := fun v2356 => decidable_of_iff' _ (Iff.of_eq (k1_chk182.eq_1 v2356))
theorem k1_off364_inb : ∀ (v2356 : BitVec 32) (k1_hw182 : k1_chk182 v2356), ∀ a, (k1_off364 v2356) a + S1x1x128.size a ≤ S704000x1x128.size a := fun v2356 k1_hw182 => k1_hw182

def k1_off365 (i : grid1.Coords) : Fin 1 → Nat :=
  let arg0 : BitVec 32 := BitVec.ofNat 32 (i 0).val
  let c200_i32_1455 : BitVec 32 := 200#32
  let v2366 : BitVec 32 := Scalar.muli arg0 c200_i32_1455
  let c182_i32 : BitVec 32 := 182#32
  let v2367 : BitVec 32 := Scalar.addi v2366 c182_i32
  let v2368 : Index := Scalar.indexCast v2367
  ![v2368.toNat]
def k1_off366 (v2369 : BitVec 32) : Fin 3 → Nat :=
  let c0_i32_1459 : BitVec 32 := 0#32
  let c0_i32_1460 : BitVec 32 := 0#32
  ![v2369.toNat, 0, 0]

def k1_chk183 (v2369 : BitVec 32) : Prop :=
  (∀ a, (k1_off366 v2369) a + S1x1x128.size a ≤ S704000x1x128.size a)
instance k1_chk183.dec : ∀ (v2369 : BitVec 32), Decidable (k1_chk183 v2369) := fun v2369 => decidable_of_iff' _ (Iff.of_eq (k1_chk183.eq_1 v2369))
theorem k1_off366_inb : ∀ (v2369 : BitVec 32) (k1_hw183 : k1_chk183 v2369), ∀ a, (k1_off366 v2369) a + S1x1x128.size a ≤ S704000x1x128.size a := fun v2369 k1_hw183 => k1_hw183

def k1_off367 (i : grid1.Coords) : Fin 1 → Nat :=
  let arg0 : BitVec 32 := BitVec.ofNat 32 (i 0).val
  let c200_i32_1463 : BitVec 32 := 200#32
  let v2379 : BitVec 32 := Scalar.muli arg0 c200_i32_1463
  let c183_i32 : BitVec 32 := 183#32
  let v2380 : BitVec 32 := Scalar.addi v2379 c183_i32
  let v2381 : Index := Scalar.indexCast v2380
  ![v2381.toNat]
def k1_off368 (v2382 : BitVec 32) : Fin 3 → Nat :=
  let c0_i32_1467 : BitVec 32 := 0#32
  let c0_i32_1468 : BitVec 32 := 0#32
  ![v2382.toNat, 0, 0]

def k1_chk184 (v2382 : BitVec 32) : Prop :=
  (∀ a, (k1_off368 v2382) a + S1x1x128.size a ≤ S704000x1x128.size a)
instance k1_chk184.dec : ∀ (v2382 : BitVec 32), Decidable (k1_chk184 v2382) := fun v2382 => decidable_of_iff' _ (Iff.of_eq (k1_chk184.eq_1 v2382))
theorem k1_off368_inb : ∀ (v2382 : BitVec 32) (k1_hw184 : k1_chk184 v2382), ∀ a, (k1_off368 v2382) a + S1x1x128.size a ≤ S704000x1x128.size a := fun v2382 k1_hw184 => k1_hw184

def k1_off369 (i : grid1.Coords) : Fin 1 → Nat :=
  let arg0 : BitVec 32 := BitVec.ofNat 32 (i 0).val
  let c200_i32_1471 : BitVec 32 := 200#32
  let v2392 : BitVec 32 := Scalar.muli arg0 c200_i32_1471
  let c184_i32 : BitVec 32 := 184#32
  let v2393 : BitVec 32 := Scalar.addi v2392 c184_i32
  let v2394 : Index := Scalar.indexCast v2393
  ![v2394.toNat]
def k1_off370 (v2395 : BitVec 32) : Fin 3 → Nat :=
  let c0_i32_1475 : BitVec 32 := 0#32
  let c0_i32_1476 : BitVec 32 := 0#32
  ![v2395.toNat, 0, 0]

def k1_chk185 (v2395 : BitVec 32) : Prop :=
  (∀ a, (k1_off370 v2395) a + S1x1x128.size a ≤ S704000x1x128.size a)
instance k1_chk185.dec : ∀ (v2395 : BitVec 32), Decidable (k1_chk185 v2395) := fun v2395 => decidable_of_iff' _ (Iff.of_eq (k1_chk185.eq_1 v2395))
theorem k1_off370_inb : ∀ (v2395 : BitVec 32) (k1_hw185 : k1_chk185 v2395), ∀ a, (k1_off370 v2395) a + S1x1x128.size a ≤ S704000x1x128.size a := fun v2395 k1_hw185 => k1_hw185

def k1_off371 (i : grid1.Coords) : Fin 1 → Nat :=
  let arg0 : BitVec 32 := BitVec.ofNat 32 (i 0).val
  let c200_i32_1479 : BitVec 32 := 200#32
  let v2405 : BitVec 32 := Scalar.muli arg0 c200_i32_1479
  let c185_i32 : BitVec 32 := 185#32
  let v2406 : BitVec 32 := Scalar.addi v2405 c185_i32
  let v2407 : Index := Scalar.indexCast v2406
  ![v2407.toNat]
def k1_off372 (v2408 : BitVec 32) : Fin 3 → Nat :=
  let c0_i32_1483 : BitVec 32 := 0#32
  let c0_i32_1484 : BitVec 32 := 0#32
  ![v2408.toNat, 0, 0]

def k1_chk186 (v2408 : BitVec 32) : Prop :=
  (∀ a, (k1_off372 v2408) a + S1x1x128.size a ≤ S704000x1x128.size a)
instance k1_chk186.dec : ∀ (v2408 : BitVec 32), Decidable (k1_chk186 v2408) := fun v2408 => decidable_of_iff' _ (Iff.of_eq (k1_chk186.eq_1 v2408))
theorem k1_off372_inb : ∀ (v2408 : BitVec 32) (k1_hw186 : k1_chk186 v2408), ∀ a, (k1_off372 v2408) a + S1x1x128.size a ≤ S704000x1x128.size a := fun v2408 k1_hw186 => k1_hw186

def k1_off373 (i : grid1.Coords) : Fin 1 → Nat :=
  let arg0 : BitVec 32 := BitVec.ofNat 32 (i 0).val
  let c200_i32_1487 : BitVec 32 := 200#32
  let v2418 : BitVec 32 := Scalar.muli arg0 c200_i32_1487
  let c186_i32 : BitVec 32 := 186#32
  let v2419 : BitVec 32 := Scalar.addi v2418 c186_i32
  let v2420 : Index := Scalar.indexCast v2419
  ![v2420.toNat]
def k1_off374 (v2421 : BitVec 32) : Fin 3 → Nat :=
  let c0_i32_1491 : BitVec 32 := 0#32
  let c0_i32_1492 : BitVec 32 := 0#32
  ![v2421.toNat, 0, 0]

def k1_chk187 (v2421 : BitVec 32) : Prop :=
  (∀ a, (k1_off374 v2421) a + S1x1x128.size a ≤ S704000x1x128.size a)
instance k1_chk187.dec : ∀ (v2421 : BitVec 32), Decidable (k1_chk187 v2421) := fun v2421 => decidable_of_iff' _ (Iff.of_eq (k1_chk187.eq_1 v2421))
theorem k1_off374_inb : ∀ (v2421 : BitVec 32) (k1_hw187 : k1_chk187 v2421), ∀ a, (k1_off374 v2421) a + S1x1x128.size a ≤ S704000x1x128.size a := fun v2421 k1_hw187 => k1_hw187

def k1_off375 (i : grid1.Coords) : Fin 1 → Nat :=
  let arg0 : BitVec 32 := BitVec.ofNat 32 (i 0).val
  let c200_i32_1495 : BitVec 32 := 200#32
  let v2431 : BitVec 32 := Scalar.muli arg0 c200_i32_1495
  let c187_i32 : BitVec 32 := 187#32
  let v2432 : BitVec 32 := Scalar.addi v2431 c187_i32
  let v2433 : Index := Scalar.indexCast v2432
  ![v2433.toNat]
def k1_off376 (v2434 : BitVec 32) : Fin 3 → Nat :=
  let c0_i32_1499 : BitVec 32 := 0#32
  let c0_i32_1500 : BitVec 32 := 0#32
  ![v2434.toNat, 0, 0]

def k1_chk188 (v2434 : BitVec 32) : Prop :=
  (∀ a, (k1_off376 v2434) a + S1x1x128.size a ≤ S704000x1x128.size a)
instance k1_chk188.dec : ∀ (v2434 : BitVec 32), Decidable (k1_chk188 v2434) := fun v2434 => decidable_of_iff' _ (Iff.of_eq (k1_chk188.eq_1 v2434))
theorem k1_off376_inb : ∀ (v2434 : BitVec 32) (k1_hw188 : k1_chk188 v2434), ∀ a, (k1_off376 v2434) a + S1x1x128.size a ≤ S704000x1x128.size a := fun v2434 k1_hw188 => k1_hw188

def k1_off377 (i : grid1.Coords) : Fin 1 → Nat :=
  let arg0 : BitVec 32 := BitVec.ofNat 32 (i 0).val
  let c200_i32_1503 : BitVec 32 := 200#32
  let v2444 : BitVec 32 := Scalar.muli arg0 c200_i32_1503
  let c188_i32 : BitVec 32 := 188#32
  let v2445 : BitVec 32 := Scalar.addi v2444 c188_i32
  let v2446 : Index := Scalar.indexCast v2445
  ![v2446.toNat]
def k1_off378 (v2447 : BitVec 32) : Fin 3 → Nat :=
  let c0_i32_1507 : BitVec 32 := 0#32
  let c0_i32_1508 : BitVec 32 := 0#32
  ![v2447.toNat, 0, 0]

def k1_chk189 (v2447 : BitVec 32) : Prop :=
  (∀ a, (k1_off378 v2447) a + S1x1x128.size a ≤ S704000x1x128.size a)
instance k1_chk189.dec : ∀ (v2447 : BitVec 32), Decidable (k1_chk189 v2447) := fun v2447 => decidable_of_iff' _ (Iff.of_eq (k1_chk189.eq_1 v2447))
theorem k1_off378_inb : ∀ (v2447 : BitVec 32) (k1_hw189 : k1_chk189 v2447), ∀ a, (k1_off378 v2447) a + S1x1x128.size a ≤ S704000x1x128.size a := fun v2447 k1_hw189 => k1_hw189

def k1_off379 (i : grid1.Coords) : Fin 1 → Nat :=
  let arg0 : BitVec 32 := BitVec.ofNat 32 (i 0).val
  let c200_i32_1511 : BitVec 32 := 200#32
  let v2457 : BitVec 32 := Scalar.muli arg0 c200_i32_1511
  let c189_i32 : BitVec 32 := 189#32
  let v2458 : BitVec 32 := Scalar.addi v2457 c189_i32
  let v2459 : Index := Scalar.indexCast v2458
  ![v2459.toNat]
def k1_off380 (v2460 : BitVec 32) : Fin 3 → Nat :=
  let c0_i32_1515 : BitVec 32 := 0#32
  let c0_i32_1516 : BitVec 32 := 0#32
  ![v2460.toNat, 0, 0]

def k1_chk190 (v2460 : BitVec 32) : Prop :=
  (∀ a, (k1_off380 v2460) a + S1x1x128.size a ≤ S704000x1x128.size a)
instance k1_chk190.dec : ∀ (v2460 : BitVec 32), Decidable (k1_chk190 v2460) := fun v2460 => decidable_of_iff' _ (Iff.of_eq (k1_chk190.eq_1 v2460))
theorem k1_off380_inb : ∀ (v2460 : BitVec 32) (k1_hw190 : k1_chk190 v2460), ∀ a, (k1_off380 v2460) a + S1x1x128.size a ≤ S704000x1x128.size a := fun v2460 k1_hw190 => k1_hw190

def k1_off381 (i : grid1.Coords) : Fin 1 → Nat :=
  let arg0 : BitVec 32 := BitVec.ofNat 32 (i 0).val
  let c200_i32_1519 : BitVec 32 := 200#32
  let v2470 : BitVec 32 := Scalar.muli arg0 c200_i32_1519
  let c190_i32 : BitVec 32 := 190#32
  let v2471 : BitVec 32 := Scalar.addi v2470 c190_i32
  let v2472 : Index := Scalar.indexCast v2471
  ![v2472.toNat]
def k1_off382 (v2473 : BitVec 32) : Fin 3 → Nat :=
  let c0_i32_1523 : BitVec 32 := 0#32
  let c0_i32_1524 : BitVec 32 := 0#32
  ![v2473.toNat, 0, 0]

def k1_chk191 (v2473 : BitVec 32) : Prop :=
  (∀ a, (k1_off382 v2473) a + S1x1x128.size a ≤ S704000x1x128.size a)
instance k1_chk191.dec : ∀ (v2473 : BitVec 32), Decidable (k1_chk191 v2473) := fun v2473 => decidable_of_iff' _ (Iff.of_eq (k1_chk191.eq_1 v2473))
theorem k1_off382_inb : ∀ (v2473 : BitVec 32) (k1_hw191 : k1_chk191 v2473), ∀ a, (k1_off382 v2473) a + S1x1x128.size a ≤ S704000x1x128.size a := fun v2473 k1_hw191 => k1_hw191

def k1_off383 (i : grid1.Coords) : Fin 1 → Nat :=
  let arg0 : BitVec 32 := BitVec.ofNat 32 (i 0).val
  let c200_i32_1527 : BitVec 32 := 200#32
  let v2483 : BitVec 32 := Scalar.muli arg0 c200_i32_1527
  let c191_i32 : BitVec 32 := 191#32
  let v2484 : BitVec 32 := Scalar.addi v2483 c191_i32
  let v2485 : Index := Scalar.indexCast v2484
  ![v2485.toNat]
def k1_off384 (v2486 : BitVec 32) : Fin 3 → Nat :=
  let c0_i32_1531 : BitVec 32 := 0#32
  let c0_i32_1532 : BitVec 32 := 0#32
  ![v2486.toNat, 0, 0]

def k1_chk192 (v2486 : BitVec 32) : Prop :=
  (∀ a, (k1_off384 v2486) a + S1x1x128.size a ≤ S704000x1x128.size a)
instance k1_chk192.dec : ∀ (v2486 : BitVec 32), Decidable (k1_chk192 v2486) := fun v2486 => decidable_of_iff' _ (Iff.of_eq (k1_chk192.eq_1 v2486))
theorem k1_off384_inb : ∀ (v2486 : BitVec 32) (k1_hw192 : k1_chk192 v2486), ∀ a, (k1_off384 v2486) a + S1x1x128.size a ≤ S704000x1x128.size a := fun v2486 k1_hw192 => k1_hw192

def k1_off385 (i : grid1.Coords) : Fin 1 → Nat :=
  let arg0 : BitVec 32 := BitVec.ofNat 32 (i 0).val
  let c200_i32_1535 : BitVec 32 := 200#32
  let v2496 : BitVec 32 := Scalar.muli arg0 c200_i32_1535
  let c192_i32 : BitVec 32 := 192#32
  let v2497 : BitVec 32 := Scalar.addi v2496 c192_i32
  let v2498 : Index := Scalar.indexCast v2497
  ![v2498.toNat]
def k1_off386 (v2499 : BitVec 32) : Fin 3 → Nat :=
  let c0_i32_1539 : BitVec 32 := 0#32
  let c0_i32_1540 : BitVec 32 := 0#32
  ![v2499.toNat, 0, 0]

def k1_chk193 (v2499 : BitVec 32) : Prop :=
  (∀ a, (k1_off386 v2499) a + S1x1x128.size a ≤ S704000x1x128.size a)
instance k1_chk193.dec : ∀ (v2499 : BitVec 32), Decidable (k1_chk193 v2499) := fun v2499 => decidable_of_iff' _ (Iff.of_eq (k1_chk193.eq_1 v2499))
theorem k1_off386_inb : ∀ (v2499 : BitVec 32) (k1_hw193 : k1_chk193 v2499), ∀ a, (k1_off386 v2499) a + S1x1x128.size a ≤ S704000x1x128.size a := fun v2499 k1_hw193 => k1_hw193

def k1_off387 (i : grid1.Coords) : Fin 1 → Nat :=
  let arg0 : BitVec 32 := BitVec.ofNat 32 (i 0).val
  let c200_i32_1543 : BitVec 32 := 200#32
  let v2509 : BitVec 32 := Scalar.muli arg0 c200_i32_1543
  let c193_i32 : BitVec 32 := 193#32
  let v2510 : BitVec 32 := Scalar.addi v2509 c193_i32
  let v2511 : Index := Scalar.indexCast v2510
  ![v2511.toNat]
def k1_off388 (v2512 : BitVec 32) : Fin 3 → Nat :=
  let c0_i32_1547 : BitVec 32 := 0#32
  let c0_i32_1548 : BitVec 32 := 0#32
  ![v2512.toNat, 0, 0]

def k1_chk194 (v2512 : BitVec 32) : Prop :=
  (∀ a, (k1_off388 v2512) a + S1x1x128.size a ≤ S704000x1x128.size a)
instance k1_chk194.dec : ∀ (v2512 : BitVec 32), Decidable (k1_chk194 v2512) := fun v2512 => decidable_of_iff' _ (Iff.of_eq (k1_chk194.eq_1 v2512))
theorem k1_off388_inb : ∀ (v2512 : BitVec 32) (k1_hw194 : k1_chk194 v2512), ∀ a, (k1_off388 v2512) a + S1x1x128.size a ≤ S704000x1x128.size a := fun v2512 k1_hw194 => k1_hw194

def k1_off389 (i : grid1.Coords) : Fin 1 → Nat :=
  let arg0 : BitVec 32 := BitVec.ofNat 32 (i 0).val
  let c200_i32_1551 : BitVec 32 := 200#32
  let v2522 : BitVec 32 := Scalar.muli arg0 c200_i32_1551
  let c194_i32 : BitVec 32 := 194#32
  let v2523 : BitVec 32 := Scalar.addi v2522 c194_i32
  let v2524 : Index := Scalar.indexCast v2523
  ![v2524.toNat]
def k1_off390 (v2525 : BitVec 32) : Fin 3 → Nat :=
  let c0_i32_1555 : BitVec 32 := 0#32
  let c0_i32_1556 : BitVec 32 := 0#32
  ![v2525.toNat, 0, 0]

def k1_chk195 (v2525 : BitVec 32) : Prop :=
  (∀ a, (k1_off390 v2525) a + S1x1x128.size a ≤ S704000x1x128.size a)
instance k1_chk195.dec : ∀ (v2525 : BitVec 32), Decidable (k1_chk195 v2525) := fun v2525 => decidable_of_iff' _ (Iff.of_eq (k1_chk195.eq_1 v2525))
theorem k1_off390_inb : ∀ (v2525 : BitVec 32) (k1_hw195 : k1_chk195 v2525), ∀ a, (k1_off390 v2525) a + S1x1x128.size a ≤ S704000x1x128.size a := fun v2525 k1_hw195 => k1_hw195

def k1_off391 (i : grid1.Coords) : Fin 1 → Nat :=
  let arg0 : BitVec 32 := BitVec.ofNat 32 (i 0).val
  let c200_i32_1559 : BitVec 32 := 200#32
  let v2535 : BitVec 32 := Scalar.muli arg0 c200_i32_1559
  let c195_i32 : BitVec 32 := 195#32
  let v2536 : BitVec 32 := Scalar.addi v2535 c195_i32
  let v2537 : Index := Scalar.indexCast v2536
  ![v2537.toNat]
def k1_off392 (v2538 : BitVec 32) : Fin 3 → Nat :=
  let c0_i32_1563 : BitVec 32 := 0#32
  let c0_i32_1564 : BitVec 32 := 0#32
  ![v2538.toNat, 0, 0]

def k1_chk196 (v2538 : BitVec 32) : Prop :=
  (∀ a, (k1_off392 v2538) a + S1x1x128.size a ≤ S704000x1x128.size a)
instance k1_chk196.dec : ∀ (v2538 : BitVec 32), Decidable (k1_chk196 v2538) := fun v2538 => decidable_of_iff' _ (Iff.of_eq (k1_chk196.eq_1 v2538))
theorem k1_off392_inb : ∀ (v2538 : BitVec 32) (k1_hw196 : k1_chk196 v2538), ∀ a, (k1_off392 v2538) a + S1x1x128.size a ≤ S704000x1x128.size a := fun v2538 k1_hw196 => k1_hw196

def k1_off393 (i : grid1.Coords) : Fin 1 → Nat :=
  let arg0 : BitVec 32 := BitVec.ofNat 32 (i 0).val
  let c200_i32_1567 : BitVec 32 := 200#32
  let v2548 : BitVec 32 := Scalar.muli arg0 c200_i32_1567
  let c196_i32 : BitVec 32 := 196#32
  let v2549 : BitVec 32 := Scalar.addi v2548 c196_i32
  let v2550 : Index := Scalar.indexCast v2549
  ![v2550.toNat]
def k1_off394 (v2551 : BitVec 32) : Fin 3 → Nat :=
  let c0_i32_1571 : BitVec 32 := 0#32
  let c0_i32_1572 : BitVec 32 := 0#32
  ![v2551.toNat, 0, 0]

def k1_chk197 (v2551 : BitVec 32) : Prop :=
  (∀ a, (k1_off394 v2551) a + S1x1x128.size a ≤ S704000x1x128.size a)
instance k1_chk197.dec : ∀ (v2551 : BitVec 32), Decidable (k1_chk197 v2551) := fun v2551 => decidable_of_iff' _ (Iff.of_eq (k1_chk197.eq_1 v2551))
theorem k1_off394_inb : ∀ (v2551 : BitVec 32) (k1_hw197 : k1_chk197 v2551), ∀ a, (k1_off394 v2551) a + S1x1x128.size a ≤ S704000x1x128.size a := fun v2551 k1_hw197 => k1_hw197

def k1_off395 (i : grid1.Coords) : Fin 1 → Nat :=
  let arg0 : BitVec 32 := BitVec.ofNat 32 (i 0).val
  let c200_i32_1575 : BitVec 32 := 200#32
  let v2561 : BitVec 32 := Scalar.muli arg0 c200_i32_1575
  let c197_i32 : BitVec 32 := 197#32
  let v2562 : BitVec 32 := Scalar.addi v2561 c197_i32
  let v2563 : Index := Scalar.indexCast v2562
  ![v2563.toNat]
def k1_off396 (v2564 : BitVec 32) : Fin 3 → Nat :=
  let c0_i32_1579 : BitVec 32 := 0#32
  let c0_i32_1580 : BitVec 32 := 0#32
  ![v2564.toNat, 0, 0]

def k1_chk198 (v2564 : BitVec 32) : Prop :=
  (∀ a, (k1_off396 v2564) a + S1x1x128.size a ≤ S704000x1x128.size a)
instance k1_chk198.dec : ∀ (v2564 : BitVec 32), Decidable (k1_chk198 v2564) := fun v2564 => decidable_of_iff' _ (Iff.of_eq (k1_chk198.eq_1 v2564))
theorem k1_off396_inb : ∀ (v2564 : BitVec 32) (k1_hw198 : k1_chk198 v2564), ∀ a, (k1_off396 v2564) a + S1x1x128.size a ≤ S704000x1x128.size a := fun v2564 k1_hw198 => k1_hw198

def k1_off397 (i : grid1.Coords) : Fin 1 → Nat :=
  let arg0 : BitVec 32 := BitVec.ofNat 32 (i 0).val
  let c200_i32_1583 : BitVec 32 := 200#32
  let v2574 : BitVec 32 := Scalar.muli arg0 c200_i32_1583
  let c198_i32 : BitVec 32 := 198#32
  let v2575 : BitVec 32 := Scalar.addi v2574 c198_i32
  let v2576 : Index := Scalar.indexCast v2575
  ![v2576.toNat]
def k1_off398 (v2577 : BitVec 32) : Fin 3 → Nat :=
  let c0_i32_1587 : BitVec 32 := 0#32
  let c0_i32_1588 : BitVec 32 := 0#32
  ![v2577.toNat, 0, 0]

def k1_chk199 (v2577 : BitVec 32) : Prop :=
  (∀ a, (k1_off398 v2577) a + S1x1x128.size a ≤ S704000x1x128.size a)
instance k1_chk199.dec : ∀ (v2577 : BitVec 32), Decidable (k1_chk199 v2577) := fun v2577 => decidable_of_iff' _ (Iff.of_eq (k1_chk199.eq_1 v2577))
theorem k1_off398_inb : ∀ (v2577 : BitVec 32) (k1_hw199 : k1_chk199 v2577), ∀ a, (k1_off398 v2577) a + S1x1x128.size a ≤ S704000x1x128.size a := fun v2577 k1_hw199 => k1_hw199

def k1_off399 (i : grid1.Coords) : Fin 1 → Nat :=
  let arg0 : BitVec 32 := BitVec.ofNat 32 (i 0).val
  let c200_i32_1591 : BitVec 32 := 200#32
  let v2587 : BitVec 32 := Scalar.muli arg0 c200_i32_1591
  let c199_i32 : BitVec 32 := 199#32
  let v2588 : BitVec 32 := Scalar.addi v2587 c199_i32
  let v2589 : Index := Scalar.indexCast v2588
  ![v2589.toNat]
def k1_off400 (v2590 : BitVec 32) : Fin 3 → Nat :=
  let c0_i32_1595 : BitVec 32 := 0#32
  let c0_i32_1596 : BitVec 32 := 0#32
  ![v2590.toNat, 0, 0]

def k1_chk200 (v2590 : BitVec 32) : Prop :=
  (∀ a, (k1_off400 v2590) a + S1x1x128.size a ≤ S704000x1x128.size a)
instance k1_chk200.dec : ∀ (v2590 : BitVec 32), Decidable (k1_chk200 v2590) := fun v2590 => decidable_of_iff' _ (Iff.of_eq (k1_chk200.eq_1 v2590))
theorem k1_off400_inb : ∀ (v2590 : BitVec 32) (k1_hw200 : k1_chk200 v2590), ∀ a, (k1_off400 v2590) a + S1x1x128.size a ≤ S704000x1x128.size a := fun v2590 k1_hw200 => k1_hw200

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨2, ![5, 25], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x8x704x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x8x704 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

class Facts₀ : Prop where
  slices_S60000x4_S60000x1_0_0 : S60000x4.Slices ![0, 0] S60000x1
  shapeCasts_S60000x1_S60000 : S60000x1.ShapeCasts S60000
  bcast_S_S60000 : S_.BroadcastsInDim S60000 (![] : Fin 0 → Fin S60000.rank)
  slices_S60000x4_S60000x1_0_2 : S60000x4.Slices ![0, 2] S60000x1
  slices_S60000x4_S60000x1_0_3 : S60000x4.Slices ![0, 3] S60000x1
  pads_S60000x64_S60000x128_000_0640 : S60000x64.Pads (![0, 0] : Fin 2 → Nat) ![0, 64] ![0, 0] S60000x128
  h_S_ : 0 < S_.numel
  inb_S7040x1x128_S7040x1x128_0_0_0 : ∀ a, (![0, 0, 0] : Fin 3 → Nat) a + S7040x1x128.size a ≤ S7040x1x128.size a
  h_S7040x1x128 : 0 < S7040x1x128.numel
  numel1_S1 : S1.numel = 1
  inb_S200x128_S1x128_0_0 : ∀ a, (![0, 0] : Fin 2 → Nat) a + S1x128.size a ≤ S200x128.size a
  h_S1x128 : 0 < S1x128.numel
  shapeCasts_S1x128_S128 : S1x128.ShapeCasts S128
  inb_S1x128_S1x128_0_0 : ∀ a, (![0, 0] : Fin 2 → Nat) a + S1x128.size a ≤ S1x128.size a
  shapeCasts_S128_S1x128 : S128.ShapeCasts S1x128
  squeezes_S1x1x128_S1x128 : S1x1x128.Squeezes S1x128
  inb_S200x128_S1x128_1_0 : ∀ a, (![1, 0] : Fin 2 → Nat) a + S1x128.size a ≤ S200x128.size a
  inb_S200x128_S1x128_2_0 : ∀ a, (![2, 0] : Fin 2 → Nat) a + S1x128.size a ≤ S200x128.size a
  inb_S200x128_S1x128_3_0 : ∀ a, (![3, 0] : Fin 2 → Nat) a + S1x128.size a ≤ S200x128.size a
  inb_S200x128_S1x128_4_0 : ∀ a, (![4, 0] : Fin 2 → Nat) a + S1x128.size a ≤ S200x128.size a
  inb_S200x128_S1x128_5_0 : ∀ a, (![5, 0] : Fin 2 → Nat) a + S1x128.size a ≤ S200x128.size a
  inb_S200x128_S1x128_6_0 : ∀ a, (![6, 0] : Fin 2 → Nat) a + S1x128.size a ≤ S200x128.size a
  inb_S200x128_S1x128_7_0 : ∀ a, (![7, 0] : Fin 2 → Nat) a + S1x128.size a ≤ S200x128.size a
  inb_S200x128_S1x128_8_0 : ∀ a, (![8, 0] : Fin 2 → Nat) a + S1x128.size a ≤ S200x128.size a
  inb_S200x128_S1x128_9_0 : ∀ a, (![9, 0] : Fin 2 → Nat) a + S1x128.size a ≤ S200x128.size a
  inb_S200x128_S1x128_10_0 : ∀ a, (![10, 0] : Fin 2 → Nat) a + S1x128.size a ≤ S200x128.size a
  inb_S200x128_S1x128_11_0 : ∀ a, (![11, 0] : Fin 2 → Nat) a + S1x128.size a ≤ S200x128.size a
  inb_S200x128_S1x128_12_0 : ∀ a, (![12, 0] : Fin 2 → Nat) a + S1x128.size a ≤ S200x128.size a
  inb_S200x128_S1x128_13_0 : ∀ a, (![13, 0] : Fin 2 → Nat) a + S1x128.size a ≤ S200x128.size a
  inb_S200x128_S1x128_14_0 : ∀ a, (![14, 0] : Fin 2 → Nat) a + S1x128.size a ≤ S200x128.size a
  inb_S200x128_S1x128_15_0 : ∀ a, (![15, 0] : Fin 2 → Nat) a + S1x128.size a ≤ S200x128.size a
  inb_S200x128_S1x128_16_0 : ∀ a, (![16, 0] : Fin 2 → Nat) a + S1x128.size a ≤ S200x128.size a
  inb_S200x128_S1x128_17_0 : ∀ a, (![17, 0] : Fin 2 → Nat) a + S1x128.size a ≤ S200x128.size a
  inb_S200x128_S1x128_18_0 : ∀ a, (![18, 0] : Fin 2 → Nat) a + S1x128.size a ≤ S200x128.size a
  inb_S200x128_S1x128_19_0 : ∀ a, (![19, 0] : Fin 2 → Nat) a + S1x128.size a ≤ S200x128.size a
  inb_S200x128_S1x128_20_0 : ∀ a, (![20, 0] : Fin 2 → Nat) a + S1x128.size a ≤ S200x128.size a
  inb_S200x128_S1x128_21_0 : ∀ a, (![21, 0] : Fin 2 → Nat) a + S1x128.size a ≤ S200x128.size a
  inb_S200x128_S1x128_22_0 : ∀ a, (![22, 0] : Fin 2 → Nat) a + S1x128.size a ≤ S200x128.size a
  inb_S200x128_S1x128_23_0 : ∀ a, (![23, 0] : Fin 2 → Nat) a + S1x128.size a ≤ S200x128.size a
  inb_S200x128_S1x128_24_0 : ∀ a, (![24, 0] : Fin 2 → Nat) a + S1x128.size a ≤ S200x128.size a
  inb_S200x128_S1x128_25_0 : ∀ a, (![25, 0] : Fin 2 → Nat) a + S1x128.size a ≤ S200x128.size a
  inb_S200x128_S1x128_26_0 : ∀ a, (![26, 0] : Fin 2 → Nat) a + S1x128.size a ≤ S200x128.size a
  inb_S200x128_S1x128_27_0 : ∀ a, (![27, 0] : Fin 2 → Nat) a + S1x128.size a ≤ S200x128.size a
  inb_S200x128_S1x128_28_0 : ∀ a, (![28, 0] : Fin 2 → Nat) a + S1x128.size a ≤ S200x128.size a
  inb_S200x128_S1x128_29_0 : ∀ a, (![29, 0] : Fin 2 → Nat) a + S1x128.size a ≤ S200x128.size a
  inb_S200x128_S1x128_30_0 : ∀ a, (![30, 0] : Fin 2 → Nat) a + S1x128.size a ≤ S200x128.size a
  inb_S200x128_S1x128_31_0 : ∀ a, (![31, 0] : Fin 2 → Nat) a + S1x128.size a ≤ S200x128.size a
  inb_S200x128_S1x128_32_0 : ∀ a, (![32, 0] : Fin 2 → Nat) a + S1x128.size a ≤ S200x128.size a
  inb_S200x128_S1x128_33_0 : ∀ a, (![33, 0] : Fin 2 → Nat) a + S1x128.size a ≤ S200x128.size a
  inb_S200x128_S1x128_34_0 : ∀ a, (![34, 0] : Fin 2 → Nat) a + S1x128.size a ≤ S200x128.size a
  inb_S200x128_S1x128_35_0 : ∀ a, (![35, 0] : Fin 2 → Nat) a + S1x128.size a ≤ S200x128.size a
  inb_S200x128_S1x128_36_0 : ∀ a, (![36, 0] : Fin 2 → Nat) a + S1x128.size a ≤ S200x128.size a
  inb_S200x128_S1x128_37_0 : ∀ a, (![37, 0] : Fin 2 → Nat) a + S1x128.size a ≤ S200x128.size a
  inb_S200x128_S1x128_38_0 : ∀ a, (![38, 0] : Fin 2 → Nat) a + S1x128.size a ≤ S200x128.size a
  inb_S200x128_S1x128_39_0 : ∀ a, (![39, 0] : Fin 2 → Nat) a + S1x128.size a ≤ S200x128.size a
  inb_S200x128_S1x128_40_0 : ∀ a, (![40, 0] : Fin 2 → Nat) a + S1x128.size a ≤ S200x128.size a
  inb_S200x128_S1x128_41_0 : ∀ a, (![41, 0] : Fin 2 → Nat) a + S1x128.size a ≤ S200x128.size a
  inb_S200x128_S1x128_42_0 : ∀ a, (![42, 0] : Fin 2 → Nat) a + S1x128.size a ≤ S200x128.size a
  inb_S200x128_S1x128_43_0 : ∀ a, (![43, 0] : Fin 2 → Nat) a + S1x128.size a ≤ S200x128.size a
  inb_S200x128_S1x128_44_0 : ∀ a, (![44, 0] : Fin 2 → Nat) a + S1x128.size a ≤ S200x128.size a
  inb_S200x128_S1x128_45_0 : ∀ a, (![45, 0] : Fin 2 → Nat) a + S1x128.size a ≤ S200x128.size a
  inb_S200x128_S1x128_46_0 : ∀ a, (![46, 0] : Fin 2 → Nat) a + S1x128.size a ≤ S200x128.size a
  inb_S200x128_S1x128_47_0 : ∀ a, (![47, 0] : Fin 2 → Nat) a + S1x128.size a ≤ S200x128.size a
  inb_S200x128_S1x128_48_0 : ∀ a, (![48, 0] : Fin 2 → Nat) a + S1x128.size a ≤ S200x128.size a
  inb_S200x128_S1x128_49_0 : ∀ a, (![49, 0] : Fin 2 → Nat) a + S1x128.size a ≤ S200x128.size a
  inb_S200x128_S1x128_50_0 : ∀ a, (![50, 0] : Fin 2 → Nat) a + S1x128.size a ≤ S200x128.size a
  inb_S200x128_S1x128_51_0 : ∀ a, (![51, 0] : Fin 2 → Nat) a + S1x128.size a ≤ S200x128.size a
  inb_S200x128_S1x128_52_0 : ∀ a, (![52, 0] : Fin 2 → Nat) a + S1x128.size a ≤ S200x128.size a
  inb_S200x128_S1x128_53_0 : ∀ a, (![53, 0] : Fin 2 → Nat) a + S1x128.size a ≤ S200x128.size a
  inb_S200x128_S1x128_54_0 : ∀ a, (![54, 0] : Fin 2 → Nat) a + S1x128.size a ≤ S200x128.size a
  inb_S200x128_S1x128_55_0 : ∀ a, (![55, 0] : Fin 2 → Nat) a + S1x128.size a ≤ S200x128.size a
  inb_S200x128_S1x128_56_0 : ∀ a, (![56, 0] : Fin 2 → Nat) a + S1x128.size a ≤ S200x128.size a
  inb_S200x128_S1x128_57_0 : ∀ a, (![57, 0] : Fin 2 → Nat) a + S1x128.size a ≤ S200x128.size a
  inb_S200x128_S1x128_58_0 : ∀ a, (![58, 0] : Fin 2 → Nat) a + S1x128.size a ≤ S200x128.size a
  inb_S200x128_S1x128_59_0 : ∀ a, (![59, 0] : Fin 2 → Nat) a + S1x128.size a ≤ S200x128.size a
  inb_S200x128_S1x128_60_0 : ∀ a, (![60, 0] : Fin 2 → Nat) a + S1x128.size a ≤ S200x128.size a
  inb_S200x128_S1x128_61_0 : ∀ a, (![61, 0] : Fin 2 → Nat) a + S1x128.size a ≤ S200x128.size a
  inb_S200x128_S1x128_62_0 : ∀ a, (![62, 0] : Fin 2 → Nat) a + S1x128.size a ≤ S200x128.size a
  inb_S200x128_S1x128_63_0 : ∀ a, (![63, 0] : Fin 2 → Nat) a + S1x128.size a ≤ S200x128.size a
  inb_S200x128_S1x128_64_0 : ∀ a, (![64, 0] : Fin 2 → Nat) a + S1x128.size a ≤ S200x128.size a
  inb_S200x128_S1x128_65_0 : ∀ a, (![65, 0] : Fin 2 → Nat) a + S1x128.size a ≤ S200x128.size a
  inb_S200x128_S1x128_66_0 : ∀ a, (![66, 0] : Fin 2 → Nat) a + S1x128.size a ≤ S200x128.size a
  inb_S200x128_S1x128_67_0 : ∀ a, (![67, 0] : Fin 2 → Nat) a + S1x128.size a ≤ S200x128.size a
  inb_S200x128_S1x128_68_0 : ∀ a, (![68, 0] : Fin 2 → Nat) a + S1x128.size a ≤ S200x128.size a
  inb_S200x128_S1x128_69_0 : ∀ a, (![69, 0] : Fin 2 → Nat) a + S1x128.size a ≤ S200x128.size a
  inb_S200x128_S1x128_70_0 : ∀ a, (![70, 0] : Fin 2 → Nat) a + S1x128.size a ≤ S200x128.size a
  inb_S200x128_S1x128_71_0 : ∀ a, (![71, 0] : Fin 2 → Nat) a + S1x128.size a ≤ S200x128.size a
  inb_S200x128_S1x128_72_0 : ∀ a, (![72, 0] : Fin 2 → Nat) a + S1x128.size a ≤ S200x128.size a
  inb_S200x128_S1x128_73_0 : ∀ a, (![73, 0] : Fin 2 → Nat) a + S1x128.size a ≤ S200x128.size a
  inb_S200x128_S1x128_74_0 : ∀ a, (![74, 0] : Fin 2 → Nat) a + S1x128.size a ≤ S200x128.size a
  inb_S200x128_S1x128_75_0 : ∀ a, (![75, 0] : Fin 2 → Nat) a + S1x128.size a ≤ S200x128.size a
  inb_S200x128_S1x128_76_0 : ∀ a, (![76, 0] : Fin 2 → Nat) a + S1x128.size a ≤ S200x128.size a
  inb_S200x128_S1x128_77_0 : ∀ a, (![77, 0] : Fin 2 → Nat) a + S1x128.size a ≤ S200x128.size a
  inb_S200x128_S1x128_78_0 : ∀ a, (![78, 0] : Fin 2 → Nat) a + S1x128.size a ≤ S200x128.size a
  inb_S200x128_S1x128_79_0 : ∀ a, (![79, 0] : Fin 2 → Nat) a + S1x128.size a ≤ S200x128.size a
  inb_S200x128_S1x128_80_0 : ∀ a, (![80, 0] : Fin 2 → Nat) a + S1x128.size a ≤ S200x128.size a
  inb_S200x128_S1x128_81_0 : ∀ a, (![81, 0] : Fin 2 → Nat) a + S1x128.size a ≤ S200x128.size a
  inb_S200x128_S1x128_82_0 : ∀ a, (![82, 0] : Fin 2 → Nat) a + S1x128.size a ≤ S200x128.size a
  inb_S200x128_S1x128_83_0 : ∀ a, (![83, 0] : Fin 2 → Nat) a + S1x128.size a ≤ S200x128.size a
  inb_S200x128_S1x128_84_0 : ∀ a, (![84, 0] : Fin 2 → Nat) a + S1x128.size a ≤ S200x128.size a
  inb_S200x128_S1x128_85_0 : ∀ a, (![85, 0] : Fin 2 → Nat) a + S1x128.size a ≤ S200x128.size a
  inb_S200x128_S1x128_86_0 : ∀ a, (![86, 0] : Fin 2 → Nat) a + S1x128.size a ≤ S200x128.size a
  inb_S200x128_S1x128_87_0 : ∀ a, (![87, 0] : Fin 2 → Nat) a + S1x128.size a ≤ S200x128.size a
  inb_S200x128_S1x128_88_0 : ∀ a, (![88, 0] : Fin 2 → Nat) a + S1x128.size a ≤ S200x128.size a
  inb_S200x128_S1x128_89_0 : ∀ a, (![89, 0] : Fin 2 → Nat) a + S1x128.size a ≤ S200x128.size a
  inb_S200x128_S1x128_90_0 : ∀ a, (![90, 0] : Fin 2 → Nat) a + S1x128.size a ≤ S200x128.size a
  inb_S200x128_S1x128_91_0 : ∀ a, (![91, 0] : Fin 2 → Nat) a + S1x128.size a ≤ S200x128.size a
  inb_S200x128_S1x128_92_0 : ∀ a, (![92, 0] : Fin 2 → Nat) a + S1x128.size a ≤ S200x128.size a
  inb_S200x128_S1x128_93_0 : ∀ a, (![93, 0] : Fin 2 → Nat) a + S1x128.size a ≤ S200x128.size a
  inb_S200x128_S1x128_94_0 : ∀ a, (![94, 0] : Fin 2 → Nat) a + S1x128.size a ≤ S200x128.size a
  inb_S200x128_S1x128_95_0 : ∀ a, (![95, 0] : Fin 2 → Nat) a + S1x128.size a ≤ S200x128.size a
  inb_S200x128_S1x128_96_0 : ∀ a, (![96, 0] : Fin 2 → Nat) a + S1x128.size a ≤ S200x128.size a
  inb_S200x128_S1x128_97_0 : ∀ a, (![97, 0] : Fin 2 → Nat) a + S1x128.size a ≤ S200x128.size a
  inb_S200x128_S1x128_98_0 : ∀ a, (![98, 0] : Fin 2 → Nat) a + S1x128.size a ≤ S200x128.size a
  inb_S200x128_S1x128_99_0 : ∀ a, (![99, 0] : Fin 2 → Nat) a + S1x128.size a ≤ S200x128.size a
  inb_S200x128_S1x128_100_0 : ∀ a, (![100, 0] : Fin 2 → Nat) a + S1x128.size a ≤ S200x128.size a
  inb_S200x128_S1x128_101_0 : ∀ a, (![101, 0] : Fin 2 → Nat) a + S1x128.size a ≤ S200x128.size a
  inb_S200x128_S1x128_102_0 : ∀ a, (![102, 0] : Fin 2 → Nat) a + S1x128.size a ≤ S200x128.size a
  inb_S200x128_S1x128_103_0 : ∀ a, (![103, 0] : Fin 2 → Nat) a + S1x128.size a ≤ S200x128.size a
  inb_S200x128_S1x128_104_0 : ∀ a, (![104, 0] : Fin 2 → Nat) a + S1x128.size a ≤ S200x128.size a
  inb_S200x128_S1x128_105_0 : ∀ a, (![105, 0] : Fin 2 → Nat) a + S1x128.size a ≤ S200x128.size a
  inb_S200x128_S1x128_106_0 : ∀ a, (![106, 0] : Fin 2 → Nat) a + S1x128.size a ≤ S200x128.size a
  inb_S200x128_S1x128_107_0 : ∀ a, (![107, 0] : Fin 2 → Nat) a + S1x128.size a ≤ S200x128.size a
  inb_S200x128_S1x128_108_0 : ∀ a, (![108, 0] : Fin 2 → Nat) a + S1x128.size a ≤ S200x128.size a
  inb_S200x128_S1x128_109_0 : ∀ a, (![109, 0] : Fin 2 → Nat) a + S1x128.size a ≤ S200x128.size a
  inb_S200x128_S1x128_110_0 : ∀ a, (![110, 0] : Fin 2 → Nat) a + S1x128.size a ≤ S200x128.size a
  inb_S200x128_S1x128_111_0 : ∀ a, (![111, 0] : Fin 2 → Nat) a + S1x128.size a ≤ S200x128.size a
  inb_S200x128_S1x128_112_0 : ∀ a, (![112, 0] : Fin 2 → Nat) a + S1x128.size a ≤ S200x128.size a
  inb_S200x128_S1x128_113_0 : ∀ a, (![113, 0] : Fin 2 → Nat) a + S1x128.size a ≤ S200x128.size a
  inb_S200x128_S1x128_114_0 : ∀ a, (![114, 0] : Fin 2 → Nat) a + S1x128.size a ≤ S200x128.size a
  inb_S200x128_S1x128_115_0 : ∀ a, (![115, 0] : Fin 2 → Nat) a + S1x128.size a ≤ S200x128.size a
  inb_S200x128_S1x128_116_0 : ∀ a, (![116, 0] : Fin 2 → Nat) a + S1x128.size a ≤ S200x128.size a
  inb_S200x128_S1x128_117_0 : ∀ a, (![117, 0] : Fin 2 → Nat) a + S1x128.size a ≤ S200x128.size a
  inb_S200x128_S1x128_118_0 : ∀ a, (![118, 0] : Fin 2 → Nat) a + S1x128.size a ≤ S200x128.size a
  inb_S200x128_S1x128_119_0 : ∀ a, (![119, 0] : Fin 2 → Nat) a + S1x128.size a ≤ S200x128.size a
  inb_S200x128_S1x128_120_0 : ∀ a, (![120, 0] : Fin 2 → Nat) a + S1x128.size a ≤ S200x128.size a
  inb_S200x128_S1x128_121_0 : ∀ a, (![121, 0] : Fin 2 → Nat) a + S1x128.size a ≤ S200x128.size a
  inb_S200x128_S1x128_122_0 : ∀ a, (![122, 0] : Fin 2 → Nat) a + S1x128.size a ≤ S200x128.size a
  inb_S200x128_S1x128_123_0 : ∀ a, (![123, 0] : Fin 2 → Nat) a + S1x128.size a ≤ S200x128.size a
  inb_S200x128_S1x128_124_0 : ∀ a, (![124, 0] : Fin 2 → Nat) a + S1x128.size a ≤ S200x128.size a
  inb_S200x128_S1x128_125_0 : ∀ a, (![125, 0] : Fin 2 → Nat) a + S1x128.size a ≤ S200x128.size a
  inb_S200x128_S1x128_126_0 : ∀ a, (![126, 0] : Fin 2 → Nat) a + S1x128.size a ≤ S200x128.size a
  inb_S200x128_S1x128_127_0 : ∀ a, (![127, 0] : Fin 2 → Nat) a + S1x128.size a ≤ S200x128.size a
  inb_S200x128_S1x128_128_0 : ∀ a, (![128, 0] : Fin 2 → Nat) a + S1x128.size a ≤ S200x128.size a
  inb_S200x128_S1x128_129_0 : ∀ a, (![129, 0] : Fin 2 → Nat) a + S1x128.size a ≤ S200x128.size a
  inb_S200x128_S1x128_130_0 : ∀ a, (![130, 0] : Fin 2 → Nat) a + S1x128.size a ≤ S200x128.size a
  inb_S200x128_S1x128_131_0 : ∀ a, (![131, 0] : Fin 2 → Nat) a + S1x128.size a ≤ S200x128.size a
  inb_S200x128_S1x128_132_0 : ∀ a, (![132, 0] : Fin 2 → Nat) a + S1x128.size a ≤ S200x128.size a
  inb_S200x128_S1x128_133_0 : ∀ a, (![133, 0] : Fin 2 → Nat) a + S1x128.size a ≤ S200x128.size a
  inb_S200x128_S1x128_134_0 : ∀ a, (![134, 0] : Fin 2 → Nat) a + S1x128.size a ≤ S200x128.size a
  inb_S200x128_S1x128_135_0 : ∀ a, (![135, 0] : Fin 2 → Nat) a + S1x128.size a ≤ S200x128.size a
  inb_S200x128_S1x128_136_0 : ∀ a, (![136, 0] : Fin 2 → Nat) a + S1x128.size a ≤ S200x128.size a
  inb_S200x128_S1x128_137_0 : ∀ a, (![137, 0] : Fin 2 → Nat) a + S1x128.size a ≤ S200x128.size a
  inb_S200x128_S1x128_138_0 : ∀ a, (![138, 0] : Fin 2 → Nat) a + S1x128.size a ≤ S200x128.size a
  inb_S200x128_S1x128_139_0 : ∀ a, (![139, 0] : Fin 2 → Nat) a + S1x128.size a ≤ S200x128.size a
  inb_S200x128_S1x128_140_0 : ∀ a, (![140, 0] : Fin 2 → Nat) a + S1x128.size a ≤ S200x128.size a
  inb_S200x128_S1x128_141_0 : ∀ a, (![141, 0] : Fin 2 → Nat) a + S1x128.size a ≤ S200x128.size a
  inb_S200x128_S1x128_142_0 : ∀ a, (![142, 0] : Fin 2 → Nat) a + S1x128.size a ≤ S200x128.size a
  inb_S200x128_S1x128_143_0 : ∀ a, (![143, 0] : Fin 2 → Nat) a + S1x128.size a ≤ S200x128.size a
  inb_S200x128_S1x128_144_0 : ∀ a, (![144, 0] : Fin 2 → Nat) a + S1x128.size a ≤ S200x128.size a
  inb_S200x128_S1x128_145_0 : ∀ a, (![145, 0] : Fin 2 → Nat) a + S1x128.size a ≤ S200x128.size a
  inb_S200x128_S1x128_146_0 : ∀ a, (![146, 0] : Fin 2 → Nat) a + S1x128.size a ≤ S200x128.size a
  inb_S200x128_S1x128_147_0 : ∀ a, (![147, 0] : Fin 2 → Nat) a + S1x128.size a ≤ S200x128.size a
  inb_S200x128_S1x128_148_0 : ∀ a, (![148, 0] : Fin 2 → Nat) a + S1x128.size a ≤ S200x128.size a
  inb_S200x128_S1x128_149_0 : ∀ a, (![149, 0] : Fin 2 → Nat) a + S1x128.size a ≤ S200x128.size a
  inb_S200x128_S1x128_150_0 : ∀ a, (![150, 0] : Fin 2 → Nat) a + S1x128.size a ≤ S200x128.size a
  inb_S200x128_S1x128_151_0 : ∀ a, (![151, 0] : Fin 2 → Nat) a + S1x128.size a ≤ S200x128.size a
  inb_S200x128_S1x128_152_0 : ∀ a, (![152, 0] : Fin 2 → Nat) a + S1x128.size a ≤ S200x128.size a
  inb_S200x128_S1x128_153_0 : ∀ a, (![153, 0] : Fin 2 → Nat) a + S1x128.size a ≤ S200x128.size a
  inb_S200x128_S1x128_154_0 : ∀ a, (![154, 0] : Fin 2 → Nat) a + S1x128.size a ≤ S200x128.size a
  inb_S200x128_S1x128_155_0 : ∀ a, (![155, 0] : Fin 2 → Nat) a + S1x128.size a ≤ S200x128.size a
  inb_S200x128_S1x128_156_0 : ∀ a, (![156, 0] : Fin 2 → Nat) a + S1x128.size a ≤ S200x128.size a
  inb_S200x128_S1x128_157_0 : ∀ a, (![157, 0] : Fin 2 → Nat) a + S1x128.size a ≤ S200x128.size a
  inb_S200x128_S1x128_158_0 : ∀ a, (![158, 0] : Fin 2 → Nat) a + S1x128.size a ≤ S200x128.size a
  inb_S200x128_S1x128_159_0 : ∀ a, (![159, 0] : Fin 2 → Nat) a + S1x128.size a ≤ S200x128.size a
  inb_S200x128_S1x128_160_0 : ∀ a, (![160, 0] : Fin 2 → Nat) a + S1x128.size a ≤ S200x128.size a
  inb_S200x128_S1x128_161_0 : ∀ a, (![161, 0] : Fin 2 → Nat) a + S1x128.size a ≤ S200x128.size a
  inb_S200x128_S1x128_162_0 : ∀ a, (![162, 0] : Fin 2 → Nat) a + S1x128.size a ≤ S200x128.size a
  inb_S200x128_S1x128_163_0 : ∀ a, (![163, 0] : Fin 2 → Nat) a + S1x128.size a ≤ S200x128.size a
  inb_S200x128_S1x128_164_0 : ∀ a, (![164, 0] : Fin 2 → Nat) a + S1x128.size a ≤ S200x128.size a
  inb_S200x128_S1x128_165_0 : ∀ a, (![165, 0] : Fin 2 → Nat) a + S1x128.size a ≤ S200x128.size a
  inb_S200x128_S1x128_166_0 : ∀ a, (![166, 0] : Fin 2 → Nat) a + S1x128.size a ≤ S200x128.size a
  inb_S200x128_S1x128_167_0 : ∀ a, (![167, 0] : Fin 2 → Nat) a + S1x128.size a ≤ S200x128.size a
  inb_S200x128_S1x128_168_0 : ∀ a, (![168, 0] : Fin 2 → Nat) a + S1x128.size a ≤ S200x128.size a
  inb_S200x128_S1x128_169_0 : ∀ a, (![169, 0] : Fin 2 → Nat) a + S1x128.size a ≤ S200x128.size a
  inb_S200x128_S1x128_170_0 : ∀ a, (![170, 0] : Fin 2 → Nat) a + S1x128.size a ≤ S200x128.size a
  inb_S200x128_S1x128_171_0 : ∀ a, (![171, 0] : Fin 2 → Nat) a + S1x128.size a ≤ S200x128.size a
  inb_S200x128_S1x128_172_0 : ∀ a, (![172, 0] : Fin 2 → Nat) a + S1x128.size a ≤ S200x128.size a
  inb_S200x128_S1x128_173_0 : ∀ a, (![173, 0] : Fin 2 → Nat) a + S1x128.size a ≤ S200x128.size a
  inb_S200x128_S1x128_174_0 : ∀ a, (![174, 0] : Fin 2 → Nat) a + S1x128.size a ≤ S200x128.size a
  inb_S200x128_S1x128_175_0 : ∀ a, (![175, 0] : Fin 2 → Nat) a + S1x128.size a ≤ S200x128.size a
  inb_S200x128_S1x128_176_0 : ∀ a, (![176, 0] : Fin 2 → Nat) a + S1x128.size a ≤ S200x128.size a
  inb_S200x128_S1x128_177_0 : ∀ a, (![177, 0] : Fin 2 → Nat) a + S1x128.size a ≤ S200x128.size a
  inb_S200x128_S1x128_178_0 : ∀ a, (![178, 0] : Fin 2 → Nat) a + S1x128.size a ≤ S200x128.size a
  inb_S200x128_S1x128_179_0 : ∀ a, (![179, 0] : Fin 2 → Nat) a + S1x128.size a ≤ S200x128.size a
  inb_S200x128_S1x128_180_0 : ∀ a, (![180, 0] : Fin 2 → Nat) a + S1x128.size a ≤ S200x128.size a
  inb_S200x128_S1x128_181_0 : ∀ a, (![181, 0] : Fin 2 → Nat) a + S1x128.size a ≤ S200x128.size a
  inb_S200x128_S1x128_182_0 : ∀ a, (![182, 0] : Fin 2 → Nat) a + S1x128.size a ≤ S200x128.size a
  inb_S200x128_S1x128_183_0 : ∀ a, (![183, 0] : Fin 2 → Nat) a + S1x128.size a ≤ S200x128.size a
  inb_S200x128_S1x128_184_0 : ∀ a, (![184, 0] : Fin 2 → Nat) a + S1x128.size a ≤ S200x128.size a
  inb_S200x128_S1x128_185_0 : ∀ a, (![185, 0] : Fin 2 → Nat) a + S1x128.size a ≤ S200x128.size a
  inb_S200x128_S1x128_186_0 : ∀ a, (![186, 0] : Fin 2 → Nat) a + S1x128.size a ≤ S200x128.size a
  inb_S200x128_S1x128_187_0 : ∀ a, (![187, 0] : Fin 2 → Nat) a + S1x128.size a ≤ S200x128.size a
  inb_S200x128_S1x128_188_0 : ∀ a, (![188, 0] : Fin 2 → Nat) a + S1x128.size a ≤ S200x128.size a
  inb_S200x128_S1x128_189_0 : ∀ a, (![189, 0] : Fin 2 → Nat) a + S1x128.size a ≤ S200x128.size a
  inb_S200x128_S1x128_190_0 : ∀ a, (![190, 0] : Fin 2 → Nat) a + S1x128.size a ≤ S200x128.size a
  inb_S200x128_S1x128_191_0 : ∀ a, (![191, 0] : Fin 2 → Nat) a + S1x128.size a ≤ S200x128.size a
  inb_S200x128_S1x128_192_0 : ∀ a, (![192, 0] : Fin 2 → Nat) a + S1x128.size a ≤ S200x128.size a
  inb_S200x128_S1x128_193_0 : ∀ a, (![193, 0] : Fin 2 → Nat) a + S1x128.size a ≤ S200x128.size a
  inb_S200x128_S1x128_194_0 : ∀ a, (![194, 0] : Fin 2 → Nat) a + S1x128.size a ≤ S200x128.size a
  inb_S200x128_S1x128_195_0 : ∀ a, (![195, 0] : Fin 2 → Nat) a + S1x128.size a ≤ S200x128.size a
  inb_S200x128_S1x128_196_0 : ∀ a, (![196, 0] : Fin 2 → Nat) a + S1x128.size a ≤ S200x128.size a
  inb_S200x128_S1x128_197_0 : ∀ a, (![197, 0] : Fin 2 → Nat) a + S1x128.size a ≤ S200x128.size a
  inb_S200x128_S1x128_198_0 : ∀ a, (![198, 0] : Fin 2 → Nat) a + S1x128.size a ≤ S200x128.size a
  inb_S200x128_S1x128_199_0 : ∀ a, (![199, 0] : Fin 2 → Nat) a + S1x128.size a ≤ S200x128.size a
  shapeCasts_S704000x1x128_S5x200x704x128 : S704000x1x128.ShapeCasts S5x200x704x128
  inb_S1x8x704x128_S1x8x704x128_0_0_0_0 : ∀ a, (![0, 0, 0, 0] : Fin 4 → Nat) a + S1x8x704x128.size a ≤ S1x8x704x128.size a
  h_S1x8x704x128 : 0 < S1x8x704x128.numel
  shapeCasts_S1x8x704x128_S8x704x128 : S1x8x704x128.ShapeCasts S8x704x128
  slices_S8x704x128_o0_0_0_S8x704x64 : S8x704x128.Slices ![0, 0, 0] S8x704x64
  transposes_S8x704x64_p2_0_1_S64x8x704 : S8x704x64.Transposes [2, 0, 1] S64x8x704
  inb_S1x64x8x704_S1x64x8x704_0_0_0_0 : ∀ a, (![0, 0, 0, 0] : Fin 4 → Nat) a + S1x64x8x704.size a ≤ S1x64x8x704.size a
  h_S1x64x8x704 : 0 < S1x64x8x704.numel
  shapeCasts_S1x64x8x704_S64x8x704 : S1x64x8x704.ShapeCasts S64x8x704
  shapeCasts_S64x8x704_S1x64x8x704 : S64x8x704.ShapeCasts S1x64x8x704
  hcc1_scratch1 : 4 + S_.numel ≤ 9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7040x1x128.size a ≤ S704000x1x128.size a
  hwx0_0 : ∀ i : grid0.Coords, EltTy.bits .f32 = 32 ∨ (Rect.block (s := S704000x1x128) S7040x1x128.size (cc0_transform_0 i) (hinb0_0 i)).WholeWords (EltTy.packing .f32)
  hrank1 : 0 < grid1.rank
  k1_off1_inb : ∀ i : grid1.Coords, ∀ a, (k1_off1 i) a + S1.size a ≤ S60000.size a
  k1_off3_inb : ∀ i : grid1.Coords, ∀ a, (k1_off3 i) a + S1.size a ≤ S60000.size a
  k1_off5_inb : ∀ i : grid1.Coords, ∀ a, (k1_off5 i) a + S1.size a ≤ S60000.size a
  k1_off7_inb : ∀ i : grid1.Coords, ∀ a, (k1_off7 i) a + S1.size a ≤ S60000.size a
  k1_off9_inb : ∀ i : grid1.Coords, ∀ a, (k1_off9 i) a + S1.size a ≤ S60000.size a
  k1_off11_inb : ∀ i : grid1.Coords, ∀ a, (k1_off11 i) a + S1.size a ≤ S60000.size a
  k1_off13_inb : ∀ i : grid1.Coords, ∀ a, (k1_off13 i) a + S1.size a ≤ S60000.size a
  k1_off15_inb : ∀ i : grid1.Coords, ∀ a, (k1_off15 i) a + S1.size a ≤ S60000.size a
  k1_off17_inb : ∀ i : grid1.Coords, ∀ a, (k1_off17 i) a + S1.size a ≤ S60000.size a
  k1_off19_inb : ∀ i : grid1.Coords, ∀ a, (k1_off19 i) a + S1.size a ≤ S60000.size a
  k1_off21_inb : ∀ i : grid1.Coords, ∀ a, (k1_off21 i) a + S1.size a ≤ S60000.size a
  k1_off23_inb : ∀ i : grid1.Coords, ∀ a, (k1_off23 i) a + S1.size a ≤ S60000.size a
  k1_off25_inb : ∀ i : grid1.Coords, ∀ a, (k1_off25 i) a + S1.size a ≤ S60000.size a
  k1_off27_inb : ∀ i : grid1.Coords, ∀ a, (k1_off27 i) a + S1.size a ≤ S60000.size a
  k1_off29_inb : ∀ i : grid1.Coords, ∀ a, (k1_off29 i) a + S1.size a ≤ S60000.size a
  k1_off31_inb : ∀ i : grid1.Coords, ∀ a, (k1_off31 i) a + S1.size a ≤ S60000.size a
  k1_off33_inb : ∀ i : grid1.Coords, ∀ a, (k1_off33 i) a + S1.size a ≤ S60000.size a
  k1_off35_inb : ∀ i : grid1.Coords, ∀ a, (k1_off35 i) a + S1.size a ≤ S60000.size a
  k1_off37_inb : ∀ i : grid1.Coords, ∀ a, (k1_off37 i) a + S1.size a ≤ S60000.size a
  k1_off39_inb : ∀ i : grid1.Coords, ∀ a, (k1_off39 i) a + S1.size a ≤ S60000.size a
  k1_off41_inb : ∀ i : grid1.Coords, ∀ a, (k1_off41 i) a + S1.size a ≤ S60000.size a
  k1_off43_inb : ∀ i : grid1.Coords, ∀ a, (k1_off43 i) a + S1.size a ≤ S60000.size a
  k1_off45_inb : ∀ i : grid1.Coords, ∀ a, (k1_off45 i) a + S1.size a ≤ S60000.size a
  k1_off47_inb : ∀ i : grid1.Coords, ∀ a, (k1_off47 i) a + S1.size a ≤ S60000.size a
  k1_off49_inb : ∀ i : grid1.Coords, ∀ a, (k1_off49 i) a + S1.size a ≤ S60000.size a
  k1_off51_inb : ∀ i : grid1.Coords, ∀ a, (k1_off51 i) a + S1.size a ≤ S60000.size a
  k1_off53_inb : ∀ i : grid1.Coords, ∀ a, (k1_off53 i) a + S1.size a ≤ S60000.size a
  k1_off55_inb : ∀ i : grid1.Coords, ∀ a, (k1_off55 i) a + S1.size a ≤ S60000.size a
  k1_off57_inb : ∀ i : grid1.Coords, ∀ a, (k1_off57 i) a + S1.size a ≤ S60000.size a
  k1_off59_inb : ∀ i : grid1.Coords, ∀ a, (k1_off59 i) a + S1.size a ≤ S60000.size a
  k1_off61_inb : ∀ i : grid1.Coords, ∀ a, (k1_off61 i) a + S1.size a ≤ S60000.size a
  k1_off63_inb : ∀ i : grid1.Coords, ∀ a, (k1_off63 i) a + S1.size a ≤ S60000.size a
  k1_off65_inb : ∀ i : grid1.Coords, ∀ a, (k1_off65 i) a + S1.size a ≤ S60000.size a
  k1_off67_inb : ∀ i : grid1.Coords, ∀ a, (k1_off67 i) a + S1.size a ≤ S60000.size a
  k1_off69_inb : ∀ i : grid1.Coords, ∀ a, (k1_off69 i) a + S1.size a ≤ S60000.size a
  k1_off71_inb : ∀ i : grid1.Coords, ∀ a, (k1_off71 i) a + S1.size a ≤ S60000.size a
  k1_off73_inb : ∀ i : grid1.Coords, ∀ a, (k1_off73 i) a + S1.size a ≤ S60000.size a
  k1_off75_inb : ∀ i : grid1.Coords, ∀ a, (k1_off75 i) a + S1.size a ≤ S60000.size a
  k1_off77_inb : ∀ i : grid1.Coords, ∀ a, (k1_off77 i) a + S1.size a ≤ S60000.size a
  k1_off79_inb : ∀ i : grid1.Coords, ∀ a, (k1_off79 i) a + S1.size a ≤ S60000.size a
  k1_off81_inb : ∀ i : grid1.Coords, ∀ a, (k1_off81 i) a + S1.size a ≤ S60000.size a
  k1_off83_inb : ∀ i : grid1.Coords, ∀ a, (k1_off83 i) a + S1.size a ≤ S60000.size a
  k1_off85_inb : ∀ i : grid1.Coords, ∀ a, (k1_off85 i) a + S1.size a ≤ S60000.size a
  k1_off87_inb : ∀ i : grid1.Coords, ∀ a, (k1_off87 i) a + S1.size a ≤ S60000.size a
  k1_off89_inb : ∀ i : grid1.Coords, ∀ a, (k1_off89 i) a + S1.size a ≤ S60000.size a
  k1_off91_inb : ∀ i : grid1.Coords, ∀ a, (k1_off91 i) a + S1.size a ≤ S60000.size a
  k1_off93_inb : ∀ i : grid1.Coords, ∀ a, (k1_off93 i) a + S1.size a ≤ S60000.size a
  k1_off95_inb : ∀ i : grid1.Coords, ∀ a, (k1_off95 i) a + S1.size a ≤ S60000.size a
  k1_off97_inb : ∀ i : grid1.Coords, ∀ a, (k1_off97 i) a + S1.size a ≤ S60000.size a
  k1_off99_inb : ∀ i : grid1.Coords, ∀ a, (k1_off99 i) a + S1.size a ≤ S60000.size a
  k1_off101_inb : ∀ i : grid1.Coords, ∀ a, (k1_off101 i) a + S1.size a ≤ S60000.size a
  k1_off103_inb : ∀ i : grid1.Coords, ∀ a, (k1_off103 i) a + S1.size a ≤ S60000.size a
  k1_off105_inb : ∀ i : grid1.Coords, ∀ a, (k1_off105 i) a + S1.size a ≤ S60000.size a
  k1_off107_inb : ∀ i : grid1.Coords, ∀ a, (k1_off107 i) a + S1.size a ≤ S60000.size a
  k1_off109_inb : ∀ i : grid1.Coords, ∀ a, (k1_off109 i) a + S1.size a ≤ S60000.size a
  k1_off111_inb : ∀ i : grid1.Coords, ∀ a, (k1_off111 i) a + S1.size a ≤ S60000.size a
  k1_off113_inb : ∀ i : grid1.Coords, ∀ a, (k1_off113 i) a + S1.size a ≤ S60000.size a
  k1_off115_inb : ∀ i : grid1.Coords, ∀ a, (k1_off115 i) a + S1.size a ≤ S60000.size a
  k1_off117_inb : ∀ i : grid1.Coords, ∀ a, (k1_off117 i) a + S1.size a ≤ S60000.size a
  k1_off119_inb : ∀ i : grid1.Coords, ∀ a, (k1_off119 i) a + S1.size a ≤ S60000.size a
  k1_off121_inb : ∀ i : grid1.Coords, ∀ a, (k1_off121 i) a + S1.size a ≤ S60000.size a
  k1_off123_inb : ∀ i : grid1.Coords, ∀ a, (k1_off123 i) a + S1.size a ≤ S60000.size a
  k1_off125_inb : ∀ i : grid1.Coords, ∀ a, (k1_off125 i) a + S1.size a ≤ S60000.size a
  k1_off127_inb : ∀ i : grid1.Coords, ∀ a, (k1_off127 i) a + S1.size a ≤ S60000.size a
  k1_off129_inb : ∀ i : grid1.Coords, ∀ a, (k1_off129 i) a + S1.size a ≤ S60000.size a
  k1_off131_inb : ∀ i : grid1.Coords, ∀ a, (k1_off131 i) a + S1.size a ≤ S60000.size a
  k1_off133_inb : ∀ i : grid1.Coords, ∀ a, (k1_off133 i) a + S1.size a ≤ S60000.size a
  k1_off135_inb : ∀ i : grid1.Coords, ∀ a, (k1_off135 i) a + S1.size a ≤ S60000.size a
  k1_off137_inb : ∀ i : grid1.Coords, ∀ a, (k1_off137 i) a + S1.size a ≤ S60000.size a
  k1_off139_inb : ∀ i : grid1.Coords, ∀ a, (k1_off139 i) a + S1.size a ≤ S60000.size a
  k1_off141_inb : ∀ i : grid1.Coords, ∀ a, (k1_off141 i) a + S1.size a ≤ S60000.size a
  k1_off143_inb : ∀ i : grid1.Coords, ∀ a, (k1_off143 i) a + S1.size a ≤ S60000.size a
  k1_off145_inb : ∀ i : grid1.Coords, ∀ a, (k1_off145 i) a + S1.size a ≤ S60000.size a
  k1_off147_inb : ∀ i : grid1.Coords, ∀ a, (k1_off147 i) a + S1.size a ≤ S60000.size a
  k1_off149_inb : ∀ i : grid1.Coords, ∀ a, (k1_off149 i) a + S1.size a ≤ S60000.size a
  k1_off151_inb : ∀ i : grid1.Coords, ∀ a, (k1_off151 i) a + S1.size a ≤ S60000.size a
  k1_off153_inb : ∀ i : grid1.Coords, ∀ a, (k1_off153 i) a + S1.size a ≤ S60000.size a
  k1_off155_inb : ∀ i : grid1.Coords, ∀ a, (k1_off155 i) a + S1.size a ≤ S60000.size a
  k1_off157_inb : ∀ i : grid1.Coords, ∀ a, (k1_off157 i) a + S1.size a ≤ S60000.size a
  k1_off159_inb : ∀ i : grid1.Coords, ∀ a, (k1_off159 i) a + S1.size a ≤ S60000.size a
  k1_off161_inb : ∀ i : grid1.Coords, ∀ a, (k1_off161 i) a + S1.size a ≤ S60000.size a
  k1_off163_inb : ∀ i : grid1.Coords, ∀ a, (k1_off163 i) a + S1.size a ≤ S60000.size a
  k1_off165_inb : ∀ i : grid1.Coords, ∀ a, (k1_off165 i) a + S1.size a ≤ S60000.size a
  k1_off167_inb : ∀ i : grid1.Coords, ∀ a, (k1_off167 i) a + S1.size a ≤ S60000.size a
  k1_off169_inb : ∀ i : grid1.Coords, ∀ a, (k1_off169 i) a + S1.size a ≤ S60000.size a
  k1_off171_inb : ∀ i : grid1.Coords, ∀ a, (k1_off171 i) a + S1.size a ≤ S60000.size a
  k1_off173_inb : ∀ i : grid1.Coords, ∀ a, (k1_off173 i) a + S1.size a ≤ S60000.size a
  k1_off175_inb : ∀ i : grid1.Coords, ∀ a, (k1_off175 i) a + S1.size a ≤ S60000.size a
  k1_off177_inb : ∀ i : grid1.Coords, ∀ a, (k1_off177 i) a + S1.size a ≤ S60000.size a
  k1_off179_inb : ∀ i : grid1.Coords, ∀ a, (k1_off179 i) a + S1.size a ≤ S60000.size a
  k1_off181_inb : ∀ i : grid1.Coords, ∀ a, (k1_off181 i) a + S1.size a ≤ S60000.size a
  k1_off183_inb : ∀ i : grid1.Coords, ∀ a, (k1_off183 i) a + S1.size a ≤ S60000.size a
  k1_off185_inb : ∀ i : grid1.Coords, ∀ a, (k1_off185 i) a + S1.size a ≤ S60000.size a
  k1_off187_inb : ∀ i : grid1.Coords, ∀ a, (k1_off187 i) a + S1.size a ≤ S60000.size a
  k1_off189_inb : ∀ i : grid1.Coords, ∀ a, (k1_off189 i) a + S1.size a ≤ S60000.size a
  k1_off191_inb : ∀ i : grid1.Coords, ∀ a, (k1_off191 i) a + S1.size a ≤ S60000.size a
  k1_off193_inb : ∀ i : grid1.Coords, ∀ a, (k1_off193 i) a + S1.size a ≤ S60000.size a
  k1_off195_inb : ∀ i : grid1.Coords, ∀ a, (k1_off195 i) a + S1.size a ≤ S60000.size a
  k1_off197_inb : ∀ i : grid1.Coords, ∀ a, (k1_off197 i) a + S1.size a ≤ S60000.size a
  k1_off199_inb : ∀ i : grid1.Coords, ∀ a, (k1_off199 i) a + S1.size a ≤ S60000.size a
  k1_off201_inb : ∀ i : grid1.Coords, ∀ a, (k1_off201 i) a + S1.size a ≤ S60000.size a
  k1_off203_inb : ∀ i : grid1.Coords, ∀ a, (k1_off203 i) a + S1.size a ≤ S60000.size a
  k1_off205_inb : ∀ i : grid1.Coords, ∀ a, (k1_off205 i) a + S1.size a ≤ S60000.size a
  k1_off207_inb : ∀ i : grid1.Coords, ∀ a, (k1_off207 i) a + S1.size a ≤ S60000.size a
  k1_off209_inb : ∀ i : grid1.Coords, ∀ a, (k1_off209 i) a + S1.size a ≤ S60000.size a
  k1_off211_inb : ∀ i : grid1.Coords, ∀ a, (k1_off211 i) a + S1.size a ≤ S60000.size a
  k1_off213_inb : ∀ i : grid1.Coords, ∀ a, (k1_off213 i) a + S1.size a ≤ S60000.size a
  k1_off215_inb : ∀ i : grid1.Coords, ∀ a, (k1_off215 i) a + S1.size a ≤ S60000.size a
  k1_off217_inb : ∀ i : grid1.Coords, ∀ a, (k1_off217 i) a + S1.size a ≤ S60000.size a
  k1_off219_inb : ∀ i : grid1.Coords, ∀ a, (k1_off219 i) a + S1.size a ≤ S60000.size a
  k1_off221_inb : ∀ i : grid1.Coords, ∀ a, (k1_off221 i) a + S1.size a ≤ S60000.size a
  k1_off223_inb : ∀ i : grid1.Coords, ∀ a, (k1_off223 i) a + S1.size a ≤ S60000.size a
  k1_off225_inb : ∀ i : grid1.Coords, ∀ a, (k1_off225 i) a + S1.size a ≤ S60000.size a
  k1_off227_inb : ∀ i : grid1.Coords, ∀ a, (k1_off227 i) a + S1.size a ≤ S60000.size a
  k1_off229_inb : ∀ i : grid1.Coords, ∀ a, (k1_off229 i) a + S1.size a ≤ S60000.size a
  k1_off231_inb : ∀ i : grid1.Coords, ∀ a, (k1_off231 i) a + S1.size a ≤ S60000.size a
  k1_off233_inb : ∀ i : grid1.Coords, ∀ a, (k1_off233 i) a + S1.size a ≤ S60000.size a
  k1_off235_inb : ∀ i : grid1.Coords, ∀ a, (k1_off235 i) a + S1.size a ≤ S60000.size a
  k1_off237_inb : ∀ i : grid1.Coords, ∀ a, (k1_off237 i) a + S1.size a ≤ S60000.size a
  k1_off239_inb : ∀ i : grid1.Coords, ∀ a, (k1_off239 i) a + S1.size a ≤ S60000.size a
  k1_off241_inb : ∀ i : grid1.Coords, ∀ a, (k1_off241 i) a + S1.size a ≤ S60000.size a
  k1_off243_inb : ∀ i : grid1.Coords, ∀ a, (k1_off243 i) a + S1.size a ≤ S60000.size a
  k1_off245_inb : ∀ i : grid1.Coords, ∀ a, (k1_off245 i) a + S1.size a ≤ S60000.size a
  k1_off247_inb : ∀ i : grid1.Coords, ∀ a, (k1_off247 i) a + S1.size a ≤ S60000.size a
  k1_off249_inb : ∀ i : grid1.Coords, ∀ a, (k1_off249 i) a + S1.size a ≤ S60000.size a
  k1_off251_inb : ∀ i : grid1.Coords, ∀ a, (k1_off251 i) a + S1.size a ≤ S60000.size a
  k1_off253_inb : ∀ i : grid1.Coords, ∀ a, (k1_off253 i) a + S1.size a ≤ S60000.size a
  k1_off255_inb : ∀ i : grid1.Coords, ∀ a, (k1_off255 i) a + S1.size a ≤ S60000.size a
  k1_off257_inb : ∀ i : grid1.Coords, ∀ a, (k1_off257 i) a + S1.size a ≤ S60000.size a
  k1_off259_inb : ∀ i : grid1.Coords, ∀ a, (k1_off259 i) a + S1.size a ≤ S60000.size a
  k1_off261_inb : ∀ i : grid1.Coords, ∀ a, (k1_off261 i) a + S1.size a ≤ S60000.size a
  k1_off263_inb : ∀ i : grid1.Coords, ∀ a, (k1_off263 i) a + S1.size a ≤ S60000.size a
  k1_off265_inb : ∀ i : grid1.Coords, ∀ a, (k1_off265 i) a + S1.size a ≤ S60000.size a
  k1_off267_inb : ∀ i : grid1.Coords, ∀ a, (k1_off267 i) a + S1.size a ≤ S60000.size a
  k1_off269_inb : ∀ i : grid1.Coords, ∀ a, (k1_off269 i) a + S1.size a ≤ S60000.size a
  k1_off271_inb : ∀ i : grid1.Coords, ∀ a, (k1_off271 i) a + S1.size a ≤ S60000.size a
  k1_off273_inb : ∀ i : grid1.Coords, ∀ a, (k1_off273 i) a + S1.size a ≤ S60000.size a
  k1_off275_inb : ∀ i : grid1.Coords, ∀ a, (k1_off275 i) a + S1.size a ≤ S60000.size a
  k1_off277_inb : ∀ i : grid1.Coords, ∀ a, (k1_off277 i) a + S1.size a ≤ S60000.size a
  k1_off279_inb : ∀ i : grid1.Coords, ∀ a, (k1_off279 i) a + S1.size a ≤ S60000.size a
  k1_off281_inb : ∀ i : grid1.Coords, ∀ a, (k1_off281 i) a + S1.size a ≤ S60000.size a
  k1_off283_inb : ∀ i : grid1.Coords, ∀ a, (k1_off283 i) a + S1.size a ≤ S60000.size a
  k1_off285_inb : ∀ i : grid1.Coords, ∀ a, (k1_off285 i) a + S1.size a ≤ S60000.size a
  k1_off287_inb : ∀ i : grid1.Coords, ∀ a, (k1_off287 i) a + S1.size a ≤ S60000.size a
  k1_off289_inb : ∀ i : grid1.Coords, ∀ a, (k1_off289 i) a + S1.size a ≤ S60000.size a
  k1_off291_inb : ∀ i : grid1.Coords, ∀ a, (k1_off291 i) a + S1.size a ≤ S60000.size a
  k1_off293_inb : ∀ i : grid1.Coords, ∀ a, (k1_off293 i) a + S1.size a ≤ S60000.size a
  k1_off295_inb : ∀ i : grid1.Coords, ∀ a, (k1_off295 i) a + S1.size a ≤ S60000.size a
  k1_off297_inb : ∀ i : grid1.Coords, ∀ a, (k1_off297 i) a + S1.size a ≤ S60000.size a
  k1_off299_inb : ∀ i : grid1.Coords, ∀ a, (k1_off299 i) a + S1.size a ≤ S60000.size a
  k1_off301_inb : ∀ i : grid1.Coords, ∀ a, (k1_off301 i) a + S1.size a ≤ S60000.size a
  k1_off303_inb : ∀ i : grid1.Coords, ∀ a, (k1_off303 i) a + S1.size a ≤ S60000.size a
  k1_off305_inb : ∀ i : grid1.Coords, ∀ a, (k1_off305 i) a + S1.size a ≤ S60000.size a
  k1_off307_inb : ∀ i : grid1.Coords, ∀ a, (k1_off307 i) a + S1.size a ≤ S60000.size a
  k1_off309_inb : ∀ i : grid1.Coords, ∀ a, (k1_off309 i) a + S1.size a ≤ S60000.size a
  k1_off311_inb : ∀ i : grid1.Coords, ∀ a, (k1_off311 i) a + S1.size a ≤ S60000.size a
  k1_off313_inb : ∀ i : grid1.Coords, ∀ a, (k1_off313 i) a + S1.size a ≤ S60000.size a
  k1_off315_inb : ∀ i : grid1.Coords, ∀ a, (k1_off315 i) a + S1.size a ≤ S60000.size a
  k1_off317_inb : ∀ i : grid1.Coords, ∀ a, (k1_off317 i) a + S1.size a ≤ S60000.size a
  k1_off319_inb : ∀ i : grid1.Coords, ∀ a, (k1_off319 i) a + S1.size a ≤ S60000.size a
  k1_off321_inb : ∀ i : grid1.Coords, ∀ a, (k1_off321 i) a + S1.size a ≤ S60000.size a
  k1_off323_inb : ∀ i : grid1.Coords, ∀ a, (k1_off323 i) a + S1.size a ≤ S60000.size a
  k1_off325_inb : ∀ i : grid1.Coords, ∀ a, (k1_off325 i) a + S1.size a ≤ S60000.size a
  k1_off327_inb : ∀ i : grid1.Coords, ∀ a, (k1_off327 i) a + S1.size a ≤ S60000.size a
  k1_off329_inb : ∀ i : grid1.Coords, ∀ a, (k1_off329 i) a + S1.size a ≤ S60000.size a
  k1_off331_inb : ∀ i : grid1.Coords, ∀ a, (k1_off331 i) a + S1.size a ≤ S60000.size a
  k1_off333_inb : ∀ i : grid1.Coords, ∀ a, (k1_off333 i) a + S1.size a ≤ S60000.size a
  k1_off335_inb : ∀ i : grid1.Coords, ∀ a, (k1_off335 i) a + S1.size a ≤ S60000.size a
  k1_off337_inb : ∀ i : grid1.Coords, ∀ a, (k1_off337 i) a + S1.size a ≤ S60000.size a
  k1_off339_inb : ∀ i : grid1.Coords, ∀ a, (k1_off339 i) a + S1.size a ≤ S60000.size a
  k1_off341_inb : ∀ i : grid1.Coords, ∀ a, (k1_off341 i) a + S1.size a ≤ S60000.size a
  k1_off343_inb : ∀ i : grid1.Coords, ∀ a, (k1_off343 i) a + S1.size a ≤ S60000.size a
  k1_off345_inb : ∀ i : grid1.Coords, ∀ a, (k1_off345 i) a + S1.size a ≤ S60000.size a
  k1_off347_inb : ∀ i : grid1.Coords, ∀ a, (k1_off347 i) a + S1.size a ≤ S60000.size a
  k1_off349_inb : ∀ i : grid1.Coords, ∀ a, (k1_off349 i) a + S1.size a ≤ S60000.size a
  k1_off351_inb : ∀ i : grid1.Coords, ∀ a, (k1_off351 i) a + S1.size a ≤ S60000.size a
  k1_off353_inb : ∀ i : grid1.Coords, ∀ a, (k1_off353 i) a + S1.size a ≤ S60000.size a
  k1_off355_inb : ∀ i : grid1.Coords, ∀ a, (k1_off355 i) a + S1.size a ≤ S60000.size a
  k1_off357_inb : ∀ i : grid1.Coords, ∀ a, (k1_off357 i) a + S1.size a ≤ S60000.size a
  k1_off359_inb : ∀ i : grid1.Coords, ∀ a, (k1_off359 i) a + S1.size a ≤ S60000.size a
  k1_off361_inb : ∀ i : grid1.Coords, ∀ a, (k1_off361 i) a + S1.size a ≤ S60000.size a
  k1_off363_inb : ∀ i : grid1.Coords, ∀ a, (k1_off363 i) a + S1.size a ≤ S60000.size a
  k1_off365_inb : ∀ i : grid1.Coords, ∀ a, (k1_off365 i) a + S1.size a ≤ S60000.size a
  k1_off367_inb : ∀ i : grid1.Coords, ∀ a, (k1_off367 i) a + S1.size a ≤ S60000.size a
  k1_off369_inb : ∀ i : grid1.Coords, ∀ a, (k1_off369 i) a + S1.size a ≤ S60000.size a
  k1_off371_inb : ∀ i : grid1.Coords, ∀ a, (k1_off371 i) a + S1.size a ≤ S60000.size a
  k1_off373_inb : ∀ i : grid1.Coords, ∀ a, (k1_off373 i) a + S1.size a ≤ S60000.size a
  k1_off375_inb : ∀ i : grid1.Coords, ∀ a, (k1_off375 i) a + S1.size a ≤ S60000.size a
  k1_off377_inb : ∀ i : grid1.Coords, ∀ a, (k1_off377 i) a + S1.size a ≤ S60000.size a
  k1_off379_inb : ∀ i : grid1.Coords, ∀ a, (k1_off379 i) a + S1.size a ≤ S60000.size a
  k1_off381_inb : ∀ i : grid1.Coords, ∀ a, (k1_off381 i) a + S1.size a ≤ S60000.size a
  k1_off383_inb : ∀ i : grid1.Coords, ∀ a, (k1_off383 i) a + S1.size a ≤ S60000.size a
  k1_off385_inb : ∀ i : grid1.Coords, ∀ a, (k1_off385 i) a + S1.size a ≤ S60000.size a
  k1_off387_inb : ∀ i : grid1.Coords, ∀ a, (k1_off387 i) a + S1.size a ≤ S60000.size a
  k1_off389_inb : ∀ i : grid1.Coords, ∀ a, (k1_off389 i) a + S1.size a ≤ S60000.size a
  k1_off391_inb : ∀ i : grid1.Coords, ∀ a, (k1_off391 i) a + S1.size a ≤ S60000.size a
  k1_off393_inb : ∀ i : grid1.Coords, ∀ a, (k1_off393 i) a + S1.size a ≤ S60000.size a
  k1_off395_inb : ∀ i : grid1.Coords, ∀ a, (k1_off395 i) a + S1.size a ≤ S60000.size a
  k1_off397_inb : ∀ i : grid1.Coords, ∀ a, (k1_off397 i) a + S1.size a ≤ S60000.size a
  k1_off399_inb : ∀ i : grid1.Coords, ∀ a, (k1_off399 i) a + S1.size a ≤ S60000.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x128.size a ≤ S60000x128.size a
  hwx1_0 : ∀ i : grid1.Coords, EltTy.bits .f32 = 32 ∨ (Rect.block (s := S60000x128) S200x128.size (cc1_transform_0 i) (hinb1_0 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x704x128.size a ≤ S5x200x704x128.size a
  hwx2_0 : ∀ i : grid2.Coords, EltTy.bits .f32 = 32 ∨ (Rect.block (s := S5x200x704x128) S1x8x704x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x8x704.size a ≤ S5x64x200x704.size a
  hwx2_1 : ∀ i : grid2.Coords, EltTy.bits .f32 = 32 ∨ (Rect.block (s := S5x64x200x704) S1x64x8x704.size (cc2_transform_1 i) (hinb2_1 i)).WholeWords (EltTy.packing .f32)

variable [Facts₀]

abbrev cc1_scratch1 : DmaSems sig S_ := SemArray.consecutive 4 S_ hcc1_scratch1

abbrev win0_0 : Pipeline.Window sig grid0 :=
  Pipeline.Window.ofSpec (Memref.whole main_v13) S7040x1x128.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev spec1_0 : Pipeline.WinSpec sig grid1.rank :=
  Pipeline.WinSpec.ofSpec (Memref.whole main_v12) S200x128.size reads1_0 false false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_0 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev win2_0 : Pipeline.Window sig grid2 :=
  Pipeline.Window.ofSpec (Memref.whole main_v15) S1x8x704x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x64x8x704.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where
  harr1 : ∀ w, (spec1 w).arr.IsWhole

variable [Facts]
-- ==== ReferenceIdeal.lean ====
abbrev S60000x4 : Shape := ⟨2, ![60000, 4]⟩
abbrev S60000x64 : Shape := ⟨2, ![60000, 64]⟩
abbrev S60000x1 : Shape := ⟨2, ![60000, 1]⟩
abbrev S60000 : Shape := ⟨1, ![60000]⟩
abbrev S_ : Shape := ⟨0, ![]⟩
abbrev S64x704000 : Shape := ⟨2, ![64, 704000]⟩
abbrev S64x60000 : Shape := ⟨2, ![64, 60000]⟩
abbrev S64x5x200x704 : Shape := ⟨4, ![64, 5, 200, 704]⟩
abbrev S5x64x200x704 : Shape := ⟨4, ![5, 64, 200, 704]⟩

abbrev nBuf : Space → Nat
  | .hbm => 30
  | .vmem => 0
  | .smem => 0
  | _ => 0

abbrev bufTy : (tb : Table) → Fin (tcTables nBuf tb) → BufTy
  | .hbm, ⟨0, _⟩ => ⟨S60000x4, .i32⟩
  | .hbm, ⟨1, _⟩ => ⟨S60000x64, .f32⟩
  | .hbm, ⟨2, _⟩ => ⟨S60000x1, .i32⟩
  | .hbm, ⟨3, _⟩ => ⟨S60000, .i32⟩
  | .hbm, ⟨4, _⟩ => ⟨S_, .i32⟩
  | .hbm, ⟨5, _⟩ => ⟨S60000, .i32⟩
  | .hbm, ⟨6, _⟩ => ⟨S60000, .i32⟩
  | .hbm, ⟨7, _⟩ => ⟨S60000x1, .i32⟩
  | .hbm, ⟨8, _⟩ => ⟨S60000, .i32⟩
  | .hbm, ⟨9, _⟩ => ⟨S_, .i32⟩
  | .hbm, ⟨10, _⟩ => ⟨S60000, .i32⟩
  | .hbm, ⟨11, _⟩ => ⟨S60000, .i32⟩
  | .hbm, ⟨12, _⟩ => ⟨S60000, .i32⟩
  | .hbm, ⟨13, _⟩ => ⟨S60000x1, .i32⟩
  | .hbm, ⟨14, _⟩ => ⟨S60000, .i32⟩
  | .hbm, ⟨15, _⟩ => ⟨S60000, .i32⟩
  | .hbm, ⟨16, _⟩ => ⟨S_, .f32⟩
  | .hbm, ⟨17, _⟩ => ⟨S64x704000, .f32⟩
  | .hbm, ⟨18, _⟩ => ⟨S64x60000, .f32⟩
  | .hbm, ⟨19, _⟩ => ⟨S_, .i32⟩
  | .hbm, ⟨20, _⟩ => ⟨S60000, .i32⟩
  | .hbm, ⟨21, _⟩ => ⟨S60000, .i1⟩
  | .hbm, ⟨22, _⟩ => ⟨S_, .i32⟩
  | .hbm, ⟨23, _⟩ => ⟨S60000, .i32⟩
  | .hbm, ⟨24, _⟩ => ⟨S60000, .i32⟩
  | .hbm, ⟨25, _⟩ => ⟨S60000, .i32⟩
  | .hbm, ⟨26, _⟩ => ⟨S60000x1, .i32⟩
  | .hbm, ⟨27, _⟩ => ⟨S64x704000, .f32⟩
  | .hbm, ⟨28, _⟩ => ⟨S64x5x200x704, .f32⟩
  | .hbm, ⟨29, _⟩ => ⟨S5x64x200x704, .f32⟩
  | _, _ => ⟨S60000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  slices_S60000x4_S60000x1_0_0 : S60000x4.Slices ![0, 0] S60000x1
  shapeCasts_S60000x1_S60000 : S60000x1.ShapeCasts S60000
  bcast_S_S60000 : S_.BroadcastsInDim S60000 (![] : Fin 0 → Fin S60000.rank)
  slices_S60000x4_S60000x1_0_2 : S60000x4.Slices ![0, 2] S60000x1
  slices_S60000x4_S60000x1_0_3 : S60000x4.Slices ![0, 3] S60000x1
  bcast_S_S64x704000 : S_.BroadcastsInDim S64x704000 (![] : Fin 0 → Fin S64x704000.rank)
  transposes_S60000x64_S64x60000_1_0 : S60000x64.Transposes [1, 0] S64x60000
  bcast_S60000_S60000x1_0 : S60000.BroadcastsInDim S60000x1 (![0] : Fin 1 → Fin S60000x1.rank)
  shapeCasts_S64x704000_S64x5x200x704 : S64x704000.ShapeCasts S64x5x200x704
  transposes_S64x5x200x704_S5x64x200x704_1_0_2_3 : S64x5x200x704.Transposes [1, 0, 2, 3] S5x64x200x704
  scatter_S64x704000_S60000x1_S64x60000_0_1_1_1_wf : ScatterDims.WF S64x704000 S60000x1 S64x60000 [0] [1] [1] 1

variable [Facts₀]

def scatter_S64x704000_S60000x1_S64x60000_0_1_1_1 : ScatterDims S64x704000 S60000x1 S64x60000 where
  updateWindowDims := [0]
  insertedWindowDims := [1]
  scatterDimsToOperandDims := [1]
  indexVectorDim := 1
  wf := scatter_S64x704000_S60000x1_S64x60000_0_1_1_1_wf

class Facts : Prop extends Facts₀ where

variable [Facts]
-- ==== Proof.Spec.lean ====
/-
  The scatter of pillar rows into a canvas, as plain mathematics (no program is imported).

  Pillar `k` (in order `k = 0, 1, 2, …`) is written to canvas position `pos k`; a later pillar overwrites an
  earlier one at the same position, and a position no pillar names keeps the fill value `z`. `lastWrite z pos val n p`
  is what position `p` holds after the first `n` pillars: the value of the LAST `k < n` with `pos k = p`, or `z`.
-/
import Mathlib.Data.Nat.Basic
import Mathlib.Data.List.Basic

namespace Cert.Spec

variable {α : Type}

/-- Position `p` after the first `n` writes `k ↦ (pos k, val k)`, applied in order over the fill `z`. -/
def lastWrite (z : α) (pos : ℕ → ℕ) (val : ℕ → α) : ℕ → ℕ → α
  | 0, _ => z
  | n + 1, p => if pos n = p then val n else lastWrite z pos val n p

@[simp] theorem lastWrite_zero (z : α) (pos : ℕ → ℕ) (val : ℕ → α) (p : ℕ) : lastWrite z pos val 0 p = z := rfl

theorem lastWrite_succ (z : α) (pos : ℕ → ℕ) (val : ℕ → α) (n p : ℕ) :
    lastWrite z pos val (n + 1) p = if pos n = p then val n else lastWrite z pos val n p := rfl

/-- The writes depend on `pos` and `val` only below `n`. -/
theorem lastWrite_congr (z : α) {pos pos' : ℕ → ℕ} {val val' : ℕ → α} (n : ℕ)
    (hp : ∀ k < n, pos k = pos' k) (hv : ∀ k < n, val k = val' k) (p : ℕ) :
    lastWrite z pos val n p = lastWrite z pos' val' n p := by
  induction n with
  | zero => rfl
  | succ n ih =>
    rw [lastWrite_succ, lastWrite_succ, hp n (Nat.lt_succ_self n), hv n (Nat.lt_succ_self n),
      ih (fun k hk => hp k (Nat.lt_succ_of_lt hk)) (fun k hk => hv k (Nat.lt_succ_of_lt hk))]

/-- A position no write below `n` names keeps the fill. -/
theorem lastWrite_of_forall_ne (z : α) (pos : ℕ → ℕ) (val : ℕ → α) (n p : ℕ) (h : ∀ k < n, pos k ≠ p) :
    lastWrite z pos val n p = z := by
  induction n with
  | zero => rfl
  | succ n ih =>
    rw [lastWrite_succ, if_neg (h n (Nat.lt_succ_self n)), ih (fun k hk => h k (Nat.lt_succ_of_lt hk))]

/-- Writing in two stretches: the first `a` writes, then `b` more over what they left. -/
theorem lastWrite_add (z : α) (pos : ℕ → ℕ) (val : ℕ → α) (a b p : ℕ) :
    lastWrite z pos val (a + b) p
      = lastWrite (lastWrite z pos val a p) (fun k => pos (a + k)) (fun k => val (a + k)) b p := by
  induction b with
  | zero => rfl
  | succ b ih => rw [← Nat.add_assoc, lastWrite_succ, lastWrite_succ, ih]

/-- The value written commutes with a map of the values. -/
theorem lastWrite_map {β : Type} (f : α → β) (z : α) (pos : ℕ → ℕ) (val : ℕ → α) (n p : ℕ) :
    f (lastWrite z pos val n p) = lastWrite (f z) pos (fun k => f (val k)) n p := by
  induction n with
  | zero => rfl
  | succ n ih => rw [lastWrite_succ, lastWrite_succ, apply_ite f, ih]

end Cert.Spec
-- ==== Proof.Flat.lean ====
/-
  The vocabulary both programs are read against: pillar `g`'s flat canvas word `b·140800 + y·704 + x` (32-bit
  arithmetic on the pillar's coordinate row), the position it names, and the expected result array — canvas position
  `b·140800 + y·704 + x`, channel `c`, holds channel `c` of the LAST pillar whose word names that position, or the fill.
-/
import Idealize.ShloMosaic.Lib.ValueIdx
import proofs.«403100_j62216896250120_3_alg».proof.Proof.Spec

noncomputable section

namespace Cert.Flat

open Idealize.ShloMosaic Idealize.ShloMosaic.ValueIdx

/-- Pillar `g`'s flat canvas word, from its coordinate row `(b, z, y, x)`: `b·140800 + y·704 + x` in 32-bit arithmetic. -/
def word (vox : IVec ⟨2, ![60000, 4]⟩ 32) (g : Fin 60000) : BitVec 32 :=
  vox (ix2 g 0) * 140800#32 + vox (ix2 g 2) * 704#32 + vox (ix2 g 3)

/-- Every pillar's word names a canvas position: below `5·200·704 = 704000` (so it is nonnegative read signed). -/
def InRange (vox : IVec ⟨2, ![60000, 4]⟩ 32) : Prop := ∀ g : Fin 60000, (word vox g).toNat < 704000

/-- Pillar `k`'s position, as a total function of `k`. -/
def pos (vox : IVec ⟨2, ![60000, 4]⟩ 32) (k : ℕ) : ℕ := if h : k < 60000 then (word vox ⟨k, h⟩).toNat else 0

/-- Channel `c` of pillar `k`, as a total function of `k` (the fill past the last pillar). -/
def chan {α : Type} (z : α) (feat : (⟨2, ![60000, 64]⟩ : Shape).Idx → α) (c : Fin 64) (k : ℕ) : α :=
  if h : k < 60000 then feat (ix2 ⟨k, h⟩ c) else z

/-- The expected result: entry `(b, c, y, x)` is channel `c` of the last pillar written at position
    `b·140800 + y·704 + x`, or the fill `z`. -/
def out {α : Type} (z : α) (vox : IVec ⟨2, ![60000, 4]⟩ 32) (feat : (⟨2, ![60000, 64]⟩ : Shape).Idx → α) :
    (⟨4, ![5, 64, 200, 704]⟩ : Shape).Idx → α :=
  fun j => Spec.lastWrite z (pos vox) (chan z feat (j 1)) 60000 ((j 0).val * 140800 + (j 2).val * 704 + (j 3).val)

end Cert.Flat

end
-- ==== Proof.PreRange.lean ====
/-
  The precondition read back. The precondition computes, for every pillar `g`, the 32-bit word `b·140800 + y·704 + x`
  of its coordinate row, and states (besides the features being finite) that every such word, read signed, is at least 0
  and below 704000. Here: that word chain read at a pillar is the flat canvas word, and the precondition being all ones
  gives every word's unsigned reading below 704000.
-/
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value
import proofs.«403100_j62216896250120_3_alg».proof.Pre_finite_inputs
import proofs.«403100_j62216896250120_3_alg».proof.Proof.Flat

noncomputable section

namespace Cert.PreRange

open Idealize.ShloMosaic Idealize.ShloMosaic.ValueIdx

/-- Column `c` of the coordinate table, cut out as a `60000 × 1` array and flattened, holds at `g` the table's entry `(g, c)`:
    the flattening keeps row-major positions, and `g·1 + 0 = g`. -/
theorem col_apply (x0 : IVec ⟨2, ![60000, 4]⟩ 32) (c : Nat) (hc4 : c < 4)
    (hs : (⟨2, ![60000, 4]⟩ : Shape).Slices ![0, c] ⟨2, ![60000, 1]⟩)
    (hc : (⟨2, ![60000, 1]⟩ : Shape).ShapeCasts ⟨1, ![60000]⟩) (g : Fin 60000) :
    shapeCast ⟨1, ![60000]⟩ (extractStridedSlice ⟨2, ![60000, 1]⟩ ![0, c] x0 hs) hc (ix1 g) = x0 (ix2 g ⟨c, hc4⟩) := by
  rw [shapeCast_apply _ hc (ix1 g) (ix2 g (0 : Fin 1)) (by rw [Shape.rowMajor_val_two, Shape.rowMajor_val_one]; simp)]
  exact slice2_axis1_apply c x0 hs g 0 ⟨c, hc4⟩ (by simp)

/-- A scalar constant broadcast to any shape holds the constant at every index. -/
theorem bcast_const_apply {t : Shape} (hb : (⟨0, ![]⟩ : Shape).BroadcastsInDim t (![] : Fin 0 → Fin t.rank)) (c : BitVec 32)
    (j : t.Idx) : broadcastInDim t ![] hb (constantI ⟨0, ![]⟩ 32 c) j = c :=
  broadcastInDim_apply ![] hb _ j ix0 (fun a => a.elim0)

/-- The word chain read at pillar `g`: columns 0, 2, 3 of the table, the first two scaled by the broadcast
    constants 140800 and 704, summed in 32-bit arithmetic — the flat canvas word `b·140800 + y·704 + x` of row `g`.
    Every side condition is an arbitrary proof of its relation. -/
theorem word_chain_apply (x0 : IVec ⟨2, ![60000, 4]⟩ 32)
    (hs0 : (⟨2, ![60000, 4]⟩ : Shape).Slices ![0, 0] ⟨2, ![60000, 1]⟩)
    (hs2 : (⟨2, ![60000, 4]⟩ : Shape).Slices ![0, 2] ⟨2, ![60000, 1]⟩)
    (hs3 : (⟨2, ![60000, 4]⟩ : Shape).Slices ![0, 3] ⟨2, ![60000, 1]⟩)
    (hc0 hc2 hc3 : (⟨2, ![60000, 1]⟩ : Shape).ShapeCasts ⟨1, ![60000]⟩)
    (hb0 hb2 : (⟨0, ![]⟩ : Shape).BroadcastsInDim ⟨1, ![60000]⟩ (![] : Fin 0 → Fin 1))
    (g : Fin 60000) :
    addi (addi (muli (shapeCast ⟨1, ![60000]⟩ (extractStridedSlice ⟨2, ![60000, 1]⟩ ![0, 0] x0 hs0) hc0)
                     (broadcastInDim ⟨1, ![60000]⟩ ![] hb0 (constantI ⟨0, ![]⟩ 32 140800#32)))
               (muli (shapeCast ⟨1, ![60000]⟩ (extractStridedSlice ⟨2, ![60000, 1]⟩ ![0, 2] x0 hs2) hc2)
                     (broadcastInDim ⟨1, ![60000]⟩ ![] hb2 (constantI ⟨0, ![]⟩ 32 704#32))))
         (shapeCast ⟨1, ![60000]⟩ (extractStridedSlice ⟨2, ![60000, 1]⟩ ![0, 3] x0 hs3) hc3) (ix1 g)
      = Cert.Flat.word x0 g := by
  show (shapeCast ⟨1, ![60000]⟩ (extractStridedSlice ⟨2, ![60000, 1]⟩ ![0, 0] x0 hs0) hc0 (ix1 g)
          * broadcastInDim ⟨1, ![60000]⟩ ![] hb0 (constantI ⟨0, ![]⟩ 32 140800#32) (ix1 g)
        + shapeCast ⟨1, ![60000]⟩ (extractStridedSlice ⟨2, ![60000, 1]⟩ ![0, 2] x0 hs2) hc2 (ix1 g)
          * broadcastInDim ⟨1, ![60000]⟩ ![] hb2 (constantI ⟨0, ![]⟩ 32 704#32) (ix1 g))
        + shapeCast ⟨1, ![60000]⟩ (extractStridedSlice ⟨2, ![60000, 1]⟩ ![0, 3] x0 hs3) hc3 (ix1 g) = _
  rw [col_apply x0 0 (by omega) hs0 hc0 g, col_apply x0 2 (by omega) hs2 hc2 g, col_apply x0 3 (by omega) hs3 hc3 g,
    bcast_const_apply, bcast_const_apply]
  rfl

/-- A 32-bit word that read signed is at least 0 and below 704000 is below 704000 read unsigned: a word whose top bit is
    set reads negative. -/
theorem toNat_lt_of_signed (w : BitVec 32) (h0 : (0#32).toInt ≤ w.toInt) (h1 : w.toInt < (704000#32).toInt) :
    w.toNat < 704000 := by
  have e0 : (0#32).toInt = 0 := by decide
  have e1 : (704000#32).toInt = 704000 := by decide
  rw [e0] at h0
  rw [e1] at h1
  rw [BitVec.toInt_eq_toNat_cond] at h0 h1
  split at h0 <;> omega

/-- The rank-0 shape has one index. -/
instance subsingleton_idx0 : Subsingleton (⟨0, ![]⟩ : Shape).Idx := ⟨fun a b => funext fun d => d.elim0⟩

open Cert.Pre_finite_inputs in
/-- The precondition being all ones puts every pillar's word in range: the result is the conjunction of the finiteness
    bit and the reduction by `and`, over the pillars, of `(w ≥ 0) ∧ (w < 704000)` with both compares signed; a
    conjunction that is 1 has both parts 1, a reduction by `and` that is 1 met a 1 at every pillar, and the two signed
    compares at pillar `g` bound the word's unsigned reading. -/
theorem inRange_of_pre {F : FTy → Type} [FloatOps F] [Cert.Pre_finite_inputs.Facts]
    (x0 : IVec Cert.Pre_finite_inputs.S60000x4 32) (x1 : FVec F Cert.Pre_finite_inputs.S60000x64 .f32)
    (h : Cert.Pre_finite_inputs.fn (F := F) x0 x1 = fun _ => 1#1) : Cert.Flat.InRange x0 := by
  intro g
  have h0 := congrFun h ix0
  simp only [Cert.Pre_finite_inputs.fn, Cert.Pre_finite_inputs.fn_part1] at h0
  have h1 := (IntOp.andi_eq_one.1 h0).2
  have h2 := Host.reduce_andi_all _ _ _ _ ix0 h1 (ix1 g)
  obtain ⟨hge, hlt⟩ := IntOp.andi_eq_one.1 h2
  have hge' := IntOp.cmpi_sge.1 hge
  have hlt' := IntOp.cmpi_slt.1 hlt
  rw [word_chain_apply, bcast_const_apply] at hge' hlt'
  exact toNat_lt_of_signed _ hge' hlt'

end Cert.PreRange

end
-- ==== Proof.Ref.lean ====
/-
  The reference program's result, read index by index.

  The reference builds each pillar's canvas word `w_g = b·140800 + y·704 + x`, fills a `[64, 704000]` canvas with `0`,
  and scatters the transposed features into it with the "set" combiner: update `(c, g)` replaces canvas element
  `(c, w_g)`. The scatter is the left fold over the updates in row-major order (channel major, pillar minor). For a
  fixed element `(c, p)` only channel `c`'s updates can touch it, and among them, taken in pillar order, the last
  pillar with `w_g = p` decides; no such pillar leaves the fill. The reshape and transpose then place canvas element
  `(c, b·140800 + y·704 + x)` at result entry `(b, c, y, x)`.

  The plan: (1) the scatter's fold of arrays, read at one result index, is a fold of values; (2) a fold "overwrite when
  the position matches" over the first `N` indices is `lastWrite` over `N` writes; (3) `B` consecutive blocks of `S`
  writes, block `b` writing inside `[b·W, (b+1)·W)`, seen from position `c·W + p`, are block `c` alone; (4) where the
  update `(c, g)` lands, from the scatter's dimension numbers and the index array read signed; (5) the index array is
  the words, the words being canvas positions; (6) the layout operations.
-/
import proofs.«403100_j62216896250120_3_alg».proof.Proof.Gen.ReferenceIdeal.Run
import proofs.«403100_j62216896250120_3_alg».proof.Proof.Gen.ReferenceIdeal.Read
import proofs.«403100_j62216896250120_3_alg».proof.Proof.Flat
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
open Cert.Spec

variable {α : Type}

/-! ## Writes in order: three general facts -/

/-- A congruence in which the position asked about may change together with the position function: what matters is
    which writes name the position. -/
theorem lastWrite_congr_pos (z : α) {pos pos' : ℕ → ℕ} {val val' : ℕ → α} (n p p' : ℕ)
    (hp : ∀ k < n, (pos k = p ↔ pos' k = p')) (hv : ∀ k < n, val k = val' k) :
    lastWrite z pos val n p = lastWrite z pos' val' n p' := by
  induction n with
  | zero => rfl
  | succ n ih =>
    rw [lastWrite_succ, lastWrite_succ, hv n (Nat.lt_succ_self n),
      ih (fun k hk => hp k (Nat.lt_succ_of_lt hk)) (fun k hk => hv k (Nat.lt_succ_of_lt hk))]
    by_cases h : pos n = p
    · rw [if_pos h, if_pos ((hp n (Nat.lt_succ_self n)).1 h)]
    · rw [if_neg h, if_neg (fun h' => h ((hp n (Nat.lt_succ_self n)).2 h'))]

/-- The left fold "overwrite the value when the index's position matches" over the indices `0, …, N − 1` in order is
    `lastWrite` over `N` writes. The condition `P` and the value `v` live on `Fin N`; `pos` and `val` are total
    functions agreeing with them. -/
theorem foldl_finRange_lastWrite (N : ℕ) (z : α) (P : Fin N → Prop) [DecidablePred P] (v : Fin N → α)
    (pos : ℕ → ℕ) (val : ℕ → α) (p : ℕ)
    (hP : ∀ n : Fin N, P n ↔ pos n.val = p) (hv : ∀ n : Fin N, v n = val n.val) :
    (List.finRange N).foldl (fun acc n => if P n then v n else acc) z = lastWrite z pos val N p := by
  induction N with
  | zero => rfl
  | succ N ih =>
    rw [List.finRange_succ_last, List.foldl_append, List.foldl_map, List.foldl_cons, List.foldl_nil,
      lastWrite_succ]
    have := ih (fun n => P n.castSucc) (fun n => v n.castSucc) (fun n => hP n.castSucc) (fun n => hv n.castSucc)
    rw [this, hv (Fin.last N)]
    have hl : P (Fin.last N) ↔ pos N = p := hP (Fin.last N)
    by_cases h : P (Fin.last N)
    · rw [if_pos h, if_pos (hl.1 h)]; rfl
    · rw [if_neg h, if_neg (fun h' => h (hl.2 h'))]

/-- `B` consecutive blocks of `S` writes each; write `k` of block `b` goes to position `b·W + pos k` with
    `pos k < W`, so block `b` writes inside its own stretch `[b·W, (b+1)·W)`. Position `c·W + p` then sees block `c`
    alone: the earlier blocks write below `c·W`, the later ones at or above `(c+1)·W`. -/
theorem lastWrite_blocks (z : α) (S W : ℕ) (hS : 0 < S) (pos : ℕ → ℕ) (val : ℕ → ℕ → α) (hpos : ∀ k < S, pos k < W)
    (B c p : ℕ) (hc : c < B) (hp : p < W) :
    lastWrite z (fun n => (n / S) * W + pos (n % S)) (fun n => val (n / S) (n % S)) (B * S) (c * W + p)
      = lastWrite z pos (val c) S p := by
  obtain ⟨r, rfl⟩ : ∃ r, B = c + 1 + r := ⟨B - (c + 1), by omega⟩
  have hsplit : (c + 1 + r) * S = c * S + (S + r * S) := by rw [Nat.add_mul, Nat.add_mul, Nat.one_mul, Nat.add_assoc]
  rw [hsplit, lastWrite_add, lastWrite_add]
  -- the first `c` blocks write below `c·W`
  have h1 : lastWrite z (fun n => (n / S) * W + pos (n % S)) (fun n => val (n / S) (n % S)) (c * S) (c * W + p) = z := by
    apply lastWrite_of_forall_ne
    intro k hk
    have hd : k / S < c := Nat.div_lt_of_lt_mul (by rwa [Nat.mul_comm] at hk)
    have hm : pos (k % S) < W := hpos _ (Nat.mod_lt _ hS)
    have hmul : (k / S + 1) * W ≤ c * W := Nat.mul_le_mul_right W hd
    rw [Nat.add_mul, Nat.one_mul] at hmul
    show k / S * W + pos (k % S) ≠ c * W + p
    omega
  rw [h1]
  -- the blocks after `c` write at or above `(c+1)·W`
  rw [lastWrite_of_forall_ne]
  · -- block `c` itself: write `c·S + k` is write `k` of the block
    apply lastWrite_congr_pos
    · intro k hk
      have hdiv : (c * S + k) / S = c := by
        rw [Nat.mul_comm, Nat.mul_add_div hS, Nat.div_eq_of_lt hk, Nat.add_zero]
      have hmod : (c * S + k) % S = k := by
        rw [Nat.mul_comm, Nat.mul_add_mod, Nat.mod_eq_of_lt hk]
      show (c * S + k) / S * W + pos ((c * S + k) % S) = c * W + p ↔ pos k = p
      rw [hdiv, hmod]; omega
    · intro k hk
      have hdiv : (c * S + k) / S = c := by
        rw [Nat.mul_comm, Nat.mul_add_div hS, Nat.div_eq_of_lt hk, Nat.add_zero]
      have hmod : (c * S + k) % S = k := by
        rw [Nat.mul_comm, Nat.mul_add_mod, Nat.mod_eq_of_lt hk]
      show val ((c * S + k) / S) ((c * S + k) % S) = val c k
      rw [hdiv, hmod]
  · intro k hk
    have hd : c + 1 ≤ (c * S + (S + k)) / S := by
      rw [Nat.le_div_iff_mul_le hS, Nat.add_mul, Nat.one_mul]; omega
    have hmul : (c + 1) * W ≤ (c * S + (S + k)) / S * W := Nat.mul_le_mul_right W hd
    rw [Nat.add_mul, Nat.one_mul] at hmul
    show (c * S + (S + k)) / S * W + pos ((c * S + (S + k)) % S) ≠ c * W + p
    omega

/-! ## The scatter's fold at one result index -/

/-- The scatter's step replaces one element of the array and keeps the others, so the fold of arrays, read at the
    result index `i₀`, is the fold of values that applies the combiner exactly at the updates landing on `i₀`. -/
theorem scatter_fold_apply {s si u : Shape} {w : Nat} (d : ScatterDims s si u) (f : α → α → α) (idx : IVec si w)
    (upd : u.Idx → α) (i₀ : s.Idx) (l : List (Fin u.numel)) (x : s.Idx → α) :
    (l.foldl (fun r n =>
        match d.resultIdx? (u.rowMajor.symm n) idx with
        | some i => fun i' => if i' = i then f (r i) (upd (u.rowMajor.symm n)) else r i'
        | none => r) x) i₀
      = l.foldl (fun acc n => if d.resultIdx? (u.rowMajor.symm n) idx = some i₀ then f acc (upd (u.rowMajor.symm n)) else acc)
          (x i₀) := by
  induction l generalizing x with
  | nil => rfl
  | cons a l ih =>
    rw [List.foldl_cons, List.foldl_cons, ih]
    congr 1
    cases h : d.resultIdx? (u.rowMajor.symm a) idx with
    | none => simp
    | some i =>
      by_cases hi : i₀ = i
      · subst hi; simp
      · have : ¬ (some i = some i₀) := fun h' => hi (Option.some.inj h').symm
        simp [hi, this]

/-! ## Where an update lands

The dimension numbers: the updates' axis 0 (the channel) is the window axis and goes to the canvas' axis 0; the canvas'
axis 1 is scattered, its start read off the index array at `(g, 0)` for the update `(c, g)`. -/

/-- The program's scatter dimension numbers. -/
abbrev dims := scatter_S64x704000_S60000x1_S64x60000_0_1_1_1

/-- No start on the channel axis. -/
theorem dims_start0 (j : S64x60000.Idx) (idx : IVec S60000x1 32) : dims.start j idx 0 = 0 := by
  unfold ScatterDims.start
  rw [dif_neg (by decide)]

/-- The start on the canvas axis: the pillar's index word, read signed. -/
theorem dims_start1 (j : S64x60000.Idx) (idx : IVec S60000x1 32) : dims.start j idx 1 = (idx (ix2 (j 1) 0)).toInt := by
  unfold ScatterDims.start
  rw [dif_pos (show (1 : Fin 2) ∈ dims.scatterDimsToOperandDims from List.mem_singleton.mpr rfl)]
  congr 2
  funext b; refine Fin.ext ?_
  match b with
  | ⟨0, _⟩ => rfl
  | ⟨1, _⟩ => rfl

/-- The window coordinate on the channel axis: the update's channel. -/
theorem dims_window0 (j : S64x60000.Idx) : dims.window j 0 = (j 0).val := by
  unfold ScatterDims.window
  rw [dif_pos (by decide)]
  rfl

/-- No window on the canvas axis. -/
theorem dims_window1 (j : S64x60000.Idx) : dims.window j 1 = 0 := by
  unfold ScatterDims.window
  rw [dif_neg (by decide)]

/-- The update at `j = (channel, pillar)` lands at `(channel, word)` when the pillar's index word, read unsigned, is
    below `704000`: such a word is nonnegative read signed, and inside the canvas. -/
theorem dims_resultIdx (j : S64x60000.Idx) (idx : IVec S60000x1 32) (h : (idx (ix2 (j 1) 0)).toNat < 704000) :
    dims.resultIdx? j idx = some (ix2 (j 0) (⟨(idx (ix2 (j 1) 0)).toNat, h⟩ : Fin 704000)) := by
  have hw : (idx (ix2 (j 1) 0)).toInt = ((idx (ix2 (j 1) 0)).toNat : Int) :=
    BitVec.toInt_eq_toNat_of_lt (by omega)
  have h0 : (j 0).val < 64 := idx2_lt0 j
  have hall : ∀ a, 0 ≤ dims.start j idx a + dims.window j a ∧ dims.start j idx a + dims.window j a < S64x704000.size a := by
    intro a
    match a with
    | ⟨0, _⟩ =>
      show 0 ≤ dims.start j idx 0 + dims.window j 0 ∧ dims.start j idx 0 + dims.window j 0 < (64 : Nat)
      rw [dims_start0, dims_window0]; omega
    | ⟨1, _⟩ =>
      show 0 ≤ dims.start j idx 1 + dims.window j 1 ∧ dims.start j idx 1 + dims.window j 1 < (704000 : Nat)
      rw [dims_start1, dims_window1, hw]; omega
  unfold ScatterDims.resultIdx?
  rw [dif_pos hall]
  congr 1
  funext a; refine Fin.ext ?_
  match a with
  | ⟨0, _⟩ =>
    show (dims.start j idx 0 + dims.window j 0).toNat = (j 0).val
    rw [dims_start0, dims_window0]; omega
  | ⟨1, _⟩ =>
    show (dims.start j idx 1 + dims.window j 1).toNat = (idx (ix2 (j 1) 0)).toNat
    rw [dims_start1, dims_window1, hw]; omega

/-! ## The index array is the words -/

theorem idx_coord0 (g : Fin 60000) : idx_main_v0 (idx_main_v1 (ix1 g)) = ix2 g 0 := by
  funext a; refine Fin.ext ?_
  match a with
  | ⟨0, _⟩ => exact Nat.div_one _
  | ⟨1, _⟩ => rfl

theorem idx_coord2 (g : Fin 60000) : idx_main_v4 (idx_main_v5 (ix1 g)) = ix2 g 2 := by
  funext a; refine Fin.ext ?_
  match a with
  | ⟨0, _⟩ => exact Nat.div_one _
  | ⟨1, _⟩ => rfl

theorem idx_coord3 (g : Fin 60000) : idx_main_v9 (idx_main_v10 (ix1 g)) = ix2 g 3 := by
  funext a; refine Fin.ext ?_
  match a with
  | ⟨0, _⟩ => exact Nat.div_one _
  | ⟨1, _⟩ => rfl

/-- The flat index the reference computes for pillar `g` is the word `b·140800 + y·704 + x` of its coordinate row. -/
theorem v11_eq (x0 : (⟨S60000x4, .i32⟩ : BufTy).Contents (Elt Ideal)) (g : Fin 60000) :
    val_main_v11 (F := Ideal) x0 (ix1 g) = Cert.Flat.word x0 g := by
  rw [val_main_v11_apply, val_main_v8_apply, val_main_v3_apply, val_main_v7_apply, val_main_v1_apply,
    val_main_v0_apply, val_main_v5_apply, val_main_v4_apply, val_main_v10_apply, val_main_v9_apply,
    val_main_v2_apply, val_main_c_apply, val_main_v6_apply, val_main_c_0_apply, idx_coord0, idx_coord2, idx_coord3]
  rfl

/-- A word that is a canvas position is nonnegative read signed, so the wrap-around `w < 0 ? w + 704000 : w` leaves
    it: the scatter's index for pillar `g` is the word itself. -/
theorem v19_eq (x0 : (⟨S60000x4, .i32⟩ : BufTy).Contents (Elt Ideal)) (hin : Cert.Flat.InRange x0) (g : Fin 60000) :
    val_main_v19 (F := Ideal) x0 (ix2 g 0) = Cert.Flat.word x0 g := by
  have hi : idx_main_v19 (ix2 g (0 : Fin 1)) = ix1 g := by
    funext a; match a with | ⟨0, _⟩ => rfl
  rw [val_main_v19_apply, hi, val_main_v18_apply, val_main_v15_apply, v11_eq, val_main_v14_apply, val_main_c_1_apply]
  have hlt : (Cert.Flat.word x0 g).toNat < 704000 := hin g
  have hnn : ¬ ((Cert.Flat.word x0 g).slt 0#32 = true) := by
    rw [BitVec.slt_iff_toInt_lt, BitVec.toInt_zero, BitVec.toInt_eq_toNat_of_lt (by omega)]
    omega
  have hc : IntOp.cmpi .slt (Cert.Flat.word x0 g) 0#32 = 0#1 := by
    unfold IntOp.cmpi
    simp only [Bool.not_eq_true] at hnn
    rw [hnn]; rfl
  rw [hc, select_zero]

/-! ## The canvas after the scatter -/

/-- Channel `c` of pillar `k`, total in both (the fill outside). -/
def chanTotal (x1 : (⟨S60000x64, .f32⟩ : BufTy).Contents (Elt Ideal)) (c k : ℕ) : EReal :=
  if hc : c < 64 then Cert.Flat.chan (0 : EReal) x1 ⟨c, hc⟩ k else 0

theorem chanTotal_eq (x1 : (⟨S60000x64, .f32⟩ : BufTy).Contents (Elt Ideal)) (c : Fin 64) (g : Fin 60000) (a b : ℕ)
    (ha : a = c.val) (hb : b = g.val) : chanTotal x1 a b = x1 (ix2 g c) := by
  subst ha hb
  unfold chanTotal Cert.Flat.chan
  rw [dif_pos c.isLt, dif_pos g.isLt]

theorem pos_eq (x0 : (⟨S60000x4, .i32⟩ : BufTy).Contents (Elt Ideal)) (g : Fin 60000) (b : ℕ) (hb : b = g.val) :
    Cert.Flat.pos x0 b = (Cert.Flat.word x0 g).toNat := by
  subst hb
  unfold Cert.Flat.pos
  rw [dif_pos g.isLt]

/-- The updates are `64` channels of `60000` pillars. -/
theorem numel_updates : S64x60000.numel = 64 * 60000 := by
  unfold Shape.numel
  rw [Fin.prod_univ_two]
  rfl

/-- A row-major update index `n` is channel `n / 60000`, pillar `n % 60000`. -/
theorem rowMajor_symm_coords (n : Fin S64x60000.numel) :
    n.val / 60000 = (S64x60000.rowMajor.symm n 0).val ∧ n.val % 60000 = (S64x60000.rowMajor.symm n 1).val := by
  have hn : n.val = (S64x60000.rowMajor.symm n 0).val * 60000 + (S64x60000.rowMajor.symm n 1).val := by
    have h := Shape.rowMajor_val_two (S64x60000.rowMajor.symm n)
    rw [Equiv.apply_symm_apply] at h; exact h
  have h1 : (S64x60000.rowMajor.symm n 1).val < 60000 := idx2_lt1 _
  constructor <;> omega

/-- THE CANVAS: element `(c, p)` after the scatter is channel `c` of the last pillar whose word is `p`, or `0`. -/
theorem v20_apply (x0 : (⟨S60000x4, .i32⟩ : BufTy).Contents (Elt Ideal)) (x1 : (⟨S60000x64, .f32⟩ : BufTy).Contents (Elt Ideal))
    (hin : Cert.Flat.InRange x0) (c : Fin 64) (p : Fin 704000) :
    val_main_v20 (F := Ideal) x0 x1 (ix2 c p)
      = lastWrite (0 : EReal) (Cert.Flat.pos x0) (Cert.Flat.chan (0 : EReal) x1 c) 60000 p.val := by
  unfold val_main_v20 Host.scatter
  refine (scatter_fold_apply dims (fun _ b => b) (val_main_v19 (F := Ideal) x0) (val_main_v13 (F := Ideal) x1) (ix2 c p)
    (List.finRange S64x60000.numel) (val_main_v12 (F := Ideal))).trans ?_
  -- the fill is zero
  have hz : val_main_v12 (F := Ideal) (ix2 c p) = (0 : EReal) := by
    rw [val_main_v12_apply, val_main_cst_apply, Ideal.ofBits_def, Ideal.ofBits_zero_f32]
  rw [hz]
  -- the fold over all the updates is `lastWrite` over `64·60000` writes, update `n` going to the flat canvas
  -- position `(n / 60000)·704000 + word (n % 60000)`; the element `(c, p)` is flat position `c·704000 + p`
  refine (foldl_finRange_lastWrite S64x60000.numel (0 : EReal)
    (fun n => dims.resultIdx? (S64x60000.rowMajor.symm n) (val_main_v19 (F := Ideal) x0) = some (ix2 c p))
    (fun n => val_main_v13 (F := Ideal) x1 (S64x60000.rowMajor.symm n))
    (fun n => (n / 60000) * 704000 + Cert.Flat.pos x0 (n % 60000))
    (fun n => chanTotal x1 (n / 60000) (n % 60000)) (c.val * 704000 + p.val) ?_ ?_).trans ?_
  · intro n
    obtain ⟨hq, hr⟩ := rowMajor_symm_coords n
    generalize S64x60000.rowMajor.symm n = j at hq hr
    have h0 : (j 0).val < 64 := idx2_lt0 j
    have hw : val_main_v19 (F := Ideal) x0 (ix2 (j 1) 0) = Cert.Flat.word x0 (j 1) := v19_eq x0 hin (j 1)
    have hwl : (Cert.Flat.word x0 (j 1)).toNat < 704000 := hin (j 1)
    have hlt : (val_main_v19 (F := Ideal) x0 (ix2 (j 1) 0)).toNat < 704000 := by rw [hw]; exact hwl
    have key : (ix2 (j 0) (⟨(val_main_v19 (F := Ideal) x0 (ix2 (j 1) 0)).toNat, hlt⟩ : Fin 704000) = ix2 c p)
        ↔ ((j 0).val = c.val ∧ (Cert.Flat.word x0 (j 1)).toNat = p.val) := by
      constructor
      · intro h
        refine ⟨congrArg Fin.val (congrFun h 0), ?_⟩
        have h' := congrArg Fin.val (congrFun h 1)
        rw [← hw]; exact h'
      · rintro ⟨ha, hb⟩
        funext a; refine Fin.ext ?_
        match a with
        | ⟨0, _⟩ => exact ha
        | ⟨1, _⟩ =>
          show (val_main_v19 (F := Ideal) x0 (ix2 (j 1) 0)).toNat = p.val
          rw [hw]; exact hb
    show dims.resultIdx? j (val_main_v19 (F := Ideal) x0) = some (ix2 c p)
      ↔ n.val / 60000 * 704000 + Cert.Flat.pos x0 (n.val % 60000) = c.val * 704000 + p.val
    rw [dims_resultIdx j _ hlt]
    refine Iff.trans ⟨fun h => key.1 (Option.some.inj h), fun h => congrArg some (key.2 h)⟩ ?_
    rw [pos_eq x0 (j 1) _ hr, hq]
    have hpl : p.val < 704000 := p.isLt
    omega
  · intro n
    obtain ⟨hq, hr⟩ := rowMajor_symm_coords n
    generalize S64x60000.rowMajor.symm n = j at hq hr
    show val_main_v13 (F := Ideal) x1 j = chanTotal x1 (n.val / 60000) (n.val % 60000)
    rw [val_main_v13_apply, chanTotal_eq x1 (j 0) (j 1) _ _ hq hr]
    congr 1
    funext a
    match a with
    | ⟨0, _⟩ => rfl
    | ⟨1, _⟩ => rfl
  · -- of the `64` blocks of `60000` writes, position `c·704000 + p` sees block `c` alone
    rw [numel_updates, lastWrite_blocks (0 : EReal) 60000 704000 (by omega) (Cert.Flat.pos x0) (chanTotal x1) ?_ 64
      c.val p.val c.isLt p.isLt]
    · apply lastWrite_congr
      · intro k _; rfl
      · intro k _; unfold chanTotal; rw [dif_pos c.isLt]
    · intro k hk
      rw [pos_eq x0 ⟨k, hk⟩ k rfl]
      exact hin _

/-! ## The result -/

/-- THE REFERENCE'S RESULT: entry `(b, c, y, x)` is channel `c` of the last pillar whose word is
    `b·140800 + y·704 + x`, or `0`. The reshape reads canvas column `(b·200 + y)·704 + x` of row `c`, and the
    transpose exchanges `b` and `c`. -/
theorem ref_out (x0 : (⟨Cert.ReferenceIdeal.S60000x4, .i32⟩ : BufTy).Contents (Elt Ideal))
    (x1 : (⟨Cert.ReferenceIdeal.S60000x64, .f32⟩ : BufTy).Contents (Elt Ideal)) (hin : Cert.Flat.InRange x0) :
    Cert.ReferenceIdeal.Read.val_main_v22 (F := Ideal) x0 x1 = Cert.Flat.out (0 : EReal) x0 x1 := by
  funext j
  rw [val_main_v22_apply, val_main_v21_apply]
  have h0 : (j 0).val < 5 := (j 0).isLt
  have h1 : (j 1).val < 64 := (j 1).isLt
  have h2 : (j 2).val < 200 := (j 2).isLt
  have h3 : (j 3).val < 704 := (j 3).isLt
  have hp : (j 0).val * 140800 + (j 2).val * 704 + (j 3).val < 704000 := by omega
  have hidx : idx_main_v21 (idx_main_v22 j)
      = ix2 (j 1) (⟨(j 0).val * 140800 + (j 2).val * 704 + (j 3).val, hp⟩ : Fin 704000) := by
    funext a; refine Fin.ext ?_
    match a with
    | ⟨0, _⟩ =>
      show ((((j 1).val * 5 + (j 0).val) * 200 + (j 2).val) * 704 + (j 3).val) / 704000 = (j 1).val
      omega
    | ⟨1, _⟩ =>
      show ((((j 1).val * 5 + (j 0).val) * 200 + (j 2).val) * 704 + (j 3).val) % 704000
        = (j 0).val * 140800 + (j 2).val * 704 + (j 3).val
      omega
  rw [hidx]
  exact v20_apply x0 x1 hin (j 1) ⟨_, hp⟩

end Cert.ReferenceIdeal.RefValue

end
-- ==== Proof.K.RunCond.lean ====
/- The conditional run statement of this program of three kernel regions: under exactly the hypotheses of the
   conditional frame (one segment record per region, entered from the thread state before it and left at the one
   after it), every weakly fair execution of @main from memory `m` with zero counters terminates, and every final
   memory holds in the result buffer `main_v16` the last valuation read there, and each argument as launched. -/
import proofs.«403100_j62216896250120_3_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the library's run theorem finds its implicit arguments by unifying its conclusion with this one, which takes
-- unfolding plain definitions in a metavariable's type
set_option backward.isDefEq.respectTransparency.types false in
/-- THE CONDITIONAL RUN. The conditional frame's hypotheses; the conclusion also reads the result buffer `main_v16`
    off the last valuation `V7`, exactly as the arguments are read. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c)) :
    θ_run defs (onTc (τ := τ) (main (F := F))) ⟨m, fun _ => 0, ρ⟩ (fun r => ∀ c : Dev nD,
      r.2.mem ((c.tc : Thread nD τ).loc main_v16) = V7 m outs c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, hpre0 c, hpost0 c, hpre1 c, hpost1 c, hpre2 c, (hpost2 c).trans (sep_mono .rfl (hE3 c))⟩)
    (hinit := ?_) (QY := fun c s => s.mem ((c.tc : Thread nD τ).loc main_v16) = V7 m outs c main_v16 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cert.Kernel.Gen

end
-- ==== Proof.K.Zero.lean ====
import proofs.«403100_j62216896250120_3_alg».proof.Proof.Gen.Kernel
import proofs.«403100_j62216896250120_3_alg».proof.Proof.Gen.Kernel.Skeleton
import proofs.«403100_j62216896250120_3_alg».proof.Proof.Gen.Kernel.Launch
import proofs.«403100_j62216896250120_3_alg».proof.Proof.Gen.Kernel.Points
import Idealize.ShloMosaic.Lib.Pipeline.Routed
import Idealize.ShloMosaic.Lib.Pipeline.FrameBody
import Idealize.ShloMosaic.Lib.Pipeline.Frame
import Idealize.ShloMosaic.Lib.Pipeline.Value
import Idealize.ShloMosaic.Lib.Tactic

/-!
# The zero-fill region

The first pipelined call of the program fills a 704000 x 1 x 128 array with the zero word, one
7040 x 1 x 128 block per grid point (100 points, block t being rows 7040 t up to 7040 t + 7039). The body
reads its staging buffer (and drops what it read) and then stores a constant block over all of it. So what the
body leaves is the constant block whatever it found, every write-back is that block, the blocks tile the array,
and the array ends constant.
-/

set_option maxRecDepth 16384

noncomputable section

namespace Cert.Kernel.Zero

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

section Region

variable (V : (c : Dev nD) → (b : Ref sig .tc) → Buf (Elt F) ((c : Thread nD τ).loc b))

/-! ## What the body stores -/

/-- The rectangle of the body's one store (and of its one load): the whole staging buffer. -/
abbrev rAll : Rect S7040x1x128 := Rect.unit (s := S7040x1x128) ![0, 0, 0] S7040x1x128.size inb_S7040x1x128_S7040x1x128_0_0_0

/-- The zero word as a float. -/
abbrev zeroF : F .f32 := Scalar.ofBits .f32 0x00000000#32

/-- What the body leaves in the staging buffer: its one store's payload laid over the buffer. -/
def zeroBlk : Vec F S7040x1x128 .f32 :=
  View.canon [⟨rAll, k0_pay1 (F := F)⟩]

theorem hz3 : (![0, 0, 0] : Fin 3 → Nat) = fun _ => 0 := funext fun a => by fin_cases a <;> rfl

/-- The store covers the buffer, so the block left is the payload itself: the constant block. -/
theorem zeroBlk_eq : (zeroBlk : Vec F S7040x1x128 .f32) = fun _ => (zeroF : F .f32) := by
  unfold zeroBlk
  rw [View.canon_unit_zero hz3]
  rfl

/-- The one piece covers every index of the buffer. -/
theorem cover (p : Vec F S7040x1x128 .f32) (y : S7040x1x128.Idx) :
    ∃ pc ∈ ([⟨rAll, p⟩] : List (View.Piece (Elt F) S7040x1x128 .f32)), y ∈ pc.1.set :=
  ⟨_, List.mem_singleton_self _, View.mem_set_unit_zero hz3 inb_S7040x1x128_S7040x1x128_0_0_0 y⟩

/-! ## The body's triple -/

set_option maxHeartbeats 1000000 in
/-- The body on a whole staging memref holding anything runs to the continuation holding it at the constant block:
    the load's result is dropped, and the one store covers the buffer. -/
theorem sound_kernel (c : Dev nD) (E : Set ℕ) (i : grid0.Coords) (arg1 : Memref sig .tc .vmem S7040x1x128 .f32) (harg1 : arg1.IsWhole)
    (K : PUnit → sProp 𝕄) :
    iprop((∃ d, owns (c : Thread nD τ) arg1 fullShare d)
        ∗ (owns (c : Thread nD τ) arg1 fullShare (zeroBlk (F := F)) -∗ K ⟨⟩))
      ⊢ wp frame (wpE (defs₀ (F := F)) Variants.none c none) E (cc0__zero_kernel i arg1 harg1) K := by
  simp only [cc0__zero_kernel_eq_skeleton]; unfold cc0__zero_kernel_skel
  unfold owns
  iintro ⟨⟨%d1, %f1, -, H1⟩, Hk⟩
  sl_exec
  sl_step
  iapply Hk
  iexists _; isplitr
  swap; · iexact H1
  ipureintro
  exact View.read_writes_eq_canon _ _ _ (cover _)

/-! ## The pipeline's proof data -/

/-- The proof data of the zero-fill pipeline on core c: the array as the region finds it; after the body at every
    point the one window's buffer at the constant block; the invariant the scoped rest and the generator register,
    untouched; nothing owed; full shares. -/
def dat (c : Dev nD) : Pipeline.Dat τ (Elt F) Unit ℕ (Pipeline.UC sig nD τ) ℕ cfg0 c where
  A w := V c (Pipeline.arrRef spec0 w)
  after w t := match w with
    | ⟨0, _⟩ => zeroBlk
  Φ _ := Pipeline.ΦA spec0 c
  q _ := fullShare
  owed _ := 0

theorem A_eq (c : Dev nD) (w : Fin cfg0.W) : (dat V c).A w = V c (Pipeline.arrRef spec0 w) := by
  dsimp only [dat]

theorem Φ_eq (c : Dev nD) (t : Fin (cfg0.N + 1)) : (dat V c).Φ t = Pipeline.ΦA spec0 c := by
  dsimp only [dat]

theorem owed_eq (c : Dev nD) (t : Fin (cfg0.N + 1)) : (dat V c).owed t = 0 := by
  dsimp only [dat]

theorem q_eq (c : Dev nD) (w : Fin cfg0.W) : (dat V c).q w = fullShare := by
  dsimp only [dat]

/-- What the body leaves in the one window's buffer. -/
theorem after_eq (c : Dev nD) (t : Fin cfg0.N) : (dat V c).after 0 t = zeroBlk := by dsimp only [dat]

/-! ## The body obligation, at a generic point -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t))

/-- The body at any point: whatever the buffer holds, the triple applies; the invariant and what the core owes
    pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl,
    show (dat V c).owesAt () t.succ = (dat V c).owesAt () t.castSucc from rfl,
    after_eq]
  iintro ⟨HΦ, Ho, ⟨%d0, H0⟩⟩
  iapply (sound_kernel c Set.univ _ _ _ _)
  isplitl [H0]; · iexists _; iexact H0
  iintro H0
  isplitl [HΦ]; · iexact HΦ
  isplitl [Ho]; · iexact Ho
  iexact H0

/-- The library's body obligation, at every point. -/
theorem body_obligation (c : Dev nD) : Pipeline.BodyObligation (dat (F := F) V c) (defs₀ (F := F)) Variants.none () Set.univ := fun t => by
  rw [bigSep_W0, bigSep_W0]
  exact sound_body V c t

/-! ## The array after the run -/

/-- The index map, decided over the grid: point t's block is row-block t, at block 0 of the two short axes. -/
theorem idx_facts : ∀ t : Fin cfg0.N, win0_0.index t (0 : Fin 3) = t.val
    ∧ win0_0.index t (1 : Fin 3) = 0 ∧ win0_0.index t (2 : Fin 3) = 0 :=
  (by decide +kernel : ∀ t : Fin grid0.N, win0_0.index t (0 : Fin 3) = t.val
    ∧ win0_0.index t (1 : Fin 3) = 0 ∧ win0_0.index t (2 : Fin 3) = 0)

/-- The constant array. -/
abbrev zeroArr : S704000x1x128.Idx → Elt F .f32 := fun _ => (zeroF : F .f32)

/-- What point t writes back is block t of the constant array. -/
theorem flushed_eq (c : Dev nD) (t : Fin cfg0.N) :
    (dat V c).flushed 0 t = ((cfg0.win 0).blk t).view.read (Elt F) (zeroArr (F := F)) := by
  show (cfg0.win 0).cut (grid0.coords t) ((dat V c).after 0 t) = _
  rw [after_eq, zeroBlk_eq]
  rfl

/-- An index of the array is in point t's block iff each coordinate is in the block's range on its axis. -/
theorem mem_blk (t : Fin cfg0.N) (i : S704000x1x128.Idx) :
    i ∈ ((cfg0.win 0).blk t).view.set ↔ ∀ a : Fin 3, win0_0.index t a * S7040x1x128.size a ≤ (i a).val
      ∧ (i a).val < win0_0.index t a * S7040x1x128.size a + S7040x1x128.size a := by
  show i ∈ ((View.whole main_v13).slice (win0_0.rect t)).set ↔ _
  rw [View.set_slice_whole, Rect.mem_set_unit]
  exact Iff.rfl

/-- Every row r lies in the block of point r / 7040: the blocks tile the array. -/
theorem covered (i : S704000x1x128.Idx) :
    ∃ t : Fin cfg0.N, (cfg0.win 0).flush t = true ∧ i ∈ ((cfg0.win 0).blk t).view.set := by
  have hi0 : (i 0).val < 704000 := (i 0).isLt
  have hi1 : (i 1).val < 1 := (i 1).isLt
  have hi2 : (i 2).val < 128 := (i 2).isLt
  have hN : (i 0).val / 7040 < cfg0.N := by
    show (i 0).val / 7040 < grid0.N
    rw [N_0]; omega
  obtain ⟨e0, e1, e2⟩ := idx_facts ⟨(i 0).val / 7040, hN⟩
  have e0' : win0_0.index ⟨(i 0).val / 7040, hN⟩ (0 : Fin 3) = (i 0).val / 7040 := e0
  refine ⟨⟨(i 0).val / 7040, hN⟩, flush0_0 _, ?_⟩
  rw [mem_blk]
  intro a
  match a with
  | ⟨0, _⟩ =>
    show win0_0.index ⟨(i 0).val / 7040, hN⟩ (0 : Fin 3) * 7040 ≤ (i 0).val
      ∧ (i 0).val < win0_0.index ⟨(i 0).val / 7040, hN⟩ (0 : Fin 3) * 7040 + 7040
    omega
  | ⟨1, _⟩ =>
    show win0_0.index ⟨(i 0).val / 7040, hN⟩ (1 : Fin 3) * 1 ≤ (i 1).val
      ∧ (i 1).val < win0_0.index ⟨(i 0).val / 7040, hN⟩ (1 : Fin 3) * 1 + 1
    omega
  | ⟨2, _⟩ =>
    show win0_0.index ⟨(i 0).val / 7040, hN⟩ (2 : Fin 3) * 128 ≤ (i 2).val
      ∧ (i 2).val < win0_0.index ⟨(i 0).val / 7040, hN⟩ (2 : Fin 3) * 128 + 128
    omega

/-- After the 100 write-backs every element of the array is the zero word's float. -/
theorem arr_final (c : Dev nD) : (dat V c).arrAt 0 cfg0.N = fun _ => (Scalar.ofBits .f32 0x00000000#32 : F .f32) :=
  (dat V c).arrAt_eq_of_cover 0 (zeroArr (F := F)) (fun t _ => flushed_eq V c t) covered

end Region

end Cert.Kernel.Zero

end
-- ==== Proof.K.Permute.lean ====
/-
  Region 2 of @main: the channel permutation. On the grid [5, 25], point (b, yb) reads the canvas block
  [1, 8, 704, 128] at (b, yb, 0, 0) of the [5, 200, 704, 128] canvas, keeps channels 0 … 63, moves the channel axis
  in front of the row and column axes, and writes the [1, 64, 8, 704] block at (b, 0, yb, 0) of the [5, 64, 200, 704]
  result. This module gives the region's proof data at the contents `V` the region is entered with, the body's triple
  and the body obligation, and the arrays after the last point: the canvas unchanged, and result entry (b, ch, y, x)
  equal to canvas entry (b, y, x, ch).
-/
import proofs.«403100_j62216896250120_3_alg».proof.Proof.Gen.Kernel.Launch
import proofs.«403100_j62216896250120_3_alg».proof.Proof.Gen.Kernel.Skeleton
import proofs.«403100_j62216896250120_3_alg».proof.Proof.Gen.Kernel.Points
import Idealize.ShloMosaic.Lib.Pipeline.FrameBody
import Idealize.ShloMosaic.Lib.Pipeline.Frame
import Idealize.ShloMosaic.Lib.Pipeline.Routed
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.Kernel.Permute

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (V : (c : Dev nD) → (b : Ref sig .tc) → Buf (Elt F) ((c : Thread nD τ).loc b))

/-! ## The input block and what the body stores -/

/-- The canvas block point `t` reads: batch `b`, rows `8·yb … 8·yb+7`, every column, all 128 channels, read off
    the canvas array as the region finds it. -/
def blockIn (c : Dev nD) (t : Fin cfg2.N) : ((cfg2.win 0).xblock (cfg2.grid.coords t)).Idx → Elt F (cfg2.win 0).elt :=
  ((cfg2.win 0).blk t).view.read (Elt F) (V c (Pipeline.arrRef spec2 0))

/-- The body reads its whole input buffer and writes its whole output buffer: both through the full rectangle. -/
abbrev rIn : Rect S1x8x704x128 := Rect.unit (s := S1x8x704x128) ![0, 0, 0, 0] S1x8x704x128.size inb_S1x8x704x128_S1x8x704x128_0_0_0_0
abbrev rOut : Rect S1x64x8x704 := Rect.unit (s := S1x64x8x704) ![0, 0, 0, 0] S1x64x8x704.size inb_S1x64x8x704_S1x64x8x704_0_0_0_0

/-- What the output buffer holds after the body, as a function of the input block `x`: its single store, whose
    payload is the permuted channel slice of `x`. -/
def stored (x : Vec F S1x8x704x128 .f32) : Vec F S1x64x8x704 .f32 :=
  View.canon [⟨rOut, k2_pay1 (View.ld x rIn)⟩]

/-- The single store fills the output buffer. -/
theorem stored_cover (p : Vec F S1x64x8x704 .f32) (y : S1x64x8x704.Idx) :
    ∃ pc ∈ ([⟨rOut, p⟩] : List (View.Piece (Elt F) S1x64x8x704 .f32)), y ∈ pc.1.set :=
  ⟨⟨rOut, p⟩, List.mem_singleton_self _,
    View.mem_set_unit_zero (funext fun a => by fin_cases a <;> rfl) inb_S1x64x8x704_S1x64x8x704_0_0_0_0 y⟩

/-! ## The body's triple -/

set_option maxHeartbeats 1000000 in
/-- The body on whole staging memrefs, the input's at contents `x` and the output's at anything: it reads the input,
    reads the output (a value it never uses), stores the permuted slice over the whole output buffer, and so
    reaches the continuation with the input as it was and the output at `stored x`. -/
theorem sound_kernel (c : Dev nD) (E : Set ℕ) (i : grid2.Coords)
    (arg2 : Memref sig .tc .vmem S1x8x704x128 .f32) (harg2 : arg2.IsWhole)
    (arg3 : Memref sig .tc .vmem S1x64x8x704 .f32) (harg3 : arg3.IsWhole)
    (x : Vec F S1x8x704x128 .f32) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (stored x)) -∗ K ⟨⟩))
      ⊢ wp frame (wpE (defs₀ (F := F)) Variants.none c none) E (cc2__permute_kernel i arg2 harg2 arg3 harg3) K := by
  simp only [cc2__permute_kernel_eq_skeleton]; unfold cc2__permute_kernel_skel
  unfold owns
  iintro ⟨⟨%fx, %hfx, Hx⟩, ⟨%d, %fd, -, Hd⟩, Hk⟩
  subst hfx
  sl_exec
  sl_step
  iapply Hk
  isplitl [Hx]
  · iexists fx; isplitr
    · ipureintro; rfl
    · iexact Hx
  · iexists _; isplitr
    swap
    · iexact Hd
    · ipureintro
      exact View.read_writes_eq_canon _ _ _ (stored_cover _)

/-! ## The proof data -/

/-- The proof data of the region on core `c`: the arrays as the region finds them; after the body at point `t` the
    input's buffer still at its block and the output's at `stored` of that block; the invariant is the scoped rest
    and the generator register, which the body never touches; full shares, nothing owed. -/
def dat (c : Dev nD) : Pipeline.Dat τ (Elt F) Unit ℕ (Pipeline.UC sig nD τ) ℕ cfg2 c where
  A w := V c (Pipeline.arrRef spec2 w)
  after w t := match w with
    | ⟨0, _⟩ => blockIn V c t
    | ⟨1, _⟩ => stored (blockIn V c t)
  Φ _ := Pipeline.ΦA spec2 c
  q _ := fullShare
  owed _ := 0

theorem A_eq (c : Dev nD) (w : Fin cfg2.W) : (dat V c).A w = V c (Pipeline.arrRef spec2 w) := by
  dsimp only [dat]

theorem Φ_eq (c : Dev nD) (t : Fin (cfg2.N + 1)) : (dat V c).Φ t = Pipeline.ΦA spec2 c := by
  dsimp only [dat]

theorem owed_eq (c : Dev nD) (t : Fin (cfg2.N + 1)) : (dat V c).owed t = 0 := by
  dsimp only [dat]

theorem q_eq (c : Dev nD) (w : Fin cfg2.W) : (dat V c).q w = fullShare := by
  dsimp only [dat]

/-- What the body leaves, window by window. -/
theorem after_in (c : Dev nD) (t : Fin cfg2.N) : (dat V c).after 0 t = blockIn V c t := by dsimp only [dat]
theorem after_out (c : Dev nD) (t : Fin cfg2.N) : (dat V c).after 1 t = stored (blockIn V c t) := by dsimp only [dat]

/-- The input's current staging buffer holds the point's block at every point: the window is never idle and never
    cut, and the body leaves the block in place, so whether or not the point fetched, the buffer reads the block. -/
theorem before_in (c : Dev nD) (t : Fin cfg2.N) (d) : (dat V c).before 0 t d = blockIn V c t := by
  have hkeep : ∀ u, (cfg2.win 0).cut (cfg2.grid.coords u) ((dat V c).after 0 u) = (dat V c).blockOf 0 u := fun u => by
    rw [after_in]; unfold Dat.blockOf blockIn; rw [A_eq]
  rw [(dat V c).before_in_eq_fetched 0 rfl (fun _ => rfl) (fun _ _ _ => rfl) hkeep t d]
  unfold Dat.fetched Dat.blockOf blockIn; rw [A_eq]; rfl

/-! ## The body obligation -/

/-- What the body is handed at point `t`: the invariant, what the core owes, and each window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d)))

/-- What it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t))

/-- The body at any point: the input buffer holds the point's block, so the body's triple applies at that block;
    the invariant and what the core owes are the same before and after and pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, Hin⟩, ⟨%d1, Hout⟩⟩
  iapply (sound_kernel c Set.univ _ _ _ _ _ (blockIn V c t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  · iexact Hout

/-- The library's body obligation, at every point. -/
theorem body_obligation (c : Dev nD) : Pipeline.BodyObligation (dat (F := F) V c) (defs₀ (F := F)) Variants.none () Set.univ := fun t => by
  rw [bigSep_W2, bigSep_W2]
  exact sound_body V c t

/-! ## The stored value, index by index -/

open Idealize.ShloMosaic.ValueIdx (ix3 ix4)

/-- The payload at `(u, ch, r, x)` is the input block at `(0, r, x, ch)`: the added unit axis is read past, the
    transpose sends result axes `(ch, r, x)` to source axes `(r, x, ch)`, the slice keeps channels `0 … 63` at
    offset zero, and the dropped unit axis is read at `0`. -/
theorem pay_apply (x : Vec F S1x8x704x128 .f32) (u : Fin 1) (ch : Fin 64) (r : Fin 8) (xx : Fin 704) :
    k2_pay1 x (ix4 u ch r xx) = x (ix4 (0 : Fin 1) r xx ⟨ch.val, by omega⟩) := by
  unfold k2_pay1
  refine (ValueIdx.shapeCast_abc_1abc_apply _ _ u ch r xx).trans ?_
  refine (transpose_apply _ _ _ (ix3 ch r xx) (ix3 r xx ch)
    (fun b => match b with | ⟨0, _⟩ => rfl | ⟨1, _⟩ => rfl | ⟨2, _⟩ => rfl)).trans ?_
  refine (extractStridedSlice_apply _ _ _ (ix3 r xx ch) (ix3 r xx (⟨ch.val, by omega⟩ : Fin 128))
    (fun a => match a with
      | ⟨0, _⟩ => by show r.val = 0 + r.val; omega
      | ⟨1, _⟩ => by show xx.val = 0 + xx.val; omega
      | ⟨2, _⟩ => by show ch.val = 0 + ch.val; omega)).trans ?_
  exact ValueIdx.shapeCast_1abc_abc_apply _ _ r xx _

/-- The payload at any index `j` of the output block. -/
theorem pay_at (x : Vec F S1x8x704x128 .f32) (j : S1x64x8x704.Idx) :
    k2_pay1 x j = x (ix4 (0 : Fin 1) (j 2) (j 3) ⟨(j 1).val, Nat.lt_of_lt_of_le (j 1).isLt (by decide)⟩) :=
  (congrArg (k2_pay1 x) (ValueIdx.eq_ix4 j)).trans (pay_apply x (j 0) (j 1) (j 2) (j 3))

/-- The whole result as one function of the canvas: entry `(b, ch, y, x)` is canvas entry `(b, y, x, ch)`. -/
def permuted (X : S5x200x704x128.Idx → Elt F .f32) : S5x64x200x704.Idx → Elt F .f32 :=
  fun i => X (ix4 (i 0) (i 2) (i 3) ⟨(i 1).val, Nat.lt_of_lt_of_le (i 1).isLt (by decide)⟩)

theorem zeros4 : (![0, 0, 0, 0] : Fin 4 → Nat) = fun _ => 0 := funext fun a => by fin_cases a <;> rfl

/-- The index maps over the grid: at point `(b, yb)` the input block sits at `(b, yb, 0, 0)` and the output block at
    `(b, 0, yb, 0)`, with `b < 5` and `yb < 25`. -/
theorem idx_facts : ∀ t : Fin cfg2.N,
    win2_0.index t (0 : Fin 4) = win2_1.index t (0 : Fin 4) ∧ win2_0.index t (1 : Fin 4) = win2_1.index t (2 : Fin 4)
    ∧ win2_0.index t (2 : Fin 4) = 0 ∧ win2_0.index t (3 : Fin 4) = 0
    ∧ win2_1.index t (1 : Fin 4) = 0 ∧ win2_1.index t (3 : Fin 4) = 0
    ∧ win2_1.index t (0 : Fin 4) ≤ 4 ∧ win2_1.index t (2 : Fin 4) ≤ 24 :=
  (by decide +kernel : ∀ t : Fin grid2.N, _)

/-- Every output block position `(b, 0, yb, 0)` is some point's. -/
theorem idx_onto : ∀ (q0 : Fin 5) (q2 : Fin 25), ∃ t : Fin cfg2.N, win2_1.index t = ![q0.val, 0, q2.val, 0] :=
  (by decide +kernel : ∀ (q0 : Fin 5) (q2 : Fin 25), ∃ t : Fin grid2.N, win2_1.index t = ![q0.val, 0, q2.val, 0])

/-- What point `t` writes back is block `t` of `permuted` of the canvas: the payload at `j` reads the input block at
    `(0, j₂, j₃, j₁)`, which sits in the canvas at `(b, 8·yb + j₂, j₃, j₁)`; the output block's index `j` sits in the
    result at `(b, j₁, 8·yb + j₂, j₃)`, whose `permuted` entry is that same canvas entry. -/
theorem flushed_eq (c : Dev nD) (t : Fin cfg2.N) :
    (dat V c).flushed 1 t = ((cfg2.win 1).blk t).view.read (Elt F) (permuted (V c main_v15)) := by
  show (cfg2.win 1).cut (grid2.coords t) ((dat V c).after 1 t) = _
  rw [after_out]
  unfold stored
  rw [View.canon_unit_zero zeros4]
  simp only [View.ld_unit_zero (S := S1x8x704x128) zeros4]
  obtain ⟨e0, e1, e2, e3, e4, e5, -, -⟩ := idx_facts t
  funext j
  show k2_pay1 (blockIn V c t) j = permuted (V c main_v15) (((cfg2.win 1).blk t).view.emb j)
  rw [pay_at]
  show V c main_v15 (((cfg2.win 0).blk t).view.emb _) = V c main_v15 _
  congr 1
  funext a; apply Fin.ext
  match a with
  | ⟨0, _⟩ => show win2_0.index t (0 : Fin 4) * 1 + 1 * 0 = win2_1.index t (0 : Fin 4) * 1 + 1 * (j 0).val; have hj : (j 0).val < 1 := (j 0).isLt; omega
  | ⟨1, _⟩ => show win2_0.index t (1 : Fin 4) * 8 + 1 * (j 2).val = win2_1.index t (2 : Fin 4) * 8 + 1 * (j 2).val; omega
  | ⟨2, _⟩ => show win2_0.index t (2 : Fin 4) * 704 + 1 * (j 3).val = win2_1.index t (3 : Fin 4) * 704 + 1 * (j 3).val; omega
  | ⟨3, _⟩ => show win2_0.index t (3 : Fin 4) * 128 + 1 * (j 1).val = win2_1.index t (1 : Fin 4) * 64 + 1 * (j 1).val; omega

/-- An index of the result is in point `t`'s output block iff, on every axis, it lies in the block's range. -/
theorem mem_blk (t : Fin cfg2.N) (i : S5x64x200x704.Idx) :
    i ∈ ((cfg2.win 1).blk t).view.set ↔
      ∀ a : Fin 4, win2_1.index t a * S1x64x8x704.size a ≤ (i a).val ∧ (i a).val < win2_1.index t a * S1x64x8x704.size a + S1x64x8x704.size a := by
  show i ∈ ((View.whole main_v16).slice (win2_1.rect t)).set ↔ _
  rw [View.set_slice_whole, Rect.mem_set_unit]
  exact Iff.rfl

/-- The output blocks tile the result: index `(b, ch, y, x)` is in the block of the point at `(b, 0, y / 8, 0)`. -/
theorem covered (i : S5x64x200x704.Idx) :
    ∃ t : Fin cfg2.N, (cfg2.win 1).flush t = true ∧ i ∈ ((cfg2.win 1).blk t).view.set := by
  have h0 : (i 0).val < 5 := (i 0).isLt
  have h1 : (i 1).val < 64 := (i 1).isLt
  have h2 : (i 2).val < 200 := (i 2).isLt
  have h3 : (i 3).val < 704 := (i 3).isLt
  obtain ⟨t, ht⟩ := idx_onto ⟨(i 0).val, h0⟩ ⟨(i 2).val / 8, by omega⟩
  have q0 : win2_1.index t (0 : Fin 4) = (i 0).val := congrFun ht 0
  have q1 : win2_1.index t (1 : Fin 4) = 0 := congrFun ht 1
  have q2 : win2_1.index t (2 : Fin 4) = (i 2).val / 8 := congrFun ht 2
  have q3 : win2_1.index t (3 : Fin 4) = 0 := congrFun ht 3
  refine ⟨t, flush2_1 t, (mem_blk t i).2 fun a => ?_⟩
  match a with
  | ⟨0, _⟩ => show win2_1.index t (0 : Fin 4) * 1 ≤ (i 0).val ∧ (i 0).val < win2_1.index t (0 : Fin 4) * 1 + 1; omega
  | ⟨1, _⟩ => show win2_1.index t (1 : Fin 4) * 64 ≤ (i 1).val ∧ (i 1).val < win2_1.index t (1 : Fin 4) * 64 + 64; omega
  | ⟨2, _⟩ => show win2_1.index t (2 : Fin 4) * 8 ≤ (i 2).val ∧ (i 2).val < win2_1.index t (2 : Fin 4) * 8 + 8; omega
  | ⟨3, _⟩ => show win2_1.index t (3 : Fin 4) * 704 ≤ (i 3).val ∧ (i 3).val < win2_1.index t (3 : Fin 4) * 704 + 704; omega

/-! ## The arrays after the region -/

/-- The canvas is an input: no write-back touches it. -/
theorem arr_in (c : Dev nD) : (dat V c).arrAt 0 cfg2.N = V c (Pipeline.arrRef spec2 0) :=
  ((dat V c).arrAt_in 0 rfl cfg2.N).trans (A_eq V c 0)

/-- The result after the last point is `permuted` of the canvas, everywhere: every point writes back its block of
    that one function, and the blocks tile the array. -/
theorem arr_out (c : Dev nD) : (dat V c).arrAt 1 cfg2.N = permuted (V c main_v15) :=
  (dat V c).arrAt_eq_of_cover 1 (permuted (V c main_v15)) (fun t _ => flushed_eq V c t) (covered)

/-- Result entry `(b, ch, y, x)` is canvas entry `(b, y, x, ch)`. -/
theorem arr_final (c : Dev nD) (b : Fin 5) (ch : Fin 64) (y : Fin 200) (x : Fin 704) :
    (dat V c).arrAt 1 cfg2.N (ValueIdx.ix4 b ch y x) = V c main_v15 (ValueIdx.ix4 b y x ⟨ch.val, by omega⟩) := by
  rw [arr_out]; rfl

end Cert.Kernel.Permute

end
-- ==== Proof.K.ScatterBody.lean ====
/-
  The scatter kernel's body, run once at symbolic operands.

  At grid point `i` the body handles the 200 pillar rows `200·i, …, 200·i + 199` one after the other: it reads the
  pillar's canvas word from the prefetched table, ASSUMES the word names a canvas row (the one-row slice at that row lies
  inside the canvas), copies the pillar's 128-lane row from the staged block into a one-row scratch buffer, starts one
  local transfer of the scratch row into the canvas row the word names, and waits for it before it goes on. So each
  row is written before the next is read, and a later pillar overwrites an earlier one at the same canvas row.
  `kernelRun`: from the table, the staged block, the scratch row and the canvas held whole, the body's semaphore at zero
  and nothing owed, given every table word names a canvas row, the body runs to its return and leaves the canvas at
  `rowsFn … 200`: the 200 rows written in order (`Rows` is the same as a relation, which is how the run's result is read off).
-/
import proofs.«403100_j62216896250120_3_alg».proof.Proof.Gen.Kernel
import proofs.«403100_j62216896250120_3_alg».proof.Proof.Gen.Kernel.Skeleton
import Idealize.ShloMosaic.Lib.Pipeline.Routed
import Idealize.ShloMosaic.Lib.Tactic
import Idealize.ShloMosaic.Lib.Pipeline.FrameBody
import Idealize.ShloMosaic.Lib.Pipeline.Value

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem : Unit → SemLoc sig := fun _ => .dma cc1_scratch1.sem

/-- A canvas row in range: the one-row slice at row `n` lies inside the canvas. -/
abbrev RowOk (n : ℕ) : Prop := ∀ a, (![n, 0, 0] : Fin 3 → ℕ) a + S1x1x128.size a ≤ S704000x1x128.size a

/-- The canvas row a word names, as the transfer's destination: the slice of sizes (1, 1, 128) at (v, 0, 0), its unit
    axis dropped. -/
abbrev rowMem (v : BitVec 32) (h : RowOk v.toNat) : Memref sig .tc .hbm S1x128 .f32 :=
  ((Memref.whole main_v14).slice (Rect.unit (s := S704000x1x128) ![v.toNat, 0, 0] S1x1x128.size h) (fun _ => rfl)).squeeze S1x128 squeezes_S1x1x128_S1x128

/-- The canvas contents `f` with the row `src` written at the row the word `v` names. -/
abbrev rowWrite (c : Dev nD) (v : BitVec 32) (h : RowOk v.toNat) (f : Bf (F := F) c (Memref.whole main_v14)) (src : S1x128.Idx → Elt F .f32) :
    Bf (F := F) c (Memref.whole main_v14) :=
  (rowMem v h).view.write (Elt F) f src Finset.univ

/-- `Rows w s f k g`: `g` is the canvas `f` after rows `s 0, …, s (k-1)` were written, in this order, at the rows the
    words `w 0, …, w (k-1)` name. -/
inductive Rows (c : Dev nD) (w : ℕ → BitVec 32) (s : ℕ → S1x128.Idx → Elt F .f32) (f : Bf (F := F) c (Memref.whole main_v14)) :
    ℕ → Bf (F := F) c (Memref.whole main_v14) → Prop
  | zero : Rows c w s f 0 f
  | succ (k : ℕ) (g : Bf (F := F) c (Memref.whole main_v14)) (v : BitVec 32) (h : RowOk v.toNat) (src : S1x128.Idx → Elt F .f32) :
      Rows c w s f k g → v = w k → src = s k → Rows c w s f (k + 1) (rowWrite c v h g src)

/-- The offset of pillar `200·i + k`'s word in the table, as the body computes it (32-bit arithmetic on the grid coordinate). -/
def woff (i : grid1.Coords) (k : ℕ) : Fin 1 → ℕ :=
  ![(Scalar.indexCast (Scalar.addi (Scalar.muli (BitVec.ofNat 32 (i 0).val) 200#32) (BitVec.ofNat 32 k))).toNat]

theorem woff_eq (i : grid1.Coords) (k : ℕ) (hk : k < 200) : woff i k = ![200 * (i 0).val + k] := by
  have hi : (i 0).val < 300 := (i 0).isLt
  funext a
  fin_cases a
  simp only [woff, Scalar.indexCast, Scalar.addi, Scalar.muli, IntOp.addi, IntOp.muli, Fin.zero_eta, Matrix.cons_val_zero,
    BitVec.toNat_add, BitVec.toNat_mul, BitVec.toNat_ofNat]
  omega

theorem woff_inb (i : grid1.Coords) (k : ℕ) (hk : k < 200) : ∀ a, woff i k a + S1.size a ≤ S60000.size a := by
  have hi : (i 0).val < 300 := (i 0).isLt
  rw [woff_eq i k hk]
  intro a; fin_cases a
  show 200 * (i 0).val + k + 1 ≤ 60000
  omega

/-- Row `k` of a 200-row block lies inside it. -/
theorem srow_inb (k : ℕ) (hk : k < 200) : ∀ a, (![k, 0] : Fin 2 → ℕ) a + S1x128.size a ≤ S200x128.size a := by
  intro a; fin_cases a
  · show k + 1 ≤ 200; omega
  · show 0 + 128 ≤ 128; omega

/-- The table word the body reads for the block's row `k`. -/
def wfun (c : Dev nD) (i : grid1.Coords) (ft : Bf (F := F) c (Memref.whole main_v11)) (k : ℕ) : BitVec 32 :=
  if hk : k < 200 then
    View.readAt (Elt F) (Memref.whole main_v11).view (Rect.unit (s := S60000) (woff i k) S1.size (woff_inb i k hk)).toLoadRect ft
      (Shape.Idx.first (numel1_S1.symm ▸ Nat.one_pos))
  else 0#32

/-- A row as the body passes it from the block to the scratch row: flattened to 128 lanes and back. -/
def payG (x : Vec F S1x128 .f32) : FVec F S1x128 .f32 :=
  shapeCast S1x128 (shapeCast S128 x shapeCasts_S1x128_S128) shapeCasts_S128_S1x128

/-- The block's row `k` as the transfer's source holds it. -/
def sfun (c : Dev nD) (M2 : Memref sig .tc .vmem S200x128 .f32) (f2 : Bf (F := F) c M2) (k : ℕ) : S1x128.Idx → Elt F .f32 :=
  if hk : k < 200 then payG (View.readAt (Elt F) M2.view (Rect.unit (s := S200x128) ![k, 0] S1x128.size (srow_inb k hk)).toLoadRect f2)
  else payG (View.readAt (Elt F) M2.view (Rect.unit (s := S200x128) ![0, 0] S1x128.size (srow_inb 0 (by decide))).toLoadRect f2)

/-- Reading a buffer back after stores of which the LAST covers it whole gives that store's payload. -/
theorem read_newest_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

theorem wfun_eq (c : Dev nD) (i : grid1.Coords) (ft : Bf (F := F) c (Memref.whole main_v11)) (k : ℕ) (hk : k < 200) :
    wfun c i ft k = View.readAt (Elt F) (Memref.whole main_v11).view (Rect.unit (s := S60000) (woff i k) S1.size (woff_inb i k hk)).toLoadRect ft
      (Shape.Idx.first (numel1_S1.symm ▸ Nat.one_pos)) := dif_pos hk

theorem sfun_eq (c : Dev nD) (M2 : Memref sig .tc .vmem S200x128 .f32) (f2 : Bf (F := F) c M2) (k : ℕ) (hk : k < 200) :
    sfun c M2 f2 k = payG (View.readAt (Elt F) M2.view (Rect.unit (s := S200x128) ![k, 0] S1x128.size (srow_inb k hk)).toLoadRect f2) := dif_pos hk

theorem zero2 : (![0, 0] : Fin S1x128.rank → ℕ) = fun _ => 0 := by funext a; fin_cases a <;> rfl

/-- The canvas `f` after rows `s 0, …, s (k-1)` were written in order at the rows the words `w 0, …, w (k-1)` name. -/
def rowsFn (c : Dev nD) (w : ℕ → BitVec 32) (hw : ∀ k, RowOk (w k).toNat) (s : ℕ → S1x128.Idx → Elt F .f32)
    (f : Bf (F := F) c (Memref.whole main_v14)) : ℕ → Bf (F := F) c (Memref.whole main_v14)
  | 0 => f
  | k + 1 => rowWrite c (w k) (hw k) (rowsFn c w hw s f k) (s k)

/-- The relation determines the contents. -/
theorem Rows.eq_rowsFn {c : Dev nD} {w : ℕ → BitVec 32} (hw : ∀ k, RowOk (w k).toNat) {s : ℕ → S1x128.Idx → Elt F .f32}
    {f : Bf (F := F) c (Memref.whole main_v14)} {k : ℕ} {g : Bf (F := F) c (Memref.whole main_v14)} (h : Rows c w s f k g) :
    g = rowsFn c w hw s f k := by
  induction h with
  | zero => rfl
  | succ k g v h src _ hv hs ih => subst hv hs ih; rfl

/-- If every table word names a canvas row, so does every word the body reads. -/
theorem wfun_ok (c : Dev nD) (i : grid1.Coords) (ft : Bf (F := F) c (Memref.whole main_v11))
    (hchk : ∀ g : S60000.Idx, RowOk (ft g : BitVec 32).toNat) (k : ℕ) : RowOk (wfun c i ft k).toNat := by
  by_cases hk : k < 200
  · rw [wfun_eq c i ft k hk]; exact hchk _
  · unfold wfun; rw [dif_neg hk]; intro a; fin_cases a <;> decide

set_option maxHeartbeats 0 in
/-- THE BODY'S RUN at grid point `i`. -/
theorem kernelRun (c : Dev nD) (i : grid1.Coords) (M2 : Memref sig .tc .vmem S200x128 .f32) (h2 : M2.IsWhole)
    (ft : Bf (F := F) c (Memref.whole main_v11)) (f2 : Bf (F := F) c M2) (fs : Bf (F := F) c (Memref.whole cc1_scratch0))
    (fv : Bf (F := F) c (Memref.whole main_v14)) (W : Waits sig Unit)
    (hchk : ∀ g : S60000.Idx, RowOk (ft g : BitVec 32).toNat)
    (Q : PUnit → sProp 𝕄) :
    iprop(pt c (Memref.whole main_v11) ft ∗ pt c M2 f2 ∗ pt c (Memref.whole cc1_scratch0) fs ∗ pt c (Memref.whole main_v14) fv
      ∗ semVal ((c : Thread nD τ), osem ()) 0 ∗ owes (c : Thread nD τ) 0 W
      ∗ (iprop(pt c (Memref.whole main_v11) ft ∗ pt c M2 f2 ∗ (∃ d, pt c (Memref.whole cc1_scratch0) d)
            ∗ pt c (Memref.whole main_v14) (rowsFn c (wfun c i ft) (wfun_ok c i ft hchk) (sfun c M2 f2) fv 200)
            ∗ semVal ((c : Thread nD τ), osem ()) 0 ∗ ∃ W, owes (c : Thread nD τ) 0 W) -∗ Q ⟨⟩))
      ⊢ wp frame (wpE (defs₀ (F := F)) Variants.none c none) Set.univ
        (cc1__scatter_kernel i (Memref.whole main_v11) (Memref.isWhole_whole _) M2 h2 (Memref.whole main_v14) (Memref.isWhole_whole _) (Memref.whole main_v14) (Memref.isWhole_whole _) (Memref.whole cc1_scratch0) (Memref.isWhole_whole _) cc1_scratch1) Q := by
  iintro ⟨H0, H1, Hs, Hv, Hsem, HO, Hk⟩
  simp only [cc1__scatter_kernel_eq_skeleton]; unfold cc1__scatter_kernel_skel
  sl_exec! (disch := exact hchk _)
  have hr : Rows c (wfun c i ft) (sfun c M2 f2) fv 200 (kernelRun.sl.Hv_w199 c i M2 ft f2 fs fv hchk) := by
    iterate 200
      refine Rows.succ _ _ _ _ _ ?_ ?_ ?_
      rotate_left
      · exact (wfun_eq c i ft _ (by decide)).symm
      · exact (read_newest_whole _ _ zero2 _ _ _).trans (sfun_eq c M2 f2 _ (by decide)).symm
    exact Rows.zero
  rw [hr.eq_rowsFn (wfun_ok c i ft hchk)]
  sl_step
  iapply Hk
  isplitl [H0]; · iexact H0
  isplitl [H1]; · iexact H1
  isplitl [Hs]; · iexists _; iexact Hs
  isplitl [Hv]; · iexact Hv
  isplitl [Hsem]; · iexact Hsem
  iexists _; iexact HO

end Cert.Kernel.Scatter

end
-- ==== Proof.K.ScatterRegion.lean ====
/-
  The scatter region's proof data and body obligation.

  The region is a pipeline of ONE window (the padded pillar rows, blocks of 200 rows fetched at every grid point) whose
  body also holds, beside the window's staging buffer: the prefetched table of canvas words (read only), its one-row
  scratch buffer, its own transfer semaphore, and the CANVAS itself, which is no window's array — the body writes
  canvas rows by its own transfers. So the canvas rides through the region in the body's invariant: before point `t`
  it holds `canvasAt t`, the entry canvas with the rows of the first `t` blocks written in order.
-/
import proofs.«403100_j62216896250120_3_alg».proof.Proof.K.ScatterBody
import proofs.«403100_j62216896250120_3_alg».proof.Proof.Gen.Kernel.Launch
import proofs.«403100_j62216896250120_3_alg».proof.Proof.Gen.Kernel.Points
import Idealize.ShloMosaic.Lib.Pipeline.Frame

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation)

variable {F : FTy → Type} [FloatOps F]

local notation "𝕄" => MT nD τ sig Unit (Elt F) ℕ (UC sig nD τ) ℕ

/-- The block's row `k` as the transfer's source holds it, from what the staging memref READS (`X`). -/
def sfunX (X : S200x128.Idx → Elt F .f32) (k : ℕ) : S1x128.Idx → Elt F .f32 :=
  if hk : k < 200 then payG (View.ld X (Rect.unit (s := S200x128) ![k, 0] S1x128.size (srow_inb k hk)))
  else payG (View.ld X (Rect.unit (s := S200x128) ![0, 0] S1x128.size (srow_inb 0 (by decide))))

theorem sfun_eq_sfunX (c : Dev nD) (M2 : Memref sig .tc .vmem S200x128 .f32) (f2 : Bf (F := F) c M2) :
    sfun c M2 f2 = sfunX (M2.view.read (Elt F) f2) := by
  funext k; unfold sfun sfunX; split <;> rfl

variable (a : (pcfg1 (F := F)).Adm)
variable (V : (c : Dev nD) → (b : Ref sig .tc) → Buf (Elt F) ((c : Thread nD τ).loc b))

/-- The table of canvas words: the prefetched table's contents the region is pinned at. -/
abbrev tbl : Bf (F := F) (0 : Dev nD) (Memref.whole main_v11) := a.1 0

/-- Every table word names a canvas row. -/
def TblOk : Prop := ∀ g : S60000.Idx, RowOk ((a.1 0 : S60000.Idx → BitVec 32) g).toNat

/-- The window's block at point `t`, read off its array as the region finds it (`V`). -/
def iblk (c : Dev nD) (t : Fin (cfg1 a).N) : (((cfg1 a).win 0).xblock ((cfg1 a).grid.coords t)).Idx → Elt F ((cfg1 a).win 0).elt :=
  (((cfg1 a).win 0).blk t).view.read (Elt F) (V c (Pipeline.arrRef spec1 0))

/-- The canvas before point `t`: the entry canvas with the rows of blocks `0, …, t - 1` written, block by block, each
    block's 200 rows in order at the rows the table names for them. -/
def canvasAt (hok : TblOk a) (c : Dev nD) : ℕ → Bf (F := F) c (Memref.whole main_v14)
  | 0 => V c main_v14
  | t + 1 =>
    if ht : t < (cfg1 a).N then
      rowsFn c (wfun c ((cfg1 a).grid.coords ⟨t, ht⟩) (a.1 0)) (wfun_ok c _ (a.1 0) hok) (sfunX (iblk a V c ⟨t, ht⟩))
        (canvasAt hok c t) 200
    else canvasAt hok c t

theorem canvasAt_succ (hok : TblOk a) (c : Dev nD) (t : Fin (cfg1 a).N) :
    canvasAt a V hok c (t.val + 1)
      = rowsFn c (wfun c ((cfg1 a).grid.coords t) (a.1 0)) (wfun_ok c _ (a.1 0) hok) (sfunX (iblk a V c t)) (canvasAt a V hok c t.val) 200 := by
  rw [canvasAt, dif_pos t.isLt]

/-- The body's invariant before point `t`: the scoped buffers no window stages (among them the scratch row), the
    generator register, the body's own semaphore at zero, the table held whole, and the canvas at `canvasAt t`. -/
def ΦS (hok : TblOk a) (c : Dev nD) (t : ℕ) : sProp 𝕄 :=
  iprop(Pipeline.scopedRest (Ix := Unit) (Name := ℕ) (U := UC sig nD τ) (Lvl := ℕ) (Val := Elt F) spec1 c ∗ (∃ r, prngReg c r)
    ∗ Pipeline.ownSems0 (Ix := Unit) (Name := ℕ) (U := UC sig nD τ) (Lvl := ℕ) (Val := Elt F) (τ := τ) osem c
    ∗ Pipeline.prefHeld (Ix := Unit) (Name := ℕ) (U := UC sig nD τ) (Lvl := ℕ) pre1 c (fun _ => fullShare) a.1
    ∗ pt c (Memref.whole main_v14) (canvasAt a V hok c t))

/-- The region's proof data on core `c`. -/
def dat (hok : TblOk a) (c : Dev nD) : Dat τ (Elt F) Unit ℕ (UC sig nD τ) ℕ (cfg1 a) c where
  A w := V c (Pipeline.arrRef spec1 w)
  after w t := match w with
    | ⟨0, _⟩ => iblk a V c t
  Φ t := ΦS a V hok c t.val
  q _ := fullShare
  owed _ := 0

theorem A_eq (hok : TblOk a) (c : Dev nD) (w : Fin (cfg1 a).W) : (dat a V hok c).A w = V c (Pipeline.arrRef spec1 w) := by
  dsimp only [dat]
theorem Φ_eq (hok : TblOk a) (c : Dev nD) (t : Fin ((cfg1 a).N + 1)) : (dat a V hok c).Φ t = ΦS a V hok c t.val := by
  dsimp only [dat]
theorem owed_eq (hok : TblOk a) (c : Dev nD) (t : Fin ((cfg1 a).N + 1)) : (dat a V hok c).owed t = 0 := by
  dsimp only [dat]
theorem q_eq (hok : TblOk a) (c : Dev nD) (w : Fin (cfg1 a).W) : (dat a V hok c).q w = fullShare := by
  dsimp only [dat]
theorem after_eq (hok : TblOk a) (c : Dev nD) (t : Fin (cfg1 a).N) : (dat a V hok c).after 0 t = iblk a V c t := by
  dsimp only [dat]; rfl

/-- The input window's current staging buffer holds its block at every point, fetched there or not. -/
theorem before_eq (hok : TblOk a) (c : Dev nD) (t : Fin (cfg1 a).N) (d) : (dat a V hok c).before 0 t d = iblk a V c t :=
  ((dat a V hok c).before_in_eq_fetched 0 rfl (fun _ => rfl) (fun _ _ _ => rfl)
    (fun t => by rw [after_eq]; unfold Dat.blockOf iblk; rw [A_eq]; try rfl) t d).trans
    (by unfold Dat.fetched Dat.blockOf iblk; rw [A_eq]; try rfl)

/-- A whole memref owned at what it reads is its buffer held at raw contents reading that. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, rfl, rfl, rfl, hm⟩ := h; cases hm
  unfold owns pt; simp only [Memref.view_whole, View.set_whole]

/-- The body's own semaphore at zero, listed. -/
theorem ownSems0_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

/-- The one table held whole, as one points-to. -/
theorem prefHeld_eq (c : Dev nD) (pf : pre1.Contents (Elt F)) :
    (Pipeline.prefHeld (Ix := Unit) (Name := ℕ) (U := UC sig nD τ) (Lvl := ℕ) pre1 c (fun _ => fullShare) pf : sProp 𝕄)
      = pt c (Memref.whole main_v11) (pf 0) := by
  unfold Pipeline.prefHeld; rw [bigSep_W1]; rfl

/-- The window's current staging memref at point `t`, and the body as the pipeline calls it there. -/
abbrev st (t : Fin (cfg1 a).N) := ((cfg1 a).win 0).stage ((cfg1 a).slots t 0)
abbrev bodyAt (t : Fin (cfg1 a).N) : Prog (TpuEff nD τ sig (Elt F) Λ₀ .tc) PUnit :=
  cc1__scatter_kernel ((cfg1 a).grid.coords t) (Memref.whole main_v11) (Memref.isWhole_whole _) (spec1_0.stage ((cfg1 a).slots t 0))
    (hstage1_0 (((cfg1 a).slots t 0).cast nbuf1_0)) (Memref.whole main_v14) (Memref.isWhole_whole _) (Memref.whole main_v14) (Memref.isWhole_whole _)
    (Memref.whole cc1_scratch0) (Memref.isWhole_whole _) cc1_scratch1

def bodyPre (hok : TblOk a) (c : Dev nD) (t : Fin (cfg1 a).N) : sProp 𝕄 :=
  iprop((dat a V hok c).Φ t.castSucc ∗ (dat a V hok c).owesAt () t.castSucc
    ∗ (∃ d, owns (c : Thread nD τ) (st a t) fullShare ((dat a V hok c).before 0 t d)))

def bodyPost (hok : TblOk a) (c : Dev nD) (t : Fin (cfg1 a).N) : sProp 𝕄 :=
  iprop((dat a V hok c).Φ t.succ ∗ (dat a V hok c).owesAt () t.succ
    ∗ owns (c : Thread nD τ) (st a t) fullShare ((dat a V hok c).after 0 t))

set_option maxHeartbeats 2000000 in
/-- The body at any point: the invariant taken apart (table, scratch row, canvas, semaphore), `kernelRun` applied at the
    staged block, the invariant put back with the canvas one block further. -/
theorem sound_body (hok : TblOk a) (c : Dev nD) (t : Fin (cfg1 a).N) :
    bodyPre a V hok c t ⊢ wp frame (wpE (defs₀ (F := F)) Variants.none c none) Set.univ (bodyAt a t) (fun _ => bodyPost a V hok c t) := by
  unfold bodyPre bodyPost bodyAt
  simp only [before_eq]
  rw [Φ_eq, Φ_eq, after_eq, Fin.coe_castSucc, Fin.val_succ]
  unfold ΦS Dat.owesAt Pipeline.owesWithin
  rw [canvasAt_succ]
  rw [owed_eq, owed_eq, scopedRest1_eq, ownSems0_eq, prefHeld_eq, owns_of_whole c (st a t) (hstage1_0 (((cfg1 a).slots t 0).cast nbuf1_0))]
  iintro ⟨⟨⟨Hr1, Hr2, ⟨%fs, Hs⟩, Hr4, Hr5, Hr6, Hr7⟩, Hp, Hsem, Htb, Hv⟩, ⟨%W, %hW, HO⟩, ⟨%d, %f2, %hf2, H1⟩⟩
  iapply (kernelRun c ((cfg1 a).grid.coords t) _ _ (a.1 0) f2 fs (canvasAt a V hok c t.val) W hok)
  isplitl [Htb]; · iexact Htb
  isplitl [H1]; · iexact H1
  isplitl [Hs]; · iexact Hs
  isplitl [Hv]; · iexact Hv
  isplitl [Hsem]; · iexact Hsem
  isplitl [HO]; · iexact HO
  iintro ⟨Htb, H1, ⟨%fs', Hs⟩, Hv, Hsem, ⟨%W', HO⟩⟩
  isplitl [Hr1 Hr2 Hs Hr4 Hr5 Hr6 Hr7 Hp Hsem Htb Hv]
  · isplitl [Hr1 Hr2 Hs Hr4 Hr5 Hr6 Hr7]
    · isplitl [Hr1]; · iexact Hr1
      isplitl [Hr2]; · iexact Hr2
      isplitl [Hs]; · iexists _; iexact Hs
      isplitl [Hr4]; · iexact Hr4
      isplitl [Hr5]; · iexact Hr5
      isplitl [Hr6]; · iexact Hr6
      iexact Hr7
    isplitl [Hp]; · iexact Hp
    isplitl [Hsem]; · iexact Hsem
    isplitl [Htb]; · iexact Htb
    have e : sfun c (st a t) f2 = sfunX (iblk a V c t) := (sfun_eq_sfunX c (st a t) f2).trans (congrArg sfunX hf2)
    iapply (Idealize.SL.BI.BIBase.Entails.of_eq (congrArg (fun s => (pt c (Memref.whole main_v14)
      (rowsFn c (wfun c ((cfg1 a).grid.coords t) (a.1 0)) (wfun_ok c _ (a.1 0) hok) s (canvasAt a V hok c t.val) 200) : sProp 𝕄)) e))
    iexact Hv
  isplitl [HO]
  · iexists W'; isplitr; · ipureintro; exact fun _ _ => Or.inl trivial
    iexact HO
  iexists f2; isplitr; · ipureintro; exact hf2
  iexact H1

set_option maxRecDepth 65536 in
/-- The library's body obligation, at every point. -/
theorem body_obligation (hok : TblOk a) (c : Dev nD) :
    BodyObligation (dat (F := F) a V hok c) (defs₀ (F := F)) Variants.none () Set.univ := fun t => by
  rw [bigSep_W1, bigSep_W1]
  exact sound_body a V hok c t

end Cert.Kernel.Scatter

end
-- ==== Proof.K.Run.lean ====
/-
  The run of the whole program: three pipelined calls between host stretches.

  @main is seven items: two host stretches (the table of canvas words `main_v11`; the rows padded to 128 lanes,
  `main_v12`), the zero fill of `main_v13`, the copy of it into the canvas `main_v14`, the scatter of the padded rows
  into the canvas at the rows the table names, the reshape of the canvas into `main_v15`, and the permutation of that
  into the result `main_v16`. Between items every unscoped buffer is held whole at a valuation: the launch contents,
  then each host stretch's results, then what each region leaves in the one buffer it may change. Those three buffers
  are defined here in order, each from the valuation before it: the zero fill's array after its last write-back, the
  canvas after the scatter's last point, the permutation's output array after its last write-back.

  Each region is given its record over these thread states. The zero fill and the permutation move data only through
  their windows: their arrays are split out of the unscoped buffers at entry and put back at exit, the generator
  register passes through the invariant, nothing else is touched. The scatter also writes the canvas by its own
  transfers on its own semaphore: the canvas, that semaphore and the table pass through its invariant, its one input
  array is put back unchanged, and every other unscoped buffer bypasses it. The conditional run statement then gives
  the run: the result buffer ends at the permutation's output array, the arguments as launched.
-/
import proofs.«403100_j62216896250120_3_alg».proof.Proof.K.RunCond
import proofs.«403100_j62216896250120_3_alg».proof.Proof.K.Zero
import proofs.«403100_j62216896250120_3_alg».proof.Proof.K.Permute
import proofs.«403100_j62216896250120_3_alg».proof.Proof.K.ScatterRegion
import Idealize.ShloMosaic.Lib.Pipeline.Routed
import Idealize.ShloMosaic.Lib.Pipeline.Regions
import Idealize.ShloMosaic.Lib.Pipeline.RegionsLoop

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat RegionSeg)

variable {F : FTy → Type} [FloatOps F]

local notation "𝕄" => MT nD τ sig Unit (Elt F) ℕ (UC sig nD τ) ℕ

variable (m : (ℓ : Loc nD τ sig) → Buf (Elt F) ℓ)

/-! ## The tables, and the buffers between items -/

/-- The prefetched table: what the first host stretch leaves in `main_v11`, on the one device. -/
def tblOf : pre1.Contents (Elt F) := fun k => Gen.V1 m (0 : Dev nD) (pre1.ref k)

/-- The tables' admissible contents, pipeline by pipeline: only the scatter call has one. -/
def adm : (p : Fin 3) → (pcfgs (F := F) p).Adm
  | ⟨0, _⟩ => cfg0.toPCfg_adm
  | ⟨1, _⟩ => ⟨tblOf m, trivial⟩
  | ⟨2, _⟩ => cfg2.toPCfg_adm
  | ⟨_ + 3, h⟩ => absurd h (Nat.not_lt.2 (Nat.le_add_left _ _))

/-- The scatter call's table as an admissible one. -/
abbrev adm1 : (pcfg1 (F := F)).Adm := ⟨tblOf m, trivial⟩

variable (hok : Scatter.TblOk (F := F) (adm1 m))

/-- Region 0's entry valuation read at TensorCore references. -/
abbrev E0 (c : Dev nD) (b : Ref sig .tc) : Buf (Elt F) ((c : Thread nD τ).loc b) := Gen.V2 m c b

/-- What region 0 leaves in `main_v13`: its one window's array after the last write-back. -/
def z13 (c : Dev nD) : Buf (Elt F) ((c : Thread nD τ).loc main_v13) := (Zero.dat (E0 m) c).arrAt 0 cfg0.N

/-- After region 0, and after the copy into `main_v14`. -/
abbrev W3 (c : Dev nD) : Valuation τ sig (Elt F) := Function.update (Gen.V2 m c) main_v13 (z13 m c)
abbrev W4 (c : Dev nD) : Valuation τ sig (Elt F) := StableHlo.after hostOps1 (W3 m c)
/-- Region 1's entry valuation read at TensorCore references. -/
abbrev E1 (c : Dev nD) (b : Ref sig .tc) : Buf (Elt F) ((c : Thread nD τ).loc b) := W4 m c b

/-- What region 1 leaves in `main_v14`: the canvas after the last point. -/
def z14 (c : Dev nD) : Buf (Elt F) ((c : Thread nD τ).loc main_v14) := Scatter.canvasAt (adm1 m) (E1 m) hok c (cfg1 (adm1 m)).N

/-- After region 1, and after the reshape into `main_v15`. -/
abbrev W5 (c : Dev nD) : Valuation τ sig (Elt F) := Function.update (W4 m c) main_v14 (z14 m hok c)
abbrev W6 (c : Dev nD) : Valuation τ sig (Elt F) := StableHlo.after hostOps2 (W5 m hok c)
/-- Region 2's entry valuation read at TensorCore references. -/
abbrev E2 (c : Dev nD) (b : Ref sig .tc) : Buf (Elt F) ((c : Thread nD τ).loc b) := W6 m hok c b

/-- What region 2 leaves in `main_v16`: its output window's array after the last write-back. -/
def z16 (c : Dev nD) : Buf (Elt F) ((c : Thread nD τ).loc main_v16) := (Permute.dat (E2 m hok) c).arrAt 1 cfg2.N

/-- What the regions leave in the buffers they may change, at any item number. -/
def outs : Gen.Outs (F := F) := fun _ r c =>
  if h13 : r = main_v13 then h13 ▸ z13 m c
  else if h14 : r = main_v14 then h14 ▸ z14 m hok c
  else if h16 : r = main_v16 then h16 ▸ z16 m hok c
  else m ((c : Thread nD τ).loc r)

theorem outs_v13 (j : ℕ) (c : Dev nD) : outs m hok j main_v13 c = z13 m c := by
  unfold outs; rw [dif_pos rfl]
theorem outs_v14 (j : ℕ) (c : Dev nD) : outs m hok j main_v14 c = z14 m hok c := by
  unfold outs; rw [dif_neg (by decide), dif_pos rfl]
theorem outs_v16 (j : ℕ) (c : Dev nD) : outs m hok j main_v16 c = z16 m hok c := by
  unfold outs; rw [dif_neg (by decide), dif_neg (by decide), dif_pos rfl]

/-- The valuations between items, over these contents, are the ones named above. -/
theorem V3_eq (c : Dev nD) : Gen.V3 m (outs m hok) c = W3 m c := by
  unfold Gen.V3; rw [outs_v13]
theorem V4_eq (c : Dev nD) : Gen.V4 m (outs m hok) c = W4 m c := by
  unfold Gen.V4; rw [V3_eq]
theorem V5_eq (c : Dev nD) : Gen.V5 m (outs m hok) c = W5 m hok c := by
  unfold Gen.V5; rw [outs_v14, V4_eq]
theorem V6_eq (c : Dev nD) : Gen.V6 m (outs m hok) c = W6 m hok c := by
  unfold Gen.V6; rw [V5_eq]

/-- The three buffers the regions leave, read off the valuations after them. -/
theorem V3_v13 (c : Dev nD) : Gen.V3 m (outs m hok) c main_v13 = (Zero.dat (E0 m) c).arrAt 0 cfg0.N := by
  unfold Gen.V3; rw [Function.update_self, outs_v13]; rfl
theorem V5_v14 (c : Dev nD) : Gen.V5 m (outs m hok) c main_v14 = Scatter.canvasAt (adm1 m) (E1 m) hok c (cfg1 (adm1 m)).N := by
  unfold Gen.V5; rw [Function.update_self, outs_v14]; rfl
theorem V7_v16 (c : Dev nD) : Gen.V7 m (outs m hok) c main_v16 = (Permute.dat (E2 m hok) c).arrAt 1 cfg2.N := by
  unfold Gen.V7; rw [Function.update_self, outs_v16]; rfl

/-! ## The proof data family and what rides along -/

/-- Every pipeline's proof data, each at its region's entry contents. -/
def pdats : (p : Fin 3) → (c : Dev nD) → Dat τ (Elt F) Unit ℕ (UC sig nD τ) ℕ (Pipeline.pin (pcfgs (F := F)) (adm m) p) c
  | ⟨0, _⟩ => fun c => Zero.dat (E0 m) c
  | ⟨1, _⟩ => fun c => Scatter.dat (adm1 m) (E1 m) hok c
  | ⟨2, _⟩ => fun c => Permute.dat (E2 m hok) c
  | ⟨_ + 3, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Small conversions the three records share -/

/-- A core owing nothing is, for proof data that owe nothing before point `t` and bound the recorded pairs by
    everything, the core owing what the data say within their bound. -/
theorem owesAt_of_nothing {cfg : Pipeline.Cfg sig Λ₀} {c : Dev nD} (dat : Dat τ (Elt F) Unit ℕ (UC sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, H⟩
  iexists W
  isplitr
  · ipureintro
    intro x _
    exact Or.inl (hr ▸ Set.mem_univ x)
  · iexact H

/-- And back: the bound forgotten. -/
theorem nothing_of_owesAt {cfg : Pipeline.Cfg sig Λ₀} {c : Dev nD} (dat : Dat τ (Elt F) Unit ℕ (UC sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

/-- No table, nothing held. -/
theorem prefHeld_none (c : Dev nD) (q : Fin (Pipeline.Prefetch.none (sig := sig)).K → PosShare TreeShare)
    (v : (Pipeline.Prefetch.none (sig := sig)).Contents (Elt F)) :
    (Pipeline.prefHeld (Ix := Unit) (Name := ℕ) (U := UC sig nD τ) (Lvl := ℕ) Pipeline.Prefetch.none c q v : sProp 𝕄) = BI.emp := by
  unfold Pipeline.prefHeld
  rw [Finset.univ_eq_empty, BI.bigSep_empty]

/-! ## The regions' records -/

/-- A TensorCore reference that is no array of region 0 is not `main_v13`. -/
theorem ne_v13_of_notMem {b : Ref sig .tc} (hb : b ∉ Finset.univ.image (Pipeline.arrRef spec0)) : b ∉ ([main_v13] : List (Ref sig .tc)) := by
  intro h
  rw [List.mem_singleton] at h
  exact hb (Finset.mem_image.mpr ⟨0, Finset.mem_univ _, h.symm⟩)

set_option backward.isDefEq.respectTransparency.types false in
/-- REGION 0, the zero fill: entered with every unscoped buffer at `V2`, left with them at `V3` (that is `V2` with
    `main_v13` at the array the pipeline leaves). Its one array is split out of the unscoped buffers and put back; the
    generator register goes through the class invariant; nothing is owed; the kernel has no semaphore of its own. -/
def reg0 : RegionSeg (pcfgs (F := F)) (adm m) (pdats m hok) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Zero.body_obligation (E0 m) c).loose
  hwaits := Pipeline.hwaits_of_owed_zero _ _ _ _ L lv 0 fun c t => Zero.owed_eq (E0 m) c t
  pre c := iprop(StableHlo.held (c : Thread nD τ) (Pipeline.ucRefs τ sig) (Gen.V2 m c) ∗ R c)
  post c := iprop(StableHlo.held (c : Thread nD τ) (Pipeline.ucRefs τ sig) (Gen.V3 m (outs m hok) c) ∗ R c)
  X c := iprop(∃ r, prngReg c r)
  Y c := iprop(∃ r, prngReg c r)
  Z c := Pipeline.unscopedRest (Ix := Unit) (Name := ℕ) (U := UC sig nD τ) (Lvl := ℕ) spec0 c (E0 m c)
  hentry c := by
    have hsplit := Pipeline.arrays_of_unscopedBufs (p := 0) (pcfgs (F := F)) (adm m) (pdats m hok) (launch0 (F := F)).win (launch0 (F := F)).arr_whole c
      ((Zero.dat (E0 m) c).share_full (Zero.q_eq (E0 m) c)) (E0 m c) (Zero.A_eq (E0 m) c)
    rw [Pipeline.unscopedBufs_held] at hsplit
    have hO := owesAt_of_nothing (Zero.dat (E0 m) c) 0 (Zero.owed_eq (E0 m) c 0) rfl
    iintro ⟨⟨Hbufs, Hprng, Howes⟩, -, -⟩
    ihave Hs := hsplit $$ Hbufs
    icases Hs with ⟨Harr, Hrest⟩
    ihave Ho := hO $$ Howes
    imodintro
    isplitl [Harr]
    · iexact Harr
    isplitr
    · rw [show Pipeline.prefHeld (pcfgs (F := F) 0).pre c (fun _ => fullShare) (adm m 0).1 = (BI.emp : sProp 𝕄) from prefHeld_none c _ _]
      iempintro
    isplitl [Ho]
    · iexact Ho
    isplitl [Hprng]
    · iexact Hprng
    · iexact Hrest
  hin c := by
    rw [show (pdats m hok 0 c).Φ 0 = Pipeline.ΦA spec0 c from Zero.Φ_eq (E0 m) c 0]
    unfold Pipeline.ΦA
    iintro ⟨Hprng, -, Hsc⟩
    isplitl [Hsc]
    · iexact Hsc
    · iexact Hprng
  hout c := by
    rw [Pipeline.ownSems0_none, show (pdats m hok 0 c).Φ (Fin.last _) = Pipeline.ΦA spec0 c from Zero.Φ_eq (E0 m) c _]
    unfold Pipeline.ΦA
    iintro ⟨Hsc, Hprng⟩
    isplitl [Hprng]
    · iexact Hprng
    isplitr
    · iempintro
    · iexact Hsc
  hexit c := by
    have hjoin := Pipeline.unscopedBufs_of_arrays (p := 0) (pcfgs (F := F)) (adm m) (Ix := Unit) (Name := ℕ) (U := UC sig nD τ) (Lvl := ℕ)
      (launch0 (F := F)).win (launch0 (F := F)).arr_whole c (pdats m hok) ((Zero.dat (E0 m) c).share_full (Zero.q_eq (E0 m) c))
      (E0 m c) (fun b => Gen.V3 m (outs m hok) c b) ((Zero.dat (E0 m) c).arrAt · cfg0.N)
      (fun | ⟨0, _⟩ => (V3_v13 m hok c).symm)
      (fun b hb => Gen.V3_of m (outs m hok) c b (ne_v13_of_notMem hb))
    rw [Pipeline.unscopedBufs_held] at hjoin
    have hO : (pdats m hok 0 c).owesAt () (Fin.last (Pipeline.pin (pcfgs (F := F)) (adm m) 0).N)
        ⊢ (iprop(∃ W, owes (c : Thread nD τ) (0 : CellTallies nD τ sig Unit) W) : sProp 𝕄) :=
      nothing_of_owesAt (Zero.dat (E0 m) c) (Fin.last _) (Zero.owed_eq (E0 m) c _)
    iintro ⟨Harr, Howes, Hprng, Hrest⟩
    ihave Ho := hO $$ Howes
    imodintro
    isplitl [Harr Hrest]
    · iapply hjoin
      isplitl [Harr]
      · iexact Harr
      · iexact Hrest
    isplitl [Hprng]
    · iexact Hprng
    · iexact Ho

/-! ### Region 1's unscoped rest, taken apart -/

/-- The buffers that bypass region 1: unscoped, no window's array, not the table, not the canvas. -/
abbrev bypass1 : Finset (Ref sig .tc) := Pipeline.restRefsP sig pre1 spec1 \ {main_v14}

/-- The unscoped buffers that are no array of region 1, at contents `V`: the table, the canvas, and the bypassing rest. -/
theorem rest1_split (c : Dev nD) (V : (b : Ref sig .tc) → Buf (Elt F) ((c : Thread nD τ).loc b)) :
    (Pipeline.unscopedRest (Ix := Unit) (Name := ℕ) (U := UC sig nD τ) (Lvl := ℕ) spec1 c V : sProp 𝕄)
      = iprop(Pipeline.prefHeld pre1 c (fun _ => fullShare) (fun k => V (pre1.ref k))
          ∗ (((c : Thread nD τ).loc main_v14) ↦{fullShare} V main_v14)
          ∗ bigSep bypass1 fun b => ((c : Thread nD τ).loc b) ↦{fullShare} V b) := by
  rw [Pipeline.unscopedRest_split preFacts1 c V,
    Pipeline.unscopedRestP_sdiff pre1 spec1 {main_v14} (by decide) c V, BI.bigSep_singleton]

/-- No item between the first host stretch and region 1 writes the table: at region 1's entry it is `tblOf`. -/
theorem E1_tbl (c : Dev nD) : (fun k => E1 m c (pre1.ref k)) = tblOf m := by
  funext k
  obtain rfl : c = 0 := Subsingleton.elim _ _
  match k with
  | ⟨0, _⟩ =>
    show W4 m 0 main_v11 = Gen.V1 m 0 main_v11
    exact (StableHlo.after_of_writes_sub hostOps1 _ Gen.hostOps1_writes (by decide)).trans
      ((Function.update_of_ne (StableHlo.devRef_ne_of_ne (by decide)) _ _).trans (Gen.V2_of m 0 main_v11 (by decide)))

/-- Off the canvas, the valuation after region 1 is the one before it. -/
theorem W5_of_ne (c : Dev nD) (b : Ref sig .tc) (h : b ≠ main_v14) : W5 m hok c b = W4 m c b :=
  Function.update_of_ne (StableHlo.devRef_ne_of_ne h) _ _

/-- The unscoped buffers that are no array of region 1, at the valuation after it: the table unchanged, the canvas
    after the last point, the bypassing rest as entered. -/
theorem exit1_rest (c : Dev nD) :
    (Pipeline.unscopedRest (Ix := Unit) (Name := ℕ) (U := UC sig nD τ) (Lvl := ℕ) spec1 c (fun b => W5 m hok c b) : sProp 𝕄)
      = iprop(Pipeline.prefHeld pre1 c (fun _ => fullShare) (tblOf m)
          ∗ (((c : Thread nD τ).loc main_v14) ↦{fullShare} z14 m hok c)
          ∗ bigSep bypass1 fun b => ((c : Thread nD τ).loc b) ↦{fullShare} E1 m c b) := by
  rw [rest1_split c (fun b => W5 m hok c b),
    show (fun k => W5 m hok c (pre1.ref k)) = tblOf m from
      (funext fun | ⟨0, _⟩ => W5_of_ne m hok c main_v11 (by decide)).trans (E1_tbl m c),
    show W5 m hok c main_v14 = z14 m hok c from Function.update_self _ _ _,
    BI.bigSep_congr (Ψ := fun b => ((c : Thread nD τ).loc b) ↦{fullShare} E1 m c b) fun b hb => by
      rw [W5_of_ne m hok c b (fun h => (Finset.mem_sdiff.mp hb).2 (Finset.mem_singleton.mpr h))]]

/-- The kernel's one semaphore of its own is scoped and no staging cell's. -/
theorem ownSem1 : Pipeline.OwnSemFacts spec1 Scatter.osem := by decide

set_option backward.isDefEq.respectTransparency.types false in
/-- REGION 1, the scatter: entered with every unscoped buffer at `V4`, left with them at `V5` (that is `V4` with the
    canvas `main_v14` after the last point). Its one array (the padded rows, an input) is split out of the unscoped
    buffers and put back unchanged; the table goes to the pipeline and comes back; the canvas, the kernel's own
    semaphore and the generator register go through the body's invariant; every other unscoped buffer bypasses. -/
def reg1 : RegionSeg (pcfgs (F := F)) (adm m) (pdats m hok) () defs₀ 𝒱₀ L lv 1 where
  win := (launch1 (F := F)).win.to₀
  block_pos := (launch1 (F := F)).block_pos
  stage_whole := (launch1 (F := F)).stage_whole
  K := Unit
  osem := Scatter.osem
  ho := ownSem1
  hbody c := (Scatter.body_obligation (adm1 m) (E1 m) hok c).loose
  hwaits := Pipeline.hwaits_of_owed_zero _ _ _ _ L lv 1 fun c t => Scatter.owed_eq (adm1 m) (E1 m) hok c t
  pre c := iprop(StableHlo.held (c : Thread nD τ) (Pipeline.ucRefs τ sig) (Gen.V4 m (outs m hok) c) ∗ R c)
  post c := iprop(StableHlo.held (c : Thread nD τ) (Pipeline.ucRefs τ sig) (Gen.V5 m (outs m hok) c) ∗ R c)
  X c := iprop((∃ r, prngReg c r)
    ∗ Pipeline.ownSems0 (Ix := Unit) (Name := ℕ) (U := UC sig nD τ) (Lvl := ℕ) (Val := Elt F) (τ := τ) Scatter.osem c
    ∗ (((c : Thread nD τ).loc main_v14) ↦{fullShare} E1 m c main_v14))
  Y c := iprop((∃ r, prngReg c r)
    ∗ Pipeline.prefHeld (Ix := Unit) (Name := ℕ) (U := UC sig nD τ) (Lvl := ℕ) pre1 c (fun _ => fullShare) (tblOf m)
    ∗ (((c : Thread nD τ).loc main_v14) ↦{fullShare} z14 m hok c))
  Z c := bigSep bypass1 fun b => (((c : Thread nD τ).loc b) ↦{fullShare} E1 m c b : sProp 𝕄)
  hentry c := by
    rw [V4_eq m hok c]
    have hsplit : (unscopedBufs c (E1 m c) : sProp 𝕄)
        ⊢ iprop((Scatter.dat (adm1 m) (E1 m) hok c).arrays ((Scatter.dat (adm1 m) (E1 m) hok c).arrAt · 0)
            ∗ Pipeline.unscopedRest spec1 c (E1 m c)) :=
      Pipeline.arrays_of_unscopedBufs (p := 1) (pcfgs (F := F)) (adm m) (pdats m hok) (launch1 (F := F)).win (launch1 (F := F)).arr_whole c
        ((Scatter.dat (adm1 m) (E1 m) hok c).share_full (Scatter.q_eq (adm1 m) (E1 m) hok c)) (E1 m c) (Scatter.A_eq (adm1 m) (E1 m) hok c)
    rw [Pipeline.unscopedBufs_held, rest1_split, E1_tbl] at hsplit
    have hO := owesAt_of_nothing (Scatter.dat (adm1 m) (E1 m) hok c) 0 (Scatter.owed_eq (adm1 m) (E1 m) hok c 0) rfl
    iintro ⟨⟨Hbufs, Hprng, Howes⟩, Hsem, -⟩
    ihave Hs := hsplit $$ Hbufs
    icases Hs with ⟨Harr, Htbl, Hcanvas, Hrest⟩
    ihave Ho := hO $$ Howes
    imodintro
    isplitl [Harr]
    · iexact Harr
    isplitl [Htbl]
    · iexact Htbl
    isplitl [Ho]
    · iexact Ho
    isplitr [Hrest]
    · isplitl [Hprng]
      · iexact Hprng
      isplitl [Hsem]
      · iexact Hsem
      · iexact Hcanvas
    · iexact Hrest
  hin c := by
    rw [show (pdats m hok 1 c).Φ 0 = Scatter.ΦS (adm1 m) (E1 m) hok c 0 from Scatter.Φ_eq (adm1 m) (E1 m) hok c 0]
    unfold Scatter.ΦS
    rw [show Scatter.canvasAt (adm1 m) (E1 m) hok c 0 = E1 m c main_v14 from rfl]
    iintro ⟨⟨Hprng, Hsem, Hcanvas⟩, Htbl, Hsc⟩
    isplitl [Hsc]
    · iexact Hsc
    isplitl [Hprng]
    · iexact Hprng
    isplitl [Hsem]
    · iexact Hsem
    isplitl [Htbl]
    · iexact Htbl
    · iexact Hcanvas
  hout c := by
    rw [show (pdats m hok 1 c).Φ (Fin.last _) = Scatter.ΦS (adm1 m) (E1 m) hok c (cfg1 (adm1 m)).N from Scatter.Φ_eq (adm1 m) (E1 m) hok c _]
    unfold Scatter.ΦS z14
    iintro ⟨Hsc, Hprng, Hsem, Htbl, Hcanvas⟩
    isplitl [Hprng Htbl Hcanvas]
    · isplitl [Hprng]
      · iexact Hprng
      isplitl [Htbl]
      · iexact Htbl
      · iexact Hcanvas
    isplitl [Hsem]
    · iexact Hsem
    · iexact Hsc
  hexit c := by
    rw [V5_eq m hok c]
    have hF : ∀ w : Fin (cfg1 (adm1 m)).W,
        (Scatter.dat (adm1 m) (E1 m) hok c).arrAt w (cfg1 (adm1 m)).N = W5 m hok c (Pipeline.arrRef spec1 w) := fun
      | ⟨0, _⟩ => ((Scatter.dat (adm1 m) (E1 m) hok c).arrAt_in 0 rfl _).trans
          ((Scatter.A_eq (adm1 m) (E1 m) hok c 0).trans (W5_of_ne m hok c main_v12 (by decide)).symm)
    have hjoin : iprop((Scatter.dat (adm1 m) (E1 m) hok c).arrays ((Scatter.dat (adm1 m) (E1 m) hok c).arrAt · (cfg1 (adm1 m)).N)
          ∗ Pipeline.unscopedRest spec1 c (fun b => W5 m hok c b))
        ⊢ (unscopedBufs c (fun b => W5 m hok c b) : sProp 𝕄) :=
      Pipeline.unscopedBufs_of_arrays (p := 1) (pcfgs (F := F)) (adm m) (Ix := Unit) (Name := ℕ) (U := UC sig nD τ) (Lvl := ℕ)
        (launch1 (F := F)).win (launch1 (F := F)).arr_whole c (pdats m hok)
        ((Scatter.dat (adm1 m) (E1 m) hok c).share_full (Scatter.q_eq (adm1 m) (E1 m) hok c))
        (fun b => W5 m hok c b) (fun b => W5 m hok c b) ((Scatter.dat (adm1 m) (E1 m) hok c).arrAt · (cfg1 (adm1 m)).N)
        hF (fun _ _ => rfl)
    rw [Pipeline.unscopedBufs_held, exit1_rest] at hjoin
    have hO : (pdats m hok 1 c).owesAt () (Fin.last (Pipeline.pin (pcfgs (F := F)) (adm m) 1).N)
        ⊢ (iprop(∃ W, owes (c : Thread nD τ) (0 : CellTallies nD τ sig Unit) W) : sProp 𝕄) :=
      nothing_of_owesAt (Scatter.dat (adm1 m) (E1 m) hok c) (Fin.last _) (Scatter.owed_eq (adm1 m) (E1 m) hok c _)
    iintro ⟨Harr, Howes, ⟨Hprng, Htbl, Hcanvas⟩, Hrest⟩
    ihave Ho := hO $$ Howes
    imodintro
    isplitl [Harr Htbl Hcanvas Hrest]
    · iapply hjoin
      isplitl [Harr]
      · iexact Harr
      isplitl [Htbl]
      · iexact Htbl
      isplitl [Hcanvas]
      · iexact Hcanvas
      · iexact Hrest
    isplitl [Hprng]
    · iexact Hprng
    · iexact Ho

/-- A TensorCore reference that is no array of region 2 is not `main_v16`. -/
theorem ne_v16_of_notMem {b : Ref sig .tc} (hb : b ∉ Finset.univ.image (Pipeline.arrRef spec2)) : b ∉ ([main_v16] : List (Ref sig .tc)) := by
  intro h
  rw [List.mem_singleton] at h
  exact hb (Finset.mem_image.mpr ⟨1, Finset.mem_univ _, h.symm⟩)

set_option backward.isDefEq.respectTransparency.types false in
/-- REGION 2, the permutation: entered with every unscoped buffer at `V6`, left with them at `V7` (that is `V6` with
    `main_v16` at the array the pipeline leaves; the input array `main_v15` is never written). A class-A region as
    region 0 is, with an input window and an output window. -/
def reg2 : RegionSeg (pcfgs (F := F)) (adm m) (pdats m hok) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (Permute.body_obligation (E2 m hok) c).loose
  hwaits := Pipeline.hwaits_of_owed_zero _ _ _ _ L lv 2 fun c t => Permute.owed_eq (E2 m hok) c t
  pre c := iprop(StableHlo.held (c : Thread nD τ) (Pipeline.ucRefs τ sig) (Gen.V6 m (outs m hok) c) ∗ R c)
  post c := iprop(StableHlo.held (c : Thread nD τ) (Pipeline.ucRefs τ sig) (Gen.V7 m (outs m hok) c) ∗ R c)
  X c := iprop(∃ r, prngReg c r)
  Y c := iprop(∃ r, prngReg c r)
  Z c := Pipeline.unscopedRest (Ix := Unit) (Name := ℕ) (U := UC sig nD τ) (Lvl := ℕ) spec2 c (E2 m hok c)
  hentry c := by
    rw [V6_eq m hok c]
    have hsplit := Pipeline.arrays_of_unscopedBufs (p := 2) (pcfgs (F := F)) (adm m) (pdats m hok) (launch2 (F := F)).win (launch2 (F := F)).arr_whole c
      ((Permute.dat (E2 m hok) c).share_full (Permute.q_eq (E2 m hok) c)) (E2 m hok c) (Permute.A_eq (E2 m hok) c)
    rw [Pipeline.unscopedBufs_held] at hsplit
    have hO := owesAt_of_nothing (Permute.dat (E2 m hok) c) 0 (Permute.owed_eq (E2 m hok) c 0) rfl
    iintro ⟨⟨Hbufs, Hprng, Howes⟩, -, -⟩
    ihave Hs := hsplit $$ Hbufs
    icases Hs with ⟨Harr, Hrest⟩
    ihave Ho := hO $$ Howes
    imodintro
    isplitl [Harr]
    · iexact Harr
    isplitr
    · rw [show Pipeline.prefHeld (pcfgs (F := F) 2).pre c (fun _ => fullShare) (adm m 2).1 = (BI.emp : sProp 𝕄) from prefHeld_none c _ _]
      iempintro
    isplitl [Ho]
    · iexact Ho
    isplitl [Hprng]
    · iexact Hprng
    · iexact Hrest
  hin c := by
    rw [show (pdats m hok 2 c).Φ 0 = Pipeline.ΦA spec2 c from Permute.Φ_eq (E2 m hok) c 0]
    unfold Pipeline.ΦA
    iintro ⟨Hprng, -, Hsc⟩
    isplitl [Hsc]
    · iexact Hsc
    · iexact Hprng
  hout c := by
    rw [Pipeline.ownSems0_none, show (pdats m hok 2 c).Φ (Fin.last _) = Pipeline.ΦA spec2 c from Permute.Φ_eq (E2 m hok) c _]
    unfold Pipeline.ΦA
    iintro ⟨Hsc, Hprng⟩
    isplitl [Hprng]
    · iexact Hprng
    isplitr
    · iempintro
    · iexact Hsc
  hexit c := by
    have hjoin := Pipeline.unscopedBufs_of_arrays (p := 2) (pcfgs (F := F)) (adm m) (Ix := Unit) (Name := ℕ) (U := UC sig nD τ) (Lvl := ℕ)
      (launch2 (F := F)).win (launch2 (F := F)).arr_whole c (pdats m hok) ((Permute.dat (E2 m hok) c).share_full (Permute.q_eq (E2 m hok) c))
      (E2 m hok c) (fun b => Gen.V7 m (outs m hok) c b) ((Permute.dat (E2 m hok) c).arrAt · cfg2.N)
      (fun
        | ⟨0, _⟩ => (Permute.arr_in (E2 m hok) c).trans
            (((Gen.V7_of m (outs m hok) c main_v15 (by decide)).trans (congrFun (V6_eq m hok c) _)).symm)
        | ⟨1, _⟩ => (V7_v16 m hok c).symm)
      (fun b hb => (Gen.V7_of m (outs m hok) c b (ne_v16_of_notMem hb)).trans (congrFun (V6_eq m hok c) _))
    rw [Pipeline.unscopedBufs_held] at hjoin
    have hO : (pdats m hok 2 c).owesAt () (Fin.last (Pipeline.pin (pcfgs (F := F)) (adm m) 2).N)
        ⊢ (iprop(∃ W, owes (c : Thread nD τ) (0 : CellTallies nD τ sig Unit) W) : sProp 𝕄) :=
      nothing_of_owesAt (Permute.dat (E2 m hok) c) (Fin.last _) (Permute.owed_eq (E2 m hok) c _)
    iintro ⟨Harr, Howes, Hprng, Hrest⟩
    ihave Ho := hO $$ Howes
    imodintro
    isplitl [Harr Hrest]
    · iapply hjoin
      isplitl [Harr]
      · iexact Harr
      · iexact Hrest
    isplitl [Hprng]
    · iexact Hprng
    · iexact Ho

/-! ## The launch -/

/-- Nothing, core by core, is nothing. -/
theorem emp_all : (BI.emp : sProp 𝕄) ⊢ bigSep Finset.univ fun _ : Dev nD => (BI.emp : sProp 𝕄) := by
  rw [BI.bigSep_emp_const]

set_option backward.isDefEq.respectTransparency.types false in
/-- THE RUN. From any memory `m` with zero counters and any generator registers, provided the table the first host
    stretch computes names canvas rows, every weakly fair execution of @main terminates, and every final memory holds in
    the result buffer `main_v16` the array the permutation's pipeline leaves, and each argument as launched. The
    user algebra is the pipeline library's rounds beside the transfer counters, the library's part embedded on the left;
    no level is assigned, nothing is owed at launch, and beside the buffers each core carries its generator register
    and its empty dues from item to item. -/
theorem run (ρ : Dev nD → PrngReg) :
    θ_run defs (onTc (τ := τ) (main (F := F))) ⟨m, fun _ => 0, ρ⟩ (fun r => ∀ c : Dev nD,
      r.2.mem ((c.tc : Thread nD τ).loc main_v16) = (Permute.dat (E2 m hok) c).arrAt 1 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := Gen.run_cond m (Ix := Unit) (U := UC sig nD τ) (Lvl := ℕ) embL () 𝒱₀ L lv (fun _ _ => rfl) ρ (outs m hok) (adm m) (pdats m hok)
    (O₀ := 0) (G := fun _ => (BI.emp : sProp 𝕄))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨Hlib, -⟩
      imodintro
      isplitl [Hlib]
      · iexact Hlib
      · iapply (emp_all (F := F))
        iempintro)
    (E := fun _ c => R c)
    (hE0 := Pipeline.initEach L lv fun c => by
      iintro ⟨⟨-, Howes, -, Hprng, -⟩, -⟩
      imodintro
      isplitl [Hprng]
      · iexists _
        iexact Hprng
      · iexists ∅
        iexact Howes)
    (hE3 := fun c => by
      iintro ⟨-, Howes⟩
      iexact Howes)
    (reg0 m hok) (fun _ => .rfl) (fun _ => .rfl) (reg1 m hok) (fun _ => .rfl) (fun _ => .rfl)
    (reg2 m hok) (fun _ => .rfl) (fun _ => .rfl)
  simp only [V7_v16 m hok] at h
  exact h

/-- info: 'Cert.Kernel.Run.run' depends on axioms: [propext, Classical.choice, Quot.sound] -/
#guard_msgs in #print axioms run

/-- The regions' entry valuations are the generated ones over `outs`, read at TensorCore references. -/
theorem E1_eq : E1 m = fun (c : Dev nD) (b : Ref sig .tc) => Gen.V4 m (outs m hok) c b := by
  funext c b; rw [V4_eq]
theorem E2_eq : E2 m hok = fun (c : Dev nD) (b : Ref sig .tc) => Gen.V6 m (outs m hok) c b := by
  funext c b; rw [V6_eq]

/-- The run, with the permutation's proof data named at the generated valuation before it. -/
theorem run_entry (ρ : Dev nD → PrngReg) :
    θ_run defs (onTc (τ := τ) (main (F := F))) ⟨m, fun _ => 0, ρ⟩ (fun r => ∀ c : Dev nD,
      r.2.mem ((c.tc : Thread nD τ).loc main_v16) = (Permute.dat (fun (c : Dev nD) (b : Ref sig .tc) => Gen.V6 m (outs m hok) c b) c).arrAt 1 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  rw [← E2_eq m hok]
  exact run m hok ρ

end Cert.Kernel.Run

end
-- ==== Proof.K.Reads.lean ====
/-
  What the host operations of the kernel program leave in four buffers, read at an index: the table of flat canvas words
  (the word chain of the coordinate argument), the feature array padded to 128 columns, the copy of the first region's
  canvas, and the reshape of the second region's canvas to `5 × 200 × 704 × 128`. The contents between the program's
  items stay folded; one buffer of one host stretch is opened at a time.
-/
import proofs.«403100_j62216896250120_3_alg».proof.Proof.Gen.Kernel.Regions
import proofs.«403100_j62216896250120_3_alg».proof.Proof.PreRange
import Idealize.ShloMosaic.Lib.StableHlo.Run
import Idealize.ShloMosaic.Lib.Pipeline.Value
import Idealize.ShloMosaic.Lib.ValueLayout
import Idealize.ShloMosaic.Lib.ValueIdx
import Idealize.ShloMosaic.Lib.KernelVsHost

noncomputable section

namespace Cert.Kernel.Reads

open Cert.Kernel Cert.Kernel.Gen Idealize.ShloMosaic Idealize.ShloMosaic.ValueIdx Idealize.ShloMosaic.TcCoe

variable {F : FTy → Type} [FloatOps F]
variable (m : (ℓ : Loc nD τ sig) → Buf (Elt F) ℓ) (outs : Gen.Outs (F := F)) (c : Dev nD)

/-- After the first host stretch the table holds the word chain of the launch contents of the coordinate argument. -/
theorem tbl1_eq :
    (V1 m c main_v11 : S60000.Idx → BitVec 32) =
      addi (addi (muli (shapeCast S60000 (extractStridedSlice S60000x1 ![0, 0] (m ((c : Thread nD τ).loc main_arg0) : S60000x4.Idx → BitVec 32) slices_S60000x4_S60000x1_0_0) shapeCasts_S60000x1_S60000)
                       (broadcastInDim S60000 ![] bcast_S_S60000 (constantI S_ 32 140800#32)))
                 (muli (shapeCast S60000 (extractStridedSlice S60000x1 ![0, 2] (m ((c : Thread nD τ).loc main_arg0) : S60000x4.Idx → BitVec 32) slices_S60000x4_S60000x1_0_2) shapeCasts_S60000x1_S60000)
                       (broadcastInDim S60000 ![] bcast_S_S60000 (constantI S_ 32 704#32))))
           (shapeCast S60000 (extractStridedSlice S60000x1 ![0, 3] (m ((c : Thread nD τ).loc main_arg0) : S60000x4.Idx → BitVec 32) slices_S60000x4_S60000x1_0_3) shapeCasts_S60000x1_S60000) := by
  show StableHlo.after hostOps0 _ (Proc.devRef .tc main_v11) = _
  after_results
  rfl

/-- The table after the first host stretch, read at pillar `g`: the flat canvas word of row `g`. -/
theorem tbl1_apply (g : Fin 60000) :
    (V1 m c main_v11 : S60000.Idx → BitVec 32) (ValueIdx.ix1 g) = Cert.Flat.word (m ((c : Thread nD τ).loc main_arg0)) g := by
  rw [tbl1_eq m c]
  exact Cert.PreRange.word_chain_apply _ _ _ _ _ _ _ _ _ g

/-- The table is written by the first host stretch only: at the entry of the second region it still holds the words. -/
theorem tbl_apply (g : Fin 60000) :
    (V4 m outs c main_v11 : S60000.Idx → BitVec 32) (ValueIdx.ix1 g) = Cert.Flat.word (m ((c : Thread nD τ).loc main_arg0)) g := by
  rw [V4_of m outs c main_v11 (by decide), V3_of m outs c main_v11 (by decide), V2_of m c main_v11 (by decide)]
  exact tbl1_apply m c g

/-- The integer constant the fill is converted from: 0. -/
theorem c1_eq : (V1 m c main_c_1 : S_.Idx → BitVec 32) = constantI S_ 32 0#32 := by
  show StableHlo.after hostOps0 _ (Proc.devRef .tc main_c_1) = _
  after_results

/-- The padding stretch over any contents `W`: the feature array padded on the right of its second axis by 64 columns of
    the fill, the fill being the conversion to `f32` of the integer constant. -/
theorem pad_after (W : Valuation τ sig (Elt F)) :
    (StableHlo.after hostOps0_1 W (Proc.devRef .tc main_v12) : S60000x128.Idx → Elt F .f32) =
      pad S60000x128 ![0, 0] ![0, 64] ![0, 0] (W main_arg1 : S60000x64.Idx → Elt F .f32)
        (sitofp .f32 (W main_c_1 : S_.Idx → BitVec 32) : FVec F S_ .f32) pads_S60000x64_S60000x128_000_0640 h_S_ := by
  after_results
  rfl

/-- At the entry of the second region the padded feature array: the launch contents of the feature argument, padded on the
    right of its second axis by 64 columns of the fill. -/
theorem v12_eq :
    (V4 m outs c main_v12 : S60000x128.Idx → Elt F .f32) =
      pad S60000x128 ![0, 0] ![0, 64] ![0, 0] (m ((c : Thread nD τ).loc main_arg1) : S60000x64.Idx → Elt F .f32)
        (sitofp .f32 (constantI S_ 32 0#32) : FVec F S_ .f32) pads_S60000x64_S60000x128_000_0640 h_S_ := by
  rw [V4_of m outs c main_v12 (by decide), V3_of m outs c main_v12 (by decide)]
  show StableHlo.after hostOps0_1 (V1 m c) (Proc.devRef .tc main_v12) = _
  rw [pad_after (V1 m c), c1_eq m c, V1_of m c main_arg1 (by decide)]

/-- The padded feature array read at `(n, l)`: the feature `(n, l)` in the first 64 columns, the fill in the last 64. -/
theorem pad_apply (n : Fin 60000) (l : Fin 128) :
    (V4 m outs c main_v12 : S60000x128.Idx → Elt F .f32) (ValueIdx.ix2 n l) =
      if h : l.val < 64 then (m ((c : Thread nD τ).loc main_arg1) : S60000x64.Idx → Elt F .f32) (ValueIdx.ix2 n ⟨l.val, h⟩)
      else (sitofp .f32 (constantI S_ 32 0#32) : FVec F S_ .f32) ValueIdx.ix0 := by
  rw [v12_eq m outs c]
  split
  · next h =>
    exact pad_apply_of_inside _ _ _ _ _ _ _ (ValueIdx.ix2 n l) (ValueIdx.ix2 n ⟨l.val, h⟩) (fun a => by
      match a with
      | ⟨0, _⟩ => show n.val = 0 + n.val * (0 + 1); omega
      | ⟨1, _⟩ => show l.val = 0 + l.val * (0 + 1); omega)
  · next h =>
    rw [pad_apply_of_not_inside _ _ _ _ _ _ _ (ValueIdx.ix2 n l) (1 : Fin 2) (fun hin => h (by
      have h3 : (l.val - 0) / (0 + 1) < 64 := hin.2.2
      omega))]
    exact congrArg _ (ValueIdx.eq_ix0 _)

/-- The one operation of the third host stretch copies the first region's result: at the entry of the second region the
    canvas holds what the first region left. -/
theorem v14_entry :
    (V4 m outs c main_v14 : S704000x1x128.Idx → Elt F .f32) = (outs 3 main_v13 c : S704000x1x128.Idx → Elt F .f32) := by
  show StableHlo.after hostOps1 (V3 m outs c) (Proc.devRef .tc main_v14) = _
  after_results
  simp only [V3, Function.update_self]
  rfl

/-- The one operation of the fourth host stretch reshapes what the second region left in the canvas. -/
theorem v15_eq :
    (V6 m outs c main_v15 : S5x200x704x128.Idx → Elt F .f32) =
      shapeCast S5x200x704x128 (outs 5 main_v14 c : S704000x1x128.Idx → Elt F .f32) shapeCasts_S704000x1x128_S5x200x704x128 := by
  show StableHlo.after hostOps2 (V5 m outs c) (Proc.devRef .tc main_v15) = _
  after_results
  simp only [V5, Function.update_self]
  rfl

/-- The reshaped canvas read at `(b, y, x, l)`: row `b·140800 + y·704 + x`, lane `l` of the flat canvas — the two
    indices have the same row-major position, `((b·200 + y)·704 + x)·128 + l`. -/
theorem v15_apply (b : Fin 5) (y : Fin 200) (x : Fin 704) (l : Fin 128) :
    (V6 m outs c main_v15 : S5x200x704x128.Idx → Elt F .f32) (ValueIdx.ix4 b y x l) =
      (outs 5 main_v14 c : S704000x1x128.Idx → Elt F .f32)
        (ValueIdx.ix3 ⟨b.val * 140800 + y.val * 704 + x.val, by omega⟩ (0 : Fin 1) l) := by
  rw [v15_eq m outs c]
  have hk : (S704000x1x128.rowMajor (ValueIdx.ix3 ⟨b.val * 140800 + y.val * 704 + x.val, by omega⟩ (0 : Fin 1) l)).val
      = (S5x200x704x128.rowMajor (ValueIdx.ix4 b y x l)).val := by
    rw [Shape.rowMajor_val_three, Shape.rowMajor_val_four]
    show ((b.val * 140800 + y.val * 704 + x.val) * 1 + 0) * 128 + l.val = ((b.val * 200 + y.val) * 704 + x.val) * 128 + l.val
    omega
  exact shapeCast_apply _ _ _ _ hk

/-- Neither argument is written by any item: both reach the end as launched. -/
theorem args_kept :
    V7 m outs c main_arg0 = m ((c : Thread nD τ).loc main_arg0) ∧ V7 m outs c main_arg1 = m ((c : Thread nD τ).loc main_arg1) :=
  ⟨V7_main_arg0 m outs c, V7_main_arg1 m outs c⟩

end Cert.Kernel.Reads

end
-- ==== Proof.K.PreTbl.lean ====
/-
  Every table word names a canvas row, given the pillars' flat words are in range.

  The scatter region is pinned at a table whose word for pillar `g` is the pillar's flat word `b·140800 + y·704 + x`; when
  every such word is below `704000`, the one-row slice at the row it names lies inside the canvas `[704000, 1, 128]`.
-/
import proofs.«403100_j62216896250120_3_alg».proof.Proof.K.ScatterRegion
import proofs.«403100_j62216896250120_3_alg».proof.Proof.Flat

noncomputable section

namespace Cert.Kernel.PreTbl

open Cert.Kernel Cert.Kernel.Gen
open Idealize.ShloMosaic Idealize.ShloMosaic.TcCoe Idealize.SL.Sem

variable {F : FTy → Type} [FloatOps F]

/-- A row index below the canvas's 704000 rows: the slice of sizes (1, 1, 128) at (n, 0, 0) is inside. -/
theorem rowOk_of_lt (n : ℕ) (h : n < 704000) : Scatter.RowOk n := by
  intro a
  fin_cases a
  · show n + 1 ≤ 704000; omega
  · show 0 + 1 ≤ 1; omega
  · show 0 + 128 ≤ 128; omega

/-- A table holding in-range flat words names canvas rows only. -/
theorem tblOk_of (a : (pcfg1 (F := F)).Adm) (x0 : IVec ⟨2, ![60000, 4]⟩ 32)
    (hx : ∀ g : Fin 60000, (a.1 0 : S60000.Idx → BitVec 32) (ValueIdx.ix1 g) = Cert.Flat.word x0 g)
    (hin : Cert.Flat.InRange x0) : Scatter.TblOk a := by
  intro g
  have e : (a.1 0 : S60000.Idx → BitVec 32) g = Cert.Flat.word x0 (g 0) :=
    (congrArg (a.1 0 : S60000.Idx → BitVec 32) (ValueIdx.eq_ix1 g)).trans (hx (g 0))
  show Scatter.RowOk ((a.1 0 : S60000.Idx → BitVec 32) g).toNat
  rw [e]
  exact rowOk_of_lt _ (hin _)

end Cert.Kernel.PreTbl

end
-- ==== Proof.KI.RunCond.lean ====
/- The conditional run statement of this program of three kernel regions: under exactly the hypotheses of the
   conditional frame (one segment record per region, entered from the thread state before it and left at the one
   after it), every weakly fair execution of @main from memory `m` with zero counters terminates, and every final
   memory holds in the result buffer `main_v16` the last valuation read there, and each argument as launched. -/
import proofs.«403100_j62216896250120_3_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the library's run theorem finds its implicit arguments by unifying its conclusion with this one, which takes
-- unfolding plain definitions in a metavariable's type
set_option backward.isDefEq.respectTransparency.types false in
/-- THE CONDITIONAL RUN. The conditional frame's hypotheses; the conclusion also reads the result buffer `main_v16`
    off the last valuation `V7`, exactly as the arguments are read. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c)) :
    θ_run defs (onTc (τ := τ) (main (F := F))) ⟨m, fun _ => 0, ρ⟩ (fun r => ∀ c : Dev nD,
      r.2.mem ((c.tc : Thread nD τ).loc main_v16) = V7 m outs c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, hpre0 c, hpost0 c, hpre1 c, hpost1 c, hpre2 c, (hpost2 c).trans (sep_mono .rfl (hE3 c))⟩)
    (hinit := ?_) (QY := fun c s => s.mem ((c.tc : Thread nD τ).loc main_v16) = V7 m outs c main_v16 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cert.KernelIdeal.Gen

end
-- ==== Proof.KI.Zero.lean ====
import proofs.«403100_j62216896250120_3_alg».proof.Proof.Gen.KernelIdeal
import proofs.«403100_j62216896250120_3_alg».proof.Proof.Gen.KernelIdeal.Skeleton
import proofs.«403100_j62216896250120_3_alg».proof.Proof.Gen.KernelIdeal.Launch
import proofs.«403100_j62216896250120_3_alg».proof.Proof.Gen.KernelIdeal.Points
import Idealize.ShloMosaic.Lib.Pipeline.Routed
import Idealize.ShloMosaic.Lib.Pipeline.FrameBody
import Idealize.ShloMosaic.Lib.Pipeline.Frame
import Idealize.ShloMosaic.Lib.Pipeline.Value
import Idealize.ShloMosaic.Lib.Tactic

/-!
# The zero-fill region

The first pipelined call of the program fills a 704000 x 1 x 128 array with the zero word, one
7040 x 1 x 128 block per grid point (100 points, block t being rows 7040 t up to 7040 t + 7039). The body
reads its staging buffer (and drops what it read) and then stores a constant block over all of it. So what the
body leaves is the constant block whatever it found, every write-back is that block, the blocks tile the array,
and the array ends constant.
-/

set_option maxRecDepth 16384

noncomputable section

namespace Cert.KernelIdeal.Zero

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

section Region

variable (V : (c : Dev nD) → (b : Ref sig .tc) → Buf (Elt F) ((c : Thread nD τ).loc b))

/-! ## What the body stores -/

/-- The rectangle of the body's one store (and of its one load): the whole staging buffer. -/
abbrev rAll : Rect S7040x1x128 := Rect.unit (s := S7040x1x128) ![0, 0, 0] S7040x1x128.size inb_S7040x1x128_S7040x1x128_0_0_0

/-- The zero word as a float. -/
abbrev zeroF : F .f32 := Scalar.ofBits .f32 0x00000000#32

/-- What the body leaves in the staging buffer: its one store's payload laid over the buffer. -/
def zeroBlk : Vec F S7040x1x128 .f32 :=
  View.canon [⟨rAll, k0_pay1 (F := F)⟩]

theorem hz3 : (![0, 0, 0] : Fin 3 → Nat) = fun _ => 0 := funext fun a => by fin_cases a <;> rfl

/-- The store covers the buffer, so the block left is the payload itself: the constant block. -/
theorem zeroBlk_eq : (zeroBlk : Vec F S7040x1x128 .f32) = fun _ => (zeroF : F .f32) := by
  unfold zeroBlk
  rw [View.canon_unit_zero hz3]
  rfl

/-- The one piece covers every index of the buffer. -/
theorem cover (p : Vec F S7040x1x128 .f32) (y : S7040x1x128.Idx) :
    ∃ pc ∈ ([⟨rAll, p⟩] : List (View.Piece (Elt F) S7040x1x128 .f32)), y ∈ pc.1.set :=
  ⟨_, List.mem_singleton_self _, View.mem_set_unit_zero hz3 inb_S7040x1x128_S7040x1x128_0_0_0 y⟩

/-! ## The body's triple -/

set_option maxHeartbeats 1000000 in
/-- The body on a whole staging memref holding anything runs to the continuation holding it at the constant block:
    the load's result is dropped, and the one store covers the buffer. -/
theorem sound_kernel (c : Dev nD) (E : Set ℕ) (i : grid0.Coords) (arg1 : Memref sig .tc .vmem S7040x1x128 .f32) (harg1 : arg1.IsWhole)
    (K : PUnit → sProp 𝕄) :
    iprop((∃ d, owns (c : Thread nD τ) arg1 fullShare d)
        ∗ (owns (c : Thread nD τ) arg1 fullShare (zeroBlk (F := F)) -∗ K ⟨⟩))
      ⊢ wp frame (wpE (defs₀ (F := F)) Variants.none c none) E (cc0__zero_kernel i arg1 harg1) K := by
  simp only [cc0__zero_kernel_eq_skeleton]; unfold cc0__zero_kernel_skel
  unfold owns
  iintro ⟨⟨%d1, %f1, -, H1⟩, Hk⟩
  sl_exec
  sl_step
  iapply Hk
  iexists _; isplitr
  swap; · iexact H1
  ipureintro
  exact View.read_writes_eq_canon _ _ _ (cover _)

/-! ## The pipeline's proof data -/

/-- The proof data of the zero-fill pipeline on core c: the array as the region finds it; after the body at every
    point the one window's buffer at the constant block; the invariant the scoped rest and the generator register,
    untouched; nothing owed; full shares. -/
def dat (c : Dev nD) : Pipeline.Dat τ (Elt F) Unit ℕ (Pipeline.UC sig nD τ) ℕ cfg0 c where
  A w := V c (Pipeline.arrRef spec0 w)
  after w t := match w with
    | ⟨0, _⟩ => zeroBlk
  Φ _ := Pipeline.ΦA spec0 c
  q _ := fullShare
  owed _ := 0

theorem A_eq (c : Dev nD) (w : Fin cfg0.W) : (dat V c).A w = V c (Pipeline.arrRef spec0 w) := by
  dsimp only [dat]

theorem Φ_eq (c : Dev nD) (t : Fin (cfg0.N + 1)) : (dat V c).Φ t = Pipeline.ΦA spec0 c := by
  dsimp only [dat]

theorem owed_eq (c : Dev nD) (t : Fin (cfg0.N + 1)) : (dat V c).owed t = 0 := by
  dsimp only [dat]

theorem q_eq (c : Dev nD) (w : Fin cfg0.W) : (dat V c).q w = fullShare := by
  dsimp only [dat]

/-- What the body leaves in the one window's buffer. -/
theorem after_eq (c : Dev nD) (t : Fin cfg0.N) : (dat V c).after 0 t = zeroBlk := by dsimp only [dat]

/-! ## The body obligation, at a generic point -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t))

/-- The body at any point: whatever the buffer holds, the triple applies; the invariant and what the core owes
    pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl,
    show (dat V c).owesAt () t.succ = (dat V c).owesAt () t.castSucc from rfl,
    after_eq]
  iintro ⟨HΦ, Ho, ⟨%d0, H0⟩⟩
  iapply (sound_kernel c Set.univ _ _ _ _)
  isplitl [H0]; · iexists _; iexact H0
  iintro H0
  isplitl [HΦ]; · iexact HΦ
  isplitl [Ho]; · iexact Ho
  iexact H0

/-- The library's body obligation, at every point. -/
theorem body_obligation (c : Dev nD) : Pipeline.BodyObligation (dat (F := F) V c) (defs₀ (F := F)) Variants.none () Set.univ := fun t => by
  rw [bigSep_W0, bigSep_W0]
  exact sound_body V c t

/-! ## The array after the run -/

/-- The index map, decided over the grid: point t's block is row-block t, at block 0 of the two short axes. -/
theorem idx_facts : ∀ t : Fin cfg0.N, win0_0.index t (0 : Fin 3) = t.val
    ∧ win0_0.index t (1 : Fin 3) = 0 ∧ win0_0.index t (2 : Fin 3) = 0 :=
  (by decide +kernel : ∀ t : Fin grid0.N, win0_0.index t (0 : Fin 3) = t.val
    ∧ win0_0.index t (1 : Fin 3) = 0 ∧ win0_0.index t (2 : Fin 3) = 0)

/-- The constant array. -/
abbrev zeroArr : S704000x1x128.Idx → Elt F .f32 := fun _ => (zeroF : F .f32)

/-- What point t writes back is block t of the constant array. -/
theorem flushed_eq (c : Dev nD) (t : Fin cfg0.N) :
    (dat V c).flushed 0 t = ((cfg0.win 0).blk t).view.read (Elt F) (zeroArr (F := F)) := by
  show (cfg0.win 0).cut (grid0.coords t) ((dat V c).after 0 t) = _
  rw [after_eq, zeroBlk_eq]
  rfl

/-- An index of the array is in point t's block iff each coordinate is in the block's range on its axis. -/
theorem mem_blk (t : Fin cfg0.N) (i : S704000x1x128.Idx) :
    i ∈ ((cfg0.win 0).blk t).view.set ↔ ∀ a : Fin 3, win0_0.index t a * S7040x1x128.size a ≤ (i a).val
      ∧ (i a).val < win0_0.index t a * S7040x1x128.size a + S7040x1x128.size a := by
  show i ∈ ((View.whole main_v13).slice (win0_0.rect t)).set ↔ _
  rw [View.set_slice_whole, Rect.mem_set_unit]
  exact Iff.rfl

/-- Every row r lies in the block of point r / 7040: the blocks tile the array. -/
theorem covered (i : S704000x1x128.Idx) :
    ∃ t : Fin cfg0.N, (cfg0.win 0).flush t = true ∧ i ∈ ((cfg0.win 0).blk t).view.set := by
  have hi0 : (i 0).val < 704000 := (i 0).isLt
  have hi1 : (i 1).val < 1 := (i 1).isLt
  have hi2 : (i 2).val < 128 := (i 2).isLt
  have hN : (i 0).val / 7040 < cfg0.N := by
    show (i 0).val / 7040 < grid0.N
    rw [N_0]; omega
  obtain ⟨e0, e1, e2⟩ := idx_facts ⟨(i 0).val / 7040, hN⟩
  have e0' : win0_0.index ⟨(i 0).val / 7040, hN⟩ (0 : Fin 3) = (i 0).val / 7040 := e0
  refine ⟨⟨(i 0).val / 7040, hN⟩, flush0_0 _, ?_⟩
  rw [mem_blk]
  intro a
  match a with
  | ⟨0, _⟩ =>
    show win0_0.index ⟨(i 0).val / 7040, hN⟩ (0 : Fin 3) * 7040 ≤ (i 0).val
      ∧ (i 0).val < win0_0.index ⟨(i 0).val / 7040, hN⟩ (0 : Fin 3) * 7040 + 7040
    omega
  | ⟨1, _⟩ =>
    show win0_0.index ⟨(i 0).val / 7040, hN⟩ (1 : Fin 3) * 1 ≤ (i 1).val
      ∧ (i 1).val < win0_0.index ⟨(i 0).val / 7040, hN⟩ (1 : Fin 3) * 1 + 1
    omega
  | ⟨2, _⟩ =>
    show win0_0.index ⟨(i 0).val / 7040, hN⟩ (2 : Fin 3) * 128 ≤ (i 2).val
      ∧ (i 2).val < win0_0.index ⟨(i 0).val / 7040, hN⟩ (2 : Fin 3) * 128 + 128
    omega

/-- After the 100 write-backs every element of the array is the zero word's float. -/
theorem arr_final (c : Dev nD) : (dat V c).arrAt 0 cfg0.N = fun _ => (Scalar.ofBits .f32 0x00000000#32 : F .f32) :=
  (dat V c).arrAt_eq_of_cover 0 (zeroArr (F := F)) (fun t _ => flushed_eq V c t) covered

end Region

end Cert.KernelIdeal.Zero

end
-- ==== Proof.KI.Permute.lean ====
/-
  Region 2 of @main: the channel permutation. On the grid [5, 25], point (b, yb) reads the canvas block
  [1, 8, 704, 128] at (b, yb, 0, 0) of the [5, 200, 704, 128] canvas, keeps channels 0 … 63, moves the channel axis
  in front of the row and column axes, and writes the [1, 64, 8, 704] block at (b, 0, yb, 0) of the [5, 64, 200, 704]
  result. This module gives the region's proof data at the contents `V` the region is entered with, the body's triple
  and the body obligation, and the arrays after the last point: the canvas unchanged, and result entry (b, ch, y, x)
  equal to canvas entry (b, y, x, ch).
-/
import proofs.«403100_j62216896250120_3_alg».proof.Proof.Gen.KernelIdeal.Launch
import proofs.«403100_j62216896250120_3_alg».proof.Proof.Gen.KernelIdeal.Skeleton
import proofs.«403100_j62216896250120_3_alg».proof.Proof.Gen.KernelIdeal.Points
import Idealize.ShloMosaic.Lib.Pipeline.FrameBody
import Idealize.ShloMosaic.Lib.Pipeline.Frame
import Idealize.ShloMosaic.Lib.Pipeline.Routed
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.KernelIdeal.Permute

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (V : (c : Dev nD) → (b : Ref sig .tc) → Buf (Elt F) ((c : Thread nD τ).loc b))

/-! ## The input block and what the body stores -/

/-- The canvas block point `t` reads: batch `b`, rows `8·yb … 8·yb+7`, every column, all 128 channels, read off
    the canvas array as the region finds it. -/
def blockIn (c : Dev nD) (t : Fin cfg2.N) : ((cfg2.win 0).xblock (cfg2.grid.coords t)).Idx → Elt F (cfg2.win 0).elt :=
  ((cfg2.win 0).blk t).view.read (Elt F) (V c (Pipeline.arrRef spec2 0))

/-- The body reads its whole input buffer and writes its whole output buffer: both through the full rectangle. -/
abbrev rIn : Rect S1x8x704x128 := Rect.unit (s := S1x8x704x128) ![0, 0, 0, 0] S1x8x704x128.size inb_S1x8x704x128_S1x8x704x128_0_0_0_0
abbrev rOut : Rect S1x64x8x704 := Rect.unit (s := S1x64x8x704) ![0, 0, 0, 0] S1x64x8x704.size inb_S1x64x8x704_S1x64x8x704_0_0_0_0

/-- What the output buffer holds after the body, as a function of the input block `x`: its single store, whose
    payload is the permuted channel slice of `x`. -/
def stored (x : Vec F S1x8x704x128 .f32) : Vec F S1x64x8x704 .f32 :=
  View.canon [⟨rOut, k2_pay1 (View.ld x rIn)⟩]

/-- The single store fills the output buffer. -/
theorem stored_cover (p : Vec F S1x64x8x704 .f32) (y : S1x64x8x704.Idx) :
    ∃ pc ∈ ([⟨rOut, p⟩] : List (View.Piece (Elt F) S1x64x8x704 .f32)), y ∈ pc.1.set :=
  ⟨⟨rOut, p⟩, List.mem_singleton_self _,
    View.mem_set_unit_zero (funext fun a => by fin_cases a <;> rfl) inb_S1x64x8x704_S1x64x8x704_0_0_0_0 y⟩

/-! ## The body's triple -/

set_option maxHeartbeats 1000000 in
/-- The body on whole staging memrefs, the input's at contents `x` and the output's at anything: it reads the input,
    reads the output (a value it never uses), stores the permuted slice over the whole output buffer, and so
    reaches the continuation with the input as it was and the output at `stored x`. -/
theorem sound_kernel (c : Dev nD) (E : Set ℕ) (i : grid2.Coords)
    (arg2 : Memref sig .tc .vmem S1x8x704x128 .f32) (harg2 : arg2.IsWhole)
    (arg3 : Memref sig .tc .vmem S1x64x8x704 .f32) (harg3 : arg3.IsWhole)
    (x : Vec F S1x8x704x128 .f32) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (stored x)) -∗ K ⟨⟩))
      ⊢ wp frame (wpE (defs₀ (F := F)) Variants.none c none) E (cc2__permute_kernel i arg2 harg2 arg3 harg3) K := by
  simp only [cc2__permute_kernel_eq_skeleton]; unfold cc2__permute_kernel_skel
  unfold owns
  iintro ⟨⟨%fx, %hfx, Hx⟩, ⟨%d, %fd, -, Hd⟩, Hk⟩
  subst hfx
  sl_exec
  sl_step
  iapply Hk
  isplitl [Hx]
  · iexists fx; isplitr
    · ipureintro; rfl
    · iexact Hx
  · iexists _; isplitr
    swap
    · iexact Hd
    · ipureintro
      exact View.read_writes_eq_canon _ _ _ (stored_cover _)

/-! ## The proof data -/

/-- The proof data of the region on core `c`: the arrays as the region finds them; after the body at point `t` the
    input's buffer still at its block and the output's at `stored` of that block; the invariant is the scoped rest
    and the generator register, which the body never touches; full shares, nothing owed. -/
def dat (c : Dev nD) : Pipeline.Dat τ (Elt F) Unit ℕ (Pipeline.UC sig nD τ) ℕ cfg2 c where
  A w := V c (Pipeline.arrRef spec2 w)
  after w t := match w with
    | ⟨0, _⟩ => blockIn V c t
    | ⟨1, _⟩ => stored (blockIn V c t)
  Φ _ := Pipeline.ΦA spec2 c
  q _ := fullShare
  owed _ := 0

theorem A_eq (c : Dev nD) (w : Fin cfg2.W) : (dat V c).A w = V c (Pipeline.arrRef spec2 w) := by
  dsimp only [dat]

theorem Φ_eq (c : Dev nD) (t : Fin (cfg2.N + 1)) : (dat V c).Φ t = Pipeline.ΦA spec2 c := by
  dsimp only [dat]

theorem owed_eq (c : Dev nD) (t : Fin (cfg2.N + 1)) : (dat V c).owed t = 0 := by
  dsimp only [dat]

theorem q_eq (c : Dev nD) (w : Fin cfg2.W) : (dat V c).q w = fullShare := by
  dsimp only [dat]

/-- What the body leaves, window by window. -/
theorem after_in (c : Dev nD) (t : Fin cfg2.N) : (dat V c).after 0 t = blockIn V c t := by dsimp only [dat]
theorem after_out (c : Dev nD) (t : Fin cfg2.N) : (dat V c).after 1 t = stored (blockIn V c t) := by dsimp only [dat]

/-- The input's current staging buffer holds the point's block at every point: the window is never idle and never
    cut, and the body leaves the block in place, so whether or not the point fetched, the buffer reads the block. -/
theorem before_in (c : Dev nD) (t : Fin cfg2.N) (d) : (dat V c).before 0 t d = blockIn V c t := by
  have hkeep : ∀ u, (cfg2.win 0).cut (cfg2.grid.coords u) ((dat V c).after 0 u) = (dat V c).blockOf 0 u := fun u => by
    rw [after_in]; unfold Dat.blockOf blockIn; rw [A_eq]
  rw [(dat V c).before_in_eq_fetched 0 rfl (fun _ => rfl) (fun _ _ _ => rfl) hkeep t d]
  unfold Dat.fetched Dat.blockOf blockIn; rw [A_eq]; rfl

/-! ## The body obligation -/

/-- What the body is handed at point `t`: the invariant, what the core owes, and each window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d)))

/-- What it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t))

/-- The body at any point: the input buffer holds the point's block, so the body's triple applies at that block;
    the invariant and what the core owes are the same before and after and pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, Hin⟩, ⟨%d1, Hout⟩⟩
  iapply (sound_kernel c Set.univ _ _ _ _ _ (blockIn V c t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  · iexact Hout

/-- The library's body obligation, at every point. -/
theorem body_obligation (c : Dev nD) : Pipeline.BodyObligation (dat (F := F) V c) (defs₀ (F := F)) Variants.none () Set.univ := fun t => by
  rw [bigSep_W2, bigSep_W2]
  exact sound_body V c t

/-! ## The stored value, index by index -/

open Idealize.ShloMosaic.ValueIdx (ix3 ix4)

/-- The payload at `(u, ch, r, x)` is the input block at `(0, r, x, ch)`: the added unit axis is read past, the
    transpose sends result axes `(ch, r, x)` to source axes `(r, x, ch)`, the slice keeps channels `0 … 63` at
    offset zero, and the dropped unit axis is read at `0`. -/
theorem pay_apply (x : Vec F S1x8x704x128 .f32) (u : Fin 1) (ch : Fin 64) (r : Fin 8) (xx : Fin 704) :
    k2_pay1 x (ix4 u ch r xx) = x (ix4 (0 : Fin 1) r xx ⟨ch.val, by omega⟩) := by
  unfold k2_pay1
  refine (ValueIdx.shapeCast_abc_1abc_apply _ _ u ch r xx).trans ?_
  refine (transpose_apply _ _ _ (ix3 ch r xx) (ix3 r xx ch)
    (fun b => match b with | ⟨0, _⟩ => rfl | ⟨1, _⟩ => rfl | ⟨2, _⟩ => rfl)).trans ?_
  refine (extractStridedSlice_apply _ _ _ (ix3 r xx ch) (ix3 r xx (⟨ch.val, by omega⟩ : Fin 128))
    (fun a => match a with
      | ⟨0, _⟩ => by show r.val = 0 + r.val; omega
      | ⟨1, _⟩ => by show xx.val = 0 + xx.val; omega
      | ⟨2, _⟩ => by show ch.val = 0 + ch.val; omega)).trans ?_
  exact ValueIdx.shapeCast_1abc_abc_apply _ _ r xx _

/-- The payload at any index `j` of the output block. -/
theorem pay_at (x : Vec F S1x8x704x128 .f32) (j : S1x64x8x704.Idx) :
    k2_pay1 x j = x (ix4 (0 : Fin 1) (j 2) (j 3) ⟨(j 1).val, Nat.lt_of_lt_of_le (j 1).isLt (by decide)⟩) :=
  (congrArg (k2_pay1 x) (ValueIdx.eq_ix4 j)).trans (pay_apply x (j 0) (j 1) (j 2) (j 3))

/-- The whole result as one function of the canvas: entry `(b, ch, y, x)` is canvas entry `(b, y, x, ch)`. -/
def permuted (X : S5x200x704x128.Idx → Elt F .f32) : S5x64x200x704.Idx → Elt F .f32 :=
  fun i => X (ix4 (i 0) (i 2) (i 3) ⟨(i 1).val, Nat.lt_of_lt_of_le (i 1).isLt (by decide)⟩)

theorem zeros4 : (![0, 0, 0, 0] : Fin 4 → Nat) = fun _ => 0 := funext fun a => by fin_cases a <;> rfl

/-- The index maps over the grid: at point `(b, yb)` the input block sits at `(b, yb, 0, 0)` and the output block at
    `(b, 0, yb, 0)`, with `b < 5` and `yb < 25`. -/
theorem idx_facts : ∀ t : Fin cfg2.N,
    win2_0.index t (0 : Fin 4) = win2_1.index t (0 : Fin 4) ∧ win2_0.index t (1 : Fin 4) = win2_1.index t (2 : Fin 4)
    ∧ win2_0.index t (2 : Fin 4) = 0 ∧ win2_0.index t (3 : Fin 4) = 0
    ∧ win2_1.index t (1 : Fin 4) = 0 ∧ win2_1.index t (3 : Fin 4) = 0
    ∧ win2_1.index t (0 : Fin 4) ≤ 4 ∧ win2_1.index t (2 : Fin 4) ≤ 24 :=
  (by decide +kernel : ∀ t : Fin grid2.N, _)

/-- Every output block position `(b, 0, yb, 0)` is some point's. -/
theorem idx_onto : ∀ (q0 : Fin 5) (q2 : Fin 25), ∃ t : Fin cfg2.N, win2_1.index t = ![q0.val, 0, q2.val, 0] :=
  (by decide +kernel : ∀ (q0 : Fin 5) (q2 : Fin 25), ∃ t : Fin grid2.N, win2_1.index t = ![q0.val, 0, q2.val, 0])

/-- What point `t` writes back is block `t` of `permuted` of the canvas: the payload at `j` reads the input block at
    `(0, j₂, j₃, j₁)`, which sits in the canvas at `(b, 8·yb + j₂, j₃, j₁)`; the output block's index `j` sits in the
    result at `(b, j₁, 8·yb + j₂, j₃)`, whose `permuted` entry is that same canvas entry. -/
theorem flushed_eq (c : Dev nD) (t : Fin cfg2.N) :
    (dat V c).flushed 1 t = ((cfg2.win 1).blk t).view.read (Elt F) (permuted (V c main_v15)) := by
  show (cfg2.win 1).cut (grid2.coords t) ((dat V c).after 1 t) = _
  rw [after_out]
  unfold stored
  rw [View.canon_unit_zero zeros4]
  simp only [View.ld_unit_zero (S := S1x8x704x128) zeros4]
  obtain ⟨e0, e1, e2, e3, e4, e5, -, -⟩ := idx_facts t
  funext j
  show k2_pay1 (blockIn V c t) j = permuted (V c main_v15) (((cfg2.win 1).blk t).view.emb j)
  rw [pay_at]
  show V c main_v15 (((cfg2.win 0).blk t).view.emb _) = V c main_v15 _
  congr 1
  funext a; apply Fin.ext
  match a with
  | ⟨0, _⟩ => show win2_0.index t (0 : Fin 4) * 1 + 1 * 0 = win2_1.index t (0 : Fin 4) * 1 + 1 * (j 0).val; have hj : (j 0).val < 1 := (j 0).isLt; omega
  | ⟨1, _⟩ => show win2_0.index t (1 : Fin 4) * 8 + 1 * (j 2).val = win2_1.index t (2 : Fin 4) * 8 + 1 * (j 2).val; omega
  | ⟨2, _⟩ => show win2_0.index t (2 : Fin 4) * 704 + 1 * (j 3).val = win2_1.index t (3 : Fin 4) * 704 + 1 * (j 3).val; omega
  | ⟨3, _⟩ => show win2_0.index t (3 : Fin 4) * 128 + 1 * (j 1).val = win2_1.index t (1 : Fin 4) * 64 + 1 * (j 1).val; omega

/-- An index of the result is in point `t`'s output block iff, on every axis, it lies in the block's range. -/
theorem mem_blk (t : Fin cfg2.N) (i : S5x64x200x704.Idx) :
    i ∈ ((cfg2.win 1).blk t).view.set ↔
      ∀ a : Fin 4, win2_1.index t a * S1x64x8x704.size a ≤ (i a).val ∧ (i a).val < win2_1.index t a * S1x64x8x704.size a + S1x64x8x704.size a := by
  show i ∈ ((View.whole main_v16).slice (win2_1.rect t)).set ↔ _
  rw [View.set_slice_whole, Rect.mem_set_unit]
  exact Iff.rfl

/-- The output blocks tile the result: index `(b, ch, y, x)` is in the block of the point at `(b, 0, y / 8, 0)`. -/
theorem covered (i : S5x64x200x704.Idx) :
    ∃ t : Fin cfg2.N, (cfg2.win 1).flush t = true ∧ i ∈ ((cfg2.win 1).blk t).view.set := by
  have h0 : (i 0).val < 5 := (i 0).isLt
  have h1 : (i 1).val < 64 := (i 1).isLt
  have h2 : (i 2).val < 200 := (i 2).isLt
  have h3 : (i 3).val < 704 := (i 3).isLt
  obtain ⟨t, ht⟩ := idx_onto ⟨(i 0).val, h0⟩ ⟨(i 2).val / 8, by omega⟩
  have q0 : win2_1.index t (0 : Fin 4) = (i 0).val := congrFun ht 0
  have q1 : win2_1.index t (1 : Fin 4) = 0 := congrFun ht 1
  have q2 : win2_1.index t (2 : Fin 4) = (i 2).val / 8 := congrFun ht 2
  have q3 : win2_1.index t (3 : Fin 4) = 0 := congrFun ht 3
  refine ⟨t, flush2_1 t, (mem_blk t i).2 fun a => ?_⟩
  match a with
  | ⟨0, _⟩ => show win2_1.index t (0 : Fin 4) * 1 ≤ (i 0).val ∧ (i 0).val < win2_1.index t (0 : Fin 4) * 1 + 1; omega
  | ⟨1, _⟩ => show win2_1.index t (1 : Fin 4) * 64 ≤ (i 1).val ∧ (i 1).val < win2_1.index t (1 : Fin 4) * 64 + 64; omega
  | ⟨2, _⟩ => show win2_1.index t (2 : Fin 4) * 8 ≤ (i 2).val ∧ (i 2).val < win2_1.index t (2 : Fin 4) * 8 + 8; omega
  | ⟨3, _⟩ => show win2_1.index t (3 : Fin 4) * 704 ≤ (i 3).val ∧ (i 3).val < win2_1.index t (3 : Fin 4) * 704 + 704; omega

/-! ## The arrays after the region -/

/-- The canvas is an input: no write-back touches it. -/
theorem arr_in (c : Dev nD) : (dat V c).arrAt 0 cfg2.N = V c (Pipeline.arrRef spec2 0) :=
  ((dat V c).arrAt_in 0 rfl cfg2.N).trans (A_eq V c 0)

/-- The result after the last point is `permuted` of the canvas, everywhere: every point writes back its block of
    that one function, and the blocks tile the array. -/
theorem arr_out (c : Dev nD) : (dat V c).arrAt 1 cfg2.N = permuted (V c main_v15) :=
  (dat V c).arrAt_eq_of_cover 1 (permuted (V c main_v15)) (fun t _ => flushed_eq V c t) (covered)

/-- Result entry `(b, ch, y, x)` is canvas entry `(b, y, x, ch)`. -/
theorem arr_final (c : Dev nD) (b : Fin 5) (ch : Fin 64) (y : Fin 200) (x : Fin 704) :
    (dat V c).arrAt 1 cfg2.N (ValueIdx.ix4 b ch y x) = V c main_v15 (ValueIdx.ix4 b y x ⟨ch.val, by omega⟩) := by
  rw [arr_out]; rfl

end Cert.KernelIdeal.Permute

end
-- ==== Proof.KI.ScatterBody.lean ====
/-
  The scatter kernel's body, run once at symbolic operands.

  At grid point `i` the body handles the 200 pillar rows `200·i, …, 200·i + 199` one after the other: it reads the
  pillar's canvas word from the prefetched table, ASSUMES the word names a canvas row (the one-row slice at that row lies
  inside the canvas), copies the pillar's 128-lane row from the staged block into a one-row scratch buffer, starts one
  local transfer of the scratch row into the canvas row the word names, and waits for it before it goes on. So each
  row is written before the next is read, and a later pillar overwrites an earlier one at the same canvas row.
  `kernelRun`: from the table, the staged block, the scratch row and the canvas held whole, the body's semaphore at zero
  and nothing owed, given every table word names a canvas row, the body runs to its return and leaves the canvas at
  `rowsFn … 200`: the 200 rows written in order (`Rows` is the same as a relation, which is how the run's result is read off).
-/
import proofs.«403100_j62216896250120_3_alg».proof.Proof.Gen.KernelIdeal
import proofs.«403100_j62216896250120_3_alg».proof.Proof.Gen.KernelIdeal.Skeleton
import Idealize.ShloMosaic.Lib.Pipeline.Routed
import Idealize.ShloMosaic.Lib.Tactic
import Idealize.ShloMosaic.Lib.Pipeline.FrameBody
import Idealize.ShloMosaic.Lib.Pipeline.Value

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem : Unit → SemLoc sig := fun _ => .dma cc1_scratch1.sem

/-- A canvas row in range: the one-row slice at row `n` lies inside the canvas. -/
abbrev RowOk (n : ℕ) : Prop := ∀ a, (![n, 0, 0] : Fin 3 → ℕ) a + S1x1x128.size a ≤ S704000x1x128.size a

/-- The canvas row a word names, as the transfer's destination: the slice of sizes (1, 1, 128) at (v, 0, 0), its unit
    axis dropped. -/
abbrev rowMem (v : BitVec 32) (h : RowOk v.toNat) : Memref sig .tc .hbm S1x128 .f32 :=
  ((Memref.whole main_v14).slice (Rect.unit (s := S704000x1x128) ![v.toNat, 0, 0] S1x1x128.size h) (fun _ => rfl)).squeeze S1x128 squeezes_S1x1x128_S1x128

/-- The canvas contents `f` with the row `src` written at the row the word `v` names. -/
abbrev rowWrite (c : Dev nD) (v : BitVec 32) (h : RowOk v.toNat) (f : Bf (F := F) c (Memref.whole main_v14)) (src : S1x128.Idx → Elt F .f32) :
    Bf (F := F) c (Memref.whole main_v14) :=
  (rowMem v h).view.write (Elt F) f src Finset.univ

/-- `Rows w s f k g`: `g` is the canvas `f` after rows `s 0, …, s (k-1)` were written, in this order, at the rows the
    words `w 0, …, w (k-1)` name. -/
inductive Rows (c : Dev nD) (w : ℕ → BitVec 32) (s : ℕ → S1x128.Idx → Elt F .f32) (f : Bf (F := F) c (Memref.whole main_v14)) :
    ℕ → Bf (F := F) c (Memref.whole main_v14) → Prop
  | zero : Rows c w s f 0 f
  | succ (k : ℕ) (g : Bf (F := F) c (Memref.whole main_v14)) (v : BitVec 32) (h : RowOk v.toNat) (src : S1x128.Idx → Elt F .f32) :
      Rows c w s f k g → v = w k → src = s k → Rows c w s f (k + 1) (rowWrite c v h g src)

/-- The offset of pillar `200·i + k`'s word in the table, as the body computes it (32-bit arithmetic on the grid coordinate). -/
def woff (i : grid1.Coords) (k : ℕ) : Fin 1 → ℕ :=
  ![(Scalar.indexCast (Scalar.addi (Scalar.muli (BitVec.ofNat 32 (i 0).val) 200#32) (BitVec.ofNat 32 k))).toNat]

theorem woff_eq (i : grid1.Coords) (k : ℕ) (hk : k < 200) : woff i k = ![200 * (i 0).val + k] := by
  have hi : (i 0).val < 300 := (i 0).isLt
  funext a
  fin_cases a
  simp only [woff, Scalar.indexCast, Scalar.addi, Scalar.muli, IntOp.addi, IntOp.muli, Fin.zero_eta, Matrix.cons_val_zero,
    BitVec.toNat_add, BitVec.toNat_mul, BitVec.toNat_ofNat]
  omega

theorem woff_inb (i : grid1.Coords) (k : ℕ) (hk : k < 200) : ∀ a, woff i k a + S1.size a ≤ S60000.size a := by
  have hi : (i 0).val < 300 := (i 0).isLt
  rw [woff_eq i k hk]
  intro a; fin_cases a
  show 200 * (i 0).val + k + 1 ≤ 60000
  omega

/-- Row `k` of a 200-row block lies inside it. -/
theorem srow_inb (k : ℕ) (hk : k < 200) : ∀ a, (![k, 0] : Fin 2 → ℕ) a + S1x128.size a ≤ S200x128.size a := by
  intro a; fin_cases a
  · show k + 1 ≤ 200; omega
  · show 0 + 128 ≤ 128; omega

/-- The table word the body reads for the block's row `k`. -/
def wfun (c : Dev nD) (i : grid1.Coords) (ft : Bf (F := F) c (Memref.whole main_v11)) (k : ℕ) : BitVec 32 :=
  if hk : k < 200 then
    View.readAt (Elt F) (Memref.whole main_v11).view (Rect.unit (s := S60000) (woff i k) S1.size (woff_inb i k hk)).toLoadRect ft
      (Shape.Idx.first (numel1_S1.symm ▸ Nat.one_pos))
  else 0#32

/-- A row as the body passes it from the block to the scratch row: flattened to 128 lanes and back. -/
def payG (x : Vec F S1x128 .f32) : FVec F S1x128 .f32 :=
  shapeCast S1x128 (shapeCast S128 x shapeCasts_S1x128_S128) shapeCasts_S128_S1x128

/-- The block's row `k` as the transfer's source holds it. -/
def sfun (c : Dev nD) (M2 : Memref sig .tc .vmem S200x128 .f32) (f2 : Bf (F := F) c M2) (k : ℕ) : S1x128.Idx → Elt F .f32 :=
  if hk : k < 200 then payG (View.readAt (Elt F) M2.view (Rect.unit (s := S200x128) ![k, 0] S1x128.size (srow_inb k hk)).toLoadRect f2)
  else payG (View.readAt (Elt F) M2.view (Rect.unit (s := S200x128) ![0, 0] S1x128.size (srow_inb 0 (by decide))).toLoadRect f2)

/-- Reading a buffer back after stores of which the LAST covers it whole gives that store's payload. -/
theorem read_newest_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

theorem wfun_eq (c : Dev nD) (i : grid1.Coords) (ft : Bf (F := F) c (Memref.whole main_v11)) (k : ℕ) (hk : k < 200) :
    wfun c i ft k = View.readAt (Elt F) (Memref.whole main_v11).view (Rect.unit (s := S60000) (woff i k) S1.size (woff_inb i k hk)).toLoadRect ft
      (Shape.Idx.first (numel1_S1.symm ▸ Nat.one_pos)) := dif_pos hk

theorem sfun_eq (c : Dev nD) (M2 : Memref sig .tc .vmem S200x128 .f32) (f2 : Bf (F := F) c M2) (k : ℕ) (hk : k < 200) :
    sfun c M2 f2 k = payG (View.readAt (Elt F) M2.view (Rect.unit (s := S200x128) ![k, 0] S1x128.size (srow_inb k hk)).toLoadRect f2) := dif_pos hk

theorem zero2 : (![0, 0] : Fin S1x128.rank → ℕ) = fun _ => 0 := by funext a; fin_cases a <;> rfl

/-- The canvas `f` after rows `s 0, …, s (k-1)` were written in order at the rows the words `w 0, …, w (k-1)` name. -/
def rowsFn (c : Dev nD) (w : ℕ → BitVec 32) (hw : ∀ k, RowOk (w k).toNat) (s : ℕ → S1x128.Idx → Elt F .f32)
    (f : Bf (F := F) c (Memref.whole main_v14)) : ℕ → Bf (F := F) c (Memref.whole main_v14)
  | 0 => f
  | k + 1 => rowWrite c (w k) (hw k) (rowsFn c w hw s f k) (s k)

/-- The relation determines the contents. -/
theorem Rows.eq_rowsFn {c : Dev nD} {w : ℕ → BitVec 32} (hw : ∀ k, RowOk (w k).toNat) {s : ℕ → S1x128.Idx → Elt F .f32}
    {f : Bf (F := F) c (Memref.whole main_v14)} {k : ℕ} {g : Bf (F := F) c (Memref.whole main_v14)} (h : Rows c w s f k g) :
    g = rowsFn c w hw s f k := by
  induction h with
  | zero => rfl
  | succ k g v h src _ hv hs ih => subst hv hs ih; rfl

/-- If every table word names a canvas row, so does every word the body reads. -/
theorem wfun_ok (c : Dev nD) (i : grid1.Coords) (ft : Bf (F := F) c (Memref.whole main_v11))
    (hchk : ∀ g : S60000.Idx, RowOk (ft g : BitVec 32).toNat) (k : ℕ) : RowOk (wfun c i ft k).toNat := by
  by_cases hk : k < 200
  · rw [wfun_eq c i ft k hk]; exact hchk _
  · unfold wfun; rw [dif_neg hk]; intro a; fin_cases a <;> decide

set_option maxHeartbeats 0 in
/-- THE BODY'S RUN at grid point `i`. -/
theorem kernelRun (c : Dev nD) (i : grid1.Coords) (M2 : Memref sig .tc .vmem S200x128 .f32) (h2 : M2.IsWhole)
    (ft : Bf (F := F) c (Memref.whole main_v11)) (f2 : Bf (F := F) c M2) (fs : Bf (F := F) c (Memref.whole cc1_scratch0))
    (fv : Bf (F := F) c (Memref.whole main_v14)) (W : Waits sig Unit)
    (hchk : ∀ g : S60000.Idx, RowOk (ft g : BitVec 32).toNat)
    (Q : PUnit → sProp 𝕄) :
    iprop(pt c (Memref.whole main_v11) ft ∗ pt c M2 f2 ∗ pt c (Memref.whole cc1_scratch0) fs ∗ pt c (Memref.whole main_v14) fv
      ∗ semVal ((c : Thread nD τ), osem ()) 0 ∗ owes (c : Thread nD τ) 0 W
      ∗ (iprop(pt c (Memref.whole main_v11) ft ∗ pt c M2 f2 ∗ (∃ d, pt c (Memref.whole cc1_scratch0) d)
            ∗ pt c (Memref.whole main_v14) (rowsFn c (wfun c i ft) (wfun_ok c i ft hchk) (sfun c M2 f2) fv 200)
            ∗ semVal ((c : Thread nD τ), osem ()) 0 ∗ ∃ W, owes (c : Thread nD τ) 0 W) -∗ Q ⟨⟩))
      ⊢ wp frame (wpE (defs₀ (F := F)) Variants.none c none) Set.univ
        (cc1__scatter_kernel i (Memref.whole main_v11) (Memref.isWhole_whole _) M2 h2 (Memref.whole main_v14) (Memref.isWhole_whole _) (Memref.whole main_v14) (Memref.isWhole_whole _) (Memref.whole cc1_scratch0) (Memref.isWhole_whole _) cc1_scratch1) Q := by
  iintro ⟨H0, H1, Hs, Hv, Hsem, HO, Hk⟩
  simp only [cc1__scatter_kernel_eq_skeleton]; unfold cc1__scatter_kernel_skel
  sl_exec! (disch := exact hchk _)
  have hr : Rows c (wfun c i ft) (sfun c M2 f2) fv 200 (kernelRun.sl.Hv_w199 c i M2 ft f2 fs fv hchk) := by
    iterate 200
      refine Rows.succ _ _ _ _ _ ?_ ?_ ?_
      rotate_left
      · exact (wfun_eq c i ft _ (by decide)).symm
      · exact (read_newest_whole _ _ zero2 _ _ _).trans (sfun_eq c M2 f2 _ (by decide)).symm
    exact Rows.zero
  rw [hr.eq_rowsFn (wfun_ok c i ft hchk)]
  sl_step
  iapply Hk
  isplitl [H0]; · iexact H0
  isplitl [H1]; · iexact H1
  isplitl [Hs]; · iexists _; iexact Hs
  isplitl [Hv]; · iexact Hv
  isplitl [Hsem]; · iexact Hsem
  iexists _; iexact HO

end Cert.KernelIdeal.Scatter

end
-- ==== Proof.KI.ScatterRegion.lean ====
/-
  The scatter region's proof data and body obligation.

  The region is a pipeline of ONE window (the padded pillar rows, blocks of 200 rows fetched at every grid point) whose
  body also holds, beside the window's staging buffer: the prefetched table of canvas words (read only), its one-row
  scratch buffer, its own transfer semaphore, and the CANVAS itself, which is no window's array — the body writes
  canvas rows by its own transfers. So the canvas rides through the region in the body's invariant: before point `t`
  it holds `canvasAt t`, the entry canvas with the rows of the first `t` blocks written in order.
-/
import proofs.«403100_j62216896250120_3_alg».proof.Proof.KI.ScatterBody
import proofs.«403100_j62216896250120_3_alg».proof.Proof.Gen.KernelIdeal.Launch
import proofs.«403100_j62216896250120_3_alg».proof.Proof.Gen.KernelIdeal.Points
import Idealize.ShloMosaic.Lib.Pipeline.Frame

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation)

variable {F : FTy → Type} [FloatOps F]

local notation "𝕄" => MT nD τ sig Unit (Elt F) ℕ (UC sig nD τ) ℕ

/-- The block's row `k` as the transfer's source holds it, from what the staging memref READS (`X`). -/
def sfunX (X : S200x128.Idx → Elt F .f32) (k : ℕ) : S1x128.Idx → Elt F .f32 :=
  if hk : k < 200 then payG (View.ld X (Rect.unit (s := S200x128) ![k, 0] S1x128.size (srow_inb k hk)))
  else payG (View.ld X (Rect.unit (s := S200x128) ![0, 0] S1x128.size (srow_inb 0 (by decide))))

theorem sfun_eq_sfunX (c : Dev nD) (M2 : Memref sig .tc .vmem S200x128 .f32) (f2 : Bf (F := F) c M2) :
    sfun c M2 f2 = sfunX (M2.view.read (Elt F) f2) := by
  funext k; unfold sfun sfunX; split <;> rfl

variable (a : (pcfg1 (F := F)).Adm)
variable (V : (c : Dev nD) → (b : Ref sig .tc) → Buf (Elt F) ((c : Thread nD τ).loc b))

/-- The table of canvas words: the prefetched table's contents the region is pinned at. -/
abbrev tbl : Bf (F := F) (0 : Dev nD) (Memref.whole main_v11) := a.1 0

/-- Every table word names a canvas row. -/
def TblOk : Prop := ∀ g : S60000.Idx, RowOk ((a.1 0 : S60000.Idx → BitVec 32) g).toNat

/-- The window's block at point `t`, read off its array as the region finds it (`V`). -/
def iblk (c : Dev nD) (t : Fin (cfg1 a).N) : (((cfg1 a).win 0).xblock ((cfg1 a).grid.coords t)).Idx → Elt F ((cfg1 a).win 0).elt :=
  (((cfg1 a).win 0).blk t).view.read (Elt F) (V c (Pipeline.arrRef spec1 0))

/-- The canvas before point `t`: the entry canvas with the rows of blocks `0, …, t - 1` written, block by block, each
    block's 200 rows in order at the rows the table names for them. -/
def canvasAt (hok : TblOk a) (c : Dev nD) : ℕ → Bf (F := F) c (Memref.whole main_v14)
  | 0 => V c main_v14
  | t + 1 =>
    if ht : t < (cfg1 a).N then
      rowsFn c (wfun c ((cfg1 a).grid.coords ⟨t, ht⟩) (a.1 0)) (wfun_ok c _ (a.1 0) hok) (sfunX (iblk a V c ⟨t, ht⟩))
        (canvasAt hok c t) 200
    else canvasAt hok c t

theorem canvasAt_succ (hok : TblOk a) (c : Dev nD) (t : Fin (cfg1 a).N) :
    canvasAt a V hok c (t.val + 1)
      = rowsFn c (wfun c ((cfg1 a).grid.coords t) (a.1 0)) (wfun_ok c _ (a.1 0) hok) (sfunX (iblk a V c t)) (canvasAt a V hok c t.val) 200 := by
  rw [canvasAt, dif_pos t.isLt]

/-- The body's invariant before point `t`: the scoped buffers no window stages (among them the scratch row), the
    generator register, the body's own semaphore at zero, the table held whole, and the canvas at `canvasAt t`. -/
def ΦS (hok : TblOk a) (c : Dev nD) (t : ℕ) : sProp 𝕄 :=
  iprop(Pipeline.scopedRest (Ix := Unit) (Name := ℕ) (U := UC sig nD τ) (Lvl := ℕ) (Val := Elt F) spec1 c ∗ (∃ r, prngReg c r)
    ∗ Pipeline.ownSems0 (Ix := Unit) (Name := ℕ) (U := UC sig nD τ) (Lvl := ℕ) (Val := Elt F) (τ := τ) osem c
    ∗ Pipeline.prefHeld (Ix := Unit) (Name := ℕ) (U := UC sig nD τ) (Lvl := ℕ) pre1 c (fun _ => fullShare) a.1
    ∗ pt c (Memref.whole main_v14) (canvasAt a V hok c t))

/-- The region's proof data on core `c`. -/
def dat (hok : TblOk a) (c : Dev nD) : Dat τ (Elt F) Unit ℕ (UC sig nD τ) ℕ (cfg1 a) c where
  A w := V c (Pipeline.arrRef spec1 w)
  after w t := match w with
    | ⟨0, _⟩ => iblk a V c t
  Φ t := ΦS a V hok c t.val
  q _ := fullShare
  owed _ := 0

theorem A_eq (hok : TblOk a) (c : Dev nD) (w : Fin (cfg1 a).W) : (dat a V hok c).A w = V c (Pipeline.arrRef spec1 w) := by
  dsimp only [dat]
theorem Φ_eq (hok : TblOk a) (c : Dev nD) (t : Fin ((cfg1 a).N + 1)) : (dat a V hok c).Φ t = ΦS a V hok c t.val := by
  dsimp only [dat]
theorem owed_eq (hok : TblOk a) (c : Dev nD) (t : Fin ((cfg1 a).N + 1)) : (dat a V hok c).owed t = 0 := by
  dsimp only [dat]
theorem q_eq (hok : TblOk a) (c : Dev nD) (w : Fin (cfg1 a).W) : (dat a V hok c).q w = fullShare := by
  dsimp only [dat]
theorem after_eq (hok : TblOk a) (c : Dev nD) (t : Fin (cfg1 a).N) : (dat a V hok c).after 0 t = iblk a V c t := by
  dsimp only [dat]; rfl

/-- The input window's current staging buffer holds its block at every point, fetched there or not. -/
theorem before_eq (hok : TblOk a) (c : Dev nD) (t : Fin (cfg1 a).N) (d) : (dat a V hok c).before 0 t d = iblk a V c t :=
  ((dat a V hok c).before_in_eq_fetched 0 rfl (fun _ => rfl) (fun _ _ _ => rfl)
    (fun t => by rw [after_eq]; unfold Dat.blockOf iblk; rw [A_eq]; try rfl) t d).trans
    (by unfold Dat.fetched Dat.blockOf iblk; rw [A_eq]; try rfl)

/-- A whole memref owned at what it reads is its buffer held at raw contents reading that. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, rfl, rfl, rfl, hm⟩ := h; cases hm
  unfold owns pt; simp only [Memref.view_whole, View.set_whole]

/-- The body's own semaphore at zero, listed. -/
theorem ownSems0_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

/-- The one table held whole, as one points-to. -/
theorem prefHeld_eq (c : Dev nD) (pf : pre1.Contents (Elt F)) :
    (Pipeline.prefHeld (Ix := Unit) (Name := ℕ) (U := UC sig nD τ) (Lvl := ℕ) pre1 c (fun _ => fullShare) pf : sProp 𝕄)
      = pt c (Memref.whole main_v11) (pf 0) := by
  unfold Pipeline.prefHeld; rw [bigSep_W1]; rfl

/-- The window's current staging memref at point `t`, and the body as the pipeline calls it there. -/
abbrev st (t : Fin (cfg1 a).N) := ((cfg1 a).win 0).stage ((cfg1 a).slots t 0)
abbrev bodyAt (t : Fin (cfg1 a).N) : Prog (TpuEff nD τ sig (Elt F) Λ₀ .tc) PUnit :=
  cc1__scatter_kernel ((cfg1 a).grid.coords t) (Memref.whole main_v11) (Memref.isWhole_whole _) (spec1_0.stage ((cfg1 a).slots t 0))
    (hstage1_0 (((cfg1 a).slots t 0).cast nbuf1_0)) (Memref.whole main_v14) (Memref.isWhole_whole _) (Memref.whole main_v14) (Memref.isWhole_whole _)
    (Memref.whole cc1_scratch0) (Memref.isWhole_whole _) cc1_scratch1

def bodyPre (hok : TblOk a) (c : Dev nD) (t : Fin (cfg1 a).N) : sProp 𝕄 :=
  iprop((dat a V hok c).Φ t.castSucc ∗ (dat a V hok c).owesAt () t.castSucc
    ∗ (∃ d, owns (c : Thread nD τ) (st a t) fullShare ((dat a V hok c).before 0 t d)))

def bodyPost (hok : TblOk a) (c : Dev nD) (t : Fin (cfg1 a).N) : sProp 𝕄 :=
  iprop((dat a V hok c).Φ t.succ ∗ (dat a V hok c).owesAt () t.succ
    ∗ owns (c : Thread nD τ) (st a t) fullShare ((dat a V hok c).after 0 t))

set_option maxHeartbeats 2000000 in
/-- The body at any point: the invariant taken apart (table, scratch row, canvas, semaphore), `kernelRun` applied at the
    staged block, the invariant put back with the canvas one block further. -/
theorem sound_body (hok : TblOk a) (c : Dev nD) (t : Fin (cfg1 a).N) :
    bodyPre a V hok c t ⊢ wp frame (wpE (defs₀ (F := F)) Variants.none c none) Set.univ (bodyAt a t) (fun _ => bodyPost a V hok c t) := by
  unfold bodyPre bodyPost bodyAt
  simp only [before_eq]
  rw [Φ_eq, Φ_eq, after_eq, Fin.coe_castSucc, Fin.val_succ]
  unfold ΦS Dat.owesAt Pipeline.owesWithin
  rw [canvasAt_succ]
  rw [owed_eq, owed_eq, scopedRest1_eq, ownSems0_eq, prefHeld_eq, owns_of_whole c (st a t) (hstage1_0 (((cfg1 a).slots t 0).cast nbuf1_0))]
  iintro ⟨⟨⟨Hr1, Hr2, ⟨%fs, Hs⟩, Hr4, Hr5, Hr6, Hr7⟩, Hp, Hsem, Htb, Hv⟩, ⟨%W, %hW, HO⟩, ⟨%d, %f2, %hf2, H1⟩⟩
  iapply (kernelRun c ((cfg1 a).grid.coords t) _ _ (a.1 0) f2 fs (canvasAt a V hok c t.val) W hok)
  isplitl [Htb]; · iexact Htb
  isplitl [H1]; · iexact H1
  isplitl [Hs]; · iexact Hs
  isplitl [Hv]; · iexact Hv
  isplitl [Hsem]; · iexact Hsem
  isplitl [HO]; · iexact HO
  iintro ⟨Htb, H1, ⟨%fs', Hs⟩, Hv, Hsem, ⟨%W', HO⟩⟩
  isplitl [Hr1 Hr2 Hs Hr4 Hr5 Hr6 Hr7 Hp Hsem Htb Hv]
  · isplitl [Hr1 Hr2 Hs Hr4 Hr5 Hr6 Hr7]
    · isplitl [Hr1]; · iexact Hr1
      isplitl [Hr2]; · iexact Hr2
      isplitl [Hs]; · iexists _; iexact Hs
      isplitl [Hr4]; · iexact Hr4
      isplitl [Hr5]; · iexact Hr5
      isplitl [Hr6]; · iexact Hr6
      iexact Hr7
    isplitl [Hp]; · iexact Hp
    isplitl [Hsem]; · iexact Hsem
    isplitl [Htb]; · iexact Htb
    have e : sfun c (st a t) f2 = sfunX (iblk a V c t) := (sfun_eq_sfunX c (st a t) f2).trans (congrArg sfunX hf2)
    iapply (Idealize.SL.BI.BIBase.Entails.of_eq (congrArg (fun s => (pt c (Memref.whole main_v14)
      (rowsFn c (wfun c ((cfg1 a).grid.coords t) (a.1 0)) (wfun_ok c _ (a.1 0) hok) s (canvasAt a V hok c t.val) 200) : sProp 𝕄)) e))
    iexact Hv
  isplitl [HO]
  · iexists W'; isplitr; · ipureintro; exact fun _ _ => Or.inl trivial
    iexact HO
  iexists f2; isplitr; · ipureintro; exact hf2
  iexact H1

set_option maxRecDepth 65536 in
/-- The library's body obligation, at every point. -/
theorem body_obligation (hok : TblOk a) (c : Dev nD) :
    BodyObligation (dat (F := F) a V hok c) (defs₀ (F := F)) Variants.none () Set.univ := fun t => by
  rw [bigSep_W1, bigSep_W1]
  exact sound_body a V hok c t

end Cert.KernelIdeal.Scatter

end
-- ==== Proof.KI.Run.lean ====
/-
  The run of the whole program: three pipelined calls between host stretches.

  @main is seven items: two host stretches (the table of canvas words `main_v11`; the rows padded to 128 lanes,
  `main_v12`), the zero fill of `main_v13`, the copy of it into the canvas `main_v14`, the scatter of the padded rows
  into the canvas at the rows the table names, the reshape of the canvas into `main_v15`, and the permutation of that
  into the result `main_v16`. Between items every unscoped buffer is held whole at a valuation: the launch contents,
  then each host stretch's results, then what each region leaves in the one buffer it may change. Those three buffers
  are defined here in order, each from the valuation before it: the zero fill's array after its last write-back, the
  canvas after the scatter's last point, the permutation's output array after its last write-back.

  Each region is given its record over these thread states. The zero fill and the permutation move data only through
  their windows: their arrays are split out of the unscoped buffers at entry and put back at exit, the generator
  register passes through the invariant, nothing else is touched. The scatter also writes the canvas by its own
  transfers on its own semaphore: the canvas, that semaphore and the table pass through its invariant, its one input
  array is put back unchanged, and every other unscoped buffer bypasses it. The conditional run statement then gives
  the run: the result buffer ends at the permutation's output array, the arguments as launched.
-/
import proofs.«403100_j62216896250120_3_alg».proof.Proof.KI.RunCond
import proofs.«403100_j62216896250120_3_alg».proof.Proof.KI.Zero
import proofs.«403100_j62216896250120_3_alg».proof.Proof.KI.Permute
import proofs.«403100_j62216896250120_3_alg».proof.Proof.KI.ScatterRegion
import Idealize.ShloMosaic.Lib.Pipeline.Routed
import Idealize.ShloMosaic.Lib.Pipeline.Regions
import Idealize.ShloMosaic.Lib.Pipeline.RegionsLoop

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat RegionSeg)

variable {F : FTy → Type} [FloatOps F]

local notation "𝕄" => MT nD τ sig Unit (Elt F) ℕ (UC sig nD τ) ℕ

variable (m : (ℓ : Loc nD τ sig) → Buf (Elt F) ℓ)

/-! ## The tables, and the buffers between items -/

/-- The prefetched table: what the first host stretch leaves in `main_v11`, on the one device. -/
def tblOf : pre1.Contents (Elt F) := fun k => Gen.V1 m (0 : Dev nD) (pre1.ref k)

/-- The tables' admissible contents, pipeline by pipeline: only the scatter call has one. -/
def adm : (p : Fin 3) → (pcfgs (F := F) p).Adm
  | ⟨0, _⟩ => cfg0.toPCfg_adm
  | ⟨1, _⟩ => ⟨tblOf m, trivial⟩
  | ⟨2, _⟩ => cfg2.toPCfg_adm
  | ⟨_ + 3, h⟩ => absurd h (Nat.not_lt.2 (Nat.le_add_left _ _))

/-- The scatter call's table as an admissible one. -/
abbrev adm1 : (pcfg1 (F := F)).Adm := ⟨tblOf m, trivial⟩

variable (hok : Scatter.TblOk (F := F) (adm1 m))

/-- Region 0's entry valuation read at TensorCore references. -/
abbrev E0 (c : Dev nD) (b : Ref sig .tc) : Buf (Elt F) ((c : Thread nD τ).loc b) := Gen.V2 m c b

/-- What region 0 leaves in `main_v13`: its one window's array after the last write-back. -/
def z13 (c : Dev nD) : Buf (Elt F) ((c : Thread nD τ).loc main_v13) := (Zero.dat (E0 m) c).arrAt 0 cfg0.N

/-- After region 0, and after the copy into `main_v14`. -/
abbrev W3 (c : Dev nD) : Valuation τ sig (Elt F) := Function.update (Gen.V2 m c) main_v13 (z13 m c)
abbrev W4 (c : Dev nD) : Valuation τ sig (Elt F) := StableHlo.after hostOps1 (W3 m c)
/-- Region 1's entry valuation read at TensorCore references. -/
abbrev E1 (c : Dev nD) (b : Ref sig .tc) : Buf (Elt F) ((c : Thread nD τ).loc b) := W4 m c b

/-- What region 1 leaves in `main_v14`: the canvas after the last point. -/
def z14 (c : Dev nD) : Buf (Elt F) ((c : Thread nD τ).loc main_v14) := Scatter.canvasAt (adm1 m) (E1 m) hok c (cfg1 (adm1 m)).N

/-- After region 1, and after the reshape into `main_v15`. -/
abbrev W5 (c : Dev nD) : Valuation τ sig (Elt F) := Function.update (W4 m c) main_v14 (z14 m hok c)
abbrev W6 (c : Dev nD) : Valuation τ sig (Elt F) := StableHlo.after hostOps2 (W5 m hok c)
/-- Region 2's entry valuation read at TensorCore references. -/
abbrev E2 (c : Dev nD) (b : Ref sig .tc) : Buf (Elt F) ((c : Thread nD τ).loc b) := W6 m hok c b

/-- What region 2 leaves in `main_v16`: its output window's array after the last write-back. -/
def z16 (c : Dev nD) : Buf (Elt F) ((c : Thread nD τ).loc main_v16) := (Permute.dat (E2 m hok) c).arrAt 1 cfg2.N

/-- What the regions leave in the buffers they may change, at any item number. -/
def outs : Gen.Outs (F := F) := fun _ r c =>
  if h13 : r = main_v13 then h13 ▸ z13 m c
  else if h14 : r = main_v14 then h14 ▸ z14 m hok c
  else if h16 : r = main_v16 then h16 ▸ z16 m hok c
  else m ((c : Thread nD τ).loc r)

theorem outs_v13 (j : ℕ) (c : Dev nD) : outs m hok j main_v13 c = z13 m c := by
  unfold outs; rw [dif_pos rfl]
theorem outs_v14 (j : ℕ) (c : Dev nD) : outs m hok j main_v14 c = z14 m hok c := by
  unfold outs; rw [dif_neg (by decide), dif_pos rfl]
theorem outs_v16 (j : ℕ) (c : Dev nD) : outs m hok j main_v16 c = z16 m hok c := by
  unfold outs; rw [dif_neg (by decide), dif_neg (by decide), dif_pos rfl]

/-- The valuations between items, over these contents, are the ones named above. -/
theorem V3_eq (c : Dev nD) : Gen.V3 m (outs m hok) c = W3 m c := by
  unfold Gen.V3; rw [outs_v13]
theorem V4_eq (c : Dev nD) : Gen.V4 m (outs m hok) c = W4 m c := by
  unfold Gen.V4; rw [V3_eq]
theorem V5_eq (c : Dev nD) : Gen.V5 m (outs m hok) c = W5 m hok c := by
  unfold Gen.V5; rw [outs_v14, V4_eq]
theorem V6_eq (c : Dev nD) : Gen.V6 m (outs m hok) c = W6 m hok c := by
  unfold Gen.V6; rw [V5_eq]

/-- The three buffers the regions leave, read off the valuations after them. -/
theorem V3_v13 (c : Dev nD) : Gen.V3 m (outs m hok) c main_v13 = (Zero.dat (E0 m) c).arrAt 0 cfg0.N := by
  unfold Gen.V3; rw [Function.update_self, outs_v13]; rfl
theorem V5_v14 (c : Dev nD) : Gen.V5 m (outs m hok) c main_v14 = Scatter.canvasAt (adm1 m) (E1 m) hok c (cfg1 (adm1 m)).N := by
  unfold Gen.V5; rw [Function.update_self, outs_v14]; rfl
theorem V7_v16 (c : Dev nD) : Gen.V7 m (outs m hok) c main_v16 = (Permute.dat (E2 m hok) c).arrAt 1 cfg2.N := by
  unfold Gen.V7; rw [Function.update_self, outs_v16]; rfl

/-! ## The proof data family and what rides along -/

/-- Every pipeline's proof data, each at its region's entry contents. -/
def pdats : (p : Fin 3) → (c : Dev nD) → Dat τ (Elt F) Unit ℕ (UC sig nD τ) ℕ (Pipeline.pin (pcfgs (F := F)) (adm m) p) c
  | ⟨0, _⟩ => fun c => Zero.dat (E0 m) c
  | ⟨1, _⟩ => fun c => Scatter.dat (adm1 m) (E1 m) hok c
  | ⟨2, _⟩ => fun c => Permute.dat (E2 m hok) c
  | ⟨_ + 3, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Small conversions the three records share -/

/-- A core owing nothing is, for proof data that owe nothing before point `t` and bound the recorded pairs by
    everything, the core owing what the data say within their bound. -/
theorem owesAt_of_nothing {cfg : Pipeline.Cfg sig Λ₀} {c : Dev nD} (dat : Dat τ (Elt F) Unit ℕ (UC sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, H⟩
  iexists W
  isplitr
  · ipureintro
    intro x _
    exact Or.inl (hr ▸ Set.mem_univ x)
  · iexact H

/-- And back: the bound forgotten. -/
theorem nothing_of_owesAt {cfg : Pipeline.Cfg sig Λ₀} {c : Dev nD} (dat : Dat τ (Elt F) Unit ℕ (UC sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

/-- No table, nothing held. -/
theorem prefHeld_none (c : Dev nD) (q : Fin (Pipeline.Prefetch.none (sig := sig)).K → PosShare TreeShare)
    (v : (Pipeline.Prefetch.none (sig := sig)).Contents (Elt F)) :
    (Pipeline.prefHeld (Ix := Unit) (Name := ℕ) (U := UC sig nD τ) (Lvl := ℕ) Pipeline.Prefetch.none c q v : sProp 𝕄) = BI.emp := by
  unfold Pipeline.prefHeld
  rw [Finset.univ_eq_empty, BI.bigSep_empty]

/-! ## The regions' records -/

/-- A TensorCore reference that is no array of region 0 is not `main_v13`. -/
theorem ne_v13_of_notMem {b : Ref sig .tc} (hb : b ∉ Finset.univ.image (Pipeline.arrRef spec0)) : b ∉ ([main_v13] : List (Ref sig .tc)) := by
  intro h
  rw [List.mem_singleton] at h
  exact hb (Finset.mem_image.mpr ⟨0, Finset.mem_univ _, h.symm⟩)

set_option backward.isDefEq.respectTransparency.types false in
/-- REGION 0, the zero fill: entered with every unscoped buffer at `V2`, left with them at `V3` (that is `V2` with
    `main_v13` at the array the pipeline leaves). Its one array is split out of the unscoped buffers and put back; the
    generator register goes through the class invariant; nothing is owed; the kernel has no semaphore of its own. -/
def reg0 : RegionSeg (pcfgs (F := F)) (adm m) (pdats m hok) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Zero.body_obligation (E0 m) c).loose
  hwaits := Pipeline.hwaits_of_owed_zero _ _ _ _ L lv 0 fun c t => Zero.owed_eq (E0 m) c t
  pre c := iprop(StableHlo.held (c : Thread nD τ) (Pipeline.ucRefs τ sig) (Gen.V2 m c) ∗ R c)
  post c := iprop(StableHlo.held (c : Thread nD τ) (Pipeline.ucRefs τ sig) (Gen.V3 m (outs m hok) c) ∗ R c)
  X c := iprop(∃ r, prngReg c r)
  Y c := iprop(∃ r, prngReg c r)
  Z c := Pipeline.unscopedRest (Ix := Unit) (Name := ℕ) (U := UC sig nD τ) (Lvl := ℕ) spec0 c (E0 m c)
  hentry c := by
    have hsplit := Pipeline.arrays_of_unscopedBufs (p := 0) (pcfgs (F := F)) (adm m) (pdats m hok) (launch0 (F := F)).win (launch0 (F := F)).arr_whole c
      ((Zero.dat (E0 m) c).share_full (Zero.q_eq (E0 m) c)) (E0 m c) (Zero.A_eq (E0 m) c)
    rw [Pipeline.unscopedBufs_held] at hsplit
    have hO := owesAt_of_nothing (Zero.dat (E0 m) c) 0 (Zero.owed_eq (E0 m) c 0) rfl
    iintro ⟨⟨Hbufs, Hprng, Howes⟩, -, -⟩
    ihave Hs := hsplit $$ Hbufs
    icases Hs with ⟨Harr, Hrest⟩
    ihave Ho := hO $$ Howes
    imodintro
    isplitl [Harr]
    · iexact Harr
    isplitr
    · rw [show Pipeline.prefHeld (pcfgs (F := F) 0).pre c (fun _ => fullShare) (adm m 0).1 = (BI.emp : sProp 𝕄) from prefHeld_none c _ _]
      iempintro
    isplitl [Ho]
    · iexact Ho
    isplitl [Hprng]
    · iexact Hprng
    · iexact Hrest
  hin c := by
    rw [show (pdats m hok 0 c).Φ 0 = Pipeline.ΦA spec0 c from Zero.Φ_eq (E0 m) c 0]
    unfold Pipeline.ΦA
    iintro ⟨Hprng, -, Hsc⟩
    isplitl [Hsc]
    · iexact Hsc
    · iexact Hprng
  hout c := by
    rw [Pipeline.ownSems0_none, show (pdats m hok 0 c).Φ (Fin.last _) = Pipeline.ΦA spec0 c from Zero.Φ_eq (E0 m) c _]
    unfold Pipeline.ΦA
    iintro ⟨Hsc, Hprng⟩
    isplitl [Hprng]
    · iexact Hprng
    isplitr
    · iempintro
    · iexact Hsc
  hexit c := by
    have hjoin := Pipeline.unscopedBufs_of_arrays (p := 0) (pcfgs (F := F)) (adm m) (Ix := Unit) (Name := ℕ) (U := UC sig nD τ) (Lvl := ℕ)
      (launch0 (F := F)).win (launch0 (F := F)).arr_whole c (pdats m hok) ((Zero.dat (E0 m) c).share_full (Zero.q_eq (E0 m) c))
      (E0 m c) (fun b => Gen.V3 m (outs m hok) c b) ((Zero.dat (E0 m) c).arrAt · cfg0.N)
      (fun | ⟨0, _⟩ => (V3_v13 m hok c).symm)
      (fun b hb => Gen.V3_of m (outs m hok) c b (ne_v13_of_notMem hb))
    rw [Pipeline.unscopedBufs_held] at hjoin
    have hO : (pdats m hok 0 c).owesAt () (Fin.last (Pipeline.pin (pcfgs (F := F)) (adm m) 0).N)
        ⊢ (iprop(∃ W, owes (c : Thread nD τ) (0 : CellTallies nD τ sig Unit) W) : sProp 𝕄) :=
      nothing_of_owesAt (Zero.dat (E0 m) c) (Fin.last _) (Zero.owed_eq (E0 m) c _)
    iintro ⟨Harr, Howes, Hprng, Hrest⟩
    ihave Ho := hO $$ Howes
    imodintro
    isplitl [Harr Hrest]
    · iapply hjoin
      isplitl [Harr]
      · iexact Harr
      · iexact Hrest
    isplitl [Hprng]
    · iexact Hprng
    · iexact Ho

/-! ### Region 1's unscoped rest, taken apart -/

/-- The buffers that bypass region 1: unscoped, no window's array, not the table, not the canvas. -/
abbrev bypass1 : Finset (Ref sig .tc) := Pipeline.restRefsP sig pre1 spec1 \ {main_v14}

/-- The unscoped buffers that are no array of region 1, at contents `V`: the table, the canvas, and the bypassing rest. -/
theorem rest1_split (c : Dev nD) (V : (b : Ref sig .tc) → Buf (Elt F) ((c : Thread nD τ).loc b)) :
    (Pipeline.unscopedRest (Ix := Unit) (Name := ℕ) (U := UC sig nD τ) (Lvl := ℕ) spec1 c V : sProp 𝕄)
      = iprop(Pipeline.prefHeld pre1 c (fun _ => fullShare) (fun k => V (pre1.ref k))
          ∗ (((c : Thread nD τ).loc main_v14) ↦{fullShare} V main_v14)
          ∗ bigSep bypass1 fun b => ((c : Thread nD τ).loc b) ↦{fullShare} V b) := by
  rw [Pipeline.unscopedRest_split preFacts1 c V,
    Pipeline.unscopedRestP_sdiff pre1 spec1 {main_v14} (by decide) c V, BI.bigSep_singleton]

/-- No item between the first host stretch and region 1 writes the table: at region 1's entry it is `tblOf`. -/
theorem E1_tbl (c : Dev nD) : (fun k => E1 m c (pre1.ref k)) = tblOf m := by
  funext k
  obtain rfl : c = 0 := Subsingleton.elim _ _
  match k with
  | ⟨0, _⟩ =>
    show W4 m 0 main_v11 = Gen.V1 m 0 main_v11
    exact (StableHlo.after_of_writes_sub hostOps1 _ Gen.hostOps1_writes (by decide)).trans
      ((Function.update_of_ne (StableHlo.devRef_ne_of_ne (by decide)) _ _).trans (Gen.V2_of m 0 main_v11 (by decide)))

/-- Off the canvas, the valuation after region 1 is the one before it. -/
theorem W5_of_ne (c : Dev nD) (b : Ref sig .tc) (h : b ≠ main_v14) : W5 m hok c b = W4 m c b :=
  Function.update_of_ne (StableHlo.devRef_ne_of_ne h) _ _

/-- The unscoped buffers that are no array of region 1, at the valuation after it: the table unchanged, the canvas
    after the last point, the bypassing rest as entered. -/
theorem exit1_rest (c : Dev nD) :
    (Pipeline.unscopedRest (Ix := Unit) (Name := ℕ) (U := UC sig nD τ) (Lvl := ℕ) spec1 c (fun b => W5 m hok c b) : sProp 𝕄)
      = iprop(Pipeline.prefHeld pre1 c (fun _ => fullShare) (tblOf m)
          ∗ (((c : Thread nD τ).loc main_v14) ↦{fullShare} z14 m hok c)
          ∗ bigSep bypass1 fun b => ((c : Thread nD τ).loc b) ↦{fullShare} E1 m c b) := by
  rw [rest1_split c (fun b => W5 m hok c b),
    show (fun k => W5 m hok c (pre1.ref k)) = tblOf m from
      (funext fun | ⟨0, _⟩ => W5_of_ne m hok c main_v11 (by decide)).trans (E1_tbl m c),
    show W5 m hok c main_v14 = z14 m hok c from Function.update_self _ _ _,
    BI.bigSep_congr (Ψ := fun b => ((c : Thread nD τ).loc b) ↦{fullShare} E1 m c b) fun b hb => by
      rw [W5_of_ne m hok c b (fun h => (Finset.mem_sdiff.mp hb).2 (Finset.mem_singleton.mpr h))]]

/-- The kernel's one semaphore of its own is scoped and no staging cell's. -/
theorem ownSem1 : Pipeline.OwnSemFacts spec1 Scatter.osem := by decide

set_option backward.isDefEq.respectTransparency.types false in
/-- REGION 1, the scatter: entered with every unscoped buffer at `V4`, left with them at `V5` (that is `V4` with the
    canvas `main_v14` after the last point). Its one array (the padded rows, an input) is split out of the unscoped
    buffers and put back unchanged; the table goes to the pipeline and comes back; the canvas, the kernel's own
    semaphore and the generator register go through the body's invariant; every other unscoped buffer bypasses. -/
def reg1 : RegionSeg (pcfgs (F := F)) (adm m) (pdats m hok) () defs₀ 𝒱₀ L lv 1 where
  win := (launch1 (F := F)).win.to₀
  block_pos := (launch1 (F := F)).block_pos
  stage_whole := (launch1 (F := F)).stage_whole
  K := Unit
  osem := Scatter.osem
  ho := ownSem1
  hbody c := (Scatter.body_obligation (adm1 m) (E1 m) hok c).loose
  hwaits := Pipeline.hwaits_of_owed_zero _ _ _ _ L lv 1 fun c t => Scatter.owed_eq (adm1 m) (E1 m) hok c t
  pre c := iprop(StableHlo.held (c : Thread nD τ) (Pipeline.ucRefs τ sig) (Gen.V4 m (outs m hok) c) ∗ R c)
  post c := iprop(StableHlo.held (c : Thread nD τ) (Pipeline.ucRefs τ sig) (Gen.V5 m (outs m hok) c) ∗ R c)
  X c := iprop((∃ r, prngReg c r)
    ∗ Pipeline.ownSems0 (Ix := Unit) (Name := ℕ) (U := UC sig nD τ) (Lvl := ℕ) (Val := Elt F) (τ := τ) Scatter.osem c
    ∗ (((c : Thread nD τ).loc main_v14) ↦{fullShare} E1 m c main_v14))
  Y c := iprop((∃ r, prngReg c r)
    ∗ Pipeline.prefHeld (Ix := Unit) (Name := ℕ) (U := UC sig nD τ) (Lvl := ℕ) pre1 c (fun _ => fullShare) (tblOf m)
    ∗ (((c : Thread nD τ).loc main_v14) ↦{fullShare} z14 m hok c))
  Z c := bigSep bypass1 fun b => (((c : Thread nD τ).loc b) ↦{fullShare} E1 m c b : sProp 𝕄)
  hentry c := by
    rw [V4_eq m hok c]
    have hsplit : (unscopedBufs c (E1 m c) : sProp 𝕄)
        ⊢ iprop((Scatter.dat (adm1 m) (E1 m) hok c).arrays ((Scatter.dat (adm1 m) (E1 m) hok c).arrAt · 0)
            ∗ Pipeline.unscopedRest spec1 c (E1 m c)) :=
      Pipeline.arrays_of_unscopedBufs (p := 1) (pcfgs (F := F)) (adm m) (pdats m hok) (launch1 (F := F)).win (launch1 (F := F)).arr_whole c
        ((Scatter.dat (adm1 m) (E1 m) hok c).share_full (Scatter.q_eq (adm1 m) (E1 m) hok c)) (E1 m c) (Scatter.A_eq (adm1 m) (E1 m) hok c)
    rw [Pipeline.unscopedBufs_held, rest1_split, E1_tbl] at hsplit
    have hO := owesAt_of_nothing (Scatter.dat (adm1 m) (E1 m) hok c) 0 (Scatter.owed_eq (adm1 m) (E1 m) hok c 0) rfl
    iintro ⟨⟨Hbufs, Hprng, Howes⟩, Hsem, -⟩
    ihave Hs := hsplit $$ Hbufs
    icases Hs with ⟨Harr, Htbl, Hcanvas, Hrest⟩
    ihave Ho := hO $$ Howes
    imodintro
    isplitl [Harr]
    · iexact Harr
    isplitl [Htbl]
    · iexact Htbl
    isplitl [Ho]
    · iexact Ho
    isplitr [Hrest]
    · isplitl [Hprng]
      · iexact Hprng
      isplitl [Hsem]
      · iexact Hsem
      · iexact Hcanvas
    · iexact Hrest
  hin c := by
    rw [show (pdats m hok 1 c).Φ 0 = Scatter.ΦS (adm1 m) (E1 m) hok c 0 from Scatter.Φ_eq (adm1 m) (E1 m) hok c 0]
    unfold Scatter.ΦS
    rw [show Scatter.canvasAt (adm1 m) (E1 m) hok c 0 = E1 m c main_v14 from rfl]
    iintro ⟨⟨Hprng, Hsem, Hcanvas⟩, Htbl, Hsc⟩
    isplitl [Hsc]
    · iexact Hsc
    isplitl [Hprng]
    · iexact Hprng
    isplitl [Hsem]
    · iexact Hsem
    isplitl [Htbl]
    · iexact Htbl
    · iexact Hcanvas
  hout c := by
    rw [show (pdats m hok 1 c).Φ (Fin.last _) = Scatter.ΦS (adm1 m) (E1 m) hok c (cfg1 (adm1 m)).N from Scatter.Φ_eq (adm1 m) (E1 m) hok c _]
    unfold Scatter.ΦS z14
    iintro ⟨Hsc, Hprng, Hsem, Htbl, Hcanvas⟩
    isplitl [Hprng Htbl Hcanvas]
    · isplitl [Hprng]
      · iexact Hprng
      isplitl [Htbl]
      · iexact Htbl
      · iexact Hcanvas
    isplitl [Hsem]
    · iexact Hsem
    · iexact Hsc
  hexit c := by
    rw [V5_eq m hok c]
    have hF : ∀ w : Fin (cfg1 (adm1 m)).W,
        (Scatter.dat (adm1 m) (E1 m) hok c).arrAt w (cfg1 (adm1 m)).N = W5 m hok c (Pipeline.arrRef spec1 w) := fun
      | ⟨0, _⟩ => ((Scatter.dat (adm1 m) (E1 m) hok c).arrAt_in 0 rfl _).trans
          ((Scatter.A_eq (adm1 m) (E1 m) hok c 0).trans (W5_of_ne m hok c main_v12 (by decide)).symm)
    have hjoin : iprop((Scatter.dat (adm1 m) (E1 m) hok c).arrays ((Scatter.dat (adm1 m) (E1 m) hok c).arrAt · (cfg1 (adm1 m)).N)
          ∗ Pipeline.unscopedRest spec1 c (fun b => W5 m hok c b))
        ⊢ (unscopedBufs c (fun b => W5 m hok c b) : sProp 𝕄) :=
      Pipeline.unscopedBufs_of_arrays (p := 1) (pcfgs (F := F)) (adm m) (Ix := Unit) (Name := ℕ) (U := UC sig nD τ) (Lvl := ℕ)
        (launch1 (F := F)).win (launch1 (F := F)).arr_whole c (pdats m hok)
        ((Scatter.dat (adm1 m) (E1 m) hok c).share_full (Scatter.q_eq (adm1 m) (E1 m) hok c))
        (fun b => W5 m hok c b) (fun b => W5 m hok c b) ((Scatter.dat (adm1 m) (E1 m) hok c).arrAt · (cfg1 (adm1 m)).N)
        hF (fun _ _ => rfl)
    rw [Pipeline.unscopedBufs_held, exit1_rest] at hjoin
    have hO : (pdats m hok 1 c).owesAt () (Fin.last (Pipeline.pin (pcfgs (F := F)) (adm m) 1).N)
        ⊢ (iprop(∃ W, owes (c : Thread nD τ) (0 : CellTallies nD τ sig Unit) W) : sProp 𝕄) :=
      nothing_of_owesAt (Scatter.dat (adm1 m) (E1 m) hok c) (Fin.last _) (Scatter.owed_eq (adm1 m) (E1 m) hok c _)
    iintro ⟨Harr, Howes, ⟨Hprng, Htbl, Hcanvas⟩, Hrest⟩
    ihave Ho := hO $$ Howes
    imodintro
    isplitl [Harr Htbl Hcanvas Hrest]
    · iapply hjoin
      isplitl [Harr]
      · iexact Harr
      isplitl [Htbl]
      · iexact Htbl
      isplitl [Hcanvas]
      · iexact Hcanvas
      · iexact Hrest
    isplitl [Hprng]
    · iexact Hprng
    · iexact Ho

/-- A TensorCore reference that is no array of region 2 is not `main_v16`. -/
theorem ne_v16_of_notMem {b : Ref sig .tc} (hb : b ∉ Finset.univ.image (Pipeline.arrRef spec2)) : b ∉ ([main_v16] : List (Ref sig .tc)) := by
  intro h
  rw [List.mem_singleton] at h
  exact hb (Finset.mem_image.mpr ⟨1, Finset.mem_univ _, h.symm⟩)

set_option backward.isDefEq.respectTransparency.types false in
/-- REGION 2, the permutation: entered with every unscoped buffer at `V6`, left with them at `V7` (that is `V6` with
    `main_v16` at the array the pipeline leaves; the input array `main_v15` is never written). A class-A region as
    region 0 is, with an input window and an output window. -/
def reg2 : RegionSeg (pcfgs (F := F)) (adm m) (pdats m hok) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (Permute.body_obligation (E2 m hok) c).loose
  hwaits := Pipeline.hwaits_of_owed_zero _ _ _ _ L lv 2 fun c t => Permute.owed_eq (E2 m hok) c t
  pre c := iprop(StableHlo.held (c : Thread nD τ) (Pipeline.ucRefs τ sig) (Gen.V6 m (outs m hok) c) ∗ R c)
  post c := iprop(StableHlo.held (c : Thread nD τ) (Pipeline.ucRefs τ sig) (Gen.V7 m (outs m hok) c) ∗ R c)
  X c := iprop(∃ r, prngReg c r)
  Y c := iprop(∃ r, prngReg c r)
  Z c := Pipeline.unscopedRest (Ix := Unit) (Name := ℕ) (U := UC sig nD τ) (Lvl := ℕ) spec2 c (E2 m hok c)
  hentry c := by
    rw [V6_eq m hok c]
    have hsplit := Pipeline.arrays_of_unscopedBufs (p := 2) (pcfgs (F := F)) (adm m) (pdats m hok) (launch2 (F := F)).win (launch2 (F := F)).arr_whole c
      ((Permute.dat (E2 m hok) c).share_full (Permute.q_eq (E2 m hok) c)) (E2 m hok c) (Permute.A_eq (E2 m hok) c)
    rw [Pipeline.unscopedBufs_held] at hsplit
    have hO := owesAt_of_nothing (Permute.dat (E2 m hok) c) 0 (Permute.owed_eq (E2 m hok) c 0) rfl
    iintro ⟨⟨Hbufs, Hprng, Howes⟩, -, -⟩
    ihave Hs := hsplit $$ Hbufs
    icases Hs with ⟨Harr, Hrest⟩
    ihave Ho := hO $$ Howes
    imodintro
    isplitl [Harr]
    · iexact Harr
    isplitr
    · rw [show Pipeline.prefHeld (pcfgs (F := F) 2).pre c (fun _ => fullShare) (adm m 2).1 = (BI.emp : sProp 𝕄) from prefHeld_none c _ _]
      iempintro
    isplitl [Ho]
    · iexact Ho
    isplitl [Hprng]
    · iexact Hprng
    · iexact Hrest
  hin c := by
    rw [show (pdats m hok 2 c).Φ 0 = Pipeline.ΦA spec2 c from Permute.Φ_eq (E2 m hok) c 0]
    unfold Pipeline.ΦA
    iintro ⟨Hprng, -, Hsc⟩
    isplitl [Hsc]
    · iexact Hsc
    · iexact Hprng
  hout c := by
    rw [Pipeline.ownSems0_none, show (pdats m hok 2 c).Φ (Fin.last _) = Pipeline.ΦA spec2 c from Permute.Φ_eq (E2 m hok) c _]
    unfold Pipeline.ΦA
    iintro ⟨Hsc, Hprng⟩
    isplitl [Hprng]
    · iexact Hprng
    isplitr
    · iempintro
    · iexact Hsc
  hexit c := by
    have hjoin := Pipeline.unscopedBufs_of_arrays (p := 2) (pcfgs (F := F)) (adm m) (Ix := Unit) (Name := ℕ) (U := UC sig nD τ) (Lvl := ℕ)
      (launch2 (F := F)).win (launch2 (F := F)).arr_whole c (pdats m hok) ((Permute.dat (E2 m hok) c).share_full (Permute.q_eq (E2 m hok) c))
      (E2 m hok c) (fun b => Gen.V7 m (outs m hok) c b) ((Permute.dat (E2 m hok) c).arrAt · cfg2.N)
      (fun
        | ⟨0, _⟩ => (Permute.arr_in (E2 m hok) c).trans
            (((Gen.V7_of m (outs m hok) c main_v15 (by decide)).trans (congrFun (V6_eq m hok c) _)).symm)
        | ⟨1, _⟩ => (V7_v16 m hok c).symm)
      (fun b hb => (Gen.V7_of m (outs m hok) c b (ne_v16_of_notMem hb)).trans (congrFun (V6_eq m hok c) _))
    rw [Pipeline.unscopedBufs_held] at hjoin
    have hO : (pdats m hok 2 c).owesAt () (Fin.last (Pipeline.pin (pcfgs (F := F)) (adm m) 2).N)
        ⊢ (iprop(∃ W, owes (c : Thread nD τ) (0 : CellTallies nD τ sig Unit) W) : sProp 𝕄) :=
      nothing_of_owesAt (Permute.dat (E2 m hok) c) (Fin.last _) (Permute.owed_eq (E2 m hok) c _)
    iintro ⟨Harr, Howes, Hprng, Hrest⟩
    ihave Ho := hO $$ Howes
    imodintro
    isplitl [Harr Hrest]
    · iapply hjoin
      isplitl [Harr]
      · iexact Harr
      · iexact Hrest
    isplitl [Hprng]
    · iexact Hprng
    · iexact Ho

/-! ## The launch -/

/-- Nothing, core by core, is nothing. -/
theorem emp_all : (BI.emp : sProp 𝕄) ⊢ bigSep Finset.univ fun _ : Dev nD => (BI.emp : sProp 𝕄) := by
  rw [BI.bigSep_emp_const]

set_option backward.isDefEq.respectTransparency.types false in
/-- THE RUN. From any memory `m` with zero counters and any generator registers, provided the table the first host
    stretch computes names canvas rows, every weakly fair execution of @main terminates, and every final memory holds in
    the result buffer `main_v16` the array the permutation's pipeline leaves, and each argument as launched. The
    user algebra is the pipeline library's rounds beside the transfer counters, the library's part embedded on the left;
    no level is assigned, nothing is owed at launch, and beside the buffers each core carries its generator register
    and its empty dues from item to item. -/
theorem run (ρ : Dev nD → PrngReg) :
    θ_run defs (onTc (τ := τ) (main (F := F))) ⟨m, fun _ => 0, ρ⟩ (fun r => ∀ c : Dev nD,
      r.2.mem ((c.tc : Thread nD τ).loc main_v16) = (Permute.dat (E2 m hok) c).arrAt 1 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := Gen.run_cond m (Ix := Unit) (U := UC sig nD τ) (Lvl := ℕ) embL () 𝒱₀ L lv (fun _ _ => rfl) ρ (outs m hok) (adm m) (pdats m hok)
    (O₀ := 0) (G := fun _ => (BI.emp : sProp 𝕄))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨Hlib, -⟩
      imodintro
      isplitl [Hlib]
      · iexact Hlib
      · iapply (emp_all (F := F))
        iempintro)
    (E := fun _ c => R c)
    (hE0 := Pipeline.initEach L lv fun c => by
      iintro ⟨⟨-, Howes, -, Hprng, -⟩, -⟩
      imodintro
      isplitl [Hprng]
      · iexists _
        iexact Hprng
      · iexists ∅
        iexact Howes)
    (hE3 := fun c => by
      iintro ⟨-, Howes⟩
      iexact Howes)
    (reg0 m hok) (fun _ => .rfl) (fun _ => .rfl) (reg1 m hok) (fun _ => .rfl) (fun _ => .rfl)
    (reg2 m hok) (fun _ => .rfl) (fun _ => .rfl)
  simp only [V7_v16 m hok] at h
  exact h

/-- info: 'Cert.KernelIdeal.Run.run' depends on axioms: [propext, Classical.choice, Quot.sound] -/
#guard_msgs in #print axioms run

/-- The regions' entry valuations are the generated ones over `outs`, read at TensorCore references. -/
theorem E1_eq : E1 m = fun (c : Dev nD) (b : Ref sig .tc) => Gen.V4 m (outs m hok) c b := by
  funext c b; rw [V4_eq]
theorem E2_eq : E2 m hok = fun (c : Dev nD) (b : Ref sig .tc) => Gen.V6 m (outs m hok) c b := by
  funext c b; rw [V6_eq]

/-- The run, with the permutation's proof data named at the generated valuation before it. -/
theorem run_entry (ρ : Dev nD → PrngReg) :
    θ_run defs (onTc (τ := τ) (main (F := F))) ⟨m, fun _ => 0, ρ⟩ (fun r => ∀ c : Dev nD,
      r.2.mem ((c.tc : Thread nD τ).loc main_v16) = (Permute.dat (fun (c : Dev nD) (b : Ref sig .tc) => Gen.V6 m (outs m hok) c b) c).arrAt 1 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  rw [← E2_eq m hok]
  exact run m hok ρ

end Cert.KernelIdeal.Run

end
-- ==== Proof.KI.Reads.lean ====
/-
  What the host operations of the kernel program leave in four buffers, read at an index: the table of flat canvas words
  (the word chain of the coordinate argument), the feature array padded to 128 columns, the copy of the first region's
  canvas, and the reshape of the second region's canvas to `5 × 200 × 704 × 128`. The contents between the program's
  items stay folded; one buffer of one host stretch is opened at a time.
-/
import proofs.«403100_j62216896250120_3_alg».proof.Proof.Gen.KernelIdeal.Regions
import proofs.«403100_j62216896250120_3_alg».proof.Proof.PreRange
import Idealize.ShloMosaic.Lib.StableHlo.Run
import Idealize.ShloMosaic.Lib.Pipeline.Value
import Idealize.ShloMosaic.Lib.ValueLayout
import Idealize.ShloMosaic.Lib.ValueIdx
import Idealize.ShloMosaic.Lib.KernelVsHost

noncomputable section

namespace Cert.KernelIdeal.Reads

open Cert.KernelIdeal Cert.KernelIdeal.Gen Idealize.ShloMosaic Idealize.ShloMosaic.ValueIdx Idealize.ShloMosaic.TcCoe

variable {F : FTy → Type} [FloatOps F]
variable (m : (ℓ : Loc nD τ sig) → Buf (Elt F) ℓ) (outs : Gen.Outs (F := F)) (c : Dev nD)

/-- After the first host stretch the table holds the word chain of the launch contents of the coordinate argument. -/
theorem tbl1_eq :
    (V1 m c main_v11 : S60000.Idx → BitVec 32) =
      addi (addi (muli (shapeCast S60000 (extractStridedSlice S60000x1 ![0, 0] (m ((c : Thread nD τ).loc main_arg0) : S60000x4.Idx → BitVec 32) slices_S60000x4_S60000x1_0_0) shapeCasts_S60000x1_S60000)
                       (broadcastInDim S60000 ![] bcast_S_S60000 (constantI S_ 32 140800#32)))
                 (muli (shapeCast S60000 (extractStridedSlice S60000x1 ![0, 2] (m ((c : Thread nD τ).loc main_arg0) : S60000x4.Idx → BitVec 32) slices_S60000x4_S60000x1_0_2) shapeCasts_S60000x1_S60000)
                       (broadcastInDim S60000 ![] bcast_S_S60000 (constantI S_ 32 704#32))))
           (shapeCast S60000 (extractStridedSlice S60000x1 ![0, 3] (m ((c : Thread nD τ).loc main_arg0) : S60000x4.Idx → BitVec 32) slices_S60000x4_S60000x1_0_3) shapeCasts_S60000x1_S60000) := by
  show StableHlo.after hostOps0 _ (Proc.devRef .tc main_v11) = _
  after_results
  rfl

/-- The table after the first host stretch, read at pillar `g`: the flat canvas word of row `g`. -/
theorem tbl1_apply (g : Fin 60000) :
    (V1 m c main_v11 : S60000.Idx → BitVec 32) (ValueIdx.ix1 g) = Cert.Flat.word (m ((c : Thread nD τ).loc main_arg0)) g := by
  rw [tbl1_eq m c]
  exact Cert.PreRange.word_chain_apply _ _ _ _ _ _ _ _ _ g

/-- The table is written by the first host stretch only: at the entry of the second region it still holds the words. -/
theorem tbl_apply (g : Fin 60000) :
    (V4 m outs c main_v11 : S60000.Idx → BitVec 32) (ValueIdx.ix1 g) = Cert.Flat.word (m ((c : Thread nD τ).loc main_arg0)) g := by
  rw [V4_of m outs c main_v11 (by decide), V3_of m outs c main_v11 (by decide), V2_of m c main_v11 (by decide)]
  exact tbl1_apply m c g

/-- The integer constant the fill is converted from: 0. -/
theorem c1_eq : (V1 m c main_c_1 : S_.Idx → BitVec 32) = constantI S_ 32 0#32 := by
  show StableHlo.after hostOps0 _ (Proc.devRef .tc main_c_1) = _
  after_results

/-- The padding stretch over any contents `W`: the feature array padded on the right of its second axis by 64 columns of
    the fill, the fill being the conversion to `f32` of the integer constant. -/
theorem pad_after (W : Valuation τ sig (Elt F)) :
    (StableHlo.after hostOps0_1 W (Proc.devRef .tc main_v12) : S60000x128.Idx → Elt F .f32) =
      pad S60000x128 ![0, 0] ![0, 64] ![0, 0] (W main_arg1 : S60000x64.Idx → Elt F .f32)
        (sitofp .f32 (W main_c_1 : S_.Idx → BitVec 32) : FVec F S_ .f32) pads_S60000x64_S60000x128_000_0640 h_S_ := by
  after_results
  rfl

/-- At the entry of the second region the padded feature array: the launch contents of the feature argument, padded on the
    right of its second axis by 64 columns of the fill. -/
theorem v12_eq :
    (V4 m outs c main_v12 : S60000x128.Idx → Elt F .f32) =
      pad S60000x128 ![0, 0] ![0, 64] ![0, 0] (m ((c : Thread nD τ).loc main_arg1) : S60000x64.Idx → Elt F .f32)
        (sitofp .f32 (constantI S_ 32 0#32) : FVec F S_ .f32) pads_S60000x64_S60000x128_000_0640 h_S_ := by
  rw [V4_of m outs c main_v12 (by decide), V3_of m outs c main_v12 (by decide)]
  show StableHlo.after hostOps0_1 (V1 m c) (Proc.devRef .tc main_v12) = _
  rw [pad_after (V1 m c), c1_eq m c, V1_of m c main_arg1 (by decide)]

/-- The padded feature array read at `(n, l)`: the feature `(n, l)` in the first 64 columns, the fill in the last 64. -/
theorem pad_apply (n : Fin 60000) (l : Fin 128) :
    (V4 m outs c main_v12 : S60000x128.Idx → Elt F .f32) (ValueIdx.ix2 n l) =
      if h : l.val < 64 then (m ((c : Thread nD τ).loc main_arg1) : S60000x64.Idx → Elt F .f32) (ValueIdx.ix2 n ⟨l.val, h⟩)
      else (sitofp .f32 (constantI S_ 32 0#32) : FVec F S_ .f32) ValueIdx.ix0 := by
  rw [v12_eq m outs c]
  split
  · next h =>
    exact pad_apply_of_inside _ _ _ _ _ _ _ (ValueIdx.ix2 n l) (ValueIdx.ix2 n ⟨l.val, h⟩) (fun a => by
      match a with
      | ⟨0, _⟩ => show n.val = 0 + n.val * (0 + 1); omega
      | ⟨1, _⟩ => show l.val = 0 + l.val * (0 + 1); omega)
  · next h =>
    rw [pad_apply_of_not_inside _ _ _ _ _ _ _ (ValueIdx.ix2 n l) (1 : Fin 2) (fun hin => h (by
      have h3 : (l.val - 0) / (0 + 1) < 64 := hin.2.2
      omega))]
    exact congrArg _ (ValueIdx.eq_ix0 _)

/-- The one operation of the third host stretch copies the first region's result: at the entry of the second region the
    canvas holds what the first region left. -/
theorem v14_entry :
    (V4 m outs c main_v14 : S704000x1x128.Idx → Elt F .f32) = (outs 3 main_v13 c : S704000x1x128.Idx → Elt F .f32) := by
  show StableHlo.after hostOps1 (V3 m outs c) (Proc.devRef .tc main_v14) = _
  after_results
  simp only [V3, Function.update_self]
  rfl

/-- The one operation of the fourth host stretch reshapes what the second region left in the canvas. -/
theorem v15_eq :
    (V6 m outs c main_v15 : S5x200x704x128.Idx → Elt F .f32) =
      shapeCast S5x200x704x128 (outs 5 main_v14 c : S704000x1x128.Idx → Elt F .f32) shapeCasts_S704000x1x128_S5x200x704x128 := by
  show StableHlo.after hostOps2 (V5 m outs c) (Proc.devRef .tc main_v15) = _
  after_results
  simp only [V5, Function.update_self]
  rfl

/-- The reshaped canvas read at `(b, y, x, l)`: row `b·140800 + y·704 + x`, lane `l` of the flat canvas — the two
    indices have the same row-major position, `((b·200 + y)·704 + x)·128 + l`. -/
theorem v15_apply (b : Fin 5) (y : Fin 200) (x : Fin 704) (l : Fin 128) :
    (V6 m outs c main_v15 : S5x200x704x128.Idx → Elt F .f32) (ValueIdx.ix4 b y x l) =
      (outs 5 main_v14 c : S704000x1x128.Idx → Elt F .f32)
        (ValueIdx.ix3 ⟨b.val * 140800 + y.val * 704 + x.val, by omega⟩ (0 : Fin 1) l) := by
  rw [v15_eq m outs c]
  have hk : (S704000x1x128.rowMajor (ValueIdx.ix3 ⟨b.val * 140800 + y.val * 704 + x.val, by omega⟩ (0 : Fin 1) l)).val
      = (S5x200x704x128.rowMajor (ValueIdx.ix4 b y x l)).val := by
    rw [Shape.rowMajor_val_three, Shape.rowMajor_val_four]
    show ((b.val * 140800 + y.val * 704 + x.val) * 1 + 0) * 128 + l.val = ((b.val * 200 + y.val) * 704 + x.val) * 128 + l.val
    omega
  exact shapeCast_apply _ _ _ _ hk

/-- Neither argument is written by any item: both reach the end as launched. -/
theorem args_kept :
    V7 m outs c main_arg0 = m ((c : Thread nD τ).loc main_arg0) ∧ V7 m outs c main_arg1 = m ((c : Thread nD τ).loc main_arg1) :=
  ⟨V7_main_arg0 m outs c, V7_main_arg1 m outs c⟩

end Cert.KernelIdeal.Reads

end
-- ==== Proof.KI.PreTbl.lean ====
/-
  Every table word names a canvas row, given the pillars' flat words are in range.

  The scatter region is pinned at a table whose word for pillar `g` is the pillar's flat word `b·140800 + y·704 + x`; when
  every such word is below `704000`, the one-row slice at the row it names lies inside the canvas `[704000, 1, 128]`.
-/
import proofs.«403100_j62216896250120_3_alg».proof.Proof.KI.ScatterRegion
import proofs.«403100_j62216896250120_3_alg».proof.Proof.Flat

noncomputable section

namespace Cert.KernelIdeal.PreTbl

open Cert.KernelIdeal Cert.KernelIdeal.Gen
open Idealize.ShloMosaic Idealize.ShloMosaic.TcCoe Idealize.SL.Sem

variable {F : FTy → Type} [FloatOps F]

/-- A row index below the canvas's 704000 rows: the slice of sizes (1, 1, 128) at (n, 0, 0) is inside. -/
theorem rowOk_of_lt (n : ℕ) (h : n < 704000) : Scatter.RowOk n := by
  intro a
  fin_cases a
  · show n + 1 ≤ 704000; omega
  · show 0 + 1 ≤ 1; omega
  · show 0 + 128 ≤ 128; omega

/-- A table holding in-range flat words names canvas rows only. -/
theorem tblOk_of (a : (pcfg1 (F := F)).Adm) (x0 : IVec ⟨2, ![60000, 4]⟩ 32)
    (hx : ∀ g : Fin 60000, (a.1 0 : S60000.Idx → BitVec 32) (ValueIdx.ix1 g) = Cert.Flat.word x0 g)
    (hin : Cert.Flat.InRange x0) : Scatter.TblOk a := by
  intro g
  have e : (a.1 0 : S60000.Idx → BitVec 32) g = Cert.Flat.word x0 (g 0) :=
    (congrArg (a.1 0 : S60000.Idx → BitVec 32) (ValueIdx.eq_ix1 g)).trans (hx (g 0))
  show Scatter.RowOk ((a.1 0 : S60000.Idx → BitVec 32) g).toNat
  rw [e]
  exact rowOk_of_lt _ (hin _)

end Cert.KernelIdeal.PreTbl

end
-- ==== Proof.KI.ScatterValue.lean ====
/-
  The scatter kernel's body, as values: what one row write, and `k` row writes in order, leave at a canvas element; the
  table word and the block row the body reads for row `k`.

  The canvas is `[704000, 1, 128]`; a row write goes through the one-row slice at row `v`, its unit axis dropped, so it
  replaces the elements `(v, 0, l)`, `l < 128`, by the source row's `(0, l)` and keeps every other element. Writing
  rows `s 0, …, s (k−1)` in this order at the rows `w 0, …, w (k−1)` therefore leaves at `(p, 0, l)` the lane `l` of
  the LAST row `r < k` with `w r = p`, or what was there: `Spec.lastWrite`.
-/
import proofs.«403100_j62216896250120_3_alg».proof.Proof.KI.ScatterBody
import proofs.«403100_j62216896250120_3_alg».proof.Proof.Spec
import Idealize.ShloMosaic.Lib.ValueIdx
import Idealize.ShloMosaic.Lib.Pipeline.Value
import Idealize.ShloMosaic.Lib.ValueLayout

noncomputable section

namespace Cert.KernelIdeal.Scatter

open Cert.KernelIdeal Cert.KernelIdeal.Gen Idealize.ShloMosaic Idealize.ShloMosaic.ValueIdx

variable {F : FTy → Type} [FloatOps F]

/-- Where the one-row view at row `v` puts its index `(0, l)`: the canvas element `(v, 0, l)`. -/
theorem rowMem_emb (v : BitVec 32) (h : RowOk v.toNat) (u : Fin 1) (l : Fin 128) :
    ((rowMem v h).view.emb (ix2 u l) : S704000x1x128.Idx)
      = ix3 (⟨v.toNat, by have := h 0; show v.toNat < 704000; exact this⟩ : Fin 704000) (0 : Fin 1) l := by
  show (Rect.unit (s := S704000x1x128) ![v.toNat, 0, 0] S1x1x128.size h).emb (Shape.reshapeEquiv _ (ix2 u l)) = _
  rw [reshapeEquiv_ix2_1ab]
  have hu : u.val = 0 := by omega
  funext a; refine Fin.ext ?_
  match a with
  | ⟨0, _⟩ => show v.toNat + 1 * 0 = v.toNat; omega
  | ⟨1, _⟩ => show 0 + 1 * u.val = 0; omega
  | ⟨2, _⟩ => show 0 + 1 * l.val = l.val; omega

/-- ONE ROW WRITE at a canvas element: the source row's lane where the word names the element's row, the old
    contents elsewhere. -/
theorem rowWrite_apply (c : Dev nD) (v : BitVec 32) (h : RowOk v.toNat) (f : Bf (F := F) c (Memref.whole main_v14))
    (src : S1x128.Idx → Elt F .f32) (p : Fin 704000) (l : Fin 128) :
    (rowWrite c v h f src : S704000x1x128.Idx → Elt F .f32) (ix3 p 0 l)
      = if v.toNat = p.val then src (ix2 0 l) else (f : S704000x1x128.Idx → Elt F .f32) (ix3 p 0 l) := by
  by_cases hv : v.toNat = p.val
  · rw [if_pos hv]
    have he : (ix3 p (0 : Fin 1) l : S704000x1x128.Idx) = (rowMem v h).view.emb (ix2 0 l) := by
      rw [rowMem_emb]
      congr 1
      exact Fin.ext hv.symm
    show (rowMem v h).view.write (Elt F) f src Finset.univ (ix3 p 0 l) = _
    rw [he, View.write_emb_of_mem _ _ (Finset.mem_univ _)]
    rfl
  · rw [if_neg hv]
    refine View.write_of_not_mem _ _ _ ?_
    intro hm
    obtain ⟨x, -, hx⟩ := Finset.mem_map.mp hm
    have h2 := (congrArg (rowMem v h).view.emb (eq_ix2 x)).trans (rowMem_emb v h (x 0) (x 1))
    exact hv (congrArg (fun i : S704000x1x128.Idx => (i 0).val) (h2.symm.trans hx))

/-- `k` ROW WRITES IN ORDER at a canvas element: the lane of the last row whose word names the element's row, or
    the old contents. -/
theorem rowsFn_apply (c : Dev nD) (w : ℕ → BitVec 32) (hw : ∀ k, RowOk (w k).toNat) (s : ℕ → S1x128.Idx → Elt F .f32)
    (f : Bf (F := F) c (Memref.whole main_v14)) (k : ℕ) (p : Fin 704000) (l : Fin 128) :
    (rowsFn c w hw s f k : S704000x1x128.Idx → Elt F .f32) (ix3 p 0 l)
      = Cert.Spec.lastWrite ((f : S704000x1x128.Idx → Elt F .f32) (ix3 p 0 l)) (fun r => (w r).toNat)
          (fun r => s r (ix2 0 l)) k p.val := by
  induction k with
  | zero => rfl
  | succ k ih =>
    rw [Cert.Spec.lastWrite_succ, ← ih]
    exact rowWrite_apply c (w k) (hw k) (rowsFn c w hw s f k) (s k) p l

/-- The table word the body reads for the block's row `k` is the table's entry `200·i + k`. -/
theorem wfun_val (c : Dev nD) (i : grid1.Coords) (ft : Bf (F := F) c (Memref.whole main_v11)) (k : ℕ) (hk : k < 200) :
    wfun c i ft k = (ft : S60000.Idx → BitVec 32)
      (ValueIdx.ix1 ⟨200 * (i 0).val + k, by have hi : (i 0).val < 300 := (i 0).isLt; show 200 * (i 0).val + k < 60000; omega⟩) := by
  rw [wfun_eq c i ft k hk, View.readAt_apply]
  show (ft : S60000.Idx → BitVec 32) _ = _
  congr 1
  funext a; refine Fin.ext ?_
  match a with
  | ⟨0, _⟩ =>
    show woff i k 0 + 1 * 0 = 200 * (i 0).val + k
    rw [woff_eq i k hk]
    show 200 * (i 0).val + k + 1 * 0 = 200 * (i 0).val + k
    omega

/-- Flattening a `[1, 128]` row to 128 lanes and back changes nothing. -/
theorem payG_apply (x : Vec F S1x128 .f32) (j : S1x128.Idx) : payG x j = x j := by
  have e1 := shapeCast_a_1a_apply (shapeCast S128 x shapeCasts_S1x128_S128) shapeCasts_S128_S1x128 (j 0) (j 1)
  have e2 := shapeCast_1a_a_apply x shapeCasts_S1x128_S128 (j 1)
  have h0 : (j 0).val < 1 := idx2_lt0 j
  have e3 : (ix2 (0 : Fin 1) (j 1) : S1x128.Idx) = j := by
    funext a
    match a with
    | ⟨0, _⟩ => exact Fin.ext (by show 0 = (j 0).val; omega)
    | ⟨1, _⟩ => rfl
  calc payG x j = payG x (ix2 (j 0) (j 1)) := congrArg (payG x) (eq_ix2 j)
    _ = shapeCast S128 x shapeCasts_S1x128_S128 (ValueIdx.ix1 (j 1)) := e1
    _ = x (ix2 (0 : Fin 1) (j 1)) := e2
    _ = x j := congrArg x e3

/-- Row `k` of a `[200, 128]` block, read through the one-row rectangle at `(k, 0)`. -/
theorem ld_row_apply (X : S200x128.Idx → Elt F .f32) (k : ℕ) (hk : k < 200) (l : Fin 128) :
    View.ld X (Rect.unit (s := S200x128) ![k, 0] S1x128.size (srow_inb k hk)) (ix2 0 l) = X (ix2 ⟨k, hk⟩ l) := by
  show X _ = X _
  congr 1
  funext a; refine Fin.ext ?_
  match a with
  | ⟨0, _⟩ => show k + 1 * 0 = k; omega
  | ⟨1, _⟩ => show 0 + 1 * l.val = l.val; omega

end Cert.KernelIdeal.Scatter

end
-- ==== Proof.KI.CanvasValue.lean ====
/-
  The canvas after `t` blocks, read at an index.

  Block `t` is the 200 pillar rows `200·t, …, 200·t + 199` of the padded pillar array; the body writes them in order,
  row `k` at the canvas row the table names for pillar `200·t + k`. So after `t` blocks the canvas has seen the writes
  of pillars `0, …, 200·t − 1` in pillar order, and element `(p, 0, l)` holds lane `l` of the LAST pillar `n < 200·t`
  whose table word is `p`, or its entry contents: `Spec.lastWrite` over `200·t` writes. The proof is by induction on
  `t`: the first `200·t` writes, then 200 more (`Spec.lastWrite_add`), the 200 being the block's rows as the body
  reads them — the table word at offset `200·t + k`, and row `k` of the block, which is row `200·t + k` of the array.
-/
import proofs.«403100_j62216896250120_3_alg».proof.Proof.KI.ScatterRegion
import proofs.«403100_j62216896250120_3_alg».proof.Proof.KI.ScatterValue
import proofs.«403100_j62216896250120_3_alg».proof.Proof.Spec

noncomputable section

namespace Cert.KernelIdeal.Scatter

open Cert.KernelIdeal Cert.KernelIdeal.Gen Idealize.ShloMosaic Idealize.ShloMosaic.TcCoe Idealize.ShloMosaic.ValueIdx

variable {F : FTy → Type} [FloatOps F]

variable (a : (pcfg1 (F := F)).Adm)
variable (V : (c : Dev nD) → (b : Ref sig .tc) → Buf (Elt F) ((c : Thread nD τ).loc b))

/-- Pillar `n`'s canvas row, off the table. -/
def tpos (n : ℕ) : ℕ :=
  if h : n < 60000 then ((a.1 0 : S60000.Idx → BitVec 32) (ValueIdx.ix1 ⟨n, h⟩)).toNat else 0

/-- Lane `l` of padded pillar `n`. -/
def prow (c : Dev nD) (l : Fin 128) (n : ℕ) : Elt F .f32 :=
  if h : n < 60000 then (V c main_v12 : S60000x128.Idx → Elt F .f32) (ix2 ⟨n, h⟩ l)
  else (V c main_v12 : S60000x128.Idx → Elt F .f32) (ix2 ⟨0, by omega⟩ l)

/-- On the one-axis grid the point `t` has the coordinate `t`. -/
theorem coords_val (t : Fin grid1.N) : (grid1.coords t 0).val = t.val := by
  have hN : t.val < 300 := Nat.lt_of_lt_of_eq t.isLt N_1
  have hs : grid1.stride 0 = 1 := by decide
  show t.val / grid1.stride 0 % grid1.bound 0 = t.val
  rw [hs]
  show t.val / 1 % 300 = t.val
  omega

/-- The table word the body reads for row `k` of block `t` is pillar `200·t + k`'s. -/
theorem wfun_tpos (c : Dev nD) (t : Fin (cfg1 a).N) (k : ℕ) (hk : k < 200) :
    (wfun c ((cfg1 a).grid.coords t) (a.1 0) k).toNat = tpos a (200 * t.val + k) := by
  have hN : t.val < 300 := Nat.lt_of_lt_of_eq t.isLt N_1
  have hc : ((cfg1 a).grid.coords t 0).val = t.val := coords_val t
  rw [wfun_val c _ (a.1 0) k hk]
  unfold tpos
  rw [dif_pos (by omega : 200 * t.val + k < 60000)]
  simp only [hc]

/-- The block index of point `t`: `(t, 0)`. -/
theorem index_t (t : Fin (cfg1 a).N) :
    ((cfg1 a).win 0).index t (0 : Fin 2) = t.val ∧ ((cfg1 a).win 0).index t (1 : Fin 2) = 0 := by
  have hN : t.val < 300 := Nat.lt_of_lt_of_eq t.isLt N_1
  have hc : ((cfg1 a).grid.coords t 0).val = t.val := coords_val t
  constructor
  · show (BitVec.ofNat 32 ((cfg1 a).grid.coords t 0).val).toNat = t.val
    rw [BitVec.toNat_ofNat, hc]
    omega
  · rfl

/-- Row `k` of block `t`, as the body passes it to the scratch row, is row `200·t + k` of the padded pillar array. -/
theorem sfunX_prow (c : Dev nD) (t : Fin (cfg1 a).N) (k : ℕ) (hk : k < 200) (l : Fin 128) :
    sfunX (iblk a V c t) k (ix2 0 l) = prow V c l (200 * t.val + k) := by
  have hN : t.val < 300 := Nat.lt_of_lt_of_eq t.isLt N_1
  obtain ⟨hi0, hi1⟩ := index_t a t
  unfold sfunX
  rw [dif_pos hk, payG_apply]
  refine (ld_row_apply (F := F) (iblk a V c t) k hk l).trans ?_
  unfold prow
  rw [dif_pos (by omega : 200 * t.val + k < 60000)]
  show (V c main_v12 : S60000x128.Idx → Elt F .f32) ((((cfg1 a).win 0).blk t).view.emb (ix2 ⟨k, hk⟩ l)) = _
  congr 1
  funext ax; refine Fin.ext ?_
  match ax with
  | ⟨0, _⟩ =>
    show ((cfg1 a).win 0).index t (0 : Fin 2) * 200 + 1 * k = 200 * t.val + k
    omega
  | ⟨1, _⟩ =>
    show ((cfg1 a).win 0).index t (1 : Fin 2) * 128 + 1 * l.val = l.val
    omega

/-- THE CANVAS AFTER `t` BLOCKS at element `(p, 0, l)`: lane `l` of the last pillar `n < 200·t` whose table word is `p`,
    or the entry contents. -/
theorem canvasAt_apply (hok : TblOk a) (c : Dev nD) (t : ℕ) (ht : t ≤ 300) (p : Fin 704000) (l : Fin 128) :
    (canvasAt a V hok c t : S704000x1x128.Idx → Elt F .f32) (ix3 p 0 l)
      = Cert.Spec.lastWrite ((V c main_v14 : S704000x1x128.Idx → Elt F .f32) (ix3 p 0 l)) (tpos a) (prow V c l)
          (200 * t) p.val := by
  induction t with
  | zero => rfl
  | succ t ih =>
    have htN : t < (cfg1 a).N := Nat.lt_of_lt_of_eq (Nat.lt_of_succ_le ht) N_1.symm
    have hstep := canvasAt_succ a V hok c ⟨t, htN⟩
    have h200 : 200 * (t + 1) = 200 * t + 200 := Nat.mul_succ 200 t
    rw [h200, Cert.Spec.lastWrite_add, ← ih (Nat.le_of_succ_le ht)]
    refine (congrFun hstep (ix3 p 0 l)).trans ?_
    refine (rowsFn_apply c _ _ _ _ 200 p l).trans ?_
    refine Cert.Spec.lastWrite_congr _ 200 (fun k hk => ?_) (fun k hk => ?_) p.val
    · exact wfun_tpos a c ⟨t, htN⟩ k hk
    · exact sfunX_prow a V c ⟨t, htN⟩ k hk l

end Cert.KernelIdeal.Scatter

end
-- ==== Proof.KI.Value.lean ====
/-
  The idealized kernel's result array as ONE function of the arguments.

  Result entry `(b, ch, y, x)` is what the permute region copies from canvas entry `(b, y, x, ch)`, which after the
  reshape is lane `ch` of canvas row `b·140800 + y·704 + x`. The scatter region leaves in that row lane `ch` of the LAST
  pillar whose table word names the row, over the zero the first region filled the canvas with; the table word of
  pillar `n` is its flat word `b·140800 + y·704 + x` of the coordinate row, and lane `ch < 64` of a padded pillar row is
  the pillar's feature `ch`. At the ideal instance the zero word is the real number 0.
-/
import proofs.«403100_j62216896250120_3_alg».proof.Proof.KI.Reads
import proofs.«403100_j62216896250120_3_alg».proof.Proof.KI.CanvasValue
import proofs.«403100_j62216896250120_3_alg».proof.Proof.KI.Permute
import proofs.«403100_j62216896250120_3_alg».proof.Proof.KI.Zero
import proofs.«403100_j62216896250120_3_alg».proof.Proof.Flat
import Idealize.ShloMosaic.PureOps.Ideal.Laws

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.ValueIdx (ix2 ix3 ix4 eq_ix4)

variable (m : (ℓ : Loc nD τ sig) → Buf (Elt Ideal) ℓ) (outs : Gen.Outs (F := Ideal)) (c : Dev nD)
variable (a : (pcfg1 (F := Ideal)).Adm) (hok : Scatter.TblOk a)

/-- The TensorCore's buffers at the scatter region's entry and at the permute region's entry. -/
abbrev E4 : (c : Dev nD) → (b : Ref sig .tc) → Buf (Elt Ideal) ((c : Thread nD τ).loc b) := fun c b => V4 m outs c b
abbrev E6 : (c : Dev nD) → (b : Ref sig .tc) → Buf (Elt Ideal) ((c : Thread nD τ).loc b) := fun c b => V6 m outs c b

/-- Given that the scatter region is pinned at the table the host computed (`ha`), that the first region left zeros
    (`h13`) and the scatter region the canvas after its 300 blocks (`h14`): the permute region's output array is the
    expected result of the arguments. -/
theorem out_eq
    (ha : ∀ g : Fin 60000, (a.1 0 : S60000.Idx → BitVec 32) (ValueIdx.ix1 g) = (V4 m outs c main_v11 : S60000.Idx → BitVec 32) (ValueIdx.ix1 g))
    (h13 : (outs 3 main_v13 c : S704000x1x128.Idx → Elt Ideal .f32) = fun _ => (Scalar.ofBits .f32 0x00000000#32 : Ideal .f32))
    (h14 : (outs 5 main_v14 c : S704000x1x128.Idx → Elt Ideal .f32) = Scatter.canvasAt a (E4 m outs) hok c 300) :
    ((Permute.dat (E6 m outs) c).arrAt 1 cfg2.N : S5x64x200x704.Idx → Elt Ideal .f32)
      = Cert.Flat.out (0 : EReal) (m ((c : Thread nD τ).loc main_arg0)) (m ((c : Thread nD τ).loc main_arg1)) := by
  funext j
  obtain ⟨b, ch, y, x, rfl⟩ : ∃ (b : Fin 5) (ch : Fin 64) (y : Fin 200) (x : Fin 704), j = ix4 b ch y x := ⟨j 0, j 1, j 2, j 3, eq_ix4 j⟩
  rw [Permute.arr_final]
  show (V6 m outs c main_v15 : S5x200x704x128.Idx → Elt Ideal .f32) (ix4 b y x ⟨ch.val, by omega⟩) = _
  rw [Reads.v15_apply m outs c b y x ⟨ch.val, by omega⟩, h14, Scatter.canvasAt_apply a (E4 m outs) hok c 300 (le_refl _)]
  have hz : (E4 m outs c main_v14 : S704000x1x128.Idx → Elt Ideal .f32)
      (ix3 (⟨b.val * 140800 + y.val * 704 + x.val, by omega⟩ : Fin 704000) (0 : Fin 1) (⟨ch.val, by omega⟩ : Fin 128)) = (0 : EReal) := by
    show (V4 m outs c main_v14 : S704000x1x128.Idx → Elt Ideal .f32) _ = _
    rw [Reads.v14_entry, h13]; exact Ideal.ofBits_zero_f32
  rw [hz]
  unfold Cert.Flat.out
  refine Cert.Spec.lastWrite_congr (0 : EReal) 60000 (fun k hk => ?_) (fun k hk => ?_) _
  · unfold Scatter.tpos Cert.Flat.pos
    rw [dif_pos hk, dif_pos hk, ha, Reads.tbl_apply]
  · unfold Scatter.prow Cert.Flat.chan
    rw [dif_pos hk, dif_pos hk]
    show (V4 m outs c main_v12 : S60000x128.Idx → Elt Ideal .f32) (ix2 ⟨k, hk⟩ ⟨ch.val, by omega⟩) = _
    rw [Reads.pad_apply m outs c ⟨k, hk⟩ ⟨ch.val, by omega⟩, dif_pos ch.isLt]

end Cert.KernelIdeal.Value

end
-- ==== Proof.lean ====
/-
  The certificate of the pillar-scatter kernel against its reference: `Cert.Claim`.

  THE MATHEMATICS. Pillar `g` (of 60000) has a coordinate row `(b, z, y, x)` and 64 features; its flat canvas word is
  `w_g = b·140800 + y·704 + x` in 32-bit arithmetic. Both programs write pillar `g`'s features at canvas position `w_g`
  of a zero canvas of `5·200·704 = 704000` positions, pillars in order, a later pillar overwriting an earlier one at the
  same position, and return the canvas as `[5, 64, 200, 704]`: entry `(b, c, y, x)` is feature `c` of the LAST pillar whose
  word is `b·140800 + y·704 + x`, or zero (`Cert.Flat.out`, over `Cert.Spec.lastWrite`).
  The reference does it by one host scatter (a fold over the updates in row-major order: for a fixed position the
  later pillar wins) followed by a reshape and a transpose (`Proof/Ref.lean`). The kernel does it in three regions: a zero
  fill of a `[704000, 1, 128]` canvas; a scatter region that, block of 200 pillars by block, copies each (zero-padded,
  128-lane) pillar row into the canvas row its word names by one local transfer, waited for before the next row is
  handled — so rows land in pillar order —; and a permute region that drops the 64 padding lanes and moves the channel
  axis forward. The kernel's transfers need every word to name a canvas row; that is the precondition's second conjunct
  (`0 ≤ w_g < 704000` for every pillar, `Proof/PreRange.lean`), under which both programs run and agree. No law of the
  extended reals is used beyond the zero word denoting 0: the claim is about data movement.
  The frames of the word-level and the idealized kernel are ONE argument, written generically in the float instance
  (`Proof/KI/`) and laid out a second time in the word-level program's namespace (`Proof/K/`).
-/
import proofs.«403100_j62216896250120_3_alg».proof.Defs
import proofs.«403100_j62216896250120_3_alg».proof.Proof.Gen.Kernel
import proofs.«403100_j62216896250120_3_alg».proof.Proof.Gen.Kernel.Skeleton
import proofs.«403100_j62216896250120_3_alg».proof.Proof.Gen.Kernel.Launch
import proofs.«403100_j62216896250120_3_alg».proof.Proof.Gen.Kernel.Regions
import proofs.«403100_j62216896250120_3_alg».proof.Proof.Gen.Kernel.Points
import proofs.«403100_j62216896250120_3_alg».proof.Proof.Gen.KernelIdeal
import proofs.«403100_j62216896250120_3_alg».proof.Proof.Gen.KernelIdeal.Skeleton
import proofs.«403100_j62216896250120_3_alg».proof.Proof.Gen.KernelIdeal.Launch
import proofs.«403100_j62216896250120_3_alg».proof.Proof.Gen.KernelIdeal.Regions
import proofs.«403100_j62216896250120_3_alg».proof.Proof.Gen.KernelIdeal.Points
import proofs.«403100_j62216896250120_3_alg».proof.Proof.Gen.ReferenceIdeal
import proofs.«403100_j62216896250120_3_alg».proof.Proof.Gen.ReferenceIdeal.Run
import proofs.«403100_j62216896250120_3_alg».proof.Proof.Gen.ReferenceIdeal.Read
import proofs.«403100_j62216896250120_3_alg».proof.Proof.Gen.Pre_finite_inputs
import proofs.«403100_j62216896250120_3_alg».proof.Proof.PreRange
import proofs.«403100_j62216896250120_3_alg».proof.Proof.Ref
import proofs.«403100_j62216896250120_3_alg».proof.Proof.K.Run
import proofs.«403100_j62216896250120_3_alg».proof.Proof.K.Reads
import proofs.«403100_j62216896250120_3_alg».proof.Proof.K.PreTbl
import proofs.«403100_j62216896250120_3_alg».proof.Proof.KI.Run
import proofs.«403100_j62216896250120_3_alg».proof.Proof.KI.Reads
import proofs.«403100_j62216896250120_3_alg».proof.Proof.KI.PreTbl
import proofs.«403100_j62216896250120_3_alg».proof.Proof.KI.Value
import Idealize.ShloMosaic.Adequacy
import Idealize.ShloMosaic.Init

noncomputable section

namespace Cert.Proof

open Idealize.ShloMosaic Idealize.ShloMosaic.TcCoe Idealize.SL.Sem

/-! ## The tables name canvas rows, from the precondition -/

/-- Word level: the table the host computes holds the pillars' flat words, which the precondition bounds. -/
theorem tblOk_K (m : (ℓ : Loc Cert.Kernel.nD Cert.Kernel.τ Cert.Kernel.sig) → Buf (Elt Bits) ℓ) (hpre : Cert.Pre_Kernel m) :
    Cert.Kernel.Scatter.TblOk (F := Bits) ⟨Cert.Kernel.Run.tblOf m, trivial⟩ :=
  Cert.Kernel.PreTbl.tblOk_of _ _ (fun g => Cert.Kernel.Reads.tbl1_apply m 0 g) (Cert.PreRange.inRange_of_pre _ _ (hpre 0))

/-- The same at the ideal instance. -/
theorem tblOk_KI (m : (ℓ : Loc Cert.KernelIdeal.nD Cert.KernelIdeal.τ Cert.KernelIdeal.sig) → Buf (Elt Ideal) ℓ) (hpre : Cert.Pre_KernelIdeal m) :
    Cert.KernelIdeal.Scatter.TblOk (F := Ideal) ⟨Cert.KernelIdeal.Run.tblOf m, trivial⟩ :=
  Cert.KernelIdeal.PreTbl.tblOk_of _ _ (fun g => Cert.KernelIdeal.Reads.tbl1_apply m 0 g) (Cert.PreRange.inRange_of_pre _ _ (hpre 0))

/-! ## The claims -/

theorem frame_K : Cert.frame_Kernel := fun m ρ hpre =>
  (θ_run Cert.Kernel.defs _ _).mono (fun _ h c => ⟨(h c).2.1, (h c).2.2⟩) (Cert.Kernel.Run.run (F := Bits) m (tblOk_K m hpre) ρ)

theorem frame_KI : Cert.frame_KernelIdeal := fun m ρ hpre =>
  (θ_run Cert.KernelIdeal.defs _ _).mono (fun _ h c => ⟨(h c).2.1, (h c).2.2⟩) (Cert.KernelIdeal.Run.run (F := Ideal) m (tblOk_KI m hpre) ρ)

theorem frame_R : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's result array is the expected result of its arguments: the three regions' contents
    (zeros, the canvas after the 300 blocks, the permuted canvas) read back through `Cert.KernelIdeal.Value.out_eq`. -/
theorem kernel_out (m : (ℓ : Loc Cert.KernelIdeal.nD Cert.KernelIdeal.τ Cert.KernelIdeal.sig) → Buf (Elt Ideal) ℓ) (hpre : Cert.Pre_KernelIdeal m)
    (c : Dev Cert.KernelIdeal.nD) :
    ((Cert.KernelIdeal.Permute.dat (fun (c : Dev Cert.KernelIdeal.nD) (b : Ref Cert.KernelIdeal.sig .tc) =>
        Cert.KernelIdeal.Gen.V6 m (Cert.KernelIdeal.Run.outs m (tblOk_KI m hpre)) c b) c).arrAt 1 Cert.KernelIdeal.cfg2.N
          : Cert.KernelIdeal.S5x64x200x704.Idx → Elt Ideal .f32)
      = Cert.Flat.out (0 : EReal) (m ((c : Thread Cert.KernelIdeal.nD Cert.KernelIdeal.τ).loc Cert.KernelIdeal.main_arg0))
          (m ((c : Thread Cert.KernelIdeal.nD Cert.KernelIdeal.τ).loc Cert.KernelIdeal.main_arg1)) := by
  have hc : c = 0 := Subsingleton.elim _ _
  subst hc
  refine Cert.KernelIdeal.Value.out_eq m (Cert.KernelIdeal.Run.outs m (tblOk_KI m hpre)) 0 (Cert.KernelIdeal.Run.adm1 m) (tblOk_KI m hpre) ?_ ?_ ?_
  · intro g
    exact (Cert.KernelIdeal.Reads.tbl1_apply m 0 g).trans (Cert.KernelIdeal.Reads.tbl_apply m _ 0 g).symm
  · rw [Cert.KernelIdeal.Run.outs_v13]
    exact Cert.KernelIdeal.Zero.arr_final _ 0
  · rw [Cert.KernelIdeal.Run.outs_v14]
    unfold Cert.KernelIdeal.Run.z14
    rw [Cert.KernelIdeal.Run.E1_eq m (tblOk_KI m hpre)]
    rfl

/-- Both idealized programs end at `Cert.Flat.out` of arguments that agree. -/
theorem algebraic : Cert.algebraic_KernelIdeal_ReferenceIdeal := by
  intro m ρ m' ρ' hpre hagree
  refine ⟨fun c => Cert.Flat.out (0 : EReal) (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · exact (θ_run Cert.KernelIdeal.defs _ _).mono (fun _ h c => ⟨(h c).1.trans (kernel_out m hpre c), (h c).2.1, (h c).2.2⟩)
      (Cert.KernelIdeal.Run.run_entry (F := Ideal) m (tblOk_KI m hpre) ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, (hagree c).1, (hagree c).2]
    exact Cert.ReferenceIdeal.RefValue.ref_out _ _ (Cert.PreRange.inRange_of_pre _ _ (hpre c))

theorem claim : Cert.Claim :=
  ⟨Cert.Kernel.Gen.facts, Cert.KernelIdeal.Gen.facts, Cert.ReferenceIdeal.Gen.facts, Cert.Pre_finite_inputs.Gen.facts,
    frame_K, frame_KI, frame_R, preserves, algebraic⟩

end Cert.Proof

end
